-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 2048]⟩ ⟨2, ![16384, 2048]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Pre_finite_inputs_ReferenceIdeal.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S8192x2048 : Shape := ⟨2, ![8192, 2048]⟩
abbrev S16384x1024 : Shape := ⟨2, ![16384, 1024]⟩
abbrev S2x1024x1024 : Shape := ⟨3, ![2, 1024, 1024]⟩
abbrev S8192x1024 : Shape := ⟨2, ![8192, 1024]⟩
abbrev S2 : Shape := ⟨1, ![2]⟩
abbrev S8 : Shape := ⟨1, ![8]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8192x2048, .f32⟩
  | .hbm, ⟨1, _⟩ => ⟨S16384x1024, .bf16⟩
  | .local _ .vmem, ⟨0, _⟩ => ⟨S2x1024x1024, .f32⟩
  | .local _ .vmem, ⟨1, _⟩ => ⟨S2x1024x1024, .f32⟩
  | .local _ .vmem, ⟨2, _⟩ => ⟨S8192x1024, .bf16⟩
  | .local _ .vmem, ⟨3, _⟩ => ⟨S2x1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v14 : BitVec 32 := Scalar.muli v2 c4_i32_7
  let v15 : BitVec 32 := Scalar.addi c0_i32 v14
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_8 : BitVec 32 := 2#32
  let v16 : BitVec 32 := Scalar.muli v9 c2_i32_8
  let v17 : BitVec 32 := Scalar.addi v15 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v18 : BitVec 32 := Scalar.muli v8 c1_i32_9
  let v19 : BitVec 32 := Scalar.addi v17 v18
  v19.toNat
def k0_off1 (d0 : Dev nD) : Fin 2 → Nat :=
  let c0_i32_15 : BitVec 32 := 0#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c1024_i32 : BitVec 32 := 1024#32
  let v11 : BitVec 32 := Scalar.muli v10 c1024_i32
  ![0, v11.toNat]
def k0_off2 (d0 : Dev nD) : Fin 2 → Nat :=
  let c0_i32_20 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_5 : BitVec 32 := 1024#32
  let v12 : BitVec 32 := Scalar.muli v5 c1024_i32_5
  ![0, v12.toNat]
def k0_off3 (d0 : Dev nD) (c0_i32_30 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c8192_i32 : BitVec 32 := 8192#32
  let v41 : BitVec 32 := Scalar.muli v5 c8192_i32
  let v42 : BitVec 32 := Scalar.addi v41 c0_i32_30
  let c0_i32_37 : BitVec 32 := 0#32
  ![v42.toNat, 0]
def k0_dev2 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v43 : BitVec 32 := Scalar.muli v2 c4_i32_33
  let v44 : BitVec 32 := Scalar.addi c0_i32_34 v43
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_35 : BitVec 32 := 2#32
  let v45 : BitVec 32 := Scalar.muli v9 c2_i32_35
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v47 : BitVec 32 := Scalar.muli v8 c1_i32_36
  let v48 : BitVec 32 := Scalar.addi v46 v47
  v48.toNat
def k0_off4 (d0 : Dev nD) : Fin 2 → Nat :=
  let c1024_i32_49 : BitVec 32 := 1024#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c1024_i32 : BitVec 32 := 1024#32
  let v11 : BitVec 32 := Scalar.muli v10 c1024_i32
  ![1024, v11.toNat]
def k0_off5 (d0 : Dev nD) : Fin 2 → Nat :=
  let c1024_i32_54 : BitVec 32 := 1024#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_5 : BitVec 32 := 1024#32
  let v12 : BitVec 32 := Scalar.muli v5 c1024_i32_5
  ![1024, v12.toNat]
def k0_dev3 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_80 : BitVec 32 := 4#32
  let v96 : BitVec 32 := Scalar.muli v2 c4_i32_80
  let v97 : BitVec 32 := Scalar.addi c0_i32_81 v96
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_82 : BitVec 32 := 2#32
  let v98 : BitVec 32 := Scalar.muli v9 c2_i32_82
  let v99 : BitVec 32 := Scalar.addi v97 v98
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v100 : BitVec 32 := Scalar.muli v8 c1_i32_83
  let v101 : BitVec 32 := Scalar.addi v99 v100
  v101.toNat
def k0_off6 (d0 : Dev nD) : Fin 2 → Nat :=
  let c2048_i32 : BitVec 32 := 2048#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c1024_i32 : BitVec 32 := 1024#32
  let v11 : BitVec 32 := Scalar.muli v10 c1024_i32
  ![2048, v11.toNat]
def k0_off7 (d0 : Dev nD) : Fin 2 → Nat :=
  let c2048_i32_100 : BitVec 32 := 2048#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_5 : BitVec 32 := 1024#32
  let v12 : BitVec 32 := Scalar.muli v5 c1024_i32_5
  ![2048, v12.toNat]
def k0_dev4 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_127 : BitVec 32 := 4#32
  let v149 : BitVec 32 := Scalar.muli v2 c4_i32_127
  let v150 : BitVec 32 := Scalar.addi c0_i32_128 v149
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_129 : BitVec 32 := 2#32
  let v151 : BitVec 32 := Scalar.muli v9 c2_i32_129
  let v152 : BitVec 32 := Scalar.addi v150 v151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_130 : BitVec 32 := 1#32
  let v153 : BitVec 32 := Scalar.muli v8 c1_i32_130
  let v154 : BitVec 32 := Scalar.addi v152 v153
  v154.toNat
def k0_off8 (d0 : Dev nD) : Fin 2 → Nat :=
  let c3072_i32 : BitVec 32 := 3072#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c1024_i32 : BitVec 32 := 1024#32
  let v11 : BitVec 32 := Scalar.muli v10 c1024_i32
  ![3072, v11.toNat]
def k0_off9 (d0 : Dev nD) : Fin 2 → Nat :=
  let c3072_i32_147 : BitVec 32 := 3072#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_5 : BitVec 32 := 1024#32
  let v12 : BitVec 32 := Scalar.muli v5 c1024_i32_5
  ![3072, v12.toNat]
def k0_dev5 (d0 : Dev nD) : Nat :=
  let c0_i32_179 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_178 : BitVec 32 := 4#32
  let v207 : BitVec 32 := Scalar.muli v2 c4_i32_178
  let v208 : BitVec 32 := Scalar.addi c0_i32_179 v207
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_180 : BitVec 32 := 2#32
  let v209 : BitVec 32 := Scalar.muli v9 c2_i32_180
  let v210 : BitVec 32 := Scalar.addi v208 v209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_181 : BitVec 32 := 1#32
  let v211 : BitVec 32 := Scalar.muli v8 c1_i32_181
  let v212 : BitVec 32 := Scalar.addi v210 v211
  v212.toNat
def k0_off10 (d0 : Dev nD) : Fin 2 → Nat :=
  let c4096_i32 : BitVec 32 := 4096#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c1024_i32 : BitVec 32 := 1024#32
  let v11 : BitVec 32 := Scalar.muli v10 c1024_i32
  ![4096, v11.toNat]
def k0_off11 (d0 : Dev nD) : Fin 2 → Nat :=
  let c4096_i32_198 : BitVec 32 := 4096#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_5 : BitVec 32 := 1024#32
  let v12 : BitVec 32 := Scalar.muli v5 c1024_i32_5
  ![4096, v12.toNat]
def k0_dev6 (d0 : Dev nD) : Nat :=
  let c0_i32_231 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_230 : BitVec 32 := 4#32
  let v265 : BitVec 32 := Scalar.muli v2 c4_i32_230
  let v266 : BitVec 32 := Scalar.addi c0_i32_231 v265
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_232 : BitVec 32 := 2#32
  let v267 : BitVec 32 := Scalar.muli v9 c2_i32_232
  let v268 : BitVec 32 := Scalar.addi v266 v267
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_233 : BitVec 32 := 1#32
  let v269 : BitVec 32 := Scalar.muli v8 c1_i32_233
  let v270 : BitVec 32 := Scalar.addi v268 v269
  v270.toNat
def k0_off12 (d0 : Dev nD) : Fin 2 → Nat :=
  let c5120_i32 : BitVec 32 := 5120#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c1024_i32 : BitVec 32 := 1024#32
  let v11 : BitVec 32 := Scalar.muli v10 c1024_i32
  ![5120, v11.toNat]
def k0_off13 (d0 : Dev nD) : Fin 2 → Nat :=
  let c5120_i32_250 : BitVec 32 := 5120#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_5 : BitVec 32 := 1024#32
  let v12 : BitVec 32 := Scalar.muli v5 c1024_i32_5
  ![5120, v12.toNat]
def k0_dev7 (d0 : Dev nD) : Nat :=
  let c0_i32_282 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_281 : BitVec 32 := 4#32
  let v323 : BitVec 32 := Scalar.muli v2 c4_i32_281
  let v324 : BitVec 32 := Scalar.addi c0_i32_282 v323
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_283 : BitVec 32 := 2#32
  let v325 : BitVec 32 := Scalar.muli v9 c2_i32_283
  let v326 : BitVec 32 := Scalar.addi v324 v325
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_284 : BitVec 32 := 1#32
  let v327 : BitVec 32 := Scalar.muli v8 c1_i32_284
  let v328 : BitVec 32 := Scalar.addi v326 v327
  v328.toNat
def k0_off14 (d0 : Dev nD) : Fin 2 → Nat :=
  let c6144_i32 : BitVec 32 := 6144#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c1024_i32 : BitVec 32 := 1024#32
  let v11 : BitVec 32 := Scalar.muli v10 c1024_i32
  ![6144, v11.toNat]
def k0_off15 (d0 : Dev nD) : Fin 2 → Nat :=
  let c6144_i32_301 : BitVec 32 := 6144#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_5 : BitVec 32 := 1024#32
  let v12 : BitVec 32 := Scalar.muli v5 c1024_i32_5
  ![6144, v12.toNat]
def k0_dev8 (d0 : Dev nD) : Nat :=
  let c0_i32_333 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_332 : BitVec 32 := 4#32
  let v381 : BitVec 32 := Scalar.muli v2 c4_i32_332
  let v382 : BitVec 32 := Scalar.addi c0_i32_333 v381
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_334 : BitVec 32 := 2#32
  let v383 : BitVec 32 := Scalar.muli v9 c2_i32_334
  let v384 : BitVec 32 := Scalar.addi v382 v383
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_335 : BitVec 32 := 1#32
  let v385 : BitVec 32 := Scalar.muli v8 c1_i32_335
  let v386 : BitVec 32 := Scalar.addi v384 v385
  v386.toNat
def k0_off16 (d0 : Dev nD) : Fin 2 → Nat :=
  let c7168_i32 : BitVec 32 := 7168#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c1024_i32 : BitVec 32 := 1024#32
  let v11 : BitVec 32 := Scalar.muli v10 c1024_i32
  ![7168, v11.toNat]
def k0_off17 (d0 : Dev nD) : Fin 2 → Nat :=
  let c7168_i32_352 : BitVec 32 := 7168#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_5 : BitVec 32 := 1024#32
  let v12 : BitVec 32 := Scalar.muli v5 c1024_i32_5
  ![7168, v12.toNat]
def k0_dev9 (d0 : Dev nD) : Nat :=
  let c0_i32_384 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_383 : BitVec 32 := 4#32
  let v439 : BitVec 32 := Scalar.muli v2 c4_i32_383
  let v440 : BitVec 32 := Scalar.addi c0_i32_384 v439
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_385 : BitVec 32 := 2#32
  let v441 : BitVec 32 := Scalar.muli v9 c2_i32_385
  let v442 : BitVec 32 := Scalar.addi v440 v441
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_386 : BitVec 32 := 1#32
  let v443 : BitVec 32 := Scalar.muli v8 c1_i32_386
  let v444 : BitVec 32 := Scalar.addi v442 v443
  v444.toNat

class Facts₀ : Prop where
  hamt_1 : (1#32 : BitVec 32).msb = false
  inb_S2_S1_0 : ∀ a, (![0] : Fin 1 → Nat) a + S1.size a ≤ S2.size a
  squeezes_S1_S_ : S1.Squeezes S_
  inb_S2x1024x1024_S1x1024x1024_0_0_0 : ∀ a, (![0, 0, 0] : Fin 3 → Nat) a + S1x1024x1024.size a ≤ S2x1024x1024.size a
  squeezes_S1x1024x1024_S1024x1024 : S1x1024x1024.Squeezes S1024x1024
  h_S1x1024x1024 : 0 < S1x1024x1024.numel
  shapeCasts_S1x1024x1024_S1024x1024 : S1x1024x1024.ShapeCasts S1024x1024
  bitsLt_bf16_f32 : FTy.bits .bf16 < FTy.bits .f32
  inb_S8192x1024_S1024x1024_0_0 : ∀ a, (![0, 0] : Fin 2 → Nat) a + S1024x1024.size a ≤ S8192x1024.size a
  h_S1024x1024 : 0 < S1024x1024.numel
  shapeCasts_S1024x1024_S1024x1024 : S1024x1024.ShapeCasts S1024x1024
  packedbf16_S8192x1024_S1024x1024_0_0 : (Rect.unit (s := S8192x1024) ![0, 0] S1024x1024.size inb_S8192x1024_S1024x1024_0_0).PackedRows (EltTy.packing .bf16)
  inb_S8_S1_0 : ∀ a, (![0] : Fin 1 → Nat) a + S1.size a ≤ S8.size a
  wordsbf16_S8192x1024_S1024x1024_0_0 : (Rect.unit (s := S8192x1024) ![0, 0] S1024x1024.size inb_S8192x1024_S1024x1024_0_0).WholeWords (EltTy.packing .bf16)
  inb_S2_S1_1 : ∀ a, (![1] : Fin 1 → Nat) a + S1.size a ≤ S2.size a
  inb_S2x1024x1024_S1x1024x1024_1_0_0 : ∀ a, (![1, 0, 0] : Fin 3 → Nat) a + S1x1024x1024.size a ≤ S2x1024x1024.size a
  shapeCasts_S1024x1024_S1x1024x1024 : S1024x1024.ShapeCasts S1x1024x1024
  packedbf16_S2x1024x1024_S1x1024x1024_0_0_0 : (Rect.unit (s := S2x1024x1024) ![0, 0, 0] S1x1024x1024.size inb_S2x1024x1024_S1x1024x1024_0_0_0).PackedRows (EltTy.packing .bf16)
  wordsbf16_S2x1024x1024_S1x1024x1024_0_0_0 : (Rect.unit (s := S2x1024x1024) ![0, 0, 0] S1x1024x1024.size inb_S2x1024x1024_S1x1024x1024_0_0_0).WholeWords (EltTy.packing .bf16)
  inb_S8192x1024_S1024x1024_1024_0 : ∀ a, (![1024, 0] : Fin 2 → Nat) a + S1024x1024.size a ≤ S8192x1024.size a
  packedbf16_S8192x1024_S1024x1024_1024_0 : (Rect.unit (s := S8192x1024) ![1024, 0] S1024x1024.size inb_S8192x1024_S1024x1024_1024_0).PackedRows (EltTy.packing .bf16)
  inb_S8_S1_1 : ∀ a, (![1] : Fin 1 → Nat) a + S1.size a ≤ S8.size a
  wordsbf16_S8192x1024_S1024x1024_1024_0 : (Rect.unit (s := S8192x1024) ![1024, 0] S1024x1024.size inb_S8192x1024_S1024x1024_1024_0).WholeWords (EltTy.packing .bf16)
  packedbf16_S2x1024x1024_S1x1024x1024_1_0_0 : (Rect.unit (s := S2x1024x1024) ![1, 0, 0] S1x1024x1024.size inb_S2x1024x1024_S1x1024x1024_1_0_0).PackedRows (EltTy.packing .bf16)
  wordsbf16_S2x1024x1024_S1x1024x1024_1_0_0 : (Rect.unit (s := S2x1024x1024) ![1, 0, 0] S1x1024x1024.size inb_S2x1024x1024_S1x1024x1024_1_0_0).WholeWords (EltTy.packing .bf16)
  inb_S8192x1024_S1024x1024_2048_0 : ∀ a, (![2048, 0] : Fin 2 → Nat) a + S1024x1024.size a ≤ S8192x1024.size a
  packedbf16_S8192x1024_S1024x1024_2048_0 : (Rect.unit (s := S8192x1024) ![2048, 0] S1024x1024.size inb_S8192x1024_S1024x1024_2048_0).PackedRows (EltTy.packing .bf16)
  inb_S8_S1_2 : ∀ a, (![2] : Fin 1 → Nat) a + S1.size a ≤ S8.size a
  wordsbf16_S8192x1024_S1024x1024_2048_0 : (Rect.unit (s := S8192x1024) ![2048, 0] S1024x1024.size inb_S8192x1024_S1024x1024_2048_0).WholeWords (EltTy.packing .bf16)
  inb_S8192x1024_S1024x1024_3072_0 : ∀ a, (![3072, 0] : Fin 2 → Nat) a + S1024x1024.size a ≤ S8192x1024.size a
  packedbf16_S8192x1024_S1024x1024_3072_0 : (Rect.unit (s := S8192x1024) ![3072, 0] S1024x1024.size inb_S8192x1024_S1024x1024_3072_0).PackedRows (EltTy.packing .bf16)
  inb_S8_S1_3 : ∀ a, (![3] : Fin 1 → Nat) a + S1.size a ≤ S8.size a
  wordsbf16_S8192x1024_S1024x1024_3072_0 : (Rect.unit (s := S8192x1024) ![3072, 0] S1024x1024.size inb_S8192x1024_S1024x1024_3072_0).WholeWords (EltTy.packing .bf16)
  inb_S8192x1024_S1024x1024_4096_0 : ∀ a, (![4096, 0] : Fin 2 → Nat) a + S1024x1024.size a ≤ S8192x1024.size a
  packedbf16_S8192x1024_S1024x1024_4096_0 : (Rect.unit (s := S8192x1024) ![4096, 0] S1024x1024.size inb_S8192x1024_S1024x1024_4096_0).PackedRows (EltTy.packing .bf16)
  inb_S8_S1_4 : ∀ a, (![4] : Fin 1 → Nat) a + S1.size a ≤ S8.size a
  wordsbf16_S8192x1024_S1024x1024_4096_0 : (Rect.unit (s := S8192x1024) ![4096, 0] S1024x1024.size inb_S8192x1024_S1024x1024_4096_0).WholeWords (EltTy.packing .bf16)
  inb_S8192x1024_S1024x1024_5120_0 : ∀ a, (![5120, 0] : Fin 2 → Nat) a + S1024x1024.size a ≤ S8192x1024.size a
  packedbf16_S8192x1024_S1024x1024_5120_0 : (Rect.unit (s := S8192x1024) ![5120, 0] S1024x1024.size inb_S8192x1024_S1024x1024_5120_0).PackedRows (EltTy.packing .bf16)
  inb_S8_S1_5 : ∀ a, (![5] : Fin 1 → Nat) a + S1.size a ≤ S8.size a
  wordsbf16_S8192x1024_S1024x1024_5120_0 : (Rect.unit (s := S8192x1024) ![5120, 0] S1024x1024.size inb_S8192x1024_S1024x1024_5120_0).WholeWords (EltTy.packing .bf16)
  inb_S8192x1024_S1024x1024_6144_0 : ∀ a, (![6144, 0] : Fin 2 → Nat) a + S1024x1024.size a ≤ S8192x1024.size a
  packedbf16_S8192x1024_S1024x1024_6144_0 : (Rect.unit (s := S8192x1024) ![6144, 0] S1024x1024.size inb_S8192x1024_S1024x1024_6144_0).PackedRows (EltTy.packing .bf16)
  inb_S8_S1_6 : ∀ a, (![6] : Fin 1 → Nat) a + S1.size a ≤ S8.size a
  wordsbf16_S8192x1024_S1024x1024_6144_0 : (Rect.unit (s := S8192x1024) ![6144, 0] S1024x1024.size inb_S8192x1024_S1024x1024_6144_0).WholeWords (EltTy.packing .bf16)
  inb_S8192x1024_S1024x1024_7168_0 : ∀ a, (![7168, 0] : Fin 2 → Nat) a + S1024x1024.size a ≤ S8192x1024.size a
  packedbf16_S8192x1024_S1024x1024_7168_0 : (Rect.unit (s := S8192x1024) ![7168, 0] S1024x1024.size inb_S8192x1024_S1024x1024_7168_0).PackedRows (EltTy.packing .bf16)
  inb_S8_S1_7 : ∀ a, (![7] : Fin 1 → Nat) a + S1.size a ≤ S8.size a
  wordsbf16_S8192x1024_S1024x1024_7168_0 : (Rect.unit (s := S8192x1024) ![7168, 0] S1024x1024.size inb_S8192x1024_S1024x1024_7168_0).WholeWords (EltTy.packing .bf16)
  hcc0_scratch4 : 0 + S2.numel ≤ 22
  hcc0_scratch5 : 2 + S2.numel ≤ 22
  hcc0_scratch6 : 4 + S2.numel ≤ 22
  hcc0_scratch7 : 6 + S8.numel ≤ 22
  hcc0_scratch8 : 14 + S8.numel ≤ 22
  k0_dev1_lt : ∀ d0 : Dev nD, (k0_dev1 d0) < nD
  k0_off1_inb : ∀ d0 : Dev nD, ∀ a, (k0_off1 d0) a + S1024x1024.size a ≤ S8192x2048.size a
  k0_off2_inb : ∀ d0 : Dev nD, ∀ a, (k0_off2 d0) a + S1024x1024.size a ≤ S8192x2048.size a
  k0_off3_inb : ∀ d0 : Dev nD, ∀ (r : Fin 8), ∀ a, (k0_off3 d0 (BitVec.ofNat 32 (1024 * r.val))) a + S1024x1024.size a ≤ S16384x1024.size a
  k0_off3_wordsbf16 : ∀ d0 : Dev nD, ∀ (r : Fin 8), (Rect.unit (s := S16384x1024) (k0_off3 d0 (BitVec.ofNat 32 (1024 * r.val))) S1024x1024.size (k0_off3_inb d0 r)).WholeWords (EltTy.packing .bf16)
  k0_dev2_lt : ∀ d0 : Dev nD, (k0_dev2 d0) < nD
  k0_off4_inb : ∀ d0 : Dev nD, ∀ a, (k0_off4 d0) a + S1024x1024.size a ≤ S8192x2048.size a
  k0_off5_inb : ∀ d0 : Dev nD, ∀ a, (k0_off5 d0) a + S1024x1024.size a ≤ S8192x2048.size a
  k0_dev3_lt : ∀ d0 : Dev nD, (k0_dev3 d0) < nD
  k0_off6_inb : ∀ d0 : Dev nD, ∀ a, (k0_off6 d0) a + S1024x1024.size a ≤ S8192x2048.size a
  k0_off7_inb : ∀ d0 : Dev nD, ∀ a, (k0_off7 d0) a + S1024x1024.size a ≤ S8192x2048.size a
  k0_dev4_lt : ∀ d0 : Dev nD, (k0_dev4 d0) < nD
  k0_off8_inb : ∀ d0 : Dev nD, ∀ a, (k0_off8 d0) a + S1024x1024.size a ≤ S8192x2048.size a
  k0_off9_inb : ∀ d0 : Dev nD, ∀ a, (k0_off9 d0) a + S1024x1024.size a ≤ S8192x2048.size a
  k0_dev5_lt : ∀ d0 : Dev nD, (k0_dev5 d0) < nD
  k0_off10_inb : ∀ d0 : Dev nD, ∀ a, (k0_off10 d0) a + S1024x1024.size a ≤ S8192x2048.size a
  k0_off11_inb : ∀ d0 : Dev nD, ∀ a, (k0_off11 d0) a + S1024x1024.size a ≤ S8192x2048.size a
  k0_dev6_lt : ∀ d0 : Dev nD, (k0_dev6 d0) < nD
  k0_off12_inb : ∀ d0 : Dev nD, ∀ a, (k0_off12 d0) a + S1024x1024.size a ≤ S8192x2048.size a
  k0_off13_inb : ∀ d0 : Dev nD, ∀ a, (k0_off13 d0) a + S1024x1024.size a ≤ S8192x2048.size a
  k0_dev7_lt : ∀ d0 : Dev nD, (k0_dev7 d0) < nD
  k0_off14_inb : ∀ d0 : Dev nD, ∀ a, (k0_off14 d0) a + S1024x1024.size a ≤ S8192x2048.size a
  k0_off15_inb : ∀ d0 : Dev nD, ∀ a, (k0_off15 d0) a + S1024x1024.size a ≤ S8192x2048.size a
  k0_dev8_lt : ∀ d0 : Dev nD, (k0_dev8 d0) < nD
  k0_off16_inb : ∀ d0 : Dev nD, ∀ a, (k0_off16 d0) a + S1024x1024.size a ≤ S8192x2048.size a
  k0_off17_inb : ∀ d0 : Dev nD, ∀ a, (k0_off17 d0) a + S1024x1024.size a ≤ S8192x2048.size a
  k0_dev9_lt : ∀ d0 : Dev nD, (k0_dev9 d0) < nD

variable [Facts₀]

abbrev cc0_scratch4 : DmaSems sig S2 := SemArray.consecutive 0 S2 hcc0_scratch4
abbrev cc0_scratch5 : DmaSems sig S2 := SemArray.consecutive 2 S2 hcc0_scratch5
abbrev cc0_scratch6 : DmaSems sig S2 := SemArray.consecutive 4 S2 hcc0_scratch6
abbrev cc0_scratch7 : DmaSems sig S8 := SemArray.consecutive 6 S8 hcc0_scratch7
abbrev cc0_scratch8 : DmaSems sig S8 := SemArray.consecutive 14 S8 hcc0_scratch8

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x2048 : Shape := ⟨2, ![16384, 2048]⟩

abbrev nBuf : Space → Nat
  | .hbm => 2
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Proto.lean ====
/-
  The all-to-all exchange along the mesh axis y, as a protocol over semaphore cells.

  Device c (linear id 4x + 2y + z) and its partner peer c (the device with the other y) each hold one row block of x.
  A device signals its partner's barrier cell once and waits for one unit on its own; it then sends, chunk by chunk,
  the column half its partner keeps into the partner's result, crediting the partner's receive cell k and its own send
  cell k, and copies the column half it keeps into its own result by local transfers.

  The cells, under the rounds discipline, one duty (named by the unit) in round 0 each:
  * the barrier cell of c: paid by peer c; it hands c the eight row chunks of peer c's result that c will write, and
    that peer c has reached round 0 of its eight receive cells;
  * send cell k of c: paid by c's own transfer k once its source is read; it hands back chunk k of the staging buffer;
  * receive cell k of c: paid by peer c's transfer k once it has landed; it hands c the rows it wrote, at the
    expected final contents of c's result.
-/
import proofs.«900625_g7700000000000626_dist_a2a_v7x_xyz2x2x2_y_m8192_n1024_bf16_1_alg».proof.Proof.Gen.KernelIdeal
import proofs.«900625_g7700000000000626_dist_a2a_v7x_xyz2x2x2_y_m8192_n1024_bf16_1_alg».proof.Proof.Gen.KernelIdeal.Skeleton
import proofs.«900625_g7700000000000626_dist_a2a_v7x_xyz2x2x2_y_m8192_n1024_bf16_1_alg».proof.Proof.Gen.KernelIdeal.Launch
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the exchange's copy, the local transfers' counters -/

abbrev UB : Type := UR sig nD τ × Counters
abbrev UU : Type := UR sig nD τ × UB

local notation "𝕄" => MT nD τ sig Unit (Elt F) ℕ UU ℕ

abbrev EP : Emb (UR sig nD τ) (MT nD τ sig Unit (Elt F) ℕ UU ℕ) := embL
abbrev EB : Emb UB (MT nD τ sig Unit (Elt F) ℕ UU ℕ) := embR
abbrev ER : Emb (UR sig nD τ) (MT nD τ sig Unit (Elt F) ℕ UU ℕ) := (Emb.inl : Emb (UR sig nD τ) UB).trans embR

instance ER_landsIn : (ER (F := F)).LandsIn (upEmb : UEmb _ (MT nD τ sig Unit (Elt F) ℕ UU ℕ)) := by
  unfold ER embR; infer_instance

/-! ## The partner -/

/-- The device with the other coordinate on the axis y. -/
def peer (c : Dev nD) : Dev nD := ⟨(4 * (c.val / 4) + (c.val % 2) + 2) - 2 * ((c.val / 2) % 2), by revert c; decide⟩

/-- The coordinate of c on the axis y. -/
def yOf (c : Dev nD) : ℕ := (c.val / 2) % 2

theorem peer_peer (c : Dev nD) : peer (peer c) = c := by revert c; decide
theorem peer_ne (c : Dev nD) : peer c ≠ c := by revert c; decide
theorem yOf_lt (c : Dev nD) : yOf c < 2 := Nat.mod_lt _ (by decide)
theorem yOf_peer (c : Dev nD) : yOf (peer c) = 1 - yOf c := by revert c; decide

def swap : Dev nD ≃ Dev nD := ⟨peer, peer, peer_peer, peer_peer⟩

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)

/-! ## The memrefs and the cells -/

abbrev xM : Memref sig .tc .hbm S8192x2048 .f32 := Memref.whole main_arg0
abbrev oM : Memref sig .tc .hbm S16384x1024 .bf16 := Memref.whole main_v1
abbrev pfM : Memref sig .tc .vmem S2x1024x1024 .f32 := Memref.whole cc0_scratch0
abbrev kfM : Memref sig .tc .vmem S2x1024x1024 .f32 := Memref.whole cc0_scratch1
abbrev sgM : Memref sig .tc .vmem S8192x1024 .bf16 := Memref.whole cc0_scratch2
abbrev lsM : Memref sig .tc .vmem S2x1024x1024 .bf16 := Memref.whole cc0_scratch3

/-- Chunk k of the send staging buffer: its rows 1024 k … 1024 k + 1023. -/
abbrev stgL : Fin 8 → Memref sig .tc .vmem S1024x1024 .bf16
  | 0 => sgM.slice (Rect.unit (s := S8192x1024) ![0, 0] S1024x1024.size inb_S8192x1024_S1024x1024_0_0) (fun _ => rfl)
  | 1 => sgM.slice (Rect.unit (s := S8192x1024) ![1024, 0] S1024x1024.size inb_S8192x1024_S1024x1024_1024_0) (fun _ => rfl)
  | 2 => sgM.slice (Rect.unit (s := S8192x1024) ![2048, 0] S1024x1024.size inb_S8192x1024_S1024x1024_2048_0) (fun _ => rfl)
  | 3 => sgM.slice (Rect.unit (s := S8192x1024) ![3072, 0] S1024x1024.size inb_S8192x1024_S1024x1024_3072_0) (fun _ => rfl)
  | 4 => sgM.slice (Rect.unit (s := S8192x1024) ![4096, 0] S1024x1024.size inb_S8192x1024_S1024x1024_4096_0) (fun _ => rfl)
  | 5 => sgM.slice (Rect.unit (s := S8192x1024) ![5120, 0] S1024x1024.size inb_S8192x1024_S1024x1024_5120_0) (fun _ => rfl)
  | 6 => sgM.slice (Rect.unit (s := S8192x1024) ![6144, 0] S1024x1024.size inb_S8192x1024_S1024x1024_6144_0) (fun _ => rfl)
  | 7 => sgM.slice (Rect.unit (s := S8192x1024) ![7168, 0] S1024x1024.size inb_S8192x1024_S1024x1024_7168_0) (fun _ => rfl)

theorem stg_inb (k : Fin 8) : ∀ a, (![1024 * k.val, 0] : Fin 2 → Nat) a + S1024x1024.size a ≤ S8192x1024.size a := by
  revert k; decide

/-- The same chunk, with the chunk as a variable. -/
abbrev stgM (k : Fin 8) : Memref sig .tc .vmem S1024x1024 .bf16 :=
  sgM.slice (Rect.unit (s := S8192x1024) ![1024 * k.val, 0] S1024x1024.size (stg_inb k)) (fun _ => rfl)

theorem stgL_eq (k : Fin 8) : stgL k = stgM k := by fin_cases k <;> rfl

/-- The rows of a result that device c's chunk k lands in (on its partner, by the remote transfer; on c itself, by the
    local one): rows 8192 y(c) + 1024 k … of the result. -/
abbrev dstL (c : Dev nD) : Fin 8 → Memref sig .tc .hbm S1024x1024 .bf16
  | 0 => oM.slice (Rect.unit (s := S16384x1024) (k0_off3 c 0#32) S1024x1024.size (k0_off3_inb c 0)) (fun _ => rfl)
  | 1 => oM.slice (Rect.unit (s := S16384x1024) (k0_off3 c 1024#32) S1024x1024.size (k0_off3_inb c 1)) (fun _ => rfl)
  | 2 => oM.slice (Rect.unit (s := S16384x1024) (k0_off3 c 2048#32) S1024x1024.size (k0_off3_inb c 2)) (fun _ => rfl)
  | 3 => oM.slice (Rect.unit (s := S16384x1024) (k0_off3 c 3072#32) S1024x1024.size (k0_off3_inb c 3)) (fun _ => rfl)
  | 4 => oM.slice (Rect.unit (s := S16384x1024) (k0_off3 c 4096#32) S1024x1024.size (k0_off3_inb c 4)) (fun _ => rfl)
  | 5 => oM.slice (Rect.unit (s := S16384x1024) (k0_off3 c 5120#32) S1024x1024.size (k0_off3_inb c 5)) (fun _ => rfl)
  | 6 => oM.slice (Rect.unit (s := S16384x1024) (k0_off3 c 6144#32) S1024x1024.size (k0_off3_inb c 6)) (fun _ => rfl)
  | 7 => oM.slice (Rect.unit (s := S16384x1024) (k0_off3 c 7168#32) S1024x1024.size (k0_off3_inb c 7)) (fun _ => rfl)

/-- The same rows, with the chunk as a variable. -/
abbrev dstM (c : Dev nD) (k : Fin 8) : Memref sig .tc .hbm S1024x1024 .bf16 :=
  oM.slice (Rect.unit (s := S16384x1024) (k0_off3 c (BitVec.ofNat 32 (1024 * k.val))) S1024x1024.size (k0_off3_inb c k)) (fun _ => rfl)

theorem dstL_eq (c : Dev nD) (k : Fin 8) : dstL c k = dstM c k := by fin_cases k <;> rfl

/-- The runtime's barrier semaphore of collective id 0. -/
abbrev barS : Sem sig := (SemArray.scalar (sig.barrier 0 rfl) : Sems sig S_).sem
/-- Send semaphore k and receive semaphore k of the kernel's two arrays of eight. -/
abbrev sendS (k : Fin 8) : DmaSem sig := ⟨6 + k.val, by have := k.isLt; show 6 + k.val < 22; omega⟩
abbrev recvS (k : Fin 8) : DmaSem sig := ⟨14 + k.val, by have := k.isLt; show 14 + k.val < 22; omega⟩

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))

/-- The credit of one chunk's transfer. -/
abbrev N : ℕ := (stgM 0).view.dmaCredit
theorem N_pos : 0 < N := View.dmaCredit_pos _ (by decide)

end Cert.KernelIdeal.Xchg

end
-- ==== Proof.Sched.lean ====
/-
  The schedule of the exchange's cells: which duties a cell has in round 0, how many units each pays, and what each
  hands the cell's owner.  The expected final contents of a device's result, `G c`, are a parameter here: the schedule
  only says that a landing hands over the rows it wrote at `G c`.
-/
import proofs.«900625_g7700000000000626_dist_a2a_v7x_xyz2x2x2_y_m8192_n1024_bf16_1_alg».proof.Proof.Proto

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A device's result buffer. -/
abbrev OutBuf (c : Dev nD) : Type := Buf (Elt F) (oM.view.loc (c : Thread nD τ))

variable (m : (ℓ : Loc nD τ sig) → Buf (Elt F) ℓ) (G : (c : Dev nD) → OutBuf (F := F) c)

/-! ## What the duties hand over -/

/-- The rows of device c's result that its partner's chunk k lands in, held at contents f. -/
abbrev rowsPts (c : Dev nD) (k : Fin 8) (f : OutBuf (F := F) c) : sProp 𝕄 :=
  oM.view.loc (c : Thread nD τ) ↦[(dstM (peer c) k).view.set]{fullShare} f

/-- Chunk k of device c's send staging buffer, at some contents. -/
abbrev stgPts (c : Dev nD) (k : Fin 8) : sProp 𝕄 :=
  iprop(∃ f, sgM.view.loc (c : Thread nD τ) ↦[(stgM k).view.set]{fullShare} f)

/-- The partner's signal hands c the eight row chunks of the partner's result that c writes, as launched. -/
def barPay (c : Dev nD) : sProp 𝕄 :=
  iprop(rowsPts (peer c) 0 (m _) ∗ rowsPts (peer c) 1 (m _) ∗ rowsPts (peer c) 2 (m _) ∗ rowsPts (peer c) 3 (m _)
      ∗ rowsPts (peer c) 4 (m _) ∗ rowsPts (peer c) 5 (m _) ∗ rowsPts (peer c) 6 (m _) ∗ rowsPts (peer c) 7 (m _))

def recvPay (c : Dev nD) (k : Fin 8) : sProp 𝕄 := rowsPts c k (G c)
def sendPay (c : Dev nD) (k : Fin 8) : sProp 𝕄 := stgPts c k

/-! ## The schedule -/

abbrev IsBar (g : GSem nD τ sig) : Prop := g.1.2 = .tc ∧ g.2 = .reg barS
/-- The semaphore is send semaphore k, resp. receive semaphore k. -/
abbrev sendIx (s : SemLoc sig) : Option (Fin 8) := match s with
  | .dma q => if h : 6 ≤ q.val ∧ q.val < 14 then some ⟨q.val - 6, by omega⟩ else none
  | _ => none
abbrev recvIx (s : SemLoc sig) : Option (Fin 8) := match s with
  | .dma q => if h : 14 ≤ q.val then some ⟨q.val - 14, by have := q.isLt; change q.val < 22 at this; omega⟩ else none
  | _ => none
abbrev IsXfer (g : GSem nD τ sig) : Prop := g.1.2 = .tc ∧ ((sendIx g.2).isSome ∨ (recvIx g.2).isSome)

/-- One round, round 0, one duty a cell: the barrier cell's of one unit, a send or receive cell's of a chunk's credit. -/
def xRd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay m g.1.1
    else match recvIx g.2 with
      | some k => recvPay G g.1.1 k
      | none => match sendIx g.2 with
        | some k => sendPay g.1.1 k
        | none => iprop(emp)
  amount_pos g _ _ _ := by
    by_cases h : g.2 = .reg barS
    · rw [if_pos h]; exact Nat.one_pos
    · rw [if_neg h]; exact N_pos

instance xRd_payload_storable (g : GSem nD τ sig) (r : ℕ) (d : Unit) :
    BI.Storable (upEmb : UEmb _ 𝕄) ((xRd (F := F) m G).payload g r d) := by
  show BI.Storable upEmb (if g.2 = .reg barS then barPay m g.1.1
    else match recvIx g.2 with
      | some k => recvPay G g.1.1 k
      | none => match sendIx g.2 with
        | some k => sendPay g.1.1 k
        | none => iprop(emp))
  unfold barPay recvPay sendPay
  (repeat' split) <;> infer_instance

section Tables
variable (c : Dev nD) (k : Fin 8)

theorem send_ne_bar : (SemLoc.dma (sendS k) : SemLoc sig) ≠ .reg barS := fun h => by cases h
theorem recv_ne_bar : (SemLoc.dma (recvS k) : SemLoc sig) ≠ .reg barS := fun h => by cases h
theorem recvIx_recv : recvIx (SemLoc.dma (recvS k) : SemLoc sig) = some k := by revert k; decide
theorem recvIx_send : recvIx (SemLoc.dma (sendS k) : SemLoc sig) = none := by revert k; decide
theorem sendIx_send : sendIx (SemLoc.dma (sendS k) : SemLoc sig) = some k := by revert k; decide

omit [FloatOps F] in
theorem duties_bar : (xRd (F := F) m G).duties (barCell c) 0 = {()} := by dsimp only [xRd]; exact if_pos ⟨rfl, .inl ⟨rfl, rfl⟩⟩
omit [FloatOps F] in
theorem duties_send : (xRd (F := F) m G).duties (sendCell c k) 0 = {()} := by
  dsimp only [xRd]; exact if_pos ⟨rfl, .inr ⟨rfl, .inl (by rw [sendIx_send]; rfl)⟩⟩
omit [FloatOps F] in
theorem duties_recv : (xRd (F := F) m G).duties (recvCell c k) 0 = {()} := by
  dsimp only [xRd]; exact if_pos ⟨rfl, .inr ⟨rfl, .inr (by rw [recvIx_recv]; rfl)⟩⟩
omit [FloatOps F] in
theorem duties_later (g : GSem nD τ sig) : ∀ r, 1 ≤ r → (xRd (F := F) m G).duties g r = ∅ :=
  fun r hr => by dsimp only [xRd]; rw [if_neg fun h => by omega]

omit [FloatOps F] in
theorem amount_bar (d : Unit) : (xRd (F := F) m G).amount (barCell c) 0 d = 1 := by dsimp only [xRd]; exact if_pos rfl
omit [FloatOps F] in
theorem amount_send (d : Unit) : (xRd (F := F) m G).amount (sendCell c k) 0 d = N := by dsimp only [xRd]; exact if_neg (send_ne_bar k)
omit [FloatOps F] in
theorem amount_recv (d : Unit) : (xRd (F := F) m G).amount (recvCell c k) 0 d = N := by dsimp only [xRd]; exact if_neg (recv_ne_bar k)

omit [FloatOps F] in
theorem expect_bar : (xRd (F := F) m G).expect (barCell c) 0 = 1 := by
  unfold Schedule.expect Schedule.amountOf; rw [duties_bar, Finset.sum_singleton, amount_bar]
omit [FloatOps F] in
theorem expect_send : (xRd (F := F) m G).expect (sendCell c k) 0 = N := by
  unfold Schedule.expect Schedule.amountOf; rw [duties_send, Finset.sum_singleton, amount_send]
omit [FloatOps F] in
theorem expect_recv : (xRd (F := F) m G).expect (recvCell c k) 0 = N := by
  unfold Schedule.expect Schedule.amountOf; rw [duties_recv, Finset.sum_singleton, amount_recv]

omit [FloatOps F] in
theorem payload_bar (d : Unit) : (xRd (F := F) m G).payload (barCell c) 0 d = barPay m c := by dsimp only [xRd]; rw [if_pos rfl]
omit [FloatOps F] in
theorem payload_send (d : Unit) : (xRd (F := F) m G).payload (sendCell c k) 0 d = sendPay c k := by
  dsimp only [xRd]; rw [if_neg (send_ne_bar k), recvIx_send, sendIx_send]
omit [FloatOps F] in
theorem payload_recv (d : Unit) : (xRd (F := F) m G).payload (recvCell c k) 0 d = recvPay G c k := by
  dsimp only [xRd]; rw [if_neg (recv_ne_bar k), recvIx_recv]

end Tables

/-! ## Levels: barrier cells at 1, receive cells at 2, everything else (send cells, the local transfers' cells) at 0 -/

def L (g : GSem nD τ sig) : Finset Unit := if g.1.2 = .tc then {()} else ∅
def lv (g : GSem nD τ sig) (_ : Unit) : ℕ := if g.2 = .reg barS then 1 else if (recvIx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.Xchg

end
-- ==== Proof.Geom.lean ====
/-
  Geometry of the windows the exchange moves: the two column halves of x that chunk k's two loads read are disjoint.
-/
import proofs.«900625_g7700000000000626_dist_a2a_v7x_xyz2x2x2_y_m8192_n1024_bf16_1_alg».proof.Proof.Proto
import Idealize.ShloMosaic.Rules.PointsTo

noncomputable section

namespace Cert.KernelIdeal.Xchg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- Unit rectangles of x whose column ranges are the two halves are disjoint. -/
theorem xwin_disjoint_of {off off' : Fin 2 → Nat} {inb inb'} (h : off 1 + 1024 ≤ off' 1 ∨ off' 1 + 1024 ≤ off 1) :
    Disjoint ((xM.slice (Rect.unit (s := S8192x2048) off S1024x1024.size inb) (fun _ => rfl)).view.set)
      ((xM.slice (Rect.unit (s := S8192x2048) off' S1024x1024.size inb') (fun _ => rfl)).view.set) := by
  have e1 : (xM.slice (Rect.unit (s := S8192x2048) off S1024x1024.size inb) (fun _ => rfl)).view.set
      = (Rect.unit (s := S8192x2048) off S1024x1024.size inb).set := View.set_slice_whole main_arg0 _
  have e2 : (xM.slice (Rect.unit (s := S8192x2048) off' S1024x1024.size inb') (fun _ => rfl)).view.set
      = (Rect.unit (s := S8192x2048) off' S1024x1024.size inb').set := View.set_slice_whole main_arg0 _
  rw [e1, e2]
  exact Rect.unit_disjoint 1 h

theorem xwin_disj_2_1 (c : Dev nD) :
    Disjoint ((xM.slice (Rect.unit (s := S8192x2048) (k0_off2 c) S1024x1024.size (k0_off2_inb c)) (fun _ => rfl)).view.set)
      ((xM.slice (Rect.unit (s := S8192x2048) (k0_off1 c) S1024x1024.size (k0_off1_inb c)) (fun _ => rfl)).view.set) :=
  xwin_disjoint_of (by rw [k0_off2_eq, k0_off1_eq]; show 1024 * ((c.val / 2) % 2) + 1024 ≤ 1024 - 1024 * ((c.val / 2) % 2) ∨ 1024 - 1024 * ((c.val / 2) % 2) + 1024 ≤ 1024 * ((c.val / 2) % 2); omega)
theorem xwin_disj_5_4 (c : Dev nD) :
    Disjoint ((xM.slice (Rect.unit (s := S8192x2048) (k0_off5 c) S1024x1024.size (k0_off5_inb c)) (fun _ => rfl)).view.set)
      ((xM.slice (Rect.unit (s := S8192x2048) (k0_off4 c) S1024x1024.size (k0_off4_inb c)) (fun _ => rfl)).view.set) :=
  xwin_disjoint_of (by rw [k0_off5_eq, k0_off4_eq]; show 1024 * ((c.val / 2) % 2) + 1024 ≤ 1024 - 1024 * ((c.val / 2) % 2) ∨ 1024 - 1024 * ((c.val / 2) % 2) + 1024 ≤ 1024 * ((c.val / 2) % 2); omega)
theorem xwin_disj_7_6 (c : Dev nD) :
    Disjoint ((xM.slice (Rect.unit (s := S8192x2048) (k0_off7 c) S1024x1024.size (k0_off7_inb c)) (fun _ => rfl)).view.set)
      ((xM.slice (Rect.unit (s := S8192x2048) (k0_off6 c) S1024x1024.size (k0_off6_inb c)) (fun _ => rfl)).view.set) :=
  xwin_disjoint_of (by rw [k0_off7_eq, k0_off6_eq]; show 1024 * ((c.val / 2) % 2) + 1024 ≤ 1024 - 1024 * ((c.val / 2) % 2) ∨ 1024 - 1024 * ((c.val / 2) % 2) + 1024 ≤ 1024 * ((c.val / 2) % 2); omega)
theorem xwin_disj_9_8 (c : Dev nD) :
    Disjoint ((xM.slice (Rect.unit (s := S8192x2048) (k0_off9 c) S1024x1024.size (k0_off9_inb c)) (fun _ => rfl)).view.set)
      ((xM.slice (Rect.unit (s := S8192x2048) (k0_off8 c) S1024x1024.size (k0_off8_inb c)) (fun _ => rfl)).view.set) :=
  xwin_disjoint_of (by rw [k0_off9_eq, k0_off8_eq]; show 1024 * ((c.val / 2) % 2) + 1024 ≤ 1024 - 1024 * ((c.val / 2) % 2) ∨ 1024 - 1024 * ((c.val / 2) % 2) + 1024 ≤ 1024 * ((c.val / 2) % 2); omega)
theorem xwin_disj_11_10 (c : Dev nD) :
    Disjoint ((xM.slice (Rect.unit (s := S8192x2048) (k0_off11 c) S1024x1024.size (k0_off11_inb c)) (fun _ => rfl)).view.set)
      ((xM.slice (Rect.unit (s := S8192x2048) (k0_off10 c) S1024x1024.size (k0_off10_inb c)) (fun _ => rfl)).view.set) :=
  xwin_disjoint_of (by rw [k0_off11_eq, k0_off10_eq]; show 1024 * ((c.val / 2) % 2) + 1024 ≤ 1024 - 1024 * ((c.val / 2) % 2) ∨ 1024 - 1024 * ((c.val / 2) % 2) + 1024 ≤ 1024 * ((c.val / 2) % 2); omega)
theorem xwin_disj_13_12 (c : Dev nD) :
    Disjoint ((xM.slice (Rect.unit (s := S8192x2048) (k0_off13 c) S1024x1024.size (k0_off13_inb c)) (fun _ => rfl)).view.set)
      ((xM.slice (Rect.unit (s := S8192x2048) (k0_off12 c) S1024x1024.size (k0_off12_inb c)) (fun _ => rfl)).view.set) :=
  xwin_disjoint_of (by rw [k0_off13_eq, k0_off12_eq]; show 1024 * ((c.val / 2) % 2) + 1024 ≤ 1024 - 1024 * ((c.val / 2) % 2) ∨ 1024 - 1024 * ((c.val / 2) % 2) + 1024 ≤ 1024 * ((c.val / 2) % 2); omega)
theorem xwin_disj_15_14 (c : Dev nD) :
    Disjoint ((xM.slice (Rect.unit (s := S8192x2048) (k0_off15 c) S1024x1024.size (k0_off15_inb c)) (fun _ => rfl)).view.set)
      ((xM.slice (Rect.unit (s := S8192x2048) (k0_off14 c) S1024x1024.size (k0_off14_inb c)) (fun _ => rfl)).view.set) :=
  xwin_disjoint_of (by rw [k0_off15_eq, k0_off14_eq]; show 1024 * ((c.val / 2) % 2) + 1024 ≤ 1024 - 1024 * ((c.val / 2) % 2) ∨ 1024 - 1024 * ((c.val / 2) % 2) + 1024 ≤ 1024 * ((c.val / 2) % 2); omega)
theorem xwin_disj_17_16 (c : Dev nD) :
    Disjoint ((xM.slice (Rect.unit (s := S8192x2048) (k0_off17 c) S1024x1024.size (k0_off17_inb c)) (fun _ => rfl)).view.set)
      ((xM.slice (Rect.unit (s := S8192x2048) (k0_off16 c) S1024x1024.size (k0_off16_inb c)) (fun _ => rfl)).view.set) :=
  xwin_disjoint_of (by rw [k0_off17_eq, k0_off16_eq]; show 1024 * ((c.val / 2) % 2) + 1024 ≤ 1024 - 1024 * ((c.val / 2) % 2) ∨ 1024 - 1024 * ((c.val / 2) % 2) + 1024 ≤ 1024 * ((c.val / 2) % 2); omega)

/-! ## The result's row chunks -/

/-- Chunk k of device c covers rows 8192 y(c) + 1024 k … + 1023 of a result. -/
theorem dst_set (c : Dev nD) (k : Fin 8) : (dstM c k).view.set
    = (Rect.unit (s := S16384x1024) (k0_off3 c (BitVec.ofNat 32 (1024 * k.val))) S1024x1024.size (k0_off3_inb c k)).set :=
  View.set_slice_whole main_v1 _

/-- Two chunks whose row ranges do not meet are disjoint. -/
theorem dst_disjoint (c c' : Dev nD) (k j : Fin 8)
    (h : 8192 * yOf c + 1024 * k.val + 1024 ≤ 8192 * yOf c' + 1024 * j.val ∨ 8192 * yOf c' + 1024 * j.val + 1024 ≤ 8192 * yOf c + 1024 * k.val) :
    Disjoint (dstM c k).view.set (dstM c' j).view.set := by
  rw [dst_set, dst_set]
  refine Rect.unit_disjoint 0 ?_
  rw [k0_off3_eq c k, k0_off3_eq c' j]
  exact h

/-- A device's own chunks are pairwise disjoint, and disjoint from every chunk its partner writes. -/
theorem dst_disjoint_own (c : Dev nD) (k j : Fin 8) (h : k ≠ j) : Disjoint (dstM c k).view.set (dstM c j).view.set :=
  dst_disjoint c c k j (by have : k.val ≠ j.val := fun e => h (Fin.ext e); omega)
theorem dst_disjoint_peer (c : Dev nD) (k j : Fin 8) : Disjoint (dstM c k).view.set (dstM (peer c) j).view.set :=
  dst_disjoint c (peer c) k j (by have := yOf_peer c; have := yOf_lt c; have := k.isLt; have := j.isLt; omega)

/-- The rows of device c's result that its partner writes. -/
def theirs (c : Dev nD) : Finset (oM.view.ty.Idx) := Finset.univ.biUnion fun j : Fin 8 => (dstM (peer c) j).view.set

theorem dst_disjoint_theirs (c : Dev nD) (k : Fin 8) : Disjoint (dstM c k).view.set (theirs c) :=
  (Finset.disjoint_biUnion_right _ _ _).mpr fun j _ => dst_disjoint_peer c k j

end Cert.KernelIdeal.Xchg

end
-- ==== Proof.Inv.lean ====
/-
  What a device holds when its kernel starts and what it gives back when it ends: the statement of the body's proof.
-/
import proofs.«900625_g7700000000000626_dist_a2a_v7x_xyz2x2x2_y_m8192_n1024_bf16_1_alg».proof.Proof.Sched
import proofs.«900625_g7700000000000626_dist_a2a_v7x_xyz2x2x2_y_m8192_n1024_bf16_1_alg».proof.Proof.Geom

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (G : (c : Dev nD) → OutBuf (F := F) c)

abbrev 𝒱₀ : Variants := Variants.none

/-- Eight assertions, one a chunk. -/
abbrev sep8 (Φ : Fin 8 → sProp 𝕄) : sProp 𝕄 := iprop(Φ 0 ∗ Φ 1 ∗ Φ 2 ∗ Φ 3 ∗ Φ 4 ∗ Φ 5 ∗ Φ 6 ∗ Φ 7)

/-! ## The cells of one device, numbered: 0 the barrier cell, 1 + k send cell k, 9 + k receive cell k -/

abbrev csem (j : Fin 17) : SemLoc sig :=
  if h0 : j.val = 0 then .reg barS
  else if h : j.val ≤ 8 then .dma (sendS ⟨j.val - 1, by omega⟩) else .dma (recvS ⟨j.val - 9, by omega⟩)
abbrev kcell (cj : Dev nD × Fin 17) : GSem nD τ sig := ((cj.1 : Thread nD τ), csem cj.2)
abbrev sIx (k : Fin 8) : Fin 17 := ⟨k.val + 1, by omega⟩
abbrev rIx (k : Fin 8) : Fin 17 := ⟨k.val + 9, by omega⟩

/-! ## What a device owes at launch -/

/-- One chunk's credit to receive cell k of the partner. -/
abbrev tRecv (c : Dev nD) (k : Fin 8) : CellTallies nD τ sig Unit := tallyAt (recvCell (peer c) k) () N

/-- What is left to pay once chunks 0 … j - 1 are sent; `owed0 c` is all eight credits. -/
def owed7 (c : Dev nD) : CellTallies nD τ sig Unit := 0 + tRecv c 7
def owed6 (c : Dev nD) : CellTallies nD τ sig Unit := owed7 c + tRecv c 6
def owed5 (c : Dev nD) : CellTallies nD τ sig Unit := owed6 c + tRecv c 5
def owed4 (c : Dev nD) : CellTallies nD τ sig Unit := owed5 c + tRecv c 4
def owed3 (c : Dev nD) : CellTallies nD τ sig Unit := owed4 c + tRecv c 3
def owed2 (c : Dev nD) : CellTallies nD τ sig Unit := owed3 c + tRecv c 2
def owed1 (c : Dev nD) : CellTallies nD τ sig Unit := owed2 c + tRecv c 1
def owed0 (c : Dev nD) : CellTallies nD τ sig Unit := owed1 c + tRecv c 0

/-- At launch: the eight credits and the one unit to the partner's barrier cell. -/
def O₀ (c : Dev nD) : CellTallies nD τ sig Unit := owed0 c + tallyAt (barCell (peer c)) () 1

/-! ## The ghost state and the buffers -/

/-- The cells' invariants device c opens, at the names K: its own seventeen, its partner's barrier cell and its
    partner's eight receive cells. -/
def invs (K : Dev nD × Fin 17 → ℕ) (c : Dev nD) : sProp 𝕄 :=
  iprop(cellInv ER (xRd m G) (K (c, 0)) (barCell c) ∗ cellInv ER (xRd m G) (K (peer c, 0)) (barCell (peer c))
    ∗ sep8 (fun k => cellInv ER (xRd m G) (K (c, sIx k)) (sendCell c k))
    ∗ sep8 (fun k => cellInv ER (xRd m G) (K (c, rIx k)) (recvCell c k))
    ∗ sep8 (fun k => cellInv ER (xRd m G) (K (peer c, rIx k)) (recvCell (peer c) k)))

instance invs_persistent (K : Dev nD × Fin 17 → ℕ) (c : Dev nD) : BI.Persistent (invs m G K c) := by unfold invs; infer_instance

/-- Device c's ghost state at launch: the invariants; its positions at round 0 of its own cells; round 0 reached of
    every cell it pays; the tokens of the duties it pays: its partner's barrier duty, its partner's eight receive duties,
    its own eight send duties. -/
def ghost (K : Dev nD × Fin 17 → ℕ) (c : Dev nD) : sProp 𝕄 :=
  iprop(invs m G K c
    ∗ atPos ER (barCell c) 0 ∅ 0 ∗ sep8 (fun k => atPos ER (sendCell c k) 0 ∅ 0) ∗ sep8 (fun k => atPos ER (recvCell c k) 0 ∅ 0)
    ∗ reached ER (barCell (peer c)) 0 ∗ sep8 (fun k => reached ER (recvCell (peer c) k) 0) ∗ sep8 (fun k => reached ER (sendCell c k) 0)
    ∗ dutyTok ER (barCell (peer c)) 0 () ∗ sep8 (fun k => dutyTok ER (recvCell (peer c) k) 0 ()) ∗ sep8 (fun k => dutyTok ER (sendCell c k) 0 ()))

/-- The six semaphores of the local transfers (two for each of the two loads, two for the store), at zero. -/
abbrev localSems (c : Dev nD) : sProp 𝕄 :=
  iprop(semVal ((c : Thread nD τ), SemLoc.dma (0 : DmaSem sig)) 0 ∗ semVal ((c : Thread nD τ), SemLoc.dma (1 : DmaSem sig)) 0
    ∗ semVal ((c : Thread nD τ), SemLoc.dma (2 : DmaSem sig)) 0 ∗ semVal ((c : Thread nD τ), SemLoc.dma (3 : DmaSem sig)) 0
    ∗ semVal ((c : Thread nD τ), SemLoc.dma (4 : DmaSem sig)) 0 ∗ semVal ((c : Thread nD τ), SemLoc.dma (5 : DmaSem sig)) 0)

/-- The four scratch buffers, each whole at some contents. -/
abbrev scratches (c : Dev nD) : sProp 𝕄 :=
  iprop((∃ f, pfM.view.loc (c : Thread nD τ) ↦{fullShare} f) ∗ (∃ f, kfM.view.loc (c : Thread nD τ) ↦{fullShare} f)
    ∗ (∃ f, sgM.view.loc (c : Thread nD τ) ↦{fullShare} f) ∗ (∃ f, lsM.view.loc (c : Thread nD τ) ↦{fullShare} f))

/-- What the kernel on device c starts from, besides what it owes. -/
def bodyPre (K : Dev nD × Fin 17 → ℕ) (c : Dev nD) : sProp 𝕄 :=
  iprop(ghost m G K c ∗ cred (tallyAt (barCell c) () 1) ∗ sep8 (fun k => cred (tallyAt (recvCell c k) () N)) ∗ levAts L lv
    ∗ localSems c
    ∗ (xM.view.loc (c : Thread nD τ) ↦{fullShare} m _) ∗ (oM.view.loc (c : Thread nD τ) ↦{fullShare} m _)
    ∗ scratches c)

/-- What it ends with: x as it was, the result at its expected contents, the scratch buffers, and every one of its
    own twenty-two semaphores back at zero. -/
def bodyPost (c : Dev nD) : sProp 𝕄 :=
  iprop((xM.view.loc (c : Thread nD τ) ↦{fullShare} m _) ∗ (oM.view.loc (c : Thread nD τ) ↦{fullShare} G c)
    ∗ scratches c ∗ localSems c
    ∗ sep8 (fun k => semVal (sendCell c k) 0) ∗ sep8 (fun k => semVal (recvCell c k) 0))

end Cert.KernelIdeal.Xchg

end
-- ==== Proof.OutSplit.lean ====
/-
  A device's result buffer, cut into the rows its partner writes (eight chunks) and the rest, and put back together.
-/
import proofs.«900625_g7700000000000626_dist_a2a_v7x_xyz2x2x2_y_m8192_n1024_bf16_1_alg».proof.Proof.Inv

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

omit [FloatOps F] in
theorem bigSep_fin8 (Φ : Fin 8 → sProp 𝕄) : bigSep Finset.univ Φ = sep8 Φ :=
  bigSep_univ_eq_bigSepL [0, 1, 2, 3, 4, 5, 6, 7] (by decide) (by decide) Φ

/-- The eight row chunks of device c's result that its partner writes, all at the contents f. -/
abbrev rows8 (c : Dev nD) (f : OutBuf (F := F) c) : sProp 𝕄 := sep8 (fun k => rowsPts c k f)

omit [FloatOps F] in
theorem theirs_pts (c : Dev nD) (f : OutBuf (F := F) c) :
    (oM.view.loc (c : Thread nD τ) ↦[theirs c]{fullShare} f : sProp 𝕄) = rows8 c f := by
  unfold theirs
  exact (pointsTo_biUnion (ℓ := oM.view.loc (c : Thread nD τ)) Finset.univ (fun j : Fin 8 => (dstM (peer c) j).view.set)
    (fun t _ t' _ h => dst_disjoint_own (peer c) t t' h)).trans (bigSep_fin8 _)

omit [FloatOps F] in
/-- Cutting the partner's rows out of the whole result. -/
theorem out_split (c : Dev nD) (f : OutBuf (F := F) c) :
    (oM.view.loc (c : Thread nD τ) ↦{fullShare} f : sProp 𝕄)
      ⊢ iprop((oM.view.loc (c : Thread nD τ) ↦[Finset.univ \ theirs c]{fullShare} f) ∗ rows8 c f) := by
  refine (pointsTo_split_subset (I := theirs c) (Finset.subset_univ _)).1.trans ?_
  rw [theirs_pts]
  exact sep_comm.1

omit [FloatOps F] in
/-- Putting them back. -/
theorem out_join (c : Dev nD) (f : OutBuf (F := F) c) :
    iprop((oM.view.loc (c : Thread nD τ) ↦[Finset.univ \ theirs c]{fullShare} f) ∗ rows8 c f)
      ⊢ (oM.view.loc (c : Thread nD τ) ↦{fullShare} f : sProp 𝕄) := by
  have h := (pointsTo_split_subset (nD := nD) (τ := τ) (sig := sig) (Ix := Unit) (Val := Elt F) (Name := ℕ) (U := UU) (Lvl := ℕ) (ℓ := oM.view.loc (c : Thread nD τ)) (q := fullShare) (f := f) (I := theirs c) (S := Finset.univ) (Finset.subset_univ _)).2
  rw [theirs_pts] at h
  exact sep_comm.1.trans h

end Cert.KernelIdeal.Xchg

end
-- ==== Proof.Levels.lean ====
/-
  No wait of the exchange can deadlock: a device waits on its barrier cell (level 1) or on a local transfer's cell
  (level 0) only while what it still owes are chunk credits to its partner's receive cells (level 2).
-/
import proofs.«900625_g7700000000000626_dist_a2a_v7x_xyz2x2x2_y_m8192_n1024_bf16_1_alg».proof.Proof.Inv

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A tally in which only the partner's receive cells occur. -/
def OnlyRecv (c : Dev nD) (O : CellTallies nD τ sig Unit) : Prop := ∀ g u, 0 < O g u → ∃ k, g = recvCell (peer c) k

theorem onlyRecv_zero (c : Dev nD) : OnlyRecv c 0 := fun g u h => absurd h (Nat.lt_irrefl 0)
theorem onlyRecv_add {c : Dev nD} {O : CellTallies nD τ sig Unit} (h : OnlyRecv c O) (k : Fin 8) : OnlyRecv c (O + tRecv c k) :=
  fun g u hg => by
    rcases Pipeline.add_pos_cases hg with hg | hg
    · exact h g u hg
    · exact ⟨k, (Pipeline.tallyAt_pos hg).1⟩

theorem onlyRecv7 (c : Dev nD) : OnlyRecv c (owed7 c) := onlyRecv_add (onlyRecv_zero c) 7
theorem onlyRecv6 (c : Dev nD) : OnlyRecv c (owed6 c) := onlyRecv_add (onlyRecv7 c) 6
theorem onlyRecv5 (c : Dev nD) : OnlyRecv c (owed5 c) := onlyRecv_add (onlyRecv6 c) 5
theorem onlyRecv4 (c : Dev nD) : OnlyRecv c (owed4 c) := onlyRecv_add (onlyRecv5 c) 4
theorem onlyRecv3 (c : Dev nD) : OnlyRecv c (owed3 c) := onlyRecv_add (onlyRecv4 c) 3
theorem onlyRecv2 (c : Dev nD) : OnlyRecv c (owed2 c) := onlyRecv_add (onlyRecv3 c) 2
theorem onlyRecv1 (c : Dev nD) : OnlyRecv c (owed1 c) := onlyRecv_add (onlyRecv2 c) 1
theorem onlyRecv0 (c : Dev nD) : OnlyRecv c (owed0 c) := onlyRecv_add (onlyRecv1 c) 0

theorem lv_recv (c : Dev nD) (k : Fin 8) : lv (recvCell c k) () = 2 := by
  dsimp only [lv]; rw [if_neg (recv_ne_bar k), recvIx_recv]; rfl

omit [FloatOps F] in
/-- A wait on a cell below level 2 is allowed while only chunk credits are owed. -/
theorem mayWait_below (c : Dev nD) (sm : SemLoc sig) (hsm : lv ((c : Thread nD τ), sm) () < 2) {O : CellTallies nD τ sig Unit} (hO : OnlyRecv c O) :
    (levAts L lv : sProp 𝕄) ⊢ MayWait (c : Thread nD τ) sm () O :=
  Pipeline.mayWait_of_levAts (by rw [L_tc]; exact Finset.mem_singleton_self _) fun g i hg => by
    obtain ⟨k, rfl⟩ := hO g i hg
    refine ⟨by rw [L_tc]; exact Finset.mem_singleton_self _, ?_⟩
    cases i; rw [lv_recv]; exact hsm

theorem lv_bar (c : Dev nD) : lv (barCell c) () < 2 := by dsimp only [lv]; rw [if_pos rfl]; decide
theorem lv_local (c : Dev nD) (q : DmaSem sig) (hq : q.val < 14) : lv ((c : Thread nD τ), SemLoc.dma q) () < 2 := by
  dsimp only [lv]; rw [if_neg (fun h => by cases h)]
  have : recvIx (SemLoc.dma q : SemLoc sig) = none := by dsimp only [recvIx]; rw [dif_neg (by omega)]
  rw [this]; decide

end Cert.KernelIdeal.Xchg

end
-- ==== Proof.Rules.lean ====
/-
  The remote copy of one chunk, stated over the exchange's cells: the sender pays its own send duty with the staging
  chunk (which the send cell hands back) and its partner's receive duty with the partner's rows rewritten — which are
  the rows of the partner's expected result, when the chunk carried is the right one.
-/
import proofs.«900625_g7700000000000626_dist_a2a_v7x_xyz2x2x2_y_m8192_n1024_bf16_1_alg».proof.Proof.OutSplit
import proofs.«900625_g7700000000000626_dist_a2a_v7x_xyz2x2x2_y_m8192_n1024_bf16_1_alg».proof.Proof.Levels

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (G : (c : Dev nD) → OutBuf (F := F) c)

/-! ## The staging buffer's chunks -/

theorem stg_set (k : Fin 8) : (stgM k).view.set
    = (Rect.unit (s := S8192x1024) ![1024 * k.val, 0] S1024x1024.size (stg_inb k)).set := View.set_slice_whole cc0_scratch2 _

theorem stg_disjoint (k j : Fin 8) (h : k ≠ j) : Disjoint (stgM k).view.set (stgM j).view.set := by
  rw [stg_set, stg_set]
  refine Rect.unit_disjoint 0 ?_
  show 1024 * k.val + 1024 ≤ 1024 * j.val ∨ 1024 * j.val + 1024 ≤ 1024 * k.val
  have : k.val ≠ j.val := fun e => h (Fin.ext e)
  omega

omit [FloatOps F] in
theorem payload_bar_peer (c : Dev nD) (d : Unit) : (xRd (F := F) m G).payload (barCell (peer c)) 0 d = rows8 c (m _) := by
  rw [payload_bar]
  have h : ∀ c' : Dev nD, peer c' = c → barPay m c' = rows8 c (m _) := fun c' h => by subst h; rfl
  exact h (peer c) (peer_peer c)

/-- The rows the partner's chunk k lands in, seen from the sender. -/
theorem dst_set_peer (c : Dev nD) (k : Fin 8) :
    ((dstM (peer (peer c)) k).view.set : Finset (oM.view.ty.Idx)) = (dstM c k).view.set := by rw [peer_peer]

omit [FloatOps F] in
/-- The partner's rows, as the barrier hands them over, are the rows the sender's chunk k lands in. -/
theorem rowsPts_peer (c : Dev nD) (k : Fin 8) (f : OutBuf (F := F) (peer c)) :
    (rowsPts (peer c) k f : sProp 𝕄) = (oM.view.loc (peer c : Thread nD τ) ↦[(dstM c k).view.set]{fullShare} f) := by
  unfold rowsPts; rw [dst_set_peer]

/-- The remote copy of chunk k from c to n = peer c. -/
theorem wp_send_chunk (c n : Dev nD) (hn : n = peer c) (k : Fin 8)
    {hsc : (dstM c k : Memref sig (Dev.tc n : Thread nD τ).2.kind .hbm S1024x1024 .bf16).view.ref.isScScratch = false}
    {hsrc : (stgM k).view.WordExact} {hdst : (dstM c k : Memref sig (Dev.tc n : Thread nD τ).2.kind .hbm S1024x1024 .bf16).view.WordExact}
    {hsem : DmaTarget.Typed .vmem (.dma (recvS k)) (.remote (Dev.tc n : Thread nD τ) (dstM c k) (.dma (sendS k)) hsc)}
    {α : Type} {Q : α → sProp 𝕄} {kont : PUnit → Prog (TpuEff nD τ sig (Elt F) Λ₀ .tc) α}
    (fs : Buf (Elt F) (sgM.view.loc (c : Thread nD τ))) (fd : OutBuf (F := F) (peer c))
    (W : Waits sig Unit) (O₁ O : CellTallies nD τ sig Unit) (hO : O₁ = O + tallyAt (recvCell (peer c) k) () N) (κ₁ κ₂ : ℕ)
    (hval : ∀ i ∈ (dstM c k).view.set, (dstM c k).view.write (Elt F) fd ((stgM k).view.read (Elt F) fs) Finset.univ i = G (peer c) i) :
    iprop(cellInv ER (xRd m G) κ₁ (sendCell c k) ∗ cellInv ER (xRd m G) κ₂ (recvCell (peer c) k)
        ∗ (sgM.view.loc (c : Thread nD τ) ↦[(stgM k).view.set]{fullShare} fs) ∗ (oM.view.loc (peer c : Thread nD τ) ↦[(dstM c k).view.set]{fullShare} fd)
        ∗ owes (c : Thread nD τ) O₁ W
        ∗ dutyTok ER (sendCell c k) 0 () ∗ reached ER (sendCell c k) 0
        ∗ dutyTok ER (recvCell (peer c) k) 0 () ∗ reached ER (recvCell (peer c) k) 0)
      ⊢ iprop(((cred (tallyAt (sendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (stgM k) (.remote (Dev.tc n : Thread nD τ) (dstM c k) (.dma (sendS k)) hsc) (.dma (recvS k)) hsrc hdst hsem) kont) Q) := by
  subst hn
  exact Rounds.wp_send_pointsTo 𝒱₀ ER (xRd m G) (c : Thread nD τ) none (c' := (peer c : Thread nD τ)) (src := stgM k) (dst := dstM c k) (q := fullShare)
    (sS := .dma (sendS k)) (sem := .dma (recvS k)) (hsc := hsc) (hsrc := hsrc) (hdst := hdst) (hsem := hsem) (k := kont) (Q := Q) (α := α) (κ₁ := κ₁) (κ₂ := κ₂)
    (r₁ := 0) (r₂ := 0) (d₁ := ()) (d₂ := ()) (fd := fd) (fs := fs)
    (by rw [duties_send]; exact Finset.mem_singleton_self _) (by rw [duties_recv]; exact Finset.mem_singleton_self _)
    () () N rfl (amount_send m G c k ()) (amount_recv m G (peer c) k ()) O hO (W := W)
    (by rw [payload_send]; unfold sendPay stgPts; iintro H; iexists fs; iexact H)
    (by
      rw [payload_recv]; unfold recvPay rowsPts
      rw [dst_set_peer, pointsTo_congr (f := G (peer c)) (fun i hi => (hval i hi).symm)])

end Cert.KernelIdeal.Xchg

end
-- ==== Proof.Value.lean ====
/-
  What the exchange moves, element by element.

  Chunk k of device c is rows 1024 k … 1024 k + 1023 of its row block of x.  The column half its partner keeps is
  converted to the result's format and sent into rows 8192 y(c) + 1024 k … of the partner's result; the half it keeps
  itself is converted and copied into the same rows of its own result.  So row 8192 y' + r', column j of the result of
  a device c is the conversion of x's entry (r', 1024 y(c) + j) on the device of the pair {c, partner} whose y is y'.

  The contents the kernel's buffers hold along the way are read back here over arbitrary prior contents: what a slot
  of a scratch buffer holds after a transfer into it, what each of the kernel's conversions makes of it, what a chunk
  of the staging buffers holds after the store, and so what each remote and each local transfer carries.
-/
import proofs.«900625_g7700000000000626_dist_a2a_v7x_xyz2x2x2_y_m8192_n1024_bf16_1_alg».proof.Proof.Rules
import proofs.«900625_g7700000000000626_dist_a2a_v7x_xyz2x2x2_y_m8192_n1024_bf16_1_alg».proof.Proof.Gen.KernelIdeal.Skeleton
import Idealize.ShloMosaic.Lib.Pipeline.Value
import Idealize.ShloMosaic.Lib.ValueIdx
import Idealize.ShloMosaic.Lib.Writes

noncomputable section

namespace Cert.KernelIdeal.Xchg

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-! ## The conversion, the windows of x, the blocks moved and the expected result -/

/-- The conversion of one element to the result's format: what the kernel's vector conversion applies at every index. -/
def trunc1 (a : Elt F .f32) : Elt F .bf16 := FloatOps.truncf (F := F) .bf16 bitsLt_bf16_f32 a

theorem truncf_at {s : Shape} (v : FVec F s .f32) (h : FTy.bits .bf16 < FTy.bits .f32) (i : s.Idx) : truncf .bf16 v h i = trunc1 (v i) := rfl

/-- Entry (r, q) of device d's row block of x, as launched. -/
def xAt (d : Dev nD) (r : Fin 8192) (q : Fin 2048) : Elt F .f32 := m (xM.view.loc (d : Thread nD τ)) (ix2 r q)

omit [FloatOps F] in
theorem xAt_congr {d d' : Dev nD} {r r' : Fin 8192} {q q' : Fin 2048} (hd : d = d') (hr : r.val = r'.val) (hq : q.val = q'.val) :
    xAt m d r q = xAt m d' r' q' := by
  subst hd; rw [Fin.ext hr, Fin.ext hq]

theorem xsend_inb (c : Dev nD) (k : Fin 8) :
    ∀ a, (![1024 * k.val, 1024 - 1024 * yOf c] : Fin 2 → Nat) a + S1024x1024.size a ≤ S8192x2048.size a := by
  have := yOf_lt c; have := k.isLt
  exact Rect.inb₂ (by show 1024 * k.val + 1024 ≤ 8192; omega) (by show 1024 - 1024 * yOf c + 1024 ≤ 2048; omega)
theorem xkeep_inb (c : Dev nD) (k : Fin 8) :
    ∀ a, (![1024 * k.val, 1024 * yOf c] : Fin 2 → Nat) a + S1024x1024.size a ≤ S8192x2048.size a := by
  have := yOf_lt c; have := k.isLt
  exact Rect.inb₂ (by show 1024 * k.val + 1024 ≤ 8192; omega) (by show 1024 * yOf c + 1024 ≤ 2048; omega)

/-- The window of x chunk k sends: its rows, the column half the partner keeps. -/
abbrev xsendM (c : Dev nD) (k : Fin 8) : Memref sig .tc .hbm S1024x1024 .f32 :=
  xM.slice (Rect.unit (s := S8192x2048) ![1024 * k.val, 1024 - 1024 * yOf c] S1024x1024.size (xsend_inb c k)) (fun _ => rfl)
/-- The window of x chunk k keeps: its rows, the device's own column half. -/
abbrev xkeepM (c : Dev nD) (k : Fin 8) : Memref sig .tc .hbm S1024x1024 .f32 :=
  xM.slice (Rect.unit (s := S8192x2048) ![1024 * k.val, 1024 * yOf c] S1024x1024.size (xkeep_inb c k)) (fun _ => rfl)

theorem xwin_congr {off off' : Fin 2 → Nat} (h : off = off') {inb inb'} :
    xM.slice (Rect.unit (s := S8192x2048) off S1024x1024.size inb) (fun _ => rfl)
      = xM.slice (Rect.unit (s := S8192x2048) off' S1024x1024.size inb') (fun _ => rfl) := by
  subst h; rfl

/-! The program's sixteen windows are these. -/
theorem xwin_send0 (c : Dev nD) : xM.slice (Rect.unit (s := S8192x2048) (k0_off1 c) S1024x1024.size (k0_off1_inb c)) (fun _ => rfl) = xsendM c 0 :=
  xwin_congr ((k0_off1_eq c).trans rfl)
theorem xwin_keep0 (c : Dev nD) : xM.slice (Rect.unit (s := S8192x2048) (k0_off2 c) S1024x1024.size (k0_off2_inb c)) (fun _ => rfl) = xkeepM c 0 :=
  xwin_congr ((k0_off2_eq c).trans rfl)
theorem xwin_send1 (c : Dev nD) : xM.slice (Rect.unit (s := S8192x2048) (k0_off4 c) S1024x1024.size (k0_off4_inb c)) (fun _ => rfl) = xsendM c 1 :=
  xwin_congr ((k0_off4_eq c).trans rfl)
theorem xwin_keep1 (c : Dev nD) : xM.slice (Rect.unit (s := S8192x2048) (k0_off5 c) S1024x1024.size (k0_off5_inb c)) (fun _ => rfl) = xkeepM c 1 :=
  xwin_congr ((k0_off5_eq c).trans rfl)
theorem xwin_send2 (c : Dev nD) : xM.slice (Rect.unit (s := S8192x2048) (k0_off6 c) S1024x1024.size (k0_off6_inb c)) (fun _ => rfl) = xsendM c 2 :=
  xwin_congr ((k0_off6_eq c).trans rfl)
theorem xwin_keep2 (c : Dev nD) : xM.slice (Rect.unit (s := S8192x2048) (k0_off7 c) S1024x1024.size (k0_off7_inb c)) (fun _ => rfl) = xkeepM c 2 :=
  xwin_congr ((k0_off7_eq c).trans rfl)
theorem xwin_send3 (c : Dev nD) : xM.slice (Rect.unit (s := S8192x2048) (k0_off8 c) S1024x1024.size (k0_off8_inb c)) (fun _ => rfl) = xsendM c 3 :=
  xwin_congr ((k0_off8_eq c).trans rfl)
theorem xwin_keep3 (c : Dev nD) : xM.slice (Rect.unit (s := S8192x2048) (k0_off9 c) S1024x1024.size (k0_off9_inb c)) (fun _ => rfl) = xkeepM c 3 :=
  xwin_congr ((k0_off9_eq c).trans rfl)
theorem xwin_send4 (c : Dev nD) : xM.slice (Rect.unit (s := S8192x2048) (k0_off10 c) S1024x1024.size (k0_off10_inb c)) (fun _ => rfl) = xsendM c 4 :=
  xwin_congr ((k0_off10_eq c).trans rfl)
theorem xwin_keep4 (c : Dev nD) : xM.slice (Rect.unit (s := S8192x2048) (k0_off11 c) S1024x1024.size (k0_off11_inb c)) (fun _ => rfl) = xkeepM c 4 :=
  xwin_congr ((k0_off11_eq c).trans rfl)
theorem xwin_send5 (c : Dev nD) : xM.slice (Rect.unit (s := S8192x2048) (k0_off12 c) S1024x1024.size (k0_off12_inb c)) (fun _ => rfl) = xsendM c 5 :=
  xwin_congr ((k0_off12_eq c).trans rfl)
theorem xwin_keep5 (c : Dev nD) : xM.slice (Rect.unit (s := S8192x2048) (k0_off13 c) S1024x1024.size (k0_off13_inb c)) (fun _ => rfl) = xkeepM c 5 :=
  xwin_congr ((k0_off13_eq c).trans rfl)
theorem xwin_send6 (c : Dev nD) : xM.slice (Rect.unit (s := S8192x2048) (k0_off14 c) S1024x1024.size (k0_off14_inb c)) (fun _ => rfl) = xsendM c 6 :=
  xwin_congr ((k0_off14_eq c).trans rfl)
theorem xwin_keep6 (c : Dev nD) : xM.slice (Rect.unit (s := S8192x2048) (k0_off15 c) S1024x1024.size (k0_off15_inb c)) (fun _ => rfl) = xkeepM c 6 :=
  xwin_congr ((k0_off15_eq c).trans rfl)
theorem xwin_send7 (c : Dev nD) : xM.slice (Rect.unit (s := S8192x2048) (k0_off16 c) S1024x1024.size (k0_off16_inb c)) (fun _ => rfl) = xsendM c 7 :=
  xwin_congr ((k0_off16_eq c).trans rfl)
theorem xwin_keep7 (c : Dev nD) : xM.slice (Rect.unit (s := S8192x2048) (k0_off17 c) S1024x1024.size (k0_off17_inb c)) (fun _ => rfl) = xkeepM c 7 :=
  xwin_congr ((k0_off17_eq c).trans rfl)

omit [FloatOps F] in
/-- Read through them (an equation of memrefs does not rewrite under the type of the contents read): -/
theorem xread_congr {c : Dev nD} {off off' : Fin 2 → Nat} (h : off = off') {inb inb'} (fx : Buf (Elt F) (xM.view.loc (c : Thread nD τ))) :
    (xM.slice (Rect.unit (s := S8192x2048) off S1024x1024.size inb) (fun _ => rfl)).view.read (Elt F) fx
      = (xM.slice (Rect.unit (s := S8192x2048) off' S1024x1024.size inb') (fun _ => rfl)).view.read (Elt F) fx := by
  subst h; rfl
theorem xread_send0 (c : Dev nD) (fx : Buf (Elt F) (xM.view.loc (c : Thread nD τ))) :
    (xM.slice (Rect.unit (s := S8192x2048) (k0_off1 c) S1024x1024.size (k0_off1_inb c)) (fun _ => rfl)).view.read (Elt F) fx = (xsendM c 0).view.read (Elt F) fx :=
  xread_congr ((k0_off1_eq c).trans rfl) fx
theorem xread_keep0 (c : Dev nD) (fx : Buf (Elt F) (xM.view.loc (c : Thread nD τ))) :
    (xM.slice (Rect.unit (s := S8192x2048) (k0_off2 c) S1024x1024.size (k0_off2_inb c)) (fun _ => rfl)).view.read (Elt F) fx = (xkeepM c 0).view.read (Elt F) fx :=
  xread_congr ((k0_off2_eq c).trans rfl) fx
theorem xread_send1 (c : Dev nD) (fx : Buf (Elt F) (xM.view.loc (c : Thread nD τ))) :
    (xM.slice (Rect.unit (s := S8192x2048) (k0_off4 c) S1024x1024.size (k0_off4_inb c)) (fun _ => rfl)).view.read (Elt F) fx = (xsendM c 1).view.read (Elt F) fx :=
  xread_congr ((k0_off4_eq c).trans rfl) fx
theorem xread_keep1 (c : Dev nD) (fx : Buf (Elt F) (xM.view.loc (c : Thread nD τ))) :
    (xM.slice (Rect.unit (s := S8192x2048) (k0_off5 c) S1024x1024.size (k0_off5_inb c)) (fun _ => rfl)).view.read (Elt F) fx = (xkeepM c 1).view.read (Elt F) fx :=
  xread_congr ((k0_off5_eq c).trans rfl) fx
theorem xread_send2 (c : Dev nD) (fx : Buf (Elt F) (xM.view.loc (c : Thread nD τ))) :
    (xM.slice (Rect.unit (s := S8192x2048) (k0_off6 c) S1024x1024.size (k0_off6_inb c)) (fun _ => rfl)).view.read (Elt F) fx = (xsendM c 2).view.read (Elt F) fx :=
  xread_congr ((k0_off6_eq c).trans rfl) fx
theorem xread_keep2 (c : Dev nD) (fx : Buf (Elt F) (xM.view.loc (c : Thread nD τ))) :
    (xM.slice (Rect.unit (s := S8192x2048) (k0_off7 c) S1024x1024.size (k0_off7_inb c)) (fun _ => rfl)).view.read (Elt F) fx = (xkeepM c 2).view.read (Elt F) fx :=
  xread_congr ((k0_off7_eq c).trans rfl) fx
theorem xread_send3 (c : Dev nD) (fx : Buf (Elt F) (xM.view.loc (c : Thread nD τ))) :
    (xM.slice (Rect.unit (s := S8192x2048) (k0_off8 c) S1024x1024.size (k0_off8_inb c)) (fun _ => rfl)).view.read (Elt F) fx = (xsendM c 3).view.read (Elt F) fx :=
  xread_congr ((k0_off8_eq c).trans rfl) fx
theorem xread_keep3 (c : Dev nD) (fx : Buf (Elt F) (xM.view.loc (c : Thread nD τ))) :
    (xM.slice (Rect.unit (s := S8192x2048) (k0_off9 c) S1024x1024.size (k0_off9_inb c)) (fun _ => rfl)).view.read (Elt F) fx = (xkeepM c 3).view.read (Elt F) fx :=
  xread_congr ((k0_off9_eq c).trans rfl) fx
theorem xread_send4 (c : Dev nD) (fx : Buf (Elt F) (xM.view.loc (c : Thread nD τ))) :
    (xM.slice (Rect.unit (s := S8192x2048) (k0_off10 c) S1024x1024.size (k0_off10_inb c)) (fun _ => rfl)).view.read (Elt F) fx = (xsendM c 4).view.read (Elt F) fx :=
  xread_congr ((k0_off10_eq c).trans rfl) fx
theorem xread_keep4 (c : Dev nD) (fx : Buf (Elt F) (xM.view.loc (c : Thread nD τ))) :
    (xM.slice (Rect.unit (s := S8192x2048) (k0_off11 c) S1024x1024.size (k0_off11_inb c)) (fun _ => rfl)).view.read (Elt F) fx = (xkeepM c 4).view.read (Elt F) fx :=
  xread_congr ((k0_off11_eq c).trans rfl) fx
theorem xread_send5 (c : Dev nD) (fx : Buf (Elt F) (xM.view.loc (c : Thread nD τ))) :
    (xM.slice (Rect.unit (s := S8192x2048) (k0_off12 c) S1024x1024.size (k0_off12_inb c)) (fun _ => rfl)).view.read (Elt F) fx = (xsendM c 5).view.read (Elt F) fx :=
  xread_congr ((k0_off12_eq c).trans rfl) fx
theorem xread_keep5 (c : Dev nD) (fx : Buf (Elt F) (xM.view.loc (c : Thread nD τ))) :
    (xM.slice (Rect.unit (s := S8192x2048) (k0_off13 c) S1024x1024.size (k0_off13_inb c)) (fun _ => rfl)).view.read (Elt F) fx = (xkeepM c 5).view.read (Elt F) fx :=
  xread_congr ((k0_off13_eq c).trans rfl) fx
theorem xread_send6 (c : Dev nD) (fx : Buf (Elt F) (xM.view.loc (c : Thread nD τ))) :
    (xM.slice (Rect.unit (s := S8192x2048) (k0_off14 c) S1024x1024.size (k0_off14_inb c)) (fun _ => rfl)).view.read (Elt F) fx = (xsendM c 6).view.read (Elt F) fx :=
  xread_congr ((k0_off14_eq c).trans rfl) fx
theorem xread_keep6 (c : Dev nD) (fx : Buf (Elt F) (xM.view.loc (c : Thread nD τ))) :
    (xM.slice (Rect.unit (s := S8192x2048) (k0_off15 c) S1024x1024.size (k0_off15_inb c)) (fun _ => rfl)).view.read (Elt F) fx = (xkeepM c 6).view.read (Elt F) fx :=
  xread_congr ((k0_off15_eq c).trans rfl) fx
theorem xread_send7 (c : Dev nD) (fx : Buf (Elt F) (xM.view.loc (c : Thread nD τ))) :
    (xM.slice (Rect.unit (s := S8192x2048) (k0_off16 c) S1024x1024.size (k0_off16_inb c)) (fun _ => rfl)).view.read (Elt F) fx = (xsendM c 7).view.read (Elt F) fx :=
  xread_congr ((k0_off16_eq c).trans rfl) fx
theorem xread_keep7 (c : Dev nD) (fx : Buf (Elt F) (xM.view.loc (c : Thread nD τ))) :
    (xM.slice (Rect.unit (s := S8192x2048) (k0_off17 c) S1024x1024.size (k0_off17_inb c)) (fun _ => rfl)).view.read (Elt F) fx = (xkeepM c 7).view.read (Elt F) fx :=
  xread_congr ((k0_off17_eq c).trans rfl) fx

/-- The block chunk k sends, over x at contents fx; and the block it keeps. -/
def sendBlkOf (c : Dev nD) (fx : Buf (Elt F) (xM.view.loc (c : Thread nD τ))) (k : Fin 8) : S1024x1024.Idx → Elt F .bf16 :=
  fun j => trunc1 ((xsendM c k).view.read (Elt F) fx j)
def keepBlkOf (c : Dev nD) (fx : Buf (Elt F) (xM.view.loc (c : Thread nD τ))) (k : Fin 8) : S1024x1024.Idx → Elt F .bf16 :=
  fun j => trunc1 ((xkeepM c k).view.read (Elt F) fx j)

/-- The same over x as launched. -/
abbrev sendBlk (c : Dev nD) (k : Fin 8) : S1024x1024.Idx → Elt F .bf16 := sendBlkOf c (m (xM.view.loc (c : Thread nD τ))) k
abbrev keepBlk (c : Dev nD) (k : Fin 8) : S1024x1024.Idx → Elt F .bf16 := keepBlkOf c (m (xM.view.loc (c : Thread nD τ))) k

theorem sendBlk_apply (c : Dev nD) (k : Fin 8) (j : S1024x1024.Idx) :
    sendBlk m c k j = trunc1 (xAt m c ⟨1024 * k.val + (j 0).val, by have := k.isLt; have := idx2_lt0 j; omega⟩
      ⟨1024 - 1024 * yOf c + (j 1).val, by have := yOf_lt c; have := idx2_lt1 j; omega⟩) := by
  unfold sendBlk sendBlkOf xAt
  refine congrArg trunc1 ?_
  rw [View.read_apply]
  refine (cast_eq _ _).trans (congrArg (m (xM.view.loc (c : Thread nD τ))) ?_)
  funext a
  match a with
  | ⟨0, _⟩ => exact Fin.ext (by show 1024 * k.val + 1 * (j 0).val = 1024 * k.val + (j 0).val; omega)
  | ⟨1, _⟩ => exact Fin.ext (by show 1024 - 1024 * yOf c + 1 * (j 1).val = 1024 - 1024 * yOf c + (j 1).val; omega)

theorem keepBlk_apply (c : Dev nD) (k : Fin 8) (j : S1024x1024.Idx) :
    keepBlk m c k j = trunc1 (xAt m c ⟨1024 * k.val + (j 0).val, by have := k.isLt; have := idx2_lt0 j; omega⟩
      ⟨1024 * yOf c + (j 1).val, by have := yOf_lt c; have := idx2_lt1 j; omega⟩) := by
  unfold keepBlk keepBlkOf xAt
  refine congrArg trunc1 ?_
  rw [View.read_apply]
  refine (cast_eq _ _).trans (congrArg (m (xM.view.loc (c : Thread nD τ))) ?_)
  funext a
  match a with
  | ⟨0, _⟩ => exact Fin.ext (by show 1024 * k.val + 1 * (j 0).val = 1024 * k.val + (j 0).val; omega)
  | ⟨1, _⟩ => exact Fin.ext (by show 1024 * yOf c + 1 * (j 1).val = 1024 * yOf c + (j 1).val; omega)

/-- Of a device and its partner, the one whose y is y'. -/
def srcDev (c : Dev nD) (y' : ℕ) : Dev nD := if yOf c = y' then c else peer c

/-- The expected result of device c: row 8192 y' + r', column j holds the conversion of entry (r', 1024 y(c) + j) of x on
    the device of the pair whose y is y'. -/
def Gx (c : Dev nD) : OutBuf (F := F) c := fun (i : S16384x1024.Idx) =>
  trunc1 (xAt m (srcDev c ((i 0).val / 8192)) ⟨(i 0).val % 8192, Nat.mod_lt _ (by decide)⟩
    ⟨1024 * yOf c + (i 1).val, by have := yOf_lt c; have := idx2_lt1 i; omega⟩)

/-! ## Reading the scratch buffers back, over arbitrary prior contents -/

section ReadBack

variable {κ : Kind} {sp : Space} {s s' : Shape} {e : EltTy} {Val : EltTy → Type}

/-- A load at a slot's rectangle, after a transfer into the squeezed slot: the block transferred, re-indexed to the
    rectangle's shape. -/
theorem readAt_write_squeeze (M : Memref sig κ sp s e) (r : Rect s) (hr : ∀ a, r.stride a = 1) (hq : r.shape.Squeezes s')
    (f : M.view.ty.Contents Val) (blk : s'.Idx → Val e) (hc : s'.ShapeCasts r.shape) :
    M.view.readAt Val r.toLoadRect (((M.slice r hr).squeeze s' hq).view.write Val f blk Finset.univ) = shapeCast r.shape blk hc := by
  rw [View.readAt_rect]
  show (M.view.slice r).read Val (((M.view.slice r).reshape s' hq.numel_eq).write Val f blk Finset.univ) = _
  rw [View.write_reshape_univ, View.read_write_univ]
  funext j
  unfold shapeCast
  rw [Shape.reshapeEquiv_symm]

/-- A rectangle of a buffer, read after stores of which the last went through that rectangle: that store's payload. -/
theorem read_slice_writes_head (v : View sig κ sp s e) (r : Rect s) (g : v.ty.Contents Val) (w : r.shape.Idx → Val e)
    (P : List (View.Piece Val s e)) : (v.slice r).read Val (v.writes Val g (⟨r, w⟩ :: P)) = w :=
  View.read_write_univ _ _

/-- The same through the squeezed rectangle: the payload re-indexed. -/
theorem read_squeeze_writes_head (M : Memref sig κ sp s e) (r : Rect s) (hr : ∀ a, r.stride a = 1) (hq : r.shape.Squeezes s')
    (g : M.view.ty.Contents Val) (w : r.shape.Idx → Val e) (P : List (View.Piece Val s e)) (hc : r.shape.ShapeCasts s') :
    ((M.slice r hr).squeeze s' hq).view.read Val (M.view.writes Val g (⟨r, w⟩ :: P)) = shapeCast s' w hc := by
  rw [Memref.read_squeeze_slice M r hr hq hc, View.readAt_rect, View.writes_cons, View.read_write_univ]

/-- A load at one rectangle does not see a transfer into a squeezed rectangle disjoint from it. -/
theorem readAt_write_squeeze_other (M : Memref sig κ sp s e) (r r' : Rect s) (hr' : ∀ a, r'.stride a = 1) (hq' : r'.shape.Squeezes s')
    (hd : Disjoint r.set r'.set) (f : M.view.ty.Contents Val) (blk' : s'.Idx → Val e) :
    M.view.readAt Val r.toLoadRect (((M.slice r' hr').squeeze s' hq').view.write Val f blk' Finset.univ) = M.view.readAt Val r.toLoadRect f := by
  refine View.readAt_congr fun i hi => View.write_of_not_mem _ _ _ ?_
  rw [View.setOn_univ, show ((M.slice r' hr').squeeze s' hq').view.set = (M.view.slice r').set from View.set_reshape _ _, View.set_slice]
  intro hi'
  obtain ⟨a, ha, rfl⟩ := Finset.mem_map.mp hi
  obtain ⟨b, hb, hab⟩ := Finset.mem_map.mp hi'
  have hba := M.view.emb.injective hab
  subst hba
  exact Finset.disjoint_left.mp hd ha hb

end ReadBack

theorem slot_disjoint_01 : Disjoint (Rect.unit (s := S2x1024x1024) ![0, 0, 0] S1x1024x1024.size inb_S2x1024x1024_S1x1024x1024_0_0_0).set (Rect.unit (s := S2x1024x1024) ![1, 0, 0] S1x1024x1024.size inb_S2x1024x1024_S1x1024x1024_1_0_0).set :=
  Rect.unit_disjoint 0 (Or.inl (by decide))
theorem slot_disjoint_10 : Disjoint (Rect.unit (s := S2x1024x1024) ![1, 0, 0] S1x1024x1024.size inb_S2x1024x1024_S1x1024x1024_1_0_0).set (Rect.unit (s := S2x1024x1024) ![0, 0, 0] S1x1024x1024.size inb_S2x1024x1024_S1x1024x1024_0_0_0).set :=
  Rect.unit_disjoint 0 (Or.inr (by decide))

/-- Chunk k of the send staging buffer after stores of which the last was chunk k's: that store's payload. -/
theorem stg_read_head (k : Fin 8) (g : sgM.view.ty.Contents (Elt F)) (w : S1024x1024.Idx → Elt F .bf16)
    (P : List (View.Piece (Elt F) S8192x1024 .bf16)) :
    (stgM k).view.read (Elt F) (sgM.view.writes (Elt F) g (⟨Rect.unit (s := S8192x1024) ![1024 * k.val, 0] S1024x1024.size (stg_inb k), w⟩ :: P)) = w :=
  View.read_write_univ _ _

/-! ### What the kernel's conversions make of a block re-indexed to a slot's shape -/
theorem pay1_cast (blk : S1024x1024.Idx → Elt F .f32) (hc : S1024x1024.ShapeCasts S1x1024x1024) :
    k0_pay1 (shapeCast S1x1024x1024 blk hc) = fun j => trunc1 (blk j) := by
  show shapeCast S1024x1024 (truncf .bf16 (shapeCast S1024x1024 (shapeCast S1x1024x1024 blk hc) shapeCasts_S1x1024x1024_S1024x1024) bitsLt_bf16_f32) shapeCasts_S1024x1024_S1024x1024 = _
  rw [shapeCast_self, shapeCast_shapeCast]; rfl
theorem pay3_cast (blk : S1024x1024.Idx → Elt F .f32) (hc : S1024x1024.ShapeCasts S1x1024x1024) :
    k0_pay3 (shapeCast S1x1024x1024 blk hc) = fun j => trunc1 (blk j) := by
  show shapeCast S1024x1024 (truncf .bf16 (shapeCast S1024x1024 (shapeCast S1x1024x1024 blk hc) shapeCasts_S1x1024x1024_S1024x1024) bitsLt_bf16_f32) shapeCasts_S1024x1024_S1024x1024 = _
  rw [shapeCast_self, shapeCast_shapeCast]; rfl
theorem pay5_cast (blk : S1024x1024.Idx → Elt F .f32) (hc : S1024x1024.ShapeCasts S1x1024x1024) :
    k0_pay5 (shapeCast S1x1024x1024 blk hc) = fun j => trunc1 (blk j) := by
  show truncf .bf16 (shapeCast S1024x1024 (shapeCast S1x1024x1024 blk hc) shapeCasts_S1x1024x1024_S1024x1024) bitsLt_bf16_f32 = _
  rw [shapeCast_shapeCast]; rfl
theorem pay8_cast (blk : S1024x1024.Idx → Elt F .f32) (hc : S1024x1024.ShapeCasts S1x1024x1024) :
    k0_pay8 (shapeCast S1x1024x1024 blk hc) = fun j => trunc1 (blk j) := by
  show truncf .bf16 (shapeCast S1024x1024 (shapeCast S1x1024x1024 blk hc) shapeCasts_S1x1024x1024_S1024x1024) bitsLt_bf16_f32 = _
  rw [shapeCast_shapeCast]; rfl
theorem pay14_cast (blk : S1024x1024.Idx → Elt F .f32) (hc : S1024x1024.ShapeCasts S1x1024x1024) :
    k0_pay14 (shapeCast S1x1024x1024 blk hc) = fun j => trunc1 (blk j) := by
  show shapeCast S1024x1024 (truncf .bf16 (shapeCast S1024x1024 (shapeCast S1x1024x1024 blk hc) shapeCasts_S1x1024x1024_S1024x1024) bitsLt_bf16_f32) shapeCasts_S1024x1024_S1024x1024 = _
  rw [shapeCast_self, shapeCast_shapeCast]; rfl
theorem pay16_cast (blk : S1024x1024.Idx → Elt F .f32) (hc : S1024x1024.ShapeCasts S1x1024x1024) :
    k0_pay16 (shapeCast S1x1024x1024 blk hc) = fun j => trunc1 (blk j) := by
  show shapeCast S1024x1024 (truncf .bf16 (shapeCast S1024x1024 (shapeCast S1x1024x1024 blk hc) shapeCasts_S1x1024x1024_S1024x1024) bitsLt_bf16_f32) shapeCasts_S1024x1024_S1024x1024 = _
  rw [shapeCast_self, shapeCast_shapeCast]; rfl
theorem pay18_cast (blk : S1024x1024.Idx → Elt F .f32) (hc : S1024x1024.ShapeCasts S1x1024x1024) :
    k0_pay18 (shapeCast S1x1024x1024 blk hc) = fun j => trunc1 (blk j) := by
  show shapeCast S1024x1024 (truncf .bf16 (shapeCast S1024x1024 (shapeCast S1x1024x1024 blk hc) shapeCasts_S1x1024x1024_S1024x1024) bitsLt_bf16_f32) shapeCasts_S1024x1024_S1024x1024 = _
  rw [shapeCast_self, shapeCast_shapeCast]; rfl
theorem pay2_cast (blk : S1024x1024.Idx → Elt F .f32) (hc : S1024x1024.ShapeCasts S1x1024x1024) :
    k0_pay2 (shapeCast S1x1024x1024 blk hc) = shapeCast S1x1024x1024 (fun j => trunc1 (blk j)) shapeCasts_S1024x1024_S1x1024x1024 := by
  show shapeCast S1x1024x1024 (truncf .bf16 (shapeCast S1024x1024 (shapeCast S1x1024x1024 blk hc) shapeCasts_S1x1024x1024_S1024x1024) bitsLt_bf16_f32) shapeCasts_S1024x1024_S1x1024x1024 = _
  rw [shapeCast_shapeCast]; rfl
theorem pay4_cast (blk : S1024x1024.Idx → Elt F .f32) (hc : S1024x1024.ShapeCasts S1x1024x1024) :
    k0_pay4 (shapeCast S1x1024x1024 blk hc) = shapeCast S1x1024x1024 (fun j => trunc1 (blk j)) shapeCasts_S1024x1024_S1x1024x1024 := by
  show shapeCast S1x1024x1024 (truncf .bf16 (shapeCast S1024x1024 (shapeCast S1x1024x1024 blk hc) shapeCasts_S1x1024x1024_S1024x1024) bitsLt_bf16_f32) shapeCasts_S1024x1024_S1x1024x1024 = _
  rw [shapeCast_shapeCast]; rfl
theorem pay7_cast (blk : S1024x1024.Idx → Elt F .f32) (hc : S1024x1024.ShapeCasts S1x1024x1024) :
    k0_pay7 (shapeCast S1x1024x1024 blk hc) = shapeCast S1x1024x1024 (fun j => trunc1 (blk j)) shapeCasts_S1024x1024_S1x1024x1024 := by
  show shapeCast S1x1024x1024 (truncf .bf16 (shapeCast S1024x1024 (shapeCast S1x1024x1024 blk hc) shapeCasts_S1x1024x1024_S1024x1024) bitsLt_bf16_f32) shapeCasts_S1024x1024_S1x1024x1024 = _
  rw [shapeCast_shapeCast]; rfl
theorem pay10_cast (blk : S1024x1024.Idx → Elt F .f32) (hc : S1024x1024.ShapeCasts S1x1024x1024) :
    k0_pay10 (shapeCast S1x1024x1024 blk hc) = shapeCast S1x1024x1024 (fun j => trunc1 (blk j)) shapeCasts_S1024x1024_S1x1024x1024 := by
  show shapeCast S1x1024x1024 (truncf .bf16 (shapeCast S1024x1024 (shapeCast S1x1024x1024 blk hc) shapeCasts_S1x1024x1024_S1024x1024) bitsLt_bf16_f32) shapeCasts_S1024x1024_S1x1024x1024 = _
  rw [shapeCast_shapeCast]; rfl
theorem pay13_cast (blk : S1024x1024.Idx → Elt F .f32) (hc : S1024x1024.ShapeCasts S1x1024x1024) :
    k0_pay13 (shapeCast S1x1024x1024 blk hc) = shapeCast S1x1024x1024 (fun j => trunc1 (blk j)) shapeCasts_S1024x1024_S1x1024x1024 := by
  show shapeCast S1x1024x1024 (truncf .bf16 (shapeCast S1024x1024 (shapeCast S1x1024x1024 blk hc) shapeCasts_S1x1024x1024_S1024x1024) bitsLt_bf16_f32) shapeCasts_S1024x1024_S1x1024x1024 = _
  rw [shapeCast_shapeCast]; rfl
theorem pay15_cast (blk : S1024x1024.Idx → Elt F .f32) (hc : S1024x1024.ShapeCasts S1x1024x1024) :
    k0_pay15 (shapeCast S1x1024x1024 blk hc) = shapeCast S1x1024x1024 (fun j => trunc1 (blk j)) shapeCasts_S1024x1024_S1x1024x1024 := by
  show shapeCast S1x1024x1024 (truncf .bf16 (shapeCast S1024x1024 (shapeCast S1x1024x1024 blk hc) shapeCasts_S1x1024x1024_S1024x1024) bitsLt_bf16_f32) shapeCasts_S1024x1024_S1x1024x1024 = _
  rw [shapeCast_shapeCast]; rfl
theorem pay17_cast (blk : S1024x1024.Idx → Elt F .f32) (hc : S1024x1024.ShapeCasts S1x1024x1024) :
    k0_pay17 (shapeCast S1x1024x1024 blk hc) = shapeCast S1x1024x1024 (fun j => trunc1 (blk j)) shapeCasts_S1024x1024_S1x1024x1024 := by
  show shapeCast S1x1024x1024 (truncf .bf16 (shapeCast S1024x1024 (shapeCast S1x1024x1024 blk hc) shapeCasts_S1x1024x1024_S1024x1024) bitsLt_bf16_f32) shapeCasts_S1024x1024_S1x1024x1024 = _
  rw [shapeCast_shapeCast]; rfl
theorem pay19_cast (blk : S1024x1024.Idx → Elt F .f32) (hc : S1024x1024.ShapeCasts S1x1024x1024) :
    k0_pay19 (shapeCast S1x1024x1024 blk hc) = shapeCast S1x1024x1024 (fun j => trunc1 (blk j)) shapeCasts_S1024x1024_S1x1024x1024 := by
  show shapeCast S1x1024x1024 (truncf .bf16 (shapeCast S1024x1024 (shapeCast S1x1024x1024 blk hc) shapeCasts_S1x1024x1024_S1024x1024) bitsLt_bf16_f32) shapeCasts_S1024x1024_S1x1024x1024 = _
  rw [shapeCast_shapeCast]; rfl
theorem pay6_id (w : FVec F S1024x1024 .bf16) : k0_pay6 w = w := shapeCast_self w _
theorem pay9_id (w : FVec F S1024x1024 .bf16) : k0_pay9 w = w := shapeCast_self w _
theorem pay11_cast (blk : S1024x1024.Idx → Elt F .f32) (hc : S1024x1024.ShapeCasts S1x1024x1024) :
    k0_pay11 (shapeCast S1x1024x1024 blk hc) = blk := shapeCast_shapeCast blk hc _
theorem pay12_apply (w : FVec F S1024x1024 .f32) : k0_pay12 w = fun j => trunc1 (w j) := by
  show shapeCast S1024x1024 (truncf .bf16 w bitsLt_bf16_f32) shapeCasts_S1024x1024_S1024x1024 = _
  rw [shapeCast_self]; rfl

/-! ### What each transfer carries

  Chunk k's remote transfer carries chunk k of the send staging buffer as the store just before it left it; chunk k's
  local transfer into the result carries the slot of the keep staging buffer as the store just before it left it. Over
  arbitrary prior contents of the scratch buffers, and whatever the earlier stores were, these are the two blocks of x,
  converted. -/

theorem carry0 (c : Dev nD) (fx : Buf (Elt F) (xM.view.loc (c : Thread nD τ))) (f : pfM.view.ty.Contents (Elt F)) (g : sgM.view.ty.Contents (Elt F))
    (P : List (View.Piece (Elt F) S8192x1024 .bf16)) :
    (stgM 0).view.read (Elt F) (sgM.view.writes (Elt F) g
        (⟨Rect.unit (s := S8192x1024) ![0, 0] S1024x1024.size inb_S8192x1024_S1024x1024_0_0,
          k0_pay1 (pfM.view.readAt (Elt F) (Rect.unit (s := S2x1024x1024) ![0, 0, 0] S1x1024x1024.size inb_S2x1024x1024_S1x1024x1024_0_0_0).toLoadRect
            (View.write (Elt F) ((pfM.slice (Rect.unit (s := S2x1024x1024) ![0, 0, 0] S1x1024x1024.size inb_S2x1024x1024_S1x1024x1024_0_0_0) (fun _ => rfl)).squeeze S1024x1024 squeezes_S1x1024x1024_S1024x1024).view f
              (ReadAs.same.apply ((xM.slice (Rect.unit (s := S8192x2048) (k0_off1 c) S1024x1024.size (k0_off1_inb c)) (fun _ => rfl)).view.read (Elt F) fx)) Finset.univ))⟩ :: P))
      = sendBlkOf c fx 0 := by
  refine (View.read_write_univ _ _).trans ?_
  refine (congrArg k0_pay1 (readAt_write_squeeze pfM (Rect.unit (s := S2x1024x1024) ![0, 0, 0] S1x1024x1024.size inb_S2x1024x1024_S1x1024x1024_0_0_0) (fun _ => rfl) squeezes_S1x1024x1024_S1024x1024 f _ shapeCasts_S1024x1024_S1x1024x1024)).trans ?_
  refine (pay1_cast _ _).trans ?_
  exact funext fun j => congrArg trunc1 (congrFun (xread_send0 c fx) j)

theorem carry1 (c : Dev nD) (fx : Buf (Elt F) (xM.view.loc (c : Thread nD τ))) (f : pfM.view.ty.Contents (Elt F)) (g : sgM.view.ty.Contents (Elt F))
    (P : List (View.Piece (Elt F) S8192x1024 .bf16)) :
    (stgM 1).view.read (Elt F) (sgM.view.writes (Elt F) g
        (⟨Rect.unit (s := S8192x1024) ![1024, 0] S1024x1024.size inb_S8192x1024_S1024x1024_1024_0,
          k0_pay3 (pfM.view.readAt (Elt F) (Rect.unit (s := S2x1024x1024) ![1, 0, 0] S1x1024x1024.size inb_S2x1024x1024_S1x1024x1024_1_0_0).toLoadRect
            (View.write (Elt F) ((pfM.slice (Rect.unit (s := S2x1024x1024) ![1, 0, 0] S1x1024x1024.size inb_S2x1024x1024_S1x1024x1024_1_0_0) (fun _ => rfl)).squeeze S1024x1024 squeezes_S1x1024x1024_S1024x1024).view f
              (ReadAs.same.apply ((xM.slice (Rect.unit (s := S8192x2048) (k0_off4 c) S1024x1024.size (k0_off4_inb c)) (fun _ => rfl)).view.read (Elt F) fx)) Finset.univ))⟩ :: P))
      = sendBlkOf c fx 1 := by
  refine (View.read_write_univ _ _).trans ?_
  refine (congrArg k0_pay3 (readAt_write_squeeze pfM (Rect.unit (s := S2x1024x1024) ![1, 0, 0] S1x1024x1024.size inb_S2x1024x1024_S1x1024x1024_1_0_0) (fun _ => rfl) squeezes_S1x1024x1024_S1024x1024 f _ shapeCasts_S1024x1024_S1x1024x1024)).trans ?_
  refine (pay3_cast _ _).trans ?_
  exact funext fun j => congrArg trunc1 (congrFun (xread_send1 c fx) j)

theorem carry2 (c : Dev nD) (fx : Buf (Elt F) (xM.view.loc (c : Thread nD τ))) (f : pfM.view.ty.Contents (Elt F)) (g : sgM.view.ty.Contents (Elt F))
    (P : List (View.Piece (Elt F) S8192x1024 .bf16)) :
    (stgM 2).view.read (Elt F) (sgM.view.writes (Elt F) g
        (⟨Rect.unit (s := S8192x1024) ![2048, 0] S1024x1024.size inb_S8192x1024_S1024x1024_2048_0,
          k0_pay6 (k0_pay5 (pfM.view.readAt (Elt F) (Rect.unit (s := S2x1024x1024) ![0, 0, 0] S1x1024x1024.size inb_S2x1024x1024_S1x1024x1024_0_0_0).toLoadRect
            (View.write (Elt F) ((pfM.slice (Rect.unit (s := S2x1024x1024) ![0, 0, 0] S1x1024x1024.size inb_S2x1024x1024_S1x1024x1024_0_0_0) (fun _ => rfl)).squeeze S1024x1024 squeezes_S1x1024x1024_S1024x1024).view f
              (ReadAs.same.apply ((xM.slice (Rect.unit (s := S8192x2048) (k0_off6 c) S1024x1024.size (k0_off6_inb c)) (fun _ => rfl)).view.read (Elt F) fx)) Finset.univ)))⟩ :: P))
      = sendBlkOf c fx 2 := by
  refine (View.read_write_univ _ _).trans ?_
  refine (congrArg (fun v => k0_pay6 (k0_pay5 v)) (readAt_write_squeeze pfM (Rect.unit (s := S2x1024x1024) ![0, 0, 0] S1x1024x1024.size inb_S2x1024x1024_S1x1024x1024_0_0_0) (fun _ => rfl) squeezes_S1x1024x1024_S1024x1024 f _ shapeCasts_S1024x1024_S1x1024x1024)).trans ?_
  refine (pay6_id _).trans ?_
  refine (pay5_cast _ _).trans ?_
  exact funext fun j => congrArg trunc1 (congrFun (xread_send2 c fx) j)

theorem carry3 (c : Dev nD) (fx : Buf (Elt F) (xM.view.loc (c : Thread nD τ))) (f : pfM.view.ty.Contents (Elt F)) (g : sgM.view.ty.Contents (Elt F))
    (P : List (View.Piece (Elt F) S8192x1024 .bf16)) :
    (stgM 3).view.read (Elt F) (sgM.view.writes (Elt F) g
        (⟨Rect.unit (s := S8192x1024) ![3072, 0] S1024x1024.size inb_S8192x1024_S1024x1024_3072_0,
          k0_pay9 (k0_pay8 (pfM.view.readAt (Elt F) (Rect.unit (s := S2x1024x1024) ![1, 0, 0] S1x1024x1024.size inb_S2x1024x1024_S1x1024x1024_1_0_0).toLoadRect
            (View.write (Elt F) ((pfM.slice (Rect.unit (s := S2x1024x1024) ![1, 0, 0] S1x1024x1024.size inb_S2x1024x1024_S1x1024x1024_1_0_0) (fun _ => rfl)).squeeze S1024x1024 squeezes_S1x1024x1024_S1024x1024).view f
              (ReadAs.same.apply ((xM.slice (Rect.unit (s := S8192x2048) (k0_off8 c) S1024x1024.size (k0_off8_inb c)) (fun _ => rfl)).view.read (Elt F) fx)) Finset.univ)))⟩ :: P))
      = sendBlkOf c fx 3 := by
  refine (View.read_write_univ _ _).trans ?_
  refine (congrArg (fun v => k0_pay9 (k0_pay8 v)) (readAt_write_squeeze pfM (Rect.unit (s := S2x1024x1024) ![1, 0, 0] S1x1024x1024.size inb_S2x1024x1024_S1x1024x1024_1_0_0) (fun _ => rfl) squeezes_S1x1024x1024_S1024x1024 f _ shapeCasts_S1024x1024_S1x1024x1024)).trans ?_
  refine (pay9_id _).trans ?_
  refine (pay8_cast _ _).trans ?_
  exact funext fun j => congrArg trunc1 (congrFun (xread_send3 c fx) j)

theorem carry4 (c : Dev nD) (fx : Buf (Elt F) (xM.view.loc (c : Thread nD τ))) (f : pfM.view.ty.Contents (Elt F)) (g : sgM.view.ty.Contents (Elt F))
    (P : List (View.Piece (Elt F) S8192x1024 .bf16)) :
    (stgM 4).view.read (Elt F) (sgM.view.writes (Elt F) g
        (⟨Rect.unit (s := S8192x1024) ![4096, 0] S1024x1024.size inb_S8192x1024_S1024x1024_4096_0,
          k0_pay12 (k0_pay11 (pfM.view.readAt (Elt F) (Rect.unit (s := S2x1024x1024) ![0, 0, 0] S1x1024x1024.size inb_S2x1024x1024_S1x1024x1024_0_0_0).toLoadRect
            (View.write (Elt F) ((pfM.slice (Rect.unit (s := S2x1024x1024) ![0, 0, 0] S1x1024x1024.size inb_S2x1024x1024_S1x1024x1024_0_0_0) (fun _ => rfl)).squeeze S1024x1024 squeezes_S1x1024x1024_S1024x1024).view f
              (ReadAs.same.apply ((xM.slice (Rect.unit (s := S8192x2048) (k0_off10 c) S1024x1024.size (k0_off10_inb c)) (fun _ => rfl)).view.read (Elt F) fx)) Finset.univ)))⟩ :: P))
      = sendBlkOf c fx 4 := by
  refine (View.read_write_univ _ _).trans ?_
  refine (congrArg (fun v => k0_pay12 (k0_pay11 v)) (readAt_write_squeeze pfM (Rect.unit (s := S2x1024x1024) ![0, 0, 0] S1x1024x1024.size inb_S2x1024x1024_S1x1024x1024_0_0_0) (fun _ => rfl) squeezes_S1x1024x1024_S1024x1024 f _ shapeCasts_S1024x1024_S1x1024x1024)).trans ?_
  refine (congrArg k0_pay12 (pay11_cast _ _)).trans ?_
  refine (pay12_apply _).trans ?_
  exact funext fun j => congrArg trunc1 (congrFun (xread_send4 c fx) j)

theorem carry5 (c : Dev nD) (fx : Buf (Elt F) (xM.view.loc (c : Thread nD τ))) (f : pfM.view.ty.Contents (Elt F)) (g : sgM.view.ty.Contents (Elt F))
    (P : List (View.Piece (Elt F) S8192x1024 .bf16)) :
    (stgM 5).view.read (Elt F) (sgM.view.writes (Elt F) g
        (⟨Rect.unit (s := S8192x1024) ![5120, 0] S1024x1024.size inb_S8192x1024_S1024x1024_5120_0,
          k0_pay14 (pfM.view.readAt (Elt F) (Rect.unit (s := S2x1024x1024) ![1, 0, 0] S1x1024x1024.size inb_S2x1024x1024_S1x1024x1024_1_0_0).toLoadRect
            (View.write (Elt F) ((pfM.slice (Rect.unit (s := S2x1024x1024) ![1, 0, 0] S1x1024x1024.size inb_S2x1024x1024_S1x1024x1024_1_0_0) (fun _ => rfl)).squeeze S1024x1024 squeezes_S1x1024x1024_S1024x1024).view f
              (ReadAs.same.apply ((xM.slice (Rect.unit (s := S8192x2048) (k0_off12 c) S1024x1024.size (k0_off12_inb c)) (fun _ => rfl)).view.read (Elt F) fx)) Finset.univ))⟩ :: P))
      = sendBlkOf c fx 5 := by
  refine (View.read_write_univ _ _).trans ?_
  refine (congrArg k0_pay14 (readAt_write_squeeze pfM (Rect.unit (s := S2x1024x1024) ![1, 0, 0] S1x1024x1024.size inb_S2x1024x1024_S1x1024x1024_1_0_0) (fun _ => rfl) squeezes_S1x1024x1024_S1024x1024 f _ shapeCasts_S1024x1024_S1x1024x1024)).trans ?_
  refine (pay14_cast _ _).trans ?_
  exact funext fun j => congrArg trunc1 (congrFun (xread_send5 c fx) j)

theorem carry6 (c : Dev nD) (fx : Buf (Elt F) (xM.view.loc (c : Thread nD τ))) (f : pfM.view.ty.Contents (Elt F)) (g : sgM.view.ty.Contents (Elt F))
    (P : List (View.Piece (Elt F) S8192x1024 .bf16)) :
    (stgM 6).view.read (Elt F) (sgM.view.writes (Elt F) g
        (⟨Rect.unit (s := S8192x1024) ![6144, 0] S1024x1024.size inb_S8192x1024_S1024x1024_6144_0,
          k0_pay16 (pfM.view.readAt (Elt F) (Rect.unit (s := S2x1024x1024) ![0, 0, 0] S1x1024x1024.size inb_S2x1024x1024_S1x1024x1024_0_0_0).toLoadRect
            (View.write (Elt F) ((pfM.slice (Rect.unit (s := S2x1024x1024) ![0, 0, 0] S1x1024x1024.size inb_S2x1024x1024_S1x1024x1024_0_0_0) (fun _ => rfl)).squeeze S1024x1024 squeezes_S1x1024x1024_S1024x1024).view f
              (ReadAs.same.apply ((xM.slice (Rect.unit (s := S8192x2048) (k0_off14 c) S1024x1024.size (k0_off14_inb c)) (fun _ => rfl)).view.read (Elt F) fx)) Finset.univ))⟩ :: P))
      = sendBlkOf c fx 6 := by
  refine (View.read_write_univ _ _).trans ?_
  refine (congrArg k0_pay16 (readAt_write_squeeze pfM (Rect.unit (s := S2x1024x1024) ![0, 0, 0] S1x1024x1024.size inb_S2x1024x1024_S1x1024x1024_0_0_0) (fun _ => rfl) squeezes_S1x1024x1024_S1024x1024 f _ shapeCasts_S1024x1024_S1x1024x1024)).trans ?_
  refine (pay16_cast _ _).trans ?_
  exact funext fun j => congrArg trunc1 (congrFun (xread_send6 c fx) j)

theorem carry7 (c : Dev nD) (fx : Buf (Elt F) (xM.view.loc (c : Thread nD τ))) (f : pfM.view.ty.Contents (Elt F)) (g : sgM.view.ty.Contents (Elt F))
    (P : List (View.Piece (Elt F) S8192x1024 .bf16)) :
    (stgM 7).view.read (Elt F) (sgM.view.writes (Elt F) g
        (⟨Rect.unit (s := S8192x1024) ![7168, 0] S1024x1024.size inb_S8192x1024_S1024x1024_7168_0,
          k0_pay18 (pfM.view.readAt (Elt F) (Rect.unit (s := S2x1024x1024) ![1, 0, 0] S1x1024x1024.size inb_S2x1024x1024_S1x1024x1024_1_0_0).toLoadRect
            (View.write (Elt F) ((pfM.slice (Rect.unit (s := S2x1024x1024) ![1, 0, 0] S1x1024x1024.size inb_S2x1024x1024_S1x1024x1024_1_0_0) (fun _ => rfl)).squeeze S1024x1024 squeezes_S1x1024x1024_S1024x1024).view f
              (ReadAs.same.apply ((xM.slice (Rect.unit (s := S8192x2048) (k0_off16 c) S1024x1024.size (k0_off16_inb c)) (fun _ => rfl)).view.read (Elt F) fx)) Finset.univ))⟩ :: P))
      = sendBlkOf c fx 7 := by
  refine (View.read_write_univ _ _).trans ?_
  refine (congrArg k0_pay18 (readAt_write_squeeze pfM (Rect.unit (s := S2x1024x1024) ![1, 0, 0] S1x1024x1024.size inb_S2x1024x1024_S1x1024x1024_1_0_0) (fun _ => rfl) squeezes_S1x1024x1024_S1024x1024 f _ shapeCasts_S1024x1024_S1x1024x1024)).trans ?_
  refine (pay18_cast _ _).trans ?_
  exact funext fun j => congrArg trunc1 (congrFun (xread_send7 c fx) j)

theorem land0 (c : Dev nD) (fx : Buf (Elt F) (xM.view.loc (c : Thread nD τ))) (f : kfM.view.ty.Contents (Elt F)) (b' : S1024x1024.Idx → Elt F .f32)
    (g : lsM.view.ty.Contents (Elt F)) (P : List (View.Piece (Elt F) S2x1024x1024 .bf16)) :
    ReadAs.same.apply (((lsM.slice (Rect.unit (s := S2x1024x1024) ![0, 0, 0] S1x1024x1024.size inb_S2x1024x1024_S1x1024x1024_0_0_0) (fun _ => rfl)).squeeze S1024x1024 squeezes_S1x1024x1024_S1024x1024).view.read (Elt F)
        (lsM.view.writes (Elt F) g
          (⟨(Rect.unit (s := S2x1024x1024) ![0, 0, 0] S1x1024x1024.size inb_S2x1024x1024_S1x1024x1024_0_0_0),
            k0_pay2 (kfM.view.readAt (Elt F) (Rect.unit (s := S2x1024x1024) ![0, 0, 0] S1x1024x1024.size inb_S2x1024x1024_S1x1024x1024_0_0_0).toLoadRect
            (View.write (Elt F) ((kfM.slice (Rect.unit (s := S2x1024x1024) ![1, 0, 0] S1x1024x1024.size inb_S2x1024x1024_S1x1024x1024_1_0_0) (fun _ => rfl)).squeeze S1024x1024 squeezes_S1x1024x1024_S1024x1024).view
              (View.write (Elt F) ((kfM.slice (Rect.unit (s := S2x1024x1024) ![0, 0, 0] S1x1024x1024.size inb_S2x1024x1024_S1x1024x1024_0_0_0) (fun _ => rfl)).squeeze S1024x1024 squeezes_S1x1024x1024_S1024x1024).view f
                (ReadAs.same.apply ((xM.slice (Rect.unit (s := S8192x2048) (k0_off2 c) S1024x1024.size (k0_off2_inb c)) (fun _ => rfl)).view.read (Elt F) fx)) Finset.univ)
              b' Finset.univ))⟩ :: P)))
      = keepBlkOf c fx 0 := by
  refine (read_squeeze_writes_head lsM (Rect.unit (s := S2x1024x1024) ![0, 0, 0] S1x1024x1024.size inb_S2x1024x1024_S1x1024x1024_0_0_0) (fun _ => rfl) squeezes_S1x1024x1024_S1024x1024 g _ P shapeCasts_S1x1024x1024_S1024x1024).trans ?_
  refine (congrArg (fun w => shapeCast S1024x1024 w shapeCasts_S1x1024x1024_S1024x1024)
    ((congrArg k0_pay2 ((readAt_write_squeeze_other kfM (Rect.unit (s := S2x1024x1024) ![0, 0, 0] S1x1024x1024.size inb_S2x1024x1024_S1x1024x1024_0_0_0) (Rect.unit (s := S2x1024x1024) ![1, 0, 0] S1x1024x1024.size inb_S2x1024x1024_S1x1024x1024_1_0_0) (fun _ => rfl) squeezes_S1x1024x1024_S1024x1024 slot_disjoint_01 _ b').trans
        (readAt_write_squeeze kfM (Rect.unit (s := S2x1024x1024) ![0, 0, 0] S1x1024x1024.size inb_S2x1024x1024_S1x1024x1024_0_0_0) (fun _ => rfl) squeezes_S1x1024x1024_S1024x1024 f _ shapeCasts_S1024x1024_S1x1024x1024))).trans
      (pay2_cast _ _))).trans ?_
  refine (shapeCast_shapeCast _ _ _).trans ?_
  exact funext fun j => congrArg trunc1 (congrFun (xread_keep0 c fx) j)

theorem land1 (c : Dev nD) (fx : Buf (Elt F) (xM.view.loc (c : Thread nD τ))) (f : kfM.view.ty.Contents (Elt F)) (b' : S1024x1024.Idx → Elt F .f32)
    (g : lsM.view.ty.Contents (Elt F)) (P : List (View.Piece (Elt F) S2x1024x1024 .bf16)) :
    ReadAs.same.apply (((lsM.slice (Rect.unit (s := S2x1024x1024) ![1, 0, 0] S1x1024x1024.size inb_S2x1024x1024_S1x1024x1024_1_0_0) (fun _ => rfl)).squeeze S1024x1024 squeezes_S1x1024x1024_S1024x1024).view.read (Elt F)
        (lsM.view.writes (Elt F) g
          (⟨(Rect.unit (s := S2x1024x1024) ![1, 0, 0] S1x1024x1024.size inb_S2x1024x1024_S1x1024x1024_1_0_0),
            k0_pay4 (kfM.view.readAt (Elt F) (Rect.unit (s := S2x1024x1024) ![1, 0, 0] S1x1024x1024.size inb_S2x1024x1024_S1x1024x1024_1_0_0).toLoadRect
            (View.write (Elt F) ((kfM.slice (Rect.unit (s := S2x1024x1024) ![0, 0, 0] S1x1024x1024.size inb_S2x1024x1024_S1x1024x1024_0_0_0) (fun _ => rfl)).squeeze S1024x1024 squeezes_S1x1024x1024_S1024x1024).view
              (View.write (Elt F) ((kfM.slice (Rect.unit (s := S2x1024x1024) ![1, 0, 0] S1x1024x1024.size inb_S2x1024x1024_S1x1024x1024_1_0_0) (fun _ => rfl)).squeeze S1024x1024 squeezes_S1x1024x1024_S1024x1024).view f
                (ReadAs.same.apply ((xM.slice (Rect.unit (s := S8192x2048) (k0_off5 c) S1024x1024.size (k0_off5_inb c)) (fun _ => rfl)).view.read (Elt F) fx)) Finset.univ)
              b' Finset.univ))⟩ :: P)))
      = keepBlkOf c fx 1 := by
  refine (read_squeeze_writes_head lsM (Rect.unit (s := S2x1024x1024) ![1, 0, 0] S1x1024x1024.size inb_S2x1024x1024_S1x1024x1024_1_0_0) (fun _ => rfl) squeezes_S1x1024x1024_S1024x1024 g _ P shapeCasts_S1x1024x1024_S1024x1024).trans ?_
  refine (congrArg (fun w => shapeCast S1024x1024 w shapeCasts_S1x1024x1024_S1024x1024)
    ((congrArg k0_pay4 ((readAt_write_squeeze_other kfM (Rect.unit (s := S2x1024x1024) ![1, 0, 0] S1x1024x1024.size inb_S2x1024x1024_S1x1024x1024_1_0_0) (Rect.unit (s := S2x1024x1024) ![0, 0, 0] S1x1024x1024.size inb_S2x1024x1024_S1x1024x1024_0_0_0) (fun _ => rfl) squeezes_S1x1024x1024_S1024x1024 slot_disjoint_10 _ b').trans
        (readAt_write_squeeze kfM (Rect.unit (s := S2x1024x1024) ![1, 0, 0] S1x1024x1024.size inb_S2x1024x1024_S1x1024x1024_1_0_0) (fun _ => rfl) squeezes_S1x1024x1024_S1024x1024 f _ shapeCasts_S1024x1024_S1x1024x1024))).trans
      (pay4_cast _ _))).trans ?_
  refine (shapeCast_shapeCast _ _ _).trans ?_
  exact funext fun j => congrArg trunc1 (congrFun (xread_keep1 c fx) j)

theorem land2 (c : Dev nD) (fx : Buf (Elt F) (xM.view.loc (c : Thread nD τ))) (f : kfM.view.ty.Contents (Elt F)) (b' : S1024x1024.Idx → Elt F .f32)
    (g : lsM.view.ty.Contents (Elt F)) (P : List (View.Piece (Elt F) S2x1024x1024 .bf16)) :
    ReadAs.same.apply (((lsM.slice (Rect.unit (s := S2x1024x1024) ![0, 0, 0] S1x1024x1024.size inb_S2x1024x1024_S1x1024x1024_0_0_0) (fun _ => rfl)).squeeze S1024x1024 squeezes_S1x1024x1024_S1024x1024).view.read (Elt F)
        (lsM.view.writes (Elt F) g
          (⟨(Rect.unit (s := S2x1024x1024) ![0, 0, 0] S1x1024x1024.size inb_S2x1024x1024_S1x1024x1024_0_0_0),
            k0_pay7 (kfM.view.readAt (Elt F) (Rect.unit (s := S2x1024x1024) ![0, 0, 0] S1x1024x1024.size inb_S2x1024x1024_S1x1024x1024_0_0_0).toLoadRect
            (View.write (Elt F) ((kfM.slice (Rect.unit (s := S2x1024x1024) ![1, 0, 0] S1x1024x1024.size inb_S2x1024x1024_S1x1024x1024_1_0_0) (fun _ => rfl)).squeeze S1024x1024 squeezes_S1x1024x1024_S1024x1024).view
              (View.write (Elt F) ((kfM.slice (Rect.unit (s := S2x1024x1024) ![0, 0, 0] S1x1024x1024.size inb_S2x1024x1024_S1x1024x1024_0_0_0) (fun _ => rfl)).squeeze S1024x1024 squeezes_S1x1024x1024_S1024x1024).view f
                (ReadAs.same.apply ((xM.slice (Rect.unit (s := S8192x2048) (k0_off7 c) S1024x1024.size (k0_off7_inb c)) (fun _ => rfl)).view.read (Elt F) fx)) Finset.univ)
              b' Finset.univ))⟩ :: P)))
      = keepBlkOf c fx 2 := by
  refine (read_squeeze_writes_head lsM (Rect.unit (s := S2x1024x1024) ![0, 0, 0] S1x1024x1024.size inb_S2x1024x1024_S1x1024x1024_0_0_0) (fun _ => rfl) squeezes_S1x1024x1024_S1024x1024 g _ P shapeCasts_S1x1024x1024_S1024x1024).trans ?_
  refine (congrArg (fun w => shapeCast S1024x1024 w shapeCasts_S1x1024x1024_S1024x1024)
    ((congrArg k0_pay7 ((readAt_write_squeeze_other kfM (Rect.unit (s := S2x1024x1024) ![0, 0, 0] S1x1024x1024.size inb_S2x1024x1024_S1x1024x1024_0_0_0) (Rect.unit (s := S2x1024x1024) ![1, 0, 0] S1x1024x1024.size inb_S2x1024x1024_S1x1024x1024_1_0_0) (fun _ => rfl) squeezes_S1x1024x1024_S1024x1024 slot_disjoint_01 _ b').trans
        (readAt_write_squeeze kfM (Rect.unit (s := S2x1024x1024) ![0, 0, 0] S1x1024x1024.size inb_S2x1024x1024_S1x1024x1024_0_0_0) (fun _ => rfl) squeezes_S1x1024x1024_S1024x1024 f _ shapeCasts_S1024x1024_S1x1024x1024))).trans
      (pay7_cast _ _))).trans ?_
  refine (shapeCast_shapeCast _ _ _).trans ?_
  exact funext fun j => congrArg trunc1 (congrFun (xread_keep2 c fx) j)

theorem land3 (c : Dev nD) (fx : Buf (Elt F) (xM.view.loc (c : Thread nD τ))) (f : kfM.view.ty.Contents (Elt F)) (b' : S1024x1024.Idx → Elt F .f32)
    (g : lsM.view.ty.Contents (Elt F)) (P : List (View.Piece (Elt F) S2x1024x1024 .bf16)) :
    ReadAs.same.apply (((lsM.slice (Rect.unit (s := S2x1024x1024) ![1, 0, 0] S1x1024x1024.size inb_S2x1024x1024_S1x1024x1024_1_0_0) (fun _ => rfl)).squeeze S1024x1024 squeezes_S1x1024x1024_S1024x1024).view.read (Elt F)
        (lsM.view.writes (Elt F) g
          (⟨(Rect.unit (s := S2x1024x1024) ![1, 0, 0] S1x1024x1024.size inb_S2x1024x1024_S1x1024x1024_1_0_0),
            k0_pay10 (kfM.view.readAt (Elt F) (Rect.unit (s := S2x1024x1024) ![1, 0, 0] S1x1024x1024.size inb_S2x1024x1024_S1x1024x1024_1_0_0).toLoadRect
            (View.write (Elt F) ((kfM.slice (Rect.unit (s := S2x1024x1024) ![0, 0, 0] S1x1024x1024.size inb_S2x1024x1024_S1x1024x1024_0_0_0) (fun _ => rfl)).squeeze S1024x1024 squeezes_S1x1024x1024_S1024x1024).view
              (View.write (Elt F) ((kfM.slice (Rect.unit (s := S2x1024x1024) ![1, 0, 0] S1x1024x1024.size inb_S2x1024x1024_S1x1024x1024_1_0_0) (fun _ => rfl)).squeeze S1024x1024 squeezes_S1x1024x1024_S1024x1024).view f
                (ReadAs.same.apply ((xM.slice (Rect.unit (s := S8192x2048) (k0_off9 c) S1024x1024.size (k0_off9_inb c)) (fun _ => rfl)).view.read (Elt F) fx)) Finset.univ)
              b' Finset.univ))⟩ :: P)))
      = keepBlkOf c fx 3 := by
  refine (read_squeeze_writes_head lsM (Rect.unit (s := S2x1024x1024) ![1, 0, 0] S1x1024x1024.size inb_S2x1024x1024_S1x1024x1024_1_0_0) (fun _ => rfl) squeezes_S1x1024x1024_S1024x1024 g _ P shapeCasts_S1x1024x1024_S1024x1024).trans ?_
  refine (congrArg (fun w => shapeCast S1024x1024 w shapeCasts_S1x1024x1024_S1024x1024)
    ((congrArg k0_pay10 ((readAt_write_squeeze_other kfM (Rect.unit (s := S2x1024x1024) ![1, 0, 0] S1x1024x1024.size inb_S2x1024x1024_S1x1024x1024_1_0_0) (Rect.unit (s := S2x1024x1024) ![0, 0, 0] S1x1024x1024.size inb_S2x1024x1024_S1x1024x1024_0_0_0) (fun _ => rfl) squeezes_S1x1024x1024_S1024x1024 slot_disjoint_10 _ b').trans
        (readAt_write_squeeze kfM (Rect.unit (s := S2x1024x1024) ![1, 0, 0] S1x1024x1024.size inb_S2x1024x1024_S1x1024x1024_1_0_0) (fun _ => rfl) squeezes_S1x1024x1024_S1024x1024 f _ shapeCasts_S1024x1024_S1x1024x1024))).trans
      (pay10_cast _ _))).trans ?_
  refine (shapeCast_shapeCast _ _ _).trans ?_
  exact funext fun j => congrArg trunc1 (congrFun (xread_keep3 c fx) j)

theorem land4 (c : Dev nD) (fx : Buf (Elt F) (xM.view.loc (c : Thread nD τ))) (f : kfM.view.ty.Contents (Elt F)) (b' : S1024x1024.Idx → Elt F .f32)
    (g : lsM.view.ty.Contents (Elt F)) (P : List (View.Piece (Elt F) S2x1024x1024 .bf16)) :
    ReadAs.same.apply (((lsM.slice (Rect.unit (s := S2x1024x1024) ![0, 0, 0] S1x1024x1024.size inb_S2x1024x1024_S1x1024x1024_0_0_0) (fun _ => rfl)).squeeze S1024x1024 squeezes_S1x1024x1024_S1024x1024).view.read (Elt F)
        (lsM.view.writes (Elt F) g
          (⟨(Rect.unit (s := S2x1024x1024) ![0, 0, 0] S1x1024x1024.size inb_S2x1024x1024_S1x1024x1024_0_0_0),
            k0_pay13 (kfM.view.readAt (Elt F) (Rect.unit (s := S2x1024x1024) ![0, 0, 0] S1x1024x1024.size inb_S2x1024x1024_S1x1024x1024_0_0_0).toLoadRect
            (View.write (Elt F) ((kfM.slice (Rect.unit (s := S2x1024x1024) ![1, 0, 0] S1x1024x1024.size inb_S2x1024x1024_S1x1024x1024_1_0_0) (fun _ => rfl)).squeeze S1024x1024 squeezes_S1x1024x1024_S1024x1024).view
              (View.write (Elt F) ((kfM.slice (Rect.unit (s := S2x1024x1024) ![0, 0, 0] S1x1024x1024.size inb_S2x1024x1024_S1x1024x1024_0_0_0) (fun _ => rfl)).squeeze S1024x1024 squeezes_S1x1024x1024_S1024x1024).view f
                (ReadAs.same.apply ((xM.slice (Rect.unit (s := S8192x2048) (k0_off11 c) S1024x1024.size (k0_off11_inb c)) (fun _ => rfl)).view.read (Elt F) fx)) Finset.univ)
              b' Finset.univ))⟩ :: P)))
      = keepBlkOf c fx 4 := by
  refine (read_squeeze_writes_head lsM (Rect.unit (s := S2x1024x1024) ![0, 0, 0] S1x1024x1024.size inb_S2x1024x1024_S1x1024x1024_0_0_0) (fun _ => rfl) squeezes_S1x1024x1024_S1024x1024 g _ P shapeCasts_S1x1024x1024_S1024x1024).trans ?_
  refine (congrArg (fun w => shapeCast S1024x1024 w shapeCasts_S1x1024x1024_S1024x1024)
    ((congrArg k0_pay13 ((readAt_write_squeeze_other kfM (Rect.unit (s := S2x1024x1024) ![0, 0, 0] S1x1024x1024.size inb_S2x1024x1024_S1x1024x1024_0_0_0) (Rect.unit (s := S2x1024x1024) ![1, 0, 0] S1x1024x1024.size inb_S2x1024x1024_S1x1024x1024_1_0_0) (fun _ => rfl) squeezes_S1x1024x1024_S1024x1024 slot_disjoint_01 _ b').trans
        (readAt_write_squeeze kfM (Rect.unit (s := S2x1024x1024) ![0, 0, 0] S1x1024x1024.size inb_S2x1024x1024_S1x1024x1024_0_0_0) (fun _ => rfl) squeezes_S1x1024x1024_S1024x1024 f _ shapeCasts_S1024x1024_S1x1024x1024))).trans
      (pay13_cast _ _))).trans ?_
  refine (shapeCast_shapeCast _ _ _).trans ?_
  exact funext fun j => congrArg trunc1 (congrFun (xread_keep4 c fx) j)

theorem land5 (c : Dev nD) (fx : Buf (Elt F) (xM.view.loc (c : Thread nD τ))) (f : kfM.view.ty.Contents (Elt F)) (b' : S1024x1024.Idx → Elt F .f32)
    (g : lsM.view.ty.Contents (Elt F)) (P : List (View.Piece (Elt F) S2x1024x1024 .bf16)) :
    ReadAs.same.apply (((lsM.slice (Rect.unit (s := S2x1024x1024) ![1, 0, 0] S1x1024x1024.size inb_S2x1024x1024_S1x1024x1024_1_0_0) (fun _ => rfl)).squeeze S1024x1024 squeezes_S1x1024x1024_S1024x1024).view.read (Elt F)
        (lsM.view.writes (Elt F) g
          (⟨(Rect.unit (s := S2x1024x1024) ![1, 0, 0] S1x1024x1024.size inb_S2x1024x1024_S1x1024x1024_1_0_0),
            k0_pay15 (kfM.view.readAt (Elt F) (Rect.unit (s := S2x1024x1024) ![1, 0, 0] S1x1024x1024.size inb_S2x1024x1024_S1x1024x1024_1_0_0).toLoadRect
            (View.write (Elt F) ((kfM.slice (Rect.unit (s := S2x1024x1024) ![0, 0, 0] S1x1024x1024.size inb_S2x1024x1024_S1x1024x1024_0_0_0) (fun _ => rfl)).squeeze S1024x1024 squeezes_S1x1024x1024_S1024x1024).view
              (View.write (Elt F) ((kfM.slice (Rect.unit (s := S2x1024x1024) ![1, 0, 0] S1x1024x1024.size inb_S2x1024x1024_S1x1024x1024_1_0_0) (fun _ => rfl)).squeeze S1024x1024 squeezes_S1x1024x1024_S1024x1024).view f
                (ReadAs.same.apply ((xM.slice (Rect.unit (s := S8192x2048) (k0_off13 c) S1024x1024.size (k0_off13_inb c)) (fun _ => rfl)).view.read (Elt F) fx)) Finset.univ)
              b' Finset.univ))⟩ :: P)))
      = keepBlkOf c fx 5 := by
  refine (read_squeeze_writes_head lsM (Rect.unit (s := S2x1024x1024) ![1, 0, 0] S1x1024x1024.size inb_S2x1024x1024_S1x1024x1024_1_0_0) (fun _ => rfl) squeezes_S1x1024x1024_S1024x1024 g _ P shapeCasts_S1x1024x1024_S1024x1024).trans ?_
  refine (congrArg (fun w => shapeCast S1024x1024 w shapeCasts_S1x1024x1024_S1024x1024)
    ((congrArg k0_pay15 ((readAt_write_squeeze_other kfM (Rect.unit (s := S2x1024x1024) ![1, 0, 0] S1x1024x1024.size inb_S2x1024x1024_S1x1024x1024_1_0_0) (Rect.unit (s := S2x1024x1024) ![0, 0, 0] S1x1024x1024.size inb_S2x1024x1024_S1x1024x1024_0_0_0) (fun _ => rfl) squeezes_S1x1024x1024_S1024x1024 slot_disjoint_10 _ b').trans
        (readAt_write_squeeze kfM (Rect.unit (s := S2x1024x1024) ![1, 0, 0] S1x1024x1024.size inb_S2x1024x1024_S1x1024x1024_1_0_0) (fun _ => rfl) squeezes_S1x1024x1024_S1024x1024 f _ shapeCasts_S1024x1024_S1x1024x1024))).trans
      (pay15_cast _ _))).trans ?_
  refine (shapeCast_shapeCast _ _ _).trans ?_
  exact funext fun j => congrArg trunc1 (congrFun (xread_keep5 c fx) j)

theorem land6 (c : Dev nD) (fx : Buf (Elt F) (xM.view.loc (c : Thread nD τ))) (f : kfM.view.ty.Contents (Elt F)) (b' : S1024x1024.Idx → Elt F .f32)
    (g : lsM.view.ty.Contents (Elt F)) (P : List (View.Piece (Elt F) S2x1024x1024 .bf16)) :
    ReadAs.same.apply (((lsM.slice (Rect.unit (s := S2x1024x1024) ![0, 0, 0] S1x1024x1024.size inb_S2x1024x1024_S1x1024x1024_0_0_0) (fun _ => rfl)).squeeze S1024x1024 squeezes_S1x1024x1024_S1024x1024).view.read (Elt F)
        (lsM.view.writes (Elt F) g
          (⟨(Rect.unit (s := S2x1024x1024) ![0, 0, 0] S1x1024x1024.size inb_S2x1024x1024_S1x1024x1024_0_0_0),
            k0_pay17 (kfM.view.readAt (Elt F) (Rect.unit (s := S2x1024x1024) ![0, 0, 0] S1x1024x1024.size inb_S2x1024x1024_S1x1024x1024_0_0_0).toLoadRect
            (View.write (Elt F) ((kfM.slice (Rect.unit (s := S2x1024x1024) ![1, 0, 0] S1x1024x1024.size inb_S2x1024x1024_S1x1024x1024_1_0_0) (fun _ => rfl)).squeeze S1024x1024 squeezes_S1x1024x1024_S1024x1024).view
              (View.write (Elt F) ((kfM.slice (Rect.unit (s := S2x1024x1024) ![0, 0, 0] S1x1024x1024.size inb_S2x1024x1024_S1x1024x1024_0_0_0) (fun _ => rfl)).squeeze S1024x1024 squeezes_S1x1024x1024_S1024x1024).view f
                (ReadAs.same.apply ((xM.slice (Rect.unit (s := S8192x2048) (k0_off15 c) S1024x1024.size (k0_off15_inb c)) (fun _ => rfl)).view.read (Elt F) fx)) Finset.univ)
              b' Finset.univ))⟩ :: P)))
      = keepBlkOf c fx 6 := by
  refine (read_squeeze_writes_head lsM (Rect.unit (s := S2x1024x1024) ![0, 0, 0] S1x1024x1024.size inb_S2x1024x1024_S1x1024x1024_0_0_0) (fun _ => rfl) squeezes_S1x1024x1024_S1024x1024 g _ P shapeCasts_S1x1024x1024_S1024x1024).trans ?_
  refine (congrArg (fun w => shapeCast S1024x1024 w shapeCasts_S1x1024x1024_S1024x1024)
    ((congrArg k0_pay17 ((readAt_write_squeeze_other kfM (Rect.unit (s := S2x1024x1024) ![0, 0, 0] S1x1024x1024.size inb_S2x1024x1024_S1x1024x1024_0_0_0) (Rect.unit (s := S2x1024x1024) ![1, 0, 0] S1x1024x1024.size inb_S2x1024x1024_S1x1024x1024_1_0_0) (fun _ => rfl) squeezes_S1x1024x1024_S1024x1024 slot_disjoint_01 _ b').trans
        (readAt_write_squeeze kfM (Rect.unit (s := S2x1024x1024) ![0, 0, 0] S1x1024x1024.size inb_S2x1024x1024_S1x1024x1024_0_0_0) (fun _ => rfl) squeezes_S1x1024x1024_S1024x1024 f _ shapeCasts_S1024x1024_S1x1024x1024))).trans
      (pay17_cast _ _))).trans ?_
  refine (shapeCast_shapeCast _ _ _).trans ?_
  exact funext fun j => congrArg trunc1 (congrFun (xread_keep6 c fx) j)

theorem land7 (c : Dev nD) (fx : Buf (Elt F) (xM.view.loc (c : Thread nD τ))) (f : kfM.view.ty.Contents (Elt F))
    (g : lsM.view.ty.Contents (Elt F)) (P : List (View.Piece (Elt F) S2x1024x1024 .bf16)) :
    ReadAs.same.apply (((lsM.slice (Rect.unit (s := S2x1024x1024) ![1, 0, 0] S1x1024x1024.size inb_S2x1024x1024_S1x1024x1024_1_0_0) (fun _ => rfl)).squeeze S1024x1024 squeezes_S1x1024x1024_S1024x1024).view.read (Elt F)
        (lsM.view.writes (Elt F) g
          (⟨(Rect.unit (s := S2x1024x1024) ![1, 0, 0] S1x1024x1024.size inb_S2x1024x1024_S1x1024x1024_1_0_0),
            k0_pay19 (kfM.view.readAt (Elt F) (Rect.unit (s := S2x1024x1024) ![1, 0, 0] S1x1024x1024.size inb_S2x1024x1024_S1x1024x1024_1_0_0).toLoadRect
            (View.write (Elt F) ((kfM.slice (Rect.unit (s := S2x1024x1024) ![1, 0, 0] S1x1024x1024.size inb_S2x1024x1024_S1x1024x1024_1_0_0) (fun _ => rfl)).squeeze S1024x1024 squeezes_S1x1024x1024_S1024x1024).view f
                (ReadAs.same.apply ((xM.slice (Rect.unit (s := S8192x2048) (k0_off17 c) S1024x1024.size (k0_off17_inb c)) (fun _ => rfl)).view.read (Elt F) fx)) Finset.univ))⟩ :: P)))
      = keepBlkOf c fx 7 := by
  refine (read_squeeze_writes_head lsM (Rect.unit (s := S2x1024x1024) ![1, 0, 0] S1x1024x1024.size inb_S2x1024x1024_S1x1024x1024_1_0_0) (fun _ => rfl) squeezes_S1x1024x1024_S1024x1024 g _ P shapeCasts_S1x1024x1024_S1024x1024).trans ?_
  refine (congrArg (fun w => shapeCast S1024x1024 w shapeCasts_S1x1024x1024_S1024x1024)
    ((congrArg k0_pay19 ((readAt_write_squeeze kfM (Rect.unit (s := S2x1024x1024) ![1, 0, 0] S1x1024x1024.size inb_S2x1024x1024_S1x1024x1024_1_0_0) (fun _ => rfl) squeezes_S1x1024x1024_S1024x1024 f _ shapeCasts_S1024x1024_S1x1024x1024))).trans
      (pay19_cast _ _))).trans ?_
  refine (shapeCast_shapeCast _ _ _).trans ?_
  exact funext fun j => congrArg trunc1 (congrFun (xread_keep7 c fx) j)

/-! ## Where the blocks land -/

omit [FloatOps F] in
/-- The rows of chunk k of device c in a result. -/
theorem mem_dst_iff (c : Dev nD) (k : Fin 8) (i : S16384x1024.Idx) :
    i ∈ (dstM c k).view.set ↔ 8192 * yOf c + 1024 * k.val ≤ (i 0).val ∧ (i 0).val < 8192 * yOf c + 1024 * k.val + 1024 := by
  rw [dst_set, Rect.mem_set_unit, k0_off3_eq c k]
  constructor
  · intro h; have h0 := h 0; exact ⟨h0.1, h0.2⟩
  · intro h a
    match a with
    | ⟨0, _⟩ => exact ⟨h.1, h.2⟩
    | ⟨1, _⟩ => exact ⟨Nat.zero_le _, by have := idx2_lt1 i; show (i 1).val < 0 + 1024; omega⟩

omit [FloatOps F] in
theorem dst_emb_row (c : Dev nD) (k : Fin 8) (x : S1024x1024.Idx) :
    (((dstM c k).view.emb x : S16384x1024.Idx) 0).val = 8192 * yOf c + 1024 * k.val + (x 0).val := by
  show k0_off3 c (BitVec.ofNat 32 (1024 * k.val)) 0 + 1 * (x 0).val = _
  rw [k0_off3_eq c k]
  show 8192 * yOf c + 1024 * k.val + 1 * (x 0).val = _
  omega
omit [FloatOps F] in
theorem dst_emb_col (c : Dev nD) (k : Fin 8) (x : S1024x1024.Idx) :
    (((dstM c k).view.emb x : S16384x1024.Idx) 1).val = (x 1).val := by
  show k0_off3 c (BitVec.ofNat 32 (1024 * k.val)) 1 + 1 * (x 1).val = _
  rw [k0_off3_eq c k]
  show 0 + 1 * (x 1).val = _
  omega

/-- The expected result at an index, from the source device, row and column named any way. -/
theorem Gx_at (c : Dev nD) (i : S16384x1024.Idx) (d : Dev nD) (r : Fin 8192) (q : Fin 2048)
    (hd : srcDev c ((i 0).val / 8192) = d) (hr : (i 0).val % 8192 = r.val) (hq : 1024 * yOf c + (i 1).val = q.val) :
    Gx m c i = trunc1 (xAt m d r q) :=
  congrArg trunc1 (xAt_congr m hd hr hq)

/-- The block chunk k sends, landed in the partner's result over any contents, is the partner's expected result on the
    rows it lands in. -/
theorem land_send (c : Dev nD) (k : Fin 8) (fd : OutBuf (F := F) (peer c)) :
    ∀ i ∈ (dstM c k).view.set, (dstM c k).view.write (Elt F) fd (sendBlk m c k) Finset.univ i = Gx m (peer c) i := by
  intro i hi
  obtain ⟨x, -, rfl⟩ := Finset.mem_map.mp hi
  rw [View.write_emb_of_mem _ _ (Finset.mem_univ x)]
  refine (cast_eq _ _).trans ?_
  rw [sendBlk_apply]
  have hrow := dst_emb_row c k x
  have hcol := dst_emb_col c k x
  have hk := k.isLt
  have hx0 := idx2_lt0 x
  have hy := yOf_lt c
  have hyp := yOf_peer c
  refine (Gx_at m (peer c) _ c _ _ ?_ ?_ ?_).symm
  · unfold srcDev
    split
    · next h => exfalso; omega
    · exact peer_peer c
  · show ((((dstM c k).view.emb x : S16384x1024.Idx) 0).val) % 8192 = 1024 * k.val + (x 0).val
    omega
  · show 1024 * yOf (peer c) + (((dstM c k).view.emb x : S16384x1024.Idx) 1).val = 1024 - 1024 * yOf c + (x 1).val
    omega

/-- What device c's own chunk k leaves of its result: the kept block in chunk k's rows, the rest as it was. -/
abbrev ownW (c : Dev nD) (k : Fin 8) (f : OutBuf (F := F) c) : OutBuf (F := F) c :=
  (dstM c k).view.write (Elt F) f (keepBlk m c k) Finset.univ

theorem ownW_of_mem (c : Dev nD) (k : Fin 8) (f : OutBuf (F := F) c) {i : S16384x1024.Idx} (hi : i ∈ (dstM c k).view.set) :
    ownW m c k f i = Gx m c i := by
  obtain ⟨x, -, rfl⟩ := Finset.mem_map.mp hi
  show (dstM c k).view.write (Elt F) f (keepBlk m c k) Finset.univ ((dstM c k).view.emb x) = _
  rw [View.write_emb_of_mem _ _ (Finset.mem_univ x)]
  refine (cast_eq _ _).trans ?_
  rw [keepBlk_apply]
  have hrow := dst_emb_row c k x
  have hcol := dst_emb_col c k x
  have hk := k.isLt
  have hx0 := idx2_lt0 x
  have hy := yOf_lt c
  refine (Gx_at m c _ c _ _ ?_ ?_ ?_).symm
  · unfold srcDev
    split
    · rfl
    · next h => exfalso; apply h; omega
  · show ((((dstM c k).view.emb x : S16384x1024.Idx) 0).val) % 8192 = 1024 * k.val + (x 0).val
    omega
  · show 1024 * yOf c + (((dstM c k).view.emb x : S16384x1024.Idx) 1).val = 1024 * yOf c + (x 1).val
    omega

/-- Once an index holds its expected value, a later chunk's landing keeps it: on its own rows it lands that value, off
    them it changes nothing. -/
theorem ownW_keeps (c : Dev nD) (k : Fin 8) (f : OutBuf (F := F) c) {i : S16384x1024.Idx} (h : f i = Gx m c i) :
    ownW m c k f i = Gx m c i := by
  by_cases hi : i ∈ (dstM c k).view.set
  · exact ownW_of_mem m c k f hi
  · show (dstM c k).view.write (Elt F) f (keepBlk m c k) Finset.univ i = _
    rw [View.write_of_not_mem _ _ _ (by rwa [View.setOn_univ])]
    exact h

omit [FloatOps F] in
/-- The rows the partner does not write are the device's own eight chunks. -/
theorem own_cover (c : Dev nD) (i : S16384x1024.Idx) (hi : i ∈ Finset.univ \ theirs c) : ∃ k : Fin 8, i ∈ (dstM c k).view.set := by
  have hnot : i ∉ theirs c := (Finset.mem_sdiff.mp hi).2
  have h0 := idx2_lt0 i
  have hy := yOf_lt c
  have hyp := yOf_peer c
  by_cases hrow : (i 0).val / 8192 = yOf c
  · refine ⟨⟨((i 0).val % 8192) / 1024, by omega⟩, (mem_dst_iff c _ i).mpr ⟨?_, ?_⟩⟩
    · show 8192 * yOf c + 1024 * (((i 0).val % 8192) / 1024) ≤ (i 0).val; omega
    · show (i 0).val < 8192 * yOf c + 1024 * (((i 0).val % 8192) / 1024) + 1024; omega
  · exfalso; apply hnot
    unfold theirs
    refine Finset.mem_biUnion.mpr ⟨⟨((i 0).val % 8192) / 1024, by omega⟩, Finset.mem_univ _, (mem_dst_iff (peer c) _ i).mpr ⟨?_, ?_⟩⟩
    · show 8192 * yOf (peer c) + 1024 * (((i 0).val % 8192) / 1024) ≤ (i 0).val; omega
    · show (i 0).val < 8192 * yOf (peer c) + 1024 * (((i 0).val % 8192) / 1024) + 1024; omega

/-- After the eight local transfers, in order, over any contents: off the partner's rows the result is the expected one. -/
theorem own_final (c : Dev nD) (fo : OutBuf (F := F) c) :
    ∀ i ∈ Finset.univ \ theirs c, (ownW m c 7 (ownW m c 6 (ownW m c 5 (ownW m c 4 (ownW m c 3 (ownW m c 2 (ownW m c 1 (ownW m c 0 fo)))))))) i = Gx m c i := by
  intro i hi
  obtain ⟨k, hk⟩ := own_cover c i hi
  fin_cases k
  · exact ownW_keeps m c 7 _ (ownW_keeps m c 6 _ (ownW_keeps m c 5 _ (ownW_keeps m c 4 _ (ownW_keeps m c 3 _ (ownW_keeps m c 2 _ (ownW_keeps m c 1 _ (ownW_of_mem m c 0 _ hk)))))))
  · exact ownW_keeps m c 7 _ (ownW_keeps m c 6 _ (ownW_keeps m c 5 _ (ownW_keeps m c 4 _ (ownW_keeps m c 3 _ (ownW_keeps m c 2 _ (ownW_of_mem m c 1 _ hk))))))
  · exact ownW_keeps m c 7 _ (ownW_keeps m c 6 _ (ownW_keeps m c 5 _ (ownW_keeps m c 4 _ (ownW_keeps m c 3 _ (ownW_of_mem m c 2 _ hk)))))
  · exact ownW_keeps m c 7 _ (ownW_keeps m c 6 _ (ownW_keeps m c 5 _ (ownW_keeps m c 4 _ (ownW_of_mem m c 3 _ hk))))
  · exact ownW_keeps m c 7 _ (ownW_keeps m c 6 _ (ownW_keeps m c 5 _ (ownW_of_mem m c 4 _ hk)))
  · exact ownW_keeps m c 7 _ (ownW_keeps m c 6 _ (ownW_of_mem m c 5 _ hk))
  · exact ownW_keeps m c 7 _ (ownW_of_mem m c 6 _ hk)
  · exact ownW_of_mem m c 7 _ hk

/-- info: 'Cert.KernelIdeal.Xchg.land_send' depends on axioms: [propext, Classical.choice, Quot.sound] -/
#guard_msgs in #print axioms land_send
/-- info: 'Cert.KernelIdeal.Xchg.own_final' depends on axioms: [propext, Classical.choice, Quot.sound] -/
#guard_msgs in #print axioms own_final
/-- info: 'Cert.KernelIdeal.Xchg.carry4' depends on axioms: [propext, Classical.choice, Quot.sound] -/
#guard_msgs in #print axioms carry4
/-- info: 'Cert.KernelIdeal.Xchg.land0' depends on axioms: [propext, Classical.choice, Quot.sound] -/
#guard_msgs in #print axioms land0

end Cert.KernelIdeal.Xchg

end
-- ==== Proof.Body.lean ====
/-
  The body of the exchange kernel, proved once at a symbolic device.
-/
import proofs.«900625_g7700000000000626_dist_a2a_v7x_xyz2x2x2_y_m8192_n1024_bf16_1_alg».proof.Proof.Value
import Idealize.ShloMosaic.Lib.Tactic

noncomputable section

namespace Cert.KernelIdeal.Xchg

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (G : (c : Dev nD) → OutBuf (F := F) c)

attribute [local sl_rounds] duties_bar duties_send duties_recv amount_bar amount_send amount_recv expect_bar expect_send expect_recv
  payload_bar payload_send payload_recv
attribute [local sl_canon] dev1_eq dev2_eq dev3_eq dev4_eq dev5_eq dev6_eq dev7_eq dev8_eq dev9_eq

/-- One local copy's landing, read as the expected block written over the expected rest. -/
theorem ownW_congr (c : Dev nD) (k : Fin 8) {p p' : OutBuf (F := F) c} {b : S1024x1024.Idx → Elt F .bf16} (hp : p = p') (hb : b = keepBlk m c k) :
    (dstM c k).view.write (Elt F) p b Finset.univ = ownW m c k p' := by subst hp hb; rfl

set_option maxHeartbeats 4000000 in
set_option maxRecDepth 16384 in
/-- The kernel's body on device c, run once at a symbolic device: from what the launch deals it (`bodyPre`) and what it
    owes, through the signal to its partner, the wait on its own barrier cell, and for each chunk the two loads, the
    remote copy into the partner's rows and the local copy into its own, to the result at its expected contents with
    every semaphore back at zero.  The result's rows the partner writes leave with the signal and come back, written,
    with the receive cells' payloads; the expected contents G enter only through the two facts `hland` and `hown`. -/
theorem sound_body (c : Dev nD) (K : Dev nD × Fin 17 → ℕ) (W : Waits sig Unit) (Kt : PUnit → sProp 𝕄)
    (hland : ∀ (k : Fin 8) (fd : OutBuf (F := F) (peer c)), ∀ i ∈ (dstM c k).view.set, (dstM c k).view.write (Elt F) fd (sendBlk m c k) Finset.univ i = G (peer c) i)
    (hown : ∀ fo : OutBuf (F := F) c, ∀ i ∈ Finset.univ \ theirs c,
      ownW m c 7 (ownW m c 6 (ownW m c 5 (ownW m c 4 (ownW m c 3 (ownW m c 2 (ownW m c 1 (ownW m c 0 fo))))))) i = G c i) :
    iprop(bodyPre m G K c ∗ owes (c : Thread nD τ) (O₀ c) W ∗ ((bodyPost m G c ∗ ∃ W', owes (c : Thread nD τ) 0 W') -∗ Kt ⟨⟩))
      ⊢ wp frame (wpE (defs₀ (F := F)) 𝒱₀ c none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) Kt := by
  unfold bodyPre ghost invs
  iintro ⟨⟨⟨⟨#HIb, #HIbp, ⟨#HIs0, #HIs1, #HIs2, #HIs3, #HIs4, #HIs5, #HIs6, #HIs7⟩, ⟨#HIr0, #HIr1, #HIr2, #HIr3, #HIr4, #HIr5, #HIr6, #HIr7⟩, ⟨#HIq0, #HIq1, #HIq2, #HIq3, #HIq4, #HIq5, #HIq6, #HIq7⟩⟩, Hab, ⟨Has0, Has1, Has2, Has3, Has4, Has5, Has6, Has7⟩, ⟨Har0, Har1, Har2, Har3, Har4, Har5, Har6, Har7⟩, #Hrbp, ⟨#Hrq0, #Hrq1, #Hrq2, #Hrq3, #Hrq4, #Hrq5, #Hrq6, #Hrq7⟩, ⟨#Hrs0, #Hrs1, #Hrs2, #Hrs3, #Hrs4, #Hrs5, #Hrs6, #Hrs7⟩, Htb, ⟨Htq0, Htq1, Htq2, Htq3, Htq4, Htq5, Htq6, Htq7⟩, ⟨Hts0, Hts1, Hts2, Hts3, Hts4, Hts5, Hts6, Hts7⟩⟩,
      Hcb, ⟨Hcr0, Hcr1, Hcr2, Hcr3, Hcr4, Hcr5, Hcr6, Hcr7⟩, #Hlev, ⟨Hs0, Hs1, Hs2, Hs3, Hs4, Hs5⟩, Hx, Ho, ⟨%f0, Hpf⟩, ⟨%f1, Hkf⟩, ⟨%f2, Hsg⟩, ⟨%f3, Hls⟩⟩, HO, Hk⟩
  have dx0 := xwin_disj_2_1 c
  have dx1 := xwin_disj_5_4 c
  have dx2 := xwin_disj_7_6 c
  have dx3 := xwin_disj_9_8 c
  have dx4 := xwin_disj_11_10 c
  have dx5 := xwin_disj_13_12 c
  have dx6 := xwin_disj_15_14 c
  have dx7 := xwin_disj_17_16 c
  have dt0 : Disjoint ((Memref.whole main_v1).slice (Rect.unit (s := S16384x1024) (k0_off3 c 0#32) S1024x1024.size (k0_off3_inb c 0)) (fun _ => rfl)).view.set (theirs c) := dst_disjoint_theirs c 0
  have dt1 : Disjoint ((Memref.whole main_v1).slice (Rect.unit (s := S16384x1024) (k0_off3 c 1024#32) S1024x1024.size (k0_off3_inb c 1)) (fun _ => rfl)).view.set (theirs c) := dst_disjoint_theirs c 1
  have dt2 : Disjoint ((Memref.whole main_v1).slice (Rect.unit (s := S16384x1024) (k0_off3 c 2048#32) S1024x1024.size (k0_off3_inb c 2)) (fun _ => rfl)).view.set (theirs c) := dst_disjoint_theirs c 2
  have dt3 : Disjoint ((Memref.whole main_v1).slice (Rect.unit (s := S16384x1024) (k0_off3 c 3072#32) S1024x1024.size (k0_off3_inb c 3)) (fun _ => rfl)).view.set (theirs c) := dst_disjoint_theirs c 3
  have dt4 : Disjoint ((Memref.whole main_v1).slice (Rect.unit (s := S16384x1024) (k0_off3 c 4096#32) S1024x1024.size (k0_off3_inb c 4)) (fun _ => rfl)).view.set (theirs c) := dst_disjoint_theirs c 4
  have dt5 : Disjoint ((Memref.whole main_v1).slice (Rect.unit (s := S16384x1024) (k0_off3 c 5120#32) S1024x1024.size (k0_off3_inb c 5)) (fun _ => rfl)).view.set (theirs c) := dst_disjoint_theirs c 5
  have dt6 : Disjoint ((Memref.whole main_v1).slice (Rect.unit (s := S16384x1024) (k0_off3 c 6144#32) S1024x1024.size (k0_off3_inb c 6)) (fun _ => rfl)).view.set (theirs c) := dst_disjoint_theirs c 6
  have dt7 : Disjoint ((Memref.whole main_v1).slice (Rect.unit (s := S16384x1024) (k0_off3 c 7168#32) S1024x1024.size (k0_off3_inb c 7)) (fun _ => rfl)).view.set (theirs c) := dst_disjoint_theirs c 7
  have do1_0 : Disjoint ((Memref.whole main_v1).slice (Rect.unit (s := S16384x1024) (k0_off3 c 1024#32) S1024x1024.size (k0_off3_inb c 1)) (fun _ => rfl)).view.set ((Memref.whole main_v1).slice (Rect.unit (s := S16384x1024) (k0_off3 c 0#32) S1024x1024.size (k0_off3_inb c 0)) (fun _ => rfl)).view.set := dst_disjoint_own c 1 0 (by decide)
  have do2_0 : Disjoint ((Memref.whole main_v1).slice (Rect.unit (s := S16384x1024) (k0_off3 c 2048#32) S1024x1024.size (k0_off3_inb c 2)) (fun _ => rfl)).view.set ((Memref.whole main_v1).slice (Rect.unit (s := S16384x1024) (k0_off3 c 0#32) S1024x1024.size (k0_off3_inb c 0)) (fun _ => rfl)).view.set := dst_disjoint_own c 2 0 (by decide)
  have do2_1 : Disjoint ((Memref.whole main_v1).slice (Rect.unit (s := S16384x1024) (k0_off3 c 2048#32) S1024x1024.size (k0_off3_inb c 2)) (fun _ => rfl)).view.set ((Memref.whole main_v1).slice (Rect.unit (s := S16384x1024) (k0_off3 c 1024#32) S1024x1024.size (k0_off3_inb c 1)) (fun _ => rfl)).view.set := dst_disjoint_own c 2 1 (by decide)
  have do3_0 : Disjoint ((Memref.whole main_v1).slice (Rect.unit (s := S16384x1024) (k0_off3 c 3072#32) S1024x1024.size (k0_off3_inb c 3)) (fun _ => rfl)).view.set ((Memref.whole main_v1).slice (Rect.unit (s := S16384x1024) (k0_off3 c 0#32) S1024x1024.size (k0_off3_inb c 0)) (fun _ => rfl)).view.set := dst_disjoint_own c 3 0 (by decide)
  have do3_1 : Disjoint ((Memref.whole main_v1).slice (Rect.unit (s := S16384x1024) (k0_off3 c 3072#32) S1024x1024.size (k0_off3_inb c 3)) (fun _ => rfl)).view.set ((Memref.whole main_v1).slice (Rect.unit (s := S16384x1024) (k0_off3 c 1024#32) S1024x1024.size (k0_off3_inb c 1)) (fun _ => rfl)).view.set := dst_disjoint_own c 3 1 (by decide)
  have do3_2 : Disjoint ((Memref.whole main_v1).slice (Rect.unit (s := S16384x1024) (k0_off3 c 3072#32) S1024x1024.size (k0_off3_inb c 3)) (fun _ => rfl)).view.set ((Memref.whole main_v1).slice (Rect.unit (s := S16384x1024) (k0_off3 c 2048#32) S1024x1024.size (k0_off3_inb c 2)) (fun _ => rfl)).view.set := dst_disjoint_own c 3 2 (by decide)
  have do4_0 : Disjoint ((Memref.whole main_v1).slice (Rect.unit (s := S16384x1024) (k0_off3 c 4096#32) S1024x1024.size (k0_off3_inb c 4)) (fun _ => rfl)).view.set ((Memref.whole main_v1).slice (Rect.unit (s := S16384x1024) (k0_off3 c 0#32) S1024x1024.size (k0_off3_inb c 0)) (fun _ => rfl)).view.set := dst_disjoint_own c 4 0 (by decide)
  have do4_1 : Disjoint ((Memref.whole main_v1).slice (Rect.unit (s := S16384x1024) (k0_off3 c 4096#32) S1024x1024.size (k0_off3_inb c 4)) (fun _ => rfl)).view.set ((Memref.whole main_v1).slice (Rect.unit (s := S16384x1024) (k0_off3 c 1024#32) S1024x1024.size (k0_off3_inb c 1)) (fun _ => rfl)).view.set := dst_disjoint_own c 4 1 (by decide)
  have do4_2 : Disjoint ((Memref.whole main_v1).slice (Rect.unit (s := S16384x1024) (k0_off3 c 4096#32) S1024x1024.size (k0_off3_inb c 4)) (fun _ => rfl)).view.set ((Memref.whole main_v1).slice (Rect.unit (s := S16384x1024) (k0_off3 c 2048#32) S1024x1024.size (k0_off3_inb c 2)) (fun _ => rfl)).view.set := dst_disjoint_own c 4 2 (by decide)
  have do4_3 : Disjoint ((Memref.whole main_v1).slice (Rect.unit (s := S16384x1024) (k0_off3 c 4096#32) S1024x1024.size (k0_off3_inb c 4)) (fun _ => rfl)).view.set ((Memref.whole main_v1).slice (Rect.unit (s := S16384x1024) (k0_off3 c 3072#32) S1024x1024.size (k0_off3_inb c 3)) (fun _ => rfl)).view.set := dst_disjoint_own c 4 3 (by decide)
  have do5_0 : Disjoint ((Memref.whole main_v1).slice (Rect.unit (s := S16384x1024) (k0_off3 c 5120#32) S1024x1024.size (k0_off3_inb c 5)) (fun _ => rfl)).view.set ((Memref.whole main_v1).slice (Rect.unit (s := S16384x1024) (k0_off3 c 0#32) S1024x1024.size (k0_off3_inb c 0)) (fun _ => rfl)).view.set := dst_disjoint_own c 5 0 (by decide)
  have do5_1 : Disjoint ((Memref.whole main_v1).slice (Rect.unit (s := S16384x1024) (k0_off3 c 5120#32) S1024x1024.size (k0_off3_inb c 5)) (fun _ => rfl)).view.set ((Memref.whole main_v1).slice (Rect.unit (s := S16384x1024) (k0_off3 c 1024#32) S1024x1024.size (k0_off3_inb c 1)) (fun _ => rfl)).view.set := dst_disjoint_own c 5 1 (by decide)
  have do5_2 : Disjoint ((Memref.whole main_v1).slice (Rect.unit (s := S16384x1024) (k0_off3 c 5120#32) S1024x1024.size (k0_off3_inb c 5)) (fun _ => rfl)).view.set ((Memref.whole main_v1).slice (Rect.unit (s := S16384x1024) (k0_off3 c 2048#32) S1024x1024.size (k0_off3_inb c 2)) (fun _ => rfl)).view.set := dst_disjoint_own c 5 2 (by decide)
  have do5_3 : Disjoint ((Memref.whole main_v1).slice (Rect.unit (s := S16384x1024) (k0_off3 c 5120#32) S1024x1024.size (k0_off3_inb c 5)) (fun _ => rfl)).view.set ((Memref.whole main_v1).slice (Rect.unit (s := S16384x1024) (k0_off3 c 3072#32) S1024x1024.size (k0_off3_inb c 3)) (fun _ => rfl)).view.set := dst_disjoint_own c 5 3 (by decide)
  have do5_4 : Disjoint ((Memref.whole main_v1).slice (Rect.unit (s := S16384x1024) (k0_off3 c 5120#32) S1024x1024.size (k0_off3_inb c 5)) (fun _ => rfl)).view.set ((Memref.whole main_v1).slice (Rect.unit (s := S16384x1024) (k0_off3 c 4096#32) S1024x1024.size (k0_off3_inb c 4)) (fun _ => rfl)).view.set := dst_disjoint_own c 5 4 (by decide)
  have do6_0 : Disjoint ((Memref.whole main_v1).slice (Rect.unit (s := S16384x1024) (k0_off3 c 6144#32) S1024x1024.size (k0_off3_inb c 6)) (fun _ => rfl)).view.set ((Memref.whole main_v1).slice (Rect.unit (s := S16384x1024) (k0_off3 c 0#32) S1024x1024.size (k0_off3_inb c 0)) (fun _ => rfl)).view.set := dst_disjoint_own c 6 0 (by decide)
  have do6_1 : Disjoint ((Memref.whole main_v1).slice (Rect.unit (s := S16384x1024) (k0_off3 c 6144#32) S1024x1024.size (k0_off3_inb c 6)) (fun _ => rfl)).view.set ((Memref.whole main_v1).slice (Rect.unit (s := S16384x1024) (k0_off3 c 1024#32) S1024x1024.size (k0_off3_inb c 1)) (fun _ => rfl)).view.set := dst_disjoint_own c 6 1 (by decide)
  have do6_2 : Disjoint ((Memref.whole main_v1).slice (Rect.unit (s := S16384x1024) (k0_off3 c 6144#32) S1024x1024.size (k0_off3_inb c 6)) (fun _ => rfl)).view.set ((Memref.whole main_v1).slice (Rect.unit (s := S16384x1024) (k0_off3 c 2048#32) S1024x1024.size (k0_off3_inb c 2)) (fun _ => rfl)).view.set := dst_disjoint_own c 6 2 (by decide)
  have do6_3 : Disjoint ((Memref.whole main_v1).slice (Rect.unit (s := S16384x1024) (k0_off3 c 6144#32) S1024x1024.size (k0_off3_inb c 6)) (fun _ => rfl)).view.set ((Memref.whole main_v1).slice (Rect.unit (s := S16384x1024) (k0_off3 c 3072#32) S1024x1024.size (k0_off3_inb c 3)) (fun _ => rfl)).view.set := dst_disjoint_own c 6 3 (by decide)
  have do6_4 : Disjoint ((Memref.whole main_v1).slice (Rect.unit (s := S16384x1024) (k0_off3 c 6144#32) S1024x1024.size (k0_off3_inb c 6)) (fun _ => rfl)).view.set ((Memref.whole main_v1).slice (Rect.unit (s := S16384x1024) (k0_off3 c 4096#32) S1024x1024.size (k0_off3_inb c 4)) (fun _ => rfl)).view.set := dst_disjoint_own c 6 4 (by decide)
  have do6_5 : Disjoint ((Memref.whole main_v1).slice (Rect.unit (s := S16384x1024) (k0_off3 c 6144#32) S1024x1024.size (k0_off3_inb c 6)) (fun _ => rfl)).view.set ((Memref.whole main_v1).slice (Rect.unit (s := S16384x1024) (k0_off3 c 5120#32) S1024x1024.size (k0_off3_inb c 5)) (fun _ => rfl)).view.set := dst_disjoint_own c 6 5 (by decide)
  have do7_0 : Disjoint ((Memref.whole main_v1).slice (Rect.unit (s := S16384x1024) (k0_off3 c 7168#32) S1024x1024.size (k0_off3_inb c 7)) (fun _ => rfl)).view.set ((Memref.whole main_v1).slice (Rect.unit (s := S16384x1024) (k0_off3 c 0#32) S1024x1024.size (k0_off3_inb c 0)) (fun _ => rfl)).view.set := dst_disjoint_own c 7 0 (by decide)
  have do7_1 : Disjoint ((Memref.whole main_v1).slice (Rect.unit (s := S16384x1024) (k0_off3 c 7168#32) S1024x1024.size (k0_off3_inb c 7)) (fun _ => rfl)).view.set ((Memref.whole main_v1).slice (Rect.unit (s := S16384x1024) (k0_off3 c 1024#32) S1024x1024.size (k0_off3_inb c 1)) (fun _ => rfl)).view.set := dst_disjoint_own c 7 1 (by decide)
  have do7_2 : Disjoint ((Memref.whole main_v1).slice (Rect.unit (s := S16384x1024) (k0_off3 c 7168#32) S1024x1024.size (k0_off3_inb c 7)) (fun _ => rfl)).view.set ((Memref.whole main_v1).slice (Rect.unit (s := S16384x1024) (k0_off3 c 2048#32) S1024x1024.size (k0_off3_inb c 2)) (fun _ => rfl)).view.set := dst_disjoint_own c 7 2 (by decide)
  have do7_3 : Disjoint ((Memref.whole main_v1).slice (Rect.unit (s := S16384x1024) (k0_off3 c 7168#32) S1024x1024.size (k0_off3_inb c 7)) (fun _ => rfl)).view.set ((Memref.whole main_v1).slice (Rect.unit (s := S16384x1024) (k0_off3 c 3072#32) S1024x1024.size (k0_off3_inb c 3)) (fun _ => rfl)).view.set := dst_disjoint_own c 7 3 (by decide)
  have do7_4 : Disjoint ((Memref.whole main_v1).slice (Rect.unit (s := S16384x1024) (k0_off3 c 7168#32) S1024x1024.size (k0_off3_inb c 7)) (fun _ => rfl)).view.set ((Memref.whole main_v1).slice (Rect.unit (s := S16384x1024) (k0_off3 c 4096#32) S1024x1024.size (k0_off3_inb c 4)) (fun _ => rfl)).view.set := dst_disjoint_own c 7 4 (by decide)
  have do7_5 : Disjoint ((Memref.whole main_v1).slice (Rect.unit (s := S16384x1024) (k0_off3 c 7168#32) S1024x1024.size (k0_off3_inb c 7)) (fun _ => rfl)).view.set ((Memref.whole main_v1).slice (Rect.unit (s := S16384x1024) (k0_off3 c 5120#32) S1024x1024.size (k0_off3_inb c 5)) (fun _ => rfl)).view.set := dst_disjoint_own c 7 5 (by decide)
  have do7_6 : Disjoint ((Memref.whole main_v1).slice (Rect.unit (s := S16384x1024) (k0_off3 c 7168#32) S1024x1024.size (k0_off3_inb c 7)) (fun _ => rfl)).view.set ((Memref.whole main_v1).slice (Rect.unit (s := S16384x1024) (k0_off3 c 6144#32) S1024x1024.size (k0_off3_inb c 6)) (fun _ => rfl)).view.set := dst_disjoint_own c 7 6 (by decide)
  have hmwb : (levAts L lv : sProp 𝕄) ⊢ MayWait (c : Thread nD τ) (.reg barS) () (owed0 c) := mayWait_below c _ (lv_bar c) (onlyRecv0 c)
  have hmw0_0 : (levAts L lv : sProp 𝕄) ⊢ MayWait (c : Thread nD τ) (.dma (0 : DmaSem sig)) () (owed0 c) := mayWait_below c _ (lv_local c _ (by decide)) (onlyRecv0 c)
  have hmw1_0 : (levAts L lv : sProp 𝕄) ⊢ MayWait (c : Thread nD τ) (.dma (1 : DmaSem sig)) () (owed0 c) := mayWait_below c _ (lv_local c _ (by decide)) (onlyRecv0 c)
  have hmw2_0 : (levAts L lv : sProp 𝕄) ⊢ MayWait (c : Thread nD τ) (.dma (2 : DmaSem sig)) () (owed0 c) := mayWait_below c _ (lv_local c _ (by decide)) (onlyRecv0 c)
  have hmw3_0 : (levAts L lv : sProp 𝕄) ⊢ MayWait (c : Thread nD τ) (.dma (3 : DmaSem sig)) () (owed0 c) := mayWait_below c _ (lv_local c _ (by decide)) (onlyRecv0 c)
  have hmw4_0 : (levAts L lv : sProp 𝕄) ⊢ MayWait (c : Thread nD τ) (.dma (4 : DmaSem sig)) () (owed0 c) := mayWait_below c _ (lv_local c _ (by decide)) (onlyRecv0 c)
  have hmw5_0 : (levAts L lv : sProp 𝕄) ⊢ MayWait (c : Thread nD τ) (.dma (5 : DmaSem sig)) () (owed0 c) := mayWait_below c _ (lv_local c _ (by decide)) (onlyRecv0 c)
  have hmw0_1 : (levAts L lv : sProp 𝕄) ⊢ MayWait (c : Thread nD τ) (.dma (0 : DmaSem sig)) () (owed1 c) := mayWait_below c _ (lv_local c _ (by decide)) (onlyRecv1 c)
  have hmw1_1 : (levAts L lv : sProp 𝕄) ⊢ MayWait (c : Thread nD τ) (.dma (1 : DmaSem sig)) () (owed1 c) := mayWait_below c _ (lv_local c _ (by decide)) (onlyRecv1 c)
  have hmw2_1 : (levAts L lv : sProp 𝕄) ⊢ MayWait (c : Thread nD τ) (.dma (2 : DmaSem sig)) () (owed1 c) := mayWait_below c _ (lv_local c _ (by decide)) (onlyRecv1 c)
  have hmw3_1 : (levAts L lv : sProp 𝕄) ⊢ MayWait (c : Thread nD τ) (.dma (3 : DmaSem sig)) () (owed1 c) := mayWait_below c _ (lv_local c _ (by decide)) (onlyRecv1 c)
  have hmw4_1 : (levAts L lv : sProp 𝕄) ⊢ MayWait (c : Thread nD τ) (.dma (4 : DmaSem sig)) () (owed1 c) := mayWait_below c _ (lv_local c _ (by decide)) (onlyRecv1 c)
  have hmw5_1 : (levAts L lv : sProp 𝕄) ⊢ MayWait (c : Thread nD τ) (.dma (5 : DmaSem sig)) () (owed1 c) := mayWait_below c _ (lv_local c _ (by decide)) (onlyRecv1 c)
  have hmw0_2 : (levAts L lv : sProp 𝕄) ⊢ MayWait (c : Thread nD τ) (.dma (0 : DmaSem sig)) () (owed2 c) := mayWait_below c _ (lv_local c _ (by decide)) (onlyRecv2 c)
  have hmw1_2 : (levAts L lv : sProp 𝕄) ⊢ MayWait (c : Thread nD τ) (.dma (1 : DmaSem sig)) () (owed2 c) := mayWait_below c _ (lv_local c _ (by decide)) (onlyRecv2 c)
  have hmw2_2 : (levAts L lv : sProp 𝕄) ⊢ MayWait (c : Thread nD τ) (.dma (2 : DmaSem sig)) () (owed2 c) := mayWait_below c _ (lv_local c _ (by decide)) (onlyRecv2 c)
  have hmw3_2 : (levAts L lv : sProp 𝕄) ⊢ MayWait (c : Thread nD τ) (.dma (3 : DmaSem sig)) () (owed2 c) := mayWait_below c _ (lv_local c _ (by decide)) (onlyRecv2 c)
  have hmw4_2 : (levAts L lv : sProp 𝕄) ⊢ MayWait (c : Thread nD τ) (.dma (4 : DmaSem sig)) () (owed2 c) := mayWait_below c _ (lv_local c _ (by decide)) (onlyRecv2 c)
  have hmw5_2 : (levAts L lv : sProp 𝕄) ⊢ MayWait (c : Thread nD τ) (.dma (5 : DmaSem sig)) () (owed2 c) := mayWait_below c _ (lv_local c _ (by decide)) (onlyRecv2 c)
  have hmw0_3 : (levAts L lv : sProp 𝕄) ⊢ MayWait (c : Thread nD τ) (.dma (0 : DmaSem sig)) () (owed3 c) := mayWait_below c _ (lv_local c _ (by decide)) (onlyRecv3 c)
  have hmw1_3 : (levAts L lv : sProp 𝕄) ⊢ MayWait (c : Thread nD τ) (.dma (1 : DmaSem sig)) () (owed3 c) := mayWait_below c _ (lv_local c _ (by decide)) (onlyRecv3 c)
  have hmw2_3 : (levAts L lv : sProp 𝕄) ⊢ MayWait (c : Thread nD τ) (.dma (2 : DmaSem sig)) () (owed3 c) := mayWait_below c _ (lv_local c _ (by decide)) (onlyRecv3 c)
  have hmw3_3 : (levAts L lv : sProp 𝕄) ⊢ MayWait (c : Thread nD τ) (.dma (3 : DmaSem sig)) () (owed3 c) := mayWait_below c _ (lv_local c _ (by decide)) (onlyRecv3 c)
  have hmw4_3 : (levAts L lv : sProp 𝕄) ⊢ MayWait (c : Thread nD τ) (.dma (4 : DmaSem sig)) () (owed3 c) := mayWait_below c _ (lv_local c _ (by decide)) (onlyRecv3 c)
  have hmw5_3 : (levAts L lv : sProp 𝕄) ⊢ MayWait (c : Thread nD τ) (.dma (5 : DmaSem sig)) () (owed3 c) := mayWait_below c _ (lv_local c _ (by decide)) (onlyRecv3 c)
  have hmw0_4 : (levAts L lv : sProp 𝕄) ⊢ MayWait (c : Thread nD τ) (.dma (0 : DmaSem sig)) () (owed4 c) := mayWait_below c _ (lv_local c _ (by decide)) (onlyRecv4 c)
  have hmw1_4 : (levAts L lv : sProp 𝕄) ⊢ MayWait (c : Thread nD τ) (.dma (1 : DmaSem sig)) () (owed4 c) := mayWait_below c _ (lv_local c _ (by decide)) (onlyRecv4 c)
  have hmw2_4 : (levAts L lv : sProp 𝕄) ⊢ MayWait (c : Thread nD τ) (.dma (2 : DmaSem sig)) () (owed4 c) := mayWait_below c _ (lv_local c _ (by decide)) (onlyRecv4 c)
  have hmw3_4 : (levAts L lv : sProp 𝕄) ⊢ MayWait (c : Thread nD τ) (.dma (3 : DmaSem sig)) () (owed4 c) := mayWait_below c _ (lv_local c _ (by decide)) (onlyRecv4 c)
  have hmw4_4 : (levAts L lv : sProp 𝕄) ⊢ MayWait (c : Thread nD τ) (.dma (4 : DmaSem sig)) () (owed4 c) := mayWait_below c _ (lv_local c _ (by decide)) (onlyRecv4 c)
  have hmw5_4 : (levAts L lv : sProp 𝕄) ⊢ MayWait (c : Thread nD τ) (.dma (5 : DmaSem sig)) () (owed4 c) := mayWait_below c _ (lv_local c _ (by decide)) (onlyRecv4 c)
  have hmw0_5 : (levAts L lv : sProp 𝕄) ⊢ MayWait (c : Thread nD τ) (.dma (0 : DmaSem sig)) () (owed5 c) := mayWait_below c _ (lv_local c _ (by decide)) (onlyRecv5 c)
  have hmw1_5 : (levAts L lv : sProp 𝕄) ⊢ MayWait (c : Thread nD τ) (.dma (1 : DmaSem sig)) () (owed5 c) := mayWait_below c _ (lv_local c _ (by decide)) (onlyRecv5 c)
  have hmw2_5 : (levAts L lv : sProp 𝕄) ⊢ MayWait (c : Thread nD τ) (.dma (2 : DmaSem sig)) () (owed5 c) := mayWait_below c _ (lv_local c _ (by decide)) (onlyRecv5 c)
  have hmw3_5 : (levAts L lv : sProp 𝕄) ⊢ MayWait (c : Thread nD τ) (.dma (3 : DmaSem sig)) () (owed5 c) := mayWait_below c _ (lv_local c _ (by decide)) (onlyRecv5 c)
  have hmw4_5 : (levAts L lv : sProp 𝕄) ⊢ MayWait (c : Thread nD τ) (.dma (4 : DmaSem sig)) () (owed5 c) := mayWait_below c _ (lv_local c _ (by decide)) (onlyRecv5 c)
  have hmw5_5 : (levAts L lv : sProp 𝕄) ⊢ MayWait (c : Thread nD τ) (.dma (5 : DmaSem sig)) () (owed5 c) := mayWait_below c _ (lv_local c _ (by decide)) (onlyRecv5 c)
  have hmw0_6 : (levAts L lv : sProp 𝕄) ⊢ MayWait (c : Thread nD τ) (.dma (0 : DmaSem sig)) () (owed6 c) := mayWait_below c _ (lv_local c _ (by decide)) (onlyRecv6 c)
  have hmw1_6 : (levAts L lv : sProp 𝕄) ⊢ MayWait (c : Thread nD τ) (.dma (1 : DmaSem sig)) () (owed6 c) := mayWait_below c _ (lv_local c _ (by decide)) (onlyRecv6 c)
  have hmw2_6 : (levAts L lv : sProp 𝕄) ⊢ MayWait (c : Thread nD τ) (.dma (2 : DmaSem sig)) () (owed6 c) := mayWait_below c _ (lv_local c _ (by decide)) (onlyRecv6 c)
  have hmw3_6 : (levAts L lv : sProp 𝕄) ⊢ MayWait (c : Thread nD τ) (.dma (3 : DmaSem sig)) () (owed6 c) := mayWait_below c _ (lv_local c _ (by decide)) (onlyRecv6 c)
  have hmw4_6 : (levAts L lv : sProp 𝕄) ⊢ MayWait (c : Thread nD τ) (.dma (4 : DmaSem sig)) () (owed6 c) := mayWait_below c _ (lv_local c _ (by decide)) (onlyRecv6 c)
  have hmw5_6 : (levAts L lv : sProp 𝕄) ⊢ MayWait (c : Thread nD τ) (.dma (5 : DmaSem sig)) () (owed6 c) := mayWait_below c _ (lv_local c _ (by decide)) (onlyRecv6 c)
  have hmw0_7 : (levAts L lv : sProp 𝕄) ⊢ MayWait (c : Thread nD τ) (.dma (0 : DmaSem sig)) () (owed7 c) := mayWait_below c _ (lv_local c _ (by decide)) (onlyRecv7 c)
  have hmw1_7 : (levAts L lv : sProp 𝕄) ⊢ MayWait (c : Thread nD τ) (.dma (1 : DmaSem sig)) () (owed7 c) := mayWait_below c _ (lv_local c _ (by decide)) (onlyRecv7 c)
  have hmw2_7 : (levAts L lv : sProp 𝕄) ⊢ MayWait (c : Thread nD τ) (.dma (2 : DmaSem sig)) () (owed7 c) := mayWait_below c _ (lv_local c _ (by decide)) (onlyRecv7 c)
  have hmw3_7 : (levAts L lv : sProp 𝕄) ⊢ MayWait (c : Thread nD τ) (.dma (3 : DmaSem sig)) () (owed7 c) := mayWait_below c _ (lv_local c _ (by decide)) (onlyRecv7 c)
  have hmw4_7 : (levAts L lv : sProp 𝕄) ⊢ MayWait (c : Thread nD τ) (.dma (4 : DmaSem sig)) () (owed7 c) := mayWait_below c _ (lv_local c _ (by decide)) (onlyRecv7 c)
  have hmw5_7 : (levAts L lv : sProp 𝕄) ⊢ MayWait (c : Thread nD τ) (.dma (5 : DmaSem sig)) () (owed7 c) := mayWait_below c _ (lv_local c _ (by decide)) (onlyRecv7 c)
  -- the rows the partner writes leave the result before the signal
  ihave Hsp := (out_split c _) $$ Ho
  icases Hsp with ⟨Ho, Hrows⟩
  set_option sl_exec.dmaWindow true in sl_exec
  unfold O₀
  iapply (Rounds.wp_signal 𝒱₀ ER (xRd m G) (c : Thread nD τ) none (dst := (peer c : Thread nD τ)) (κ := K (peer c, 0)) (d := ())
      (by rw [duties_bar]; exact Finset.mem_singleton_self _) ((amount_bar m G (peer c) ()).trans (by decide)) () (owed0 c) rfl) $$ [HO Htb Hrows]
  · isplitr; · iexact HIbp
    isplitl [HO]; · iexact HO
    isplitl [Htb]; · iexact Htb
    isplitl [Hrows]; · rw [payload_bar_peer]; iexact Hrows
    iexact Hrbp
  iintro HO
  set_option sl_exec.dmaWindow true in sl_exec
  unfold barPay
  icases Hab_pay1 with ⟨Hq0, Hq1, Hq2, Hq3, Hq4, Hq5, Hq6, Hq7⟩
  -- chunk 0: its rows of the staging buffer go to the transfer, the partner's rows 0 come back with receive cell 0
  ihave Hsp := (pointsTo_split_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![0, 0] S1024x1024.size inb_S8192x1024_S1024x1024_0_0) (fun _ => rfl)).view.set) (S := Finset.univ) (Finset.subset_univ _)).1 $$ Hsg
  icases Hsp with ⟨Hck0, Hsg⟩
  ihave Hq0 := (Entails.of_eq (rowsPts_peer c 0 _)) $$ Hq0
  iapply (wp_send_chunk m G c _ (dev2_eq c) 0 _ _ _ (owed0 c) (owed1 c) rfl (K (c, sIx 0)) (K (peer c, rIx 0)) ?hv0) $$ [Hck0 Hq0 HO Hts0 Htq0]
  swap
  · isplitr; · iexact HIs0
    isplitr; · iexact HIq0
    isplitl [Hck0]; · iexact Hck0
    isplitl [Hq0]; · iexact Hq0
    isplitl [HO]; · iexact HO
    isplitl [Hts0]; · iexact Hts0
    isplitr; · iexact Hrs0
    isplitl [Htq0]; · iexact Htq0
    iexact Hrq0
  · intro i hi
    exact (congrArg (fun b => View.write (Elt F) (dstM c 0).view _ b Finset.univ i) (carry0 c (m _) _ _ _)).trans (hland 0 _ i hi)
  iintro ⟨Hcs0, HO⟩
  set_option sl_exec.dmaWindow true in sl_exec
  -- chunk 1: its rows of the staging buffer go to the transfer, the partner's rows 1 come back with receive cell 1
  ihave Hsp := (pointsTo_split_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![1024, 0] S1024x1024.size inb_S8192x1024_S1024x1024_1024_0) (fun _ => rfl)).view.set) (S := (Finset.univ \ ((Memref.whole cc0_scratch2).slice (Rect.unit (s := S8192x1024) ![0, 0] S1024x1024.size inb_S8192x1024_S1024x1024_0_0) (fun _ => rfl)).view.set)) (Finset.subset_sdiff.mpr ⟨Finset.subset_univ _, stg_disjoint 1 0 (by decide)⟩)).1 $$ Hsg
  icases Hsp with ⟨Hck1, Hsg⟩
  ihave Hq1 := (Entails.of_eq (rowsPts_peer c 1 _)) $$ Hq1
  iapply (wp_send_chunk m G c _ (dev3_eq c) 1 _ _ _ (owed1 c) (owed2 c) rfl (K (c, sIx 1)) (K (peer c, rIx 1)) ?hv1) $$ [Hck1 Hq1 HO Hts1 Htq1]
  swap
  · isplitr; · iexact HIs1
    isplitr; · iexact HIq1
    isplitl [Hck1]; · iexact Hck1
    isplitl [Hq1]; · iexact Hq1
    isplitl [HO]; · iexact HO
    isplitl [Hts1]; · iexact Hts1
    isplitr; · iexact Hrs1
    isplitl [Htq1]; · iexact Htq1
    iexact Hrq1
  · intro i hi
    exact (congrArg (fun b => View.write (Elt F) (dstM c 1).view _ b Finset.univ i) (carry1 c (m _) _ _ _)).trans (hland 1 _ i hi)
  iintro ⟨Hcs1, HO⟩
  set_option sl_exec.dmaWindow true in sl_exec
  -- chunk 2: its rows of the staging buffer go to the transfer, the partner's rows 2 come back with receive cell 2
  ihave Hsp := (pointsTo_split_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![2048, 0] S1024x1024.size inb_S8192x1024_S1024x1024_2048_0) (fun _ => rfl)).view.set) (S := ((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set)) (Finset.subset_sdiff.mpr ⟨Finset.subset_sdiff.mpr ⟨Finset.subset_univ _, stg_disjoint 2 0 (by decide)⟩, stg_disjoint 2 1 (by decide)⟩)).1 $$ Hsg
  icases Hsp with ⟨Hck2, Hsg⟩
  ihave Hq2 := (Entails.of_eq (rowsPts_peer c 2 _)) $$ Hq2
  iapply (wp_send_chunk m G c _ (dev4_eq c) 2 _ _ _ (owed2 c) (owed3 c) rfl (K (c, sIx 2)) (K (peer c, rIx 2)) ?hv2) $$ [Hck2 Hq2 HO Hts2 Htq2]
  swap
  · isplitr; · iexact HIs2
    isplitr; · iexact HIq2
    isplitl [Hck2]; · iexact Hck2
    isplitl [Hq2]; · iexact Hq2
    isplitl [HO]; · iexact HO
    isplitl [Hts2]; · iexact Hts2
    isplitr; · iexact Hrs2
    isplitl [Htq2]; · iexact Htq2
    iexact Hrq2
  · intro i hi
    exact (congrArg (fun b => View.write (Elt F) (dstM c 2).view _ b Finset.univ i) (carry2 c (m _) _ _ _)).trans (hland 2 _ i hi)
  iintro ⟨Hcs2, HO⟩
  set_option sl_exec.dmaWindow true in sl_exec
  -- chunk 3: its rows of the staging buffer go to the transfer, the partner's rows 3 come back with receive cell 3
  ihave Hsp := (pointsTo_split_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![3072, 0] S1024x1024.size inb_S8192x1024_S1024x1024_3072_0) (fun _ => rfl)).view.set) (S := (((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set)) (Finset.subset_sdiff.mpr ⟨Finset.subset_sdiff.mpr ⟨Finset.subset_sdiff.mpr ⟨Finset.subset_univ _, stg_disjoint 3 0 (by decide)⟩, stg_disjoint 3 1 (by decide)⟩, stg_disjoint 3 2 (by decide)⟩)).1 $$ Hsg
  icases Hsp with ⟨Hck3, Hsg⟩
  ihave Hq3 := (Entails.of_eq (rowsPts_peer c 3 _)) $$ Hq3
  iapply (wp_send_chunk m G c _ (dev5_eq c) 3 _ _ _ (owed3 c) (owed4 c) rfl (K (c, sIx 3)) (K (peer c, rIx 3)) ?hv3) $$ [Hck3 Hq3 HO Hts3 Htq3]
  swap
  · isplitr; · iexact HIs3
    isplitr; · iexact HIq3
    isplitl [Hck3]; · iexact Hck3
    isplitl [Hq3]; · iexact Hq3
    isplitl [HO]; · iexact HO
    isplitl [Hts3]; · iexact Hts3
    isplitr; · iexact Hrs3
    isplitl [Htq3]; · iexact Htq3
    iexact Hrq3
  · intro i hi
    exact (congrArg (fun b => View.write (Elt F) (dstM c 3).view _ b Finset.univ i) (carry3 c (m _) _ _ _)).trans (hland 3 _ i hi)
  iintro ⟨Hcs3, HO⟩
  set_option sl_exec.dmaWindow true in sl_exec
  -- chunk 4: its rows of the staging buffer go to the transfer, the partner's rows 4 come back with receive cell 4
  ihave Hsp := (pointsTo_split_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![4096, 0] S1024x1024.size inb_S8192x1024_S1024x1024_4096_0) (fun _ => rfl)).view.set) (S := ((((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set) \ ((Memref.whole cc0_scratch2).slice (Rect.unit (s := S8192x1024) ![3072, 0] S1024x1024.size inb_S8192x1024_S1024x1024_3072_0) (fun _ => rfl)).view.set)) (Finset.subset_sdiff.mpr ⟨Finset.subset_sdiff.mpr ⟨Finset.subset_sdiff.mpr ⟨Finset.subset_sdiff.mpr ⟨Finset.subset_univ _, stg_disjoint 4 0 (by decide)⟩, stg_disjoint 4 1 (by decide)⟩, stg_disjoint 4 2 (by decide)⟩, stg_disjoint 4 3 (by decide)⟩)).1 $$ Hsg
  icases Hsp with ⟨Hck4, Hsg⟩
  ihave Hq4 := (Entails.of_eq (rowsPts_peer c 4 _)) $$ Hq4
  iapply (wp_send_chunk m G c _ (dev6_eq c) 4 _ _ _ (owed4 c) (owed5 c) rfl (K (c, sIx 4)) (K (peer c, rIx 4)) ?hv4) $$ [Hck4 Hq4 HO Hts4 Htq4]
  swap
  · isplitr; · iexact HIs4
    isplitr; · iexact HIq4
    isplitl [Hck4]; · iexact Hck4
    isplitl [Hq4]; · iexact Hq4
    isplitl [HO]; · iexact HO
    isplitl [Hts4]; · iexact Hts4
    isplitr; · iexact Hrs4
    isplitl [Htq4]; · iexact Htq4
    iexact Hrq4
  · intro i hi
    exact (congrArg (fun b => View.write (Elt F) (dstM c 4).view _ b Finset.univ i) (carry4 c (m _) _ _ _)).trans (hland 4 _ i hi)
  iintro ⟨Hcs4, HO⟩
  set_option sl_exec.dmaWindow true in sl_exec
  -- chunk 5: its rows of the staging buffer go to the transfer, the partner's rows 5 come back with receive cell 5
  ihave Hsp := (pointsTo_split_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![5120, 0] S1024x1024.size inb_S8192x1024_S1024x1024_5120_0) (fun _ => rfl)).view.set) (S := (((((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set) \ ((Memref.whole cc0_scratch2).slice (Rect.unit (s := S8192x1024) ![3072, 0] S1024x1024.size inb_S8192x1024_S1024x1024_3072_0) (fun _ => rfl)).view.set) \ ((Memref.whole cc0_scratch2).slice (Rect.unit (s := S8192x1024) ![4096, 0] S1024x1024.size inb_S8192x1024_S1024x1024_4096_0) (fun _ => rfl)).view.set)) (Finset.subset_sdiff.mpr ⟨Finset.subset_sdiff.mpr ⟨Finset.subset_sdiff.mpr ⟨Finset.subset_sdiff.mpr ⟨Finset.subset_sdiff.mpr ⟨Finset.subset_univ _, stg_disjoint 5 0 (by decide)⟩, stg_disjoint 5 1 (by decide)⟩, stg_disjoint 5 2 (by decide)⟩, stg_disjoint 5 3 (by decide)⟩, stg_disjoint 5 4 (by decide)⟩)).1 $$ Hsg
  icases Hsp with ⟨Hck5, Hsg⟩
  ihave Hq5 := (Entails.of_eq (rowsPts_peer c 5 _)) $$ Hq5
  iapply (wp_send_chunk m G c _ (dev7_eq c) 5 _ _ _ (owed5 c) (owed6 c) rfl (K (c, sIx 5)) (K (peer c, rIx 5)) ?hv5) $$ [Hck5 Hq5 HO Hts5 Htq5]
  swap
  · isplitr; · iexact HIs5
    isplitr; · iexact HIq5
    isplitl [Hck5]; · iexact Hck5
    isplitl [Hq5]; · iexact Hq5
    isplitl [HO]; · iexact HO
    isplitl [Hts5]; · iexact Hts5
    isplitr; · iexact Hrs5
    isplitl [Htq5]; · iexact Htq5
    iexact Hrq5
  · intro i hi
    exact (congrArg (fun b => View.write (Elt F) (dstM c 5).view _ b Finset.univ i) (carry5 c (m _) _ _ _)).trans (hland 5 _ i hi)
  iintro ⟨Hcs5, HO⟩
  set_option sl_exec.dmaWindow true in sl_exec
  -- chunk 6: its rows of the staging buffer go to the transfer, the partner's rows 6 come back with receive cell 6
  ihave Hsp := (pointsTo_split_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![6144, 0] S1024x1024.size inb_S8192x1024_S1024x1024_6144_0) (fun _ => rfl)).view.set) (S := ((((((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set) \ ((Memref.whole cc0_scratch2).slice (Rect.unit (s := S8192x1024) ![3072, 0] S1024x1024.size inb_S8192x1024_S1024x1024_3072_0) (fun _ => rfl)).view.set) \ ((Memref.whole cc0_scratch2).slice (Rect.unit (s := S8192x1024) ![4096, 0] S1024x1024.size inb_S8192x1024_S1024x1024_4096_0) (fun _ => rfl)).view.set) \ ((Memref.whole cc0_scratch2).slice (Rect.unit (s := S8192x1024) ![5120, 0] S1024x1024.size inb_S8192x1024_S1024x1024_5120_0) (fun _ => rfl)).view.set)) (Finset.subset_sdiff.mpr ⟨Finset.subset_sdiff.mpr ⟨Finset.subset_sdiff.mpr ⟨Finset.subset_sdiff.mpr ⟨Finset.subset_sdiff.mpr ⟨Finset.subset_sdiff.mpr ⟨Finset.subset_univ _, stg_disjoint 6 0 (by decide)⟩, stg_disjoint 6 1 (by decide)⟩, stg_disjoint 6 2 (by decide)⟩, stg_disjoint 6 3 (by decide)⟩, stg_disjoint 6 4 (by decide)⟩, stg_disjoint 6 5 (by decide)⟩)).1 $$ Hsg
  icases Hsp with ⟨Hck6, Hsg⟩
  ihave Hq6 := (Entails.of_eq (rowsPts_peer c 6 _)) $$ Hq6
  iapply (wp_send_chunk m G c _ (dev8_eq c) 6 _ _ _ (owed6 c) (owed7 c) rfl (K (c, sIx 6)) (K (peer c, rIx 6)) ?hv6) $$ [Hck6 Hq6 HO Hts6 Htq6]
  swap
  · isplitr; · iexact HIs6
    isplitr; · iexact HIq6
    isplitl [Hck6]; · iexact Hck6
    isplitl [Hq6]; · iexact Hq6
    isplitl [HO]; · iexact HO
    isplitl [Hts6]; · iexact Hts6
    isplitr; · iexact Hrs6
    isplitl [Htq6]; · iexact Htq6
    iexact Hrq6
  · intro i hi
    exact (congrArg (fun b => View.write (Elt F) (dstM c 6).view _ b Finset.univ i) (carry6 c (m _) _ _ _)).trans (hland 6 _ i hi)
  iintro ⟨Hcs6, HO⟩
  set_option sl_exec.dmaWindow true in sl_exec
  -- chunk 7: its rows of the staging buffer go to the transfer, the partner's rows 7 come back with receive cell 7
  ihave Hsp := (pointsTo_split_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![7168, 0] S1024x1024.size inb_S8192x1024_S1024x1024_7168_0) (fun _ => rfl)).view.set) (S := (((((((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set) \ ((Memref.whole cc0_scratch2).slice (Rect.unit (s := S8192x1024) ![3072, 0] S1024x1024.size inb_S8192x1024_S1024x1024_3072_0) (fun _ => rfl)).view.set) \ ((Memref.whole cc0_scratch2).slice (Rect.unit (s := S8192x1024) ![4096, 0] S1024x1024.size inb_S8192x1024_S1024x1024_4096_0) (fun _ => rfl)).view.set) \ ((Memref.whole cc0_scratch2).slice (Rect.unit (s := S8192x1024) ![5120, 0] S1024x1024.size inb_S8192x1024_S1024x1024_5120_0) (fun _ => rfl)).view.set) \ ((Memref.whole cc0_scratch2).slice (Rect.unit (s := S8192x1024) ![6144, 0] S1024x1024.size inb_S8192x1024_S1024x1024_6144_0) (fun _ => rfl)).view.set)) (Finset.subset_sdiff.mpr ⟨Finset.subset_sdiff.mpr ⟨Finset.subset_sdiff.mpr ⟨Finset.subset_sdiff.mpr ⟨Finset.subset_sdiff.mpr ⟨Finset.subset_sdiff.mpr ⟨Finset.subset_sdiff.mpr ⟨Finset.subset_univ _, stg_disjoint 7 0 (by decide)⟩, stg_disjoint 7 1 (by decide)⟩, stg_disjoint 7 2 (by decide)⟩, stg_disjoint 7 3 (by decide)⟩, stg_disjoint 7 4 (by decide)⟩, stg_disjoint 7 5 (by decide)⟩, stg_disjoint 7 6 (by decide)⟩)).1 $$ Hsg
  icases Hsp with ⟨Hck7, Hsg⟩
  ihave Hq7 := (Entails.of_eq (rowsPts_peer c 7 _)) $$ Hq7
  iapply (wp_send_chunk m G c _ (dev9_eq c) 7 _ _ _ (owed7 c) (0) rfl (K (c, sIx 7)) (K (peer c, rIx 7)) ?hv7) $$ [Hck7 Hq7 HO Hts7 Htq7]
  swap
  · isplitr; · iexact HIs7
    isplitr; · iexact HIq7
    isplitl [Hck7]; · iexact Hck7
    isplitl [Hq7]; · iexact Hq7
    isplitl [HO]; · iexact HO
    isplitl [Hts7]; · iexact Hts7
    isplitr; · iexact Hrs7
    isplitl [Htq7]; · iexact Htq7
    iexact Hrq7
  · intro i hi
    exact (congrArg (fun b => View.write (Elt F) (dstM c 7).view _ b Finset.univ i) (carry7 c (m _) _ _ _)).trans (hland 7 _ i hi)
  iintro ⟨Hcs7, HO⟩
  set_option sl_exec.dmaWindow true in sl_exec
  imod (Rounds.cell_close ER (xRd m G) (Set.mem_univ (K (c, sIx 0))) (fun h => h) (R := 0 + 1) (duties_later m G (sendCell c 0))) $$ [Has0] with Hzs0
  · isplitr; · iexact HIs0
    iexact Has0
  imod (Rounds.cell_close ER (xRd m G) (Set.mem_univ (K (c, rIx 0))) (fun h => h) (R := 0 + 1) (duties_later m G (recvCell c 0))) $$ [Har0] with Hzr0
  · isplitr; · iexact HIr0
    iexact Har0
  imod (Rounds.cell_close ER (xRd m G) (Set.mem_univ (K (c, sIx 1))) (fun h => h) (R := 0 + 1) (duties_later m G (sendCell c 1))) $$ [Has1] with Hzs1
  · isplitr; · iexact HIs1
    iexact Has1
  imod (Rounds.cell_close ER (xRd m G) (Set.mem_univ (K (c, rIx 1))) (fun h => h) (R := 0 + 1) (duties_later m G (recvCell c 1))) $$ [Har1] with Hzr1
  · isplitr; · iexact HIr1
    iexact Har1
  imod (Rounds.cell_close ER (xRd m G) (Set.mem_univ (K (c, sIx 2))) (fun h => h) (R := 0 + 1) (duties_later m G (sendCell c 2))) $$ [Has2] with Hzs2
  · isplitr; · iexact HIs2
    iexact Has2
  imod (Rounds.cell_close ER (xRd m G) (Set.mem_univ (K (c, rIx 2))) (fun h => h) (R := 0 + 1) (duties_later m G (recvCell c 2))) $$ [Har2] with Hzr2
  · isplitr; · iexact HIr2
    iexact Har2
  imod (Rounds.cell_close ER (xRd m G) (Set.mem_univ (K (c, sIx 3))) (fun h => h) (R := 0 + 1) (duties_later m G (sendCell c 3))) $$ [Has3] with Hzs3
  · isplitr; · iexact HIs3
    iexact Has3
  imod (Rounds.cell_close ER (xRd m G) (Set.mem_univ (K (c, rIx 3))) (fun h => h) (R := 0 + 1) (duties_later m G (recvCell c 3))) $$ [Har3] with Hzr3
  · isplitr; · iexact HIr3
    iexact Har3
  imod (Rounds.cell_close ER (xRd m G) (Set.mem_univ (K (c, sIx 4))) (fun h => h) (R := 0 + 1) (duties_later m G (sendCell c 4))) $$ [Has4] with Hzs4
  · isplitr; · iexact HIs4
    iexact Has4
  imod (Rounds.cell_close ER (xRd m G) (Set.mem_univ (K (c, rIx 4))) (fun h => h) (R := 0 + 1) (duties_later m G (recvCell c 4))) $$ [Har4] with Hzr4
  · isplitr; · iexact HIr4
    iexact Har4
  imod (Rounds.cell_close ER (xRd m G) (Set.mem_univ (K (c, sIx 5))) (fun h => h) (R := 0 + 1) (duties_later m G (sendCell c 5))) $$ [Has5] with Hzs5
  · isplitr; · iexact HIs5
    iexact Has5
  imod (Rounds.cell_close ER (xRd m G) (Set.mem_univ (K (c, rIx 5))) (fun h => h) (R := 0 + 1) (duties_later m G (recvCell c 5))) $$ [Har5] with Hzr5
  · isplitr; · iexact HIr5
    iexact Har5
  imod (Rounds.cell_close ER (xRd m G) (Set.mem_univ (K (c, sIx 6))) (fun h => h) (R := 0 + 1) (duties_later m G (sendCell c 6))) $$ [Has6] with Hzs6
  · isplitr; · iexact HIs6
    iexact Has6
  imod (Rounds.cell_close ER (xRd m G) (Set.mem_univ (K (c, rIx 6))) (fun h => h) (R := 0 + 1) (duties_later m G (recvCell c 6))) $$ [Har6] with Hzr6
  · isplitr; · iexact HIr6
    iexact Har6
  imod (Rounds.cell_close ER (xRd m G) (Set.mem_univ (K (c, sIx 7))) (fun h => h) (R := 0 + 1) (duties_later m G (sendCell c 7))) $$ [Has7] with Hzs7
  · isplitr; · iexact HIs7
    iexact Has7
  imod (Rounds.cell_close ER (xRd m G) (Set.mem_univ (K (c, rIx 7))) (fun h => h) (R := 0 + 1) (duties_later m G (recvCell c 7))) $$ [Har7] with Hzr7
  · isplitr; · iexact HIr7
    iexact Har7
  -- the staging buffer's chunks come back with the send cells' payloads and rejoin the rest
  unfold sendPay stgPts recvPay
  icases Has0_pay1 with ⟨%g0, Hck0⟩
  icases Has1_pay1 with ⟨%g1, Hck1⟩
  icases Has2_pay1 with ⟨%g2, Hck2⟩
  icases Has3_pay1 with ⟨%g3, Hck3⟩
  icases Has4_pay1 with ⟨%g4, Hck4⟩
  icases Has5_pay1 with ⟨%g5, Hck5⟩
  icases Has6_pay1 with ⟨%g6, Hck6⟩
  icases Has7_pay1 with ⟨%g7, Hck7⟩
  ihave Hsg := (pointsTo_join_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![7168, 0] S1024x1024.size inb_S8192x1024_S1024x1024_7168_0) (fun _ => rfl)).view.set) (S := (((((((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set) \ ((Memref.whole cc0_scratch2).slice (Rect.unit (s := S8192x1024) ![3072, 0] S1024x1024.size inb_S8192x1024_S1024x1024_3072_0) (fun _ => rfl)).view.set) \ ((Memref.whole cc0_scratch2).slice (Rect.unit (s := S8192x1024) ![4096, 0] S1024x1024.size inb_S8192x1024_S1024x1024_4096_0) (fun _ => rfl)).view.set) \ ((Memref.whole cc0_scratch2).slice (Rect.unit (s := S8192x1024) ![5120, 0] S1024x1024.size inb_S8192x1024_S1024x1024_5120_0) (fun _ => rfl)).view.set) \ ((Memref.whole cc0_scratch2).slice (Rect.unit (s := S8192x1024) ![6144, 0] S1024x1024.size inb_S8192x1024_S1024x1024_6144_0) (fun _ => rfl)).view.set)) (Finset.subset_sdiff.mpr ⟨Finset.subset_sdiff.mpr ⟨Finset.subset_sdiff.mpr ⟨Finset.subset_sdiff.mpr ⟨Finset.subset_sdiff.mpr ⟨Finset.subset_sdiff.mpr ⟨Finset.subset_sdiff.mpr ⟨Finset.subset_univ _, stg_disjoint 7 0 (by decide)⟩, stg_disjoint 7 1 (by decide)⟩, stg_disjoint 7 2 (by decide)⟩, stg_disjoint 7 3 (by decide)⟩, stg_disjoint 7 4 (by decide)⟩, stg_disjoint 7 5 (by decide)⟩, stg_disjoint 7 6 (by decide)⟩)) $$ [Hck7 Hsg]
  · isplitl [Hck7]; · iexact Hck7
    iexact Hsg
  ihave Hsg := (pointsTo_join_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![6144, 0] S1024x1024.size inb_S8192x1024_S1024x1024_6144_0) (fun _ => rfl)).view.set) (S := ((((((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set) \ ((Memref.whole cc0_scratch2).slice (Rect.unit (s := S8192x1024) ![3072, 0] S1024x1024.size inb_S8192x1024_S1024x1024_3072_0) (fun _ => rfl)).view.set) \ ((Memref.whole cc0_scratch2).slice (Rect.unit (s := S8192x1024) ![4096, 0] S1024x1024.size inb_S8192x1024_S1024x1024_4096_0) (fun _ => rfl)).view.set) \ ((Memref.whole cc0_scratch2).slice (Rect.unit (s := S8192x1024) ![5120, 0] S1024x1024.size inb_S8192x1024_S1024x1024_5120_0) (fun _ => rfl)).view.set)) (Finset.subset_sdiff.mpr ⟨Finset.subset_sdiff.mpr ⟨Finset.subset_sdiff.mpr ⟨Finset.subset_sdiff.mpr ⟨Finset.subset_sdiff.mpr ⟨Finset.subset_sdiff.mpr ⟨Finset.subset_univ _, stg_disjoint 6 0 (by decide)⟩, stg_disjoint 6 1 (by decide)⟩, stg_disjoint 6 2 (by decide)⟩, stg_disjoint 6 3 (by decide)⟩, stg_disjoint 6 4 (by decide)⟩, stg_disjoint 6 5 (by decide)⟩)) $$ [Hck6 Hsg]
  · isplitl [Hck6]; · iexact Hck6
    iexact Hsg
  ihave Hsg := (pointsTo_join_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![5120, 0] S1024x1024.size inb_S8192x1024_S1024x1024_5120_0) (fun _ => rfl)).view.set) (S := (((((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set) \ ((Memref.whole cc0_scratch2).slice (Rect.unit (s := S8192x1024) ![3072, 0] S1024x1024.size inb_S8192x1024_S1024x1024_3072_0) (fun _ => rfl)).view.set) \ ((Memref.whole cc0_scratch2).slice (Rect.unit (s := S8192x1024) ![4096, 0] S1024x1024.size inb_S8192x1024_S1024x1024_4096_0) (fun _ => rfl)).view.set)) (Finset.subset_sdiff.mpr ⟨Finset.subset_sdiff.mpr ⟨Finset.subset_sdiff.mpr ⟨Finset.subset_sdiff.mpr ⟨Finset.subset_sdiff.mpr ⟨Finset.subset_univ _, stg_disjoint 5 0 (by decide)⟩, stg_disjoint 5 1 (by decide)⟩, stg_disjoint 5 2 (by decide)⟩, stg_disjoint 5 3 (by decide)⟩, stg_disjoint 5 4 (by decide)⟩)) $$ [Hck5 Hsg]
  · isplitl [Hck5]; · iexact Hck5
    iexact Hsg
  ihave Hsg := (pointsTo_join_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![4096, 0] S1024x1024.size inb_S8192x1024_S1024x1024_4096_0) (fun _ => rfl)).view.set) (S := ((((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set) \ ((Memref.whole cc0_scratch2).slice (Rect.unit (s := S8192x1024) ![3072, 0] S1024x1024.size inb_S8192x1024_S1024x1024_3072_0) (fun _ => rfl)).view.set)) (Finset.subset_sdiff.mpr ⟨Finset.subset_sdiff.mpr ⟨Finset.subset_sdiff.mpr ⟨Finset.subset_sdiff.mpr ⟨Finset.subset_univ _, stg_disjoint 4 0 (by decide)⟩, stg_disjoint 4 1 (by decide)⟩, stg_disjoint 4 2 (by decide)⟩, stg_disjoint 4 3 (by decide)⟩)) $$ [Hck4 Hsg]
  · isplitl [Hck4]; · iexact Hck4
    iexact Hsg
  ihave Hsg := (pointsTo_join_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![3072, 0] S1024x1024.size inb_S8192x1024_S1024x1024_3072_0) (fun _ => rfl)).view.set) (S := (((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set)) (Finset.subset_sdiff.mpr ⟨Finset.subset_sdiff.mpr ⟨Finset.subset_sdiff.mpr ⟨Finset.subset_univ _, stg_disjoint 3 0 (by decide)⟩, stg_disjoint 3 1 (by decide)⟩, stg_disjoint 3 2 (by decide)⟩)) $$ [Hck3 Hsg]
  · isplitl [Hck3]; · iexact Hck3
    iexact Hsg
  ihave Hsg := (pointsTo_join_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![2048, 0] S1024x1024.size inb_S8192x1024_S1024x1024_2048_0) (fun _ => rfl)).view.set) (S := ((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set)) (Finset.subset_sdiff.mpr ⟨Finset.subset_sdiff.mpr ⟨Finset.subset_univ _, stg_disjoint 2 0 (by decide)⟩, stg_disjoint 2 1 (by decide)⟩)) $$ [Hck2 Hsg]
  · isplitl [Hck2]; · iexact Hck2
    iexact Hsg
  ihave Hsg := (pointsTo_join_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![1024, 0] S1024x1024.size inb_S8192x1024_S1024x1024_1024_0) (fun _ => rfl)).view.set) (S := (Finset.univ \ ((Memref.whole cc0_scratch2).slice (Rect.unit (s := S8192x1024) ![0, 0] S1024x1024.size inb_S8192x1024_S1024x1024_0_0) (fun _ => rfl)).view.set)) (Finset.subset_sdiff.mpr ⟨Finset.subset_univ _, stg_disjoint 1 0 (by decide)⟩)) $$ [Hck1 Hsg]
  · isplitl [Hck1]; · iexact Hck1
    iexact Hsg
  ihave Hsg := (pointsTo_join_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![0, 0] S1024x1024.size inb_S8192x1024_S1024x1024_0_0) (fun _ => rfl)).view.set) (S := Finset.univ) (Finset.subset_univ _)) $$ [Hck0 Hsg]
  · isplitl [Hck0]; · iexact Hck0
    iexact Hsg
  -- the device's own rows hold the eight blocks it kept; with the rows its partner wrote they are the whole result
  have hown' : ∀ i ∈ Finset.univ \ theirs c, sound_body.sl.Ho_w0 m c f1 f3 i = G c i := fun i hi =>
    (congrFun (show sound_body.sl.Ho_w0 m c f1 f3 = ownW m c 7 (ownW m c 6 (ownW m c 5 (ownW m c 4 (ownW m c 3 (ownW m c 2 (ownW m c 1 (ownW m c 0 (m _)))))))) from
      (ownW_congr m c 7 (ownW_congr m c 6 (ownW_congr m c 5 (ownW_congr m c 4 (ownW_congr m c 3 (ownW_congr m c 2 (ownW_congr m c 1 (ownW_congr m c 0 rfl (land0 c (m _) _ _ _ _)) (land1 c (m _) _ _ _ _)) (land2 c (m _) _ _ _ _)) (land3 c (m _) _ _ _ _)) (land4 c (m _) _ _ _ _)) (land5 c (m _) _ _ _ _)) (land6 c (m _) _ _ _ _)) (land7 c (m _) _ _ _))) i).trans (hown _ i hi)
  ihave Ho := (Entails.of_eq (pointsTo_congr hown')) $$ Ho
  ihave Ho := (out_join c (G c)) $$ [Ho Har0_pay1 Har1_pay1 Har2_pay1 Har3_pay1 Har4_pay1 Har5_pay1 Har6_pay1 Har7_pay1]
  · isplitl [Ho]; · iexact Ho
    isplitl [Har0_pay1]; · iexact Har0_pay1
    isplitl [Har1_pay1]; · iexact Har1_pay1
    isplitl [Har2_pay1]; · iexact Har2_pay1
    isplitl [Har3_pay1]; · iexact Har3_pay1
    isplitl [Har4_pay1]; · iexact Har4_pay1
    isplitl [Har5_pay1]; · iexact Har5_pay1
    isplitl [Har6_pay1]; · iexact Har6_pay1
    iexact Har7_pay1
  rw [wp_ret]; imodintro
  iapply Hk
  isplitr [HO]
  · unfold bodyPost scratches localSems
    isplitl [Hx]; · iexact Hx
    isplitl [Ho]; · iexact Ho
    isplitl [Hpf Hkf Hsg Hls]
    · isplitl [Hpf]; · iexists _; iexact Hpf
      isplitl [Hkf]; · iexists _; iexact Hkf
      isplitl [Hsg]; · iexists _; iexact Hsg
      iexists _; iexact Hls
    isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    isplitl [Hzs0 Hzs1 Hzs2 Hzs3 Hzs4 Hzs5 Hzs6 Hzs7]
    · isplitl [Hzs0]; · iexact Hzs0
      isplitl [Hzs1]; · iexact Hzs1
      isplitl [Hzs2]; · iexact Hzs2
      isplitl [Hzs3]; · iexact Hzs3
      isplitl [Hzs4]; · iexact Hzs4
      isplitl [Hzs5]; · iexact Hzs5
      isplitl [Hzs6]; · iexact Hzs6
      iexact Hzs7
    isplitl [Hzr0]; · iexact Hzr0
    isplitl [Hzr1]; · iexact Hzr1
    isplitl [Hzr2]; · iexact Hzr2
    isplitl [Hzr3]; · iexact Hzr3
    isplitl [Hzr4]; · iexact Hzr4
    isplitl [Hzr5]; · iexact Hzr5
    isplitl [Hzr6]; · iexact Hzr6
    iexact Hzr7
  · iexists _; iexact HO

/-- info: 'Cert.KernelIdeal.Xchg.sound_body' depends on axioms: [propext, Classical.choice, Quot.sound] -/
#guard_msgs in #print axioms sound_body

end Cert.KernelIdeal.Xchg

end
-- ==== Proof.Run.lean ====
/-
  The launch of the exchange: from the proof of one device's kernel body to the run of the whole program on the mesh.

  The program is one region with no staged window, so the pipeline's own part is empty: x and the result travel as the
  buffers no window stages, the four scratch buffers as the scoped buffers no window stages.  The exchange's cells are,
  per device, its barrier cell, its eight send cells and its eight receive cells; their ghost state is minted at launch,
  their invariants are allocated for all devices under one update, and the tokens of the duties a device's partner pays
  are handed across to the partner.
-/
import proofs.«900625_g7700000000000626_dist_a2a_v7x_xyz2x2x2_y_m8192_n1024_bf16_1_alg».proof.Proof.Inv
import proofs.«900625_g7700000000000626_dist_a2a_v7x_xyz2x2x2_y_m8192_n1024_bf16_1_alg».proof.Proof.Gen.KernelIdeal.Launch
import proofs.«900625_g7700000000000626_dist_a2a_v7x_xyz2x2x2_y_m8192_n1024_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (G : (c : Dev nD) → OutBuf (F := F) c)

/-! ## The proof data of the region: no window, one point -/

/-- Before the point a device holds what its body starts from, at some names of the cells' invariants, and owes its
    launch dues; after it, what the body ends with, owing nothing. -/
def dats (_ : Fin 1) (c : Dev nD) : Dat τ (Elt F) Unit ℕ UU ℕ cfg0 c where
  A w := w.elim0
  after w _ := w.elim0
  Φ t := match t with
    | ⟨0, _⟩ => iprop(∃ K, bodyPre m G K c)
    | ⟨_ + 1, _⟩ => bodyPost m G c
  q _ := fullShare
  owed t := match t with
    | ⟨0, _⟩ => O₀ c
    | ⟨_ + 1, _⟩ => 0

omit [FloatOps F] in
/-- No window: the windows' share of any assertion is empty. -/
theorem bigSep_W0 (Φ : Fin cfg0.W → sProp 𝕄) : bigSep Finset.univ Φ = iprop(emp) := by
  rw [Finset.univ_eq_empty]; exact bigSep_empty

/-- The region's obligation on device c, from the proof of its body. -/
theorem body_obligation (hbody : ∀ (c : Dev nD) (K : Dev nD × Fin 17 → ℕ) (W : Waits sig Unit) (Kt : PUnit → sProp 𝕄),
      iprop(bodyPre m G K c ∗ owes (c : Thread nD τ) (O₀ c) W ∗ ((bodyPost m G c ∗ ∃ W', owes (c : Thread nD τ) 0 W') -∗ Kt ⟨⟩))
        ⊢ wp frame (wpE (defs₀ (F := F)) 𝒱₀ c none) Set.univ
            (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) Kt) (c : Dev nD) :
    BodyObligation (dats (F := F) m G 0 c) (defs₀ (F := F)) 𝒱₀ () Set.univ := fun t => by
  have ht := fin_N0 t
  subst ht
  rw [bigSep_W0, bigSep_W0]
  show iprop((∃ K, bodyPre m G K c) ∗ (dats m G 0 c).owesAt () t0_0.castSucc ∗ emp)
    ⊢ wp frame (wpE (defs₀ (F := F)) 𝒱₀ c none) Set.univ
      (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8)
      (fun _ => iprop(bodyPost m G c ∗ (dats m G 0 c).owesAt () t0_0.succ ∗ emp))
  unfold Dat.owesAt Pipeline.owesWithin
  rw [show (dats m G 0 c).owed t0_0.castSucc = O₀ c from rfl, show (dats m G 0 c).owed t0_0.succ = 0 from rfl]
  iintro ⟨⟨%K, Hpre⟩, ⟨%W, %hW, HO⟩, -⟩
  iapply (hbody c K W _)
  isplitl [Hpre]; · iexact Hpre
  isplitl [HO]; · iexact HO
  iintro ⟨Hpost, %W', HO'⟩
  isplitl [Hpost]; · iexact Hpost
  isplitl [HO']
  · iexists W'
    isplitr; · ipureintro; exact fun _ _ => Or.inl trivial
    iexact HO'
  · iempintro

/-! ## The exchange's cells at launch -/

/-- The kernel's own twenty-two semaphores: 0 … 5 the local transfers', 6 … 13 the send cells, 14 … 21 the receive cells. -/
abbrev osem : Fin 22 → SemLoc sig := fun j => .dma j

theorem ownSemFacts : Pipeline.OwnSemFacts cfg0.spec osem := by decide

theorem csem_injective : Function.Injective (csem : Fin 17 → SemLoc sig) := by decide

theorem kcell_injective : Function.Injective (kcell : Dev nD × Fin 17 → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_injective h2]

def ringCells : Finset (GSem nD τ sig) := Finset.univ.map ⟨kcell, kcell_injective⟩
def ringToks : Finset (GSem nD τ sig × ℕ × Unit) :=
  Finset.univ.map ⟨fun cj : Dev nD × Fin 17 => (kcell cj, 0, ()), fun _ _ h => kcell_injective (congrArg Prod.fst h)⟩

/-- The launch element: the pipeline's copy over no cell, the exchange's copy over its cells and their duties' tokens,
    the local transfers' counters untouched. -/
def u₀ : UU :=
  (initOf (Pipeline.cells cfgs cellOf_inj) (Pipeline.launchToks cfgs cellOf_inj), (initOf ringCells ringToks, 1))

/-- What the launch element deals device c: the round states, positions and reached-marks of its seventeen cells, and
    the tokens of their duties. -/
def GL (c : Dev nD) : sProp 𝕄 :=
  iprop((bigSep Finset.univ fun j : Fin 17 => roundState ER (xRd m G) (kcell (c, j)) 0)
    ∗ (bigSep Finset.univ fun j : Fin 17 => iprop(atPos ER (kcell (c, j)) 0 ∅ 0 ∗ reached ER (kcell (c, j)) 0))
    ∗ (bigSep Finset.univ fun j : Fin 17 => dutyTok ER (kcell (c, j)) 0 ()))

/-- What the global step makes of it: the ghost state the body starts from, and the local transfers' semaphores. -/
def GL' (c : Dev nD) : sProp 𝕄 := iprop((∃ K, ghost m G K c) ∗ localSems c)

omit [FloatOps F] in
theorem fund_ring : BI.own (ER (initOf ringCells ringToks)) ⊢ (|==> bigSep Finset.univ (GL m G) : sProp 𝕄) := by
  have hX (Φ : GSem nD τ sig → sProp 𝕄) : bigSep ringCells Φ = bigSep Finset.univ fun c : Dev nD => bigSep Finset.univ fun j : Fin 17 => Φ (kcell (c, j)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun j : Fin 17 => dutyTok ER (kcell (c, j)) 0 () := by
    unfold ringToks; rw [bigSep_map, bigSep_univ_prod]; rfl
  iintro HX
  imod (Rounds.fund ER (xRd m G) ringCells ringToks) $$ HX with ⟨Hst, Hr, Hat, Htok⟩
  imodintro
  ihave Hst' := (Entails.of_eq (hX fun g => roundState ER (xRd m G) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold GL; simp only [bigSep_sep']
  isplitl [Hst']; · iexact Hst'
  isplitl [Hat' Hr']
  · isplitl [Hat'] <;> iassumption
  iexact Htok'

/-! ### A device's seventeen cells, one by one -/

omit [FloatOps F] in
theorem bigSep_fin17 (Φ : Fin 17 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

omit [FloatOps F] in
/-- Anything held of each of a device's cells is held of its barrier cell, of its eight send cells and of its eight
    receive cells. -/
theorem cells17 (c : Dev nD) (Φ : GSem nD τ sig → sProp 𝕄) :
    (bigSep Finset.univ fun j : Fin 17 => Φ (kcell (c, j)))
      = iprop(Φ (barCell c) ∗ sep8 (fun k => Φ (sendCell c k)) ∗ sep8 (fun k => Φ (recvCell c k))) := by
  rw [bigSep_fin17]
  rw [show kcell (c, 0) = barCell c from rfl,
    show kcell (c, 1) = sendCell c 0 from rfl, show kcell (c, 2) = sendCell c 1 from rfl, show kcell (c, 3) = sendCell c 2 from rfl, show kcell (c, 4) = sendCell c 3 from rfl, show kcell (c, 5) = sendCell c 4 from rfl, show kcell (c, 6) = sendCell c 5 from rfl, show kcell (c, 7) = sendCell c 6 from rfl, show kcell (c, 8) = sendCell c 7 from rfl,
    show kcell (c, 9) = recvCell c 0 from rfl, show kcell (c, 10) = recvCell c 1 from rfl, show kcell (c, 11) = recvCell c 2 from rfl, show kcell (c, 12) = recvCell c 3 from rfl, show kcell (c, 13) = recvCell c 4 from rfl, show kcell (c, 14) = recvCell c 5 from rfl, show kcell (c, 15) = recvCell c 6 from rfl, show kcell (c, 16) = recvCell c 7 from rfl]
  refine BI.Entails.antisymm (show _ ⊢ (_ : sProp 𝕄) from ?_) (show _ ⊢ (_ : sProp 𝕄) from ?_)
  · iintro ⟨H0, H1, H2, H3, H4, H5, H6, H7, H8, H9, H10, H11, H12, H13, H14, H15, H16⟩
    isplitl [H0]; · iexact H0
    isplitl [H1 H2 H3 H4 H5 H6 H7 H8]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
  · iintro ⟨H0, ⟨H1, H2, H3, H4, H5, H6, H7, H8⟩, H9, H10, H11, H12, H13, H14, H15, H16⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

omit [FloatOps F] in
/-- The runtime's barrier semaphore is the core's one semaphore no region scopes. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma (0 : DmaSem sig)) 0
      ∗ semVal ((c : Thread nD τ), SemLoc.dma (1 : DmaSem sig)) 0
      ∗ semVal ((c : Thread nD τ), SemLoc.dma (2 : DmaSem sig)) 0
      ∗ semVal ((c : Thread nD τ), SemLoc.dma (3 : DmaSem sig)) 0
      ∗ semVal ((c : Thread nD τ), SemLoc.dma (4 : DmaSem sig)) 0
      ∗ semVal ((c : Thread nD τ), SemLoc.dma (5 : DmaSem sig)) 0
      ∗ semVal ((c : Thread nD τ), SemLoc.dma (6 : DmaSem sig)) 0
      ∗ semVal ((c : Thread nD τ), SemLoc.dma (7 : DmaSem sig)) 0
      ∗ semVal ((c : Thread nD τ), SemLoc.dma (8 : DmaSem sig)) 0
      ∗ semVal ((c : Thread nD τ), SemLoc.dma (9 : DmaSem sig)) 0
      ∗ semVal ((c : Thread nD τ), SemLoc.dma (10 : DmaSem sig)) 0
      ∗ semVal ((c : Thread nD τ), SemLoc.dma (11 : DmaSem sig)) 0
      ∗ semVal ((c : Thread nD τ), SemLoc.dma (12 : DmaSem sig)) 0
      ∗ semVal ((c : Thread nD τ), SemLoc.dma (13 : DmaSem sig)) 0
      ∗ semVal ((c : Thread nD τ), SemLoc.dma (14 : DmaSem sig)) 0
      ∗ semVal ((c : Thread nD τ), SemLoc.dma (15 : DmaSem sig)) 0
      ∗ semVal ((c : Thread nD τ), SemLoc.dma (16 : DmaSem sig)) 0
      ∗ semVal ((c : Thread nD τ), SemLoc.dma (17 : DmaSem sig)) 0
      ∗ semVal ((c : Thread nD τ), SemLoc.dma (18 : DmaSem sig)) 0
      ∗ semVal ((c : Thread nD τ), SemLoc.dma (19 : DmaSem sig)) 0
      ∗ semVal ((c : Thread nD τ), SemLoc.dma (20 : DmaSem sig)) 0
      ∗ semVal ((c : Thread nD τ), SemLoc.dma (21 : DmaSem sig)) 0) := by
  rw [Pipeline.ownSems0_eq_of_list c osem [0, 1, 2, 3, 4, 5, 6, 7, 8, 9, 10, 11, 12, 13, 14, 15, 16, 17, 18, 19, 20, 21] (by decide) (by decide)]; rfl

omit [FloatOps F] in
/-- A device's semaphores at zero: those of its seventeen cells, and the local transfers' six. -/
theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun j : Fin 17 => semVal (kcell (c, j)) 0) ∗ localSems c) : sProp 𝕄) := by
  rw [ownSems0_eq, unscopedSems0_eq, bigSep_fin17]
  iintro ⟨⟨H0, H1, H2, H3, H4, H5, H6, H7, H8, H9, H10, H11, H12, H13, H14, H15, H16, H17, H18, H19, H20, H21⟩, HB⟩
  isplitr [H0 H1 H2 H3 H4 H5]
  · isplitl [HB]; · iexact HB
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · isplitl [H0]; · iexact H0
    isplitl [H1]; · iexact H1
    isplitl [H2]; · iexact H2
    isplitl [H3]; · iexact H3
    isplitl [H4]; · iexact H4
    iexact H5

omit [FloatOps F] in
/-- On one device: the cells' invariants allocated from their counters at zero and their round states. -/
theorem core_alloc (c : Dev nD) :
    iprop(Pipeline.ownSems0 (Ix := Unit) (Name := ℕ) (U := UU) (Lvl := ℕ) (Val := Elt F) (τ := τ) osem c ∗ unscopedSems0 c ∗ GL m G c)
      ⊢ |={Set.univ}=> iprop((bigSep Finset.univ fun j : Fin 17 => iprop(∃ κ : ℕ, cellInv ER (xRd m G) κ (kcell (c, j))))
          ∗ (bigSep Finset.univ fun j : Fin 17 => iprop(atPos ER (kcell (c, j)) 0 ∅ 0 ∗ reached ER (kcell (c, j)) 0))
          ∗ (bigSep Finset.univ fun j : Fin 17 => dutyTok ER (kcell (c, j)) 0 ()) ∗ localSems c) := by
  unfold GL
  iintro ⟨Hos, Hus, Hst, Hat, Htok⟩
  ihave Hv := (sems0_split (F := F) c) $$ [Hos Hus]
  · isplitl [Hos] <;> iassumption
  icases Hv with ⟨Hv, Hls⟩
  imod (show iprop((bigSep Finset.univ fun j : Fin 17 => semVal (kcell (c, j)) 0) ∗ bigSep Finset.univ fun j : Fin 17 => roundState ER (xRd m G) (kcell (c, j)) 0)
      ⊢ (|={Set.univ}=> bigSep Finset.univ fun j : Fin 17 => iprop(∃ κ : ℕ, cellInv ER (xRd m G) κ (kcell (c, j))) : sProp 𝕄) from by
        rw [← bigSep_sep']
        exact (bigSep_mono fun j _ => (Rounds.body_intro ER (xRd m G) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hls

/-- Every cell's invariant at its name, and round 0 of every cell reached: what all devices share. -/
def records (K : Dev nD × Fin 17 → ℕ) : sProp 𝕄 :=
  iprop((bigSep Finset.univ fun cj : Dev nD × Fin 17 => cellInv ER (xRd m G) (K cj) (kcell cj))
    ∗ bigSep Finset.univ fun cj : Dev nD × Fin 17 => reached ER (kcell cj) 0)

instance records_persistent (K : Dev nD × Fin 17 → ℕ) : BI.Persistent (records m G K) := by unfold records; infer_instance

omit [FloatOps F] in
theorem inv_at (K : Dev nD × Fin 17 → ℕ) (cj : Dev nD × Fin 17) :
    (bigSep Finset.univ fun cj : Dev nD × Fin 17 => (cellInv ER (xRd m G) (K cj) (kcell cj) : sProp 𝕄)) ⊢ cellInv ER (xRd m G) (K cj) (kcell cj) :=
  bigSep_elim (Finset.mem_univ cj)
omit [FloatOps F] in
theorem reached_at (cj : Dev nD × Fin 17) :
    (bigSep Finset.univ fun cj : Dev nD × Fin 17 => (reached ER (kcell cj) 0 : sProp 𝕄)) ⊢ reached ER (kcell cj) 0 :=
  bigSep_elim (Finset.mem_univ cj)

/-- The tokens of a device's own cells, by kind. -/
def tokB (c : Dev nD) : sProp 𝕄 := dutyTok ER (barCell c) 0 ()
def tokS (c : Dev nD) : sProp 𝕄 := sep8 (fun k => dutyTok ER (sendCell c k) 0 ())
def tokR (c : Dev nD) : sProp 𝕄 := sep8 (fun k => dutyTok ER (recvCell c k) 0 ())

/-- The tokens of the duties a device PAYS: its partner's barrier duty, its partner's receive duties, its own send duties. -/
def payToks (c : Dev nD) : sProp 𝕄 := iprop(tokB (peer c) ∗ tokR (peer c) ∗ tokS c)

/-- What stays with one device: its positions, the tokens it pays with, the local transfers' semaphores. -/
def linear (c : Dev nD) : sProp 𝕄 :=
  iprop((bigSep Finset.univ fun j : Fin 17 => atPos ER (kcell (c, j)) 0 ∅ 0) ∗ payToks c ∗ localSems c)

omit [FloatOps F] in
theorem ghost_intro (K : Dev nD × Fin 17 → ℕ) (c : Dev nD) : iprop(records m G K ∗ linear c) ⊢ GL' m G c := by
  unfold records linear payToks tokB tokS tokR GL' ghost invs
  rw [cells17 c (fun g => (atPos ER g 0 ∅ 0 : sProp 𝕄))]
  iintro ⟨⟨#HI, #HR⟩, ⟨HaB, HaS, HaR⟩, ⟨HtB, HtR, HtS⟩, Hls⟩
  isplitr [Hls]
  · iexists K
    isplitr
    · isplitr; · iapply (inv_at m G K (c, 0)); iexact HI
      isplitr; · iapply (inv_at m G K (peer c, 0)); iexact HI
      isplitr
      · isplitr; · iapply (inv_at m G K (c, sIx 0)); iexact HI
        isplitr; · iapply (inv_at m G K (c, sIx 1)); iexact HI
        isplitr; · iapply (inv_at m G K (c, sIx 2)); iexact HI
        isplitr; · iapply (inv_at m G K (c, sIx 3)); iexact HI
        isplitr; · iapply (inv_at m G K (c, sIx 4)); iexact HI
        isplitr; · iapply (inv_at m G K (c, sIx 5)); iexact HI
        isplitr; · iapply (inv_at m G K (c, sIx 6)); iexact HI
        iapply (inv_at m G K (c, sIx 7)); iexact HI
      isplitr
      · isplitr; · iapply (inv_at m G K (c, rIx 0)); iexact HI
        isplitr; · iapply (inv_at m G K (c, rIx 1)); iexact HI
        isplitr; · iapply (inv_at m G K (c, rIx 2)); iexact HI
        isplitr; · iapply (inv_at m G K (c, rIx 3)); iexact HI
        isplitr; · iapply (inv_at m G K (c, rIx 4)); iexact HI
        isplitr; · iapply (inv_at m G K (c, rIx 5)); iexact HI
        isplitr; · iapply (inv_at m G K (c, rIx 6)); iexact HI
        iapply (inv_at m G K (c, rIx 7)); iexact HI
      · isplitr; · iapply (inv_at m G K (peer c, rIx 0)); iexact HI
        isplitr; · iapply (inv_at m G K (peer c, rIx 1)); iexact HI
        isplitr; · iapply (inv_at m G K (peer c, rIx 2)); iexact HI
        isplitr; · iapply (inv_at m G K (peer c, rIx 3)); iexact HI
        isplitr; · iapply (inv_at m G K (peer c, rIx 4)); iexact HI
        isplitr; · iapply (inv_at m G K (peer c, rIx 5)); iexact HI
        isplitr; · iapply (inv_at m G K (peer c, rIx 6)); iexact HI
        iapply (inv_at m G K (peer c, rIx 7)); iexact HI
    isplitl [HaB]; · iexact HaB
    isplitl [HaS]; · iexact HaS
    isplitl [HaR]; · iexact HaR
    isplitr; · iapply (reached_at (F := F) (peer c, 0)); iexact HR
    isplitr
    · isplitr; · iapply (reached_at (F := F) (peer c, rIx 0)); iexact HR
      isplitr; · iapply (reached_at (F := F) (peer c, rIx 1)); iexact HR
      isplitr; · iapply (reached_at (F := F) (peer c, rIx 2)); iexact HR
      isplitr; · iapply (reached_at (F := F) (peer c, rIx 3)); iexact HR
      isplitr; · iapply (reached_at (F := F) (peer c, rIx 4)); iexact HR
      isplitr; · iapply (reached_at (F := F) (peer c, rIx 5)); iexact HR
      isplitr; · iapply (reached_at (F := F) (peer c, rIx 6)); iexact HR
      iapply (reached_at (F := F) (peer c, rIx 7)); iexact HR
    isplitr
    · isplitr; · iapply (reached_at (F := F) (c, sIx 0)); iexact HR
      isplitr; · iapply (reached_at (F := F) (c, sIx 1)); iexact HR
      isplitr; · iapply (reached_at (F := F) (c, sIx 2)); iexact HR
      isplitr; · iapply (reached_at (F := F) (c, sIx 3)); iexact HR
      isplitr; · iapply (reached_at (F := F) (c, sIx 4)); iexact HR
      isplitr; · iapply (reached_at (F := F) (c, sIx 5)); iexact HR
      isplitr; · iapply (reached_at (F := F) (c, sIx 6)); iexact HR
      iapply (reached_at (F := F) (c, sIx 7)); iexact HR
    isplitl [HtB]; · iexact HtB
    isplitl [HtR]; · iexact HtR
    iexact HtS
  · iexact Hls

omit [FloatOps F] in
/-- The barrier token and the receive tokens change hands across each pair of partners; the send tokens stay. -/
theorem toks_around :
    (bigSep Finset.univ fun c : Dev nD => (bigSep Finset.univ fun j : Fin 17 => dutyTok ER (kcell (c, j)) 0 () : sProp 𝕄))
      ⊢ bigSep Finset.univ fun c : Dev nD => payToks c := by
  have e (c : Dev nD) : (bigSep Finset.univ fun j : Fin 17 => (dutyTok ER (kcell (c, j)) 0 () : sProp 𝕄)) = iprop(tokB c ∗ tokS c ∗ tokR c) :=
    cells17 c (fun g => (dutyTok ER g 0 () : sProp 𝕄))
  rw [bigSep_congr (s := Finset.univ) (fun (c : Dev nD) _ => e c)]
  unfold payToks
  rw [bigSep_sep', bigSep_sep', bigSep_sep', bigSep_sep',
    bigSep_univ_equiv swap (fun c : Dev nD => (tokB c : sProp 𝕄)), bigSep_univ_equiv swap (fun c : Dev nD => (tokR c : sProp 𝕄))]
  iintro ⟨HB, HS, HR⟩
  isplitl [HB]; · iexact HB
  isplitl [HR]; · iexact HR
  iexact HS

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- All devices' allocations regrouped: the invariants' names gathered into one function, the shared records made, the
    tokens handed to their payers, and each device given its ghost state. -/
theorem regroup :
    (bigSep Finset.univ fun c : Dev nD => iprop((bigSep Finset.univ fun j : Fin 17 => iprop(∃ κ : ℕ, cellInv ER (xRd m G) κ (kcell (c, j))))
          ∗ (bigSep Finset.univ fun j : Fin 17 => iprop(atPos ER (kcell (c, j)) 0 ∅ 0 ∗ reached ER (kcell (c, j)) 0))
          ∗ (bigSep Finset.univ fun j : Fin 17 => dutyTok ER (kcell (c, j)) 0 ()) ∗ localSems c) : sProp 𝕄)
      ⊢ bigSep Finset.univ (GL' m G) := by
  rw [bigSep_sep', bigSep_sep', bigSep_sep', ← bigSep_univ_prod (fun cj : Dev nD × Fin 17 => iprop(∃ κ : ℕ, cellInv ER (xRd m G) κ (kcell cj))),
    bigSep_congr (s := Finset.univ) (fun (c : Dev nD) _ => bigSep_sep' Finset.univ (fun j : Fin 17 => (atPos ER (kcell (c, j)) 0 ∅ 0 : sProp 𝕄)) (fun j => reached ER (kcell (c, j)) 0)),
    bigSep_sep', ← bigSep_univ_prod (fun cj : Dev nD × Fin 17 => (reached ER (kcell cj) 0 : sProp 𝕄))]
  iintro ⟨HI, ⟨Hat, #HR⟩, Htok, Hls⟩
  ihave HK := (BI.bigSep_exists_pi Finset.univ (fun (cj : Dev nD × Fin 17) (κ : ℕ) => (cellInv ER (xRd m G) κ (kcell cj) : sProp 𝕄))) $$ HI
  icases HK with ⟨%K, #HI⟩
  ihave Htk := (toks_around (F := F)) $$ Htok
  iapply (bigSep_with_persistent (R := records m G K) fun c _ => ghost_intro m G K c)
  isplitr
  · unfold records; isplitl; · iexact HI
    iexact HR
  · iapply ((Entails.of_eq (bigSep_sep' Finset.univ (fun c : Dev nD => bigSep Finset.univ fun j : Fin 17 => (atPos ER (kcell (c, j)) 0 ∅ 0 : sProp 𝕄))
        (fun c : Dev nD => iprop(payToks c ∗ localSems c))).symm).trans
      (bigSep_mono fun c _ => show _ ⊢ linear c from Entails.of_eq (by unfold linear; rfl)))
    isplitl [Hat]; · iexact Hat
    iapply (Entails.of_eq (bigSep_sep' Finset.univ (fun c : Dev nD => (payToks c : sProp 𝕄)) (fun c : Dev nD => localSems c)).symm)
    isplitl [Htk]; · iexact Htk
    iexact Hls

omit [FloatOps F] in
/-- The global step: every device's own semaphores and its barrier semaphore, with what the launch element dealt it. -/
theorem glob : (bigSep Finset.univ fun c => iprop(Pipeline.ownSems0 (Ix := Unit) (Name := ℕ) (U := UU) (Lvl := ℕ) (Val := Elt F) (τ := τ) osem c ∗ unscopedSems0 c ∗ GL m G c) : sProp 𝕄)
    ⊢ |={Set.univ}=> bigSep Finset.univ (GL' m G) :=
  ((bigSep_mono fun c _ => core_alloc m G c).trans (bigSep_fupd _ _)).trans (BI.fupd_mono (regroup m G))

/-! ### The launch credit -/

omit [FloatOps F] in
/-- What its partner owes a device's cells at launch comes to the device as credit: one unit on its barrier cell, one
    chunk's credit on each receive cell. -/
theorem creds (c : Dev nD) :
    (Pipeline.launchCred O₀ c : sProp 𝕄) ⊢ iprop(cred (tallyAt (barCell c) () 1) ∗ sep8 (fun k => cred (tallyAt (recvCell c k) () N))) := by
  have hb : (Pipeline.launchCred (fun d : Dev nD => tallyAt (barCell (peer d)) () 1) c : sProp 𝕄) ⊢ cred (tallyAt (barCell c) () 1) :=
    Pipeline.launchCred_tallyAt (SemLoc.reg barS) peer peer peer_peer peer_peer () 1 c
  have hr (k : Fin 8) : (Pipeline.launchCred (fun d : Dev nD => tRecv d k) c : sProp 𝕄) ⊢ cred (tallyAt (recvCell c k) () N) :=
    Pipeline.launchCred_tallyAt (SemLoc.dma (recvS k)) peer peer peer_peer peer_peer () N c
  show (Pipeline.launchCred (fun d => owed0 d + tallyAt (barCell (peer d)) () 1) c : sProp 𝕄) ⊢ _
  rw [Pipeline.launchCred_add]
  rw [show (owed0 : Dev nD → CellTallies nD τ sig Unit) = fun d => owed1 d + tRecv d 0 from rfl, Pipeline.launchCred_add]
  rw [show (owed1 : Dev nD → CellTallies nD τ sig Unit) = fun d => owed2 d + tRecv d 1 from rfl, Pipeline.launchCred_add]
  rw [show (owed2 : Dev nD → CellTallies nD τ sig Unit) = fun d => owed3 d + tRecv d 2 from rfl, Pipeline.launchCred_add]
  rw [show (owed3 : Dev nD → CellTallies nD τ sig Unit) = fun d => owed4 d + tRecv d 3 from rfl, Pipeline.launchCred_add]
  rw [show (owed4 : Dev nD → CellTallies nD τ sig Unit) = fun d => owed5 d + tRecv d 4 from rfl, Pipeline.launchCred_add]
  rw [show (owed5 : Dev nD → CellTallies nD τ sig Unit) = fun d => owed6 d + tRecv d 5 from rfl, Pipeline.launchCred_add]
  rw [show (owed6 : Dev nD → CellTallies nD τ sig Unit) = fun d => owed7 d + tRecv d 6 from rfl, Pipeline.launchCred_add]
  rw [show (owed7 : Dev nD → CellTallies nD τ sig Unit) = fun d => (fun _ : Dev nD => (0 : CellTallies nD τ sig Unit)) d + tRecv d 7 from rfl, Pipeline.launchCred_add]
  iintro ⟨⟨⟨⟨⟨⟨⟨⟨⟨-, H7⟩, H6⟩, H5⟩, H4⟩, H3⟩, H2⟩, H1⟩, H0⟩, HB⟩
  isplitl [HB]; · iapply (hb); iexact HB
  isplitl [H0]; · iapply (hr 0); iexact H0
  isplitl [H1]; · iapply (hr 1); iexact H1
  isplitl [H2]; · iapply (hr 2); iexact H2
  isplitl [H3]; · iapply (hr 3); iexact H3
  isplitl [H4]; · iapply (hr 4); iexact H4
  isplitl [H5]; · iapply (hr 5); iexact H5
  isplitl [H6]; · iapply (hr 6); iexact H6
  iapply (hr 7); iexact H7

/-! ### The theorem's side conditions -/

/-- What a device routes into the region: everything its body starts from but the scratch buffers. -/
def X (c : Dev nD) : sProp 𝕄 :=
  iprop(∃ K, ghost m G K c ∗ cred (tallyAt (barCell c) () 1) ∗ sep8 (fun k => cred (tallyAt (recvCell c k) () N)) ∗ levAts L lv
    ∗ localSems c
    ∗ (xM.view.loc (c : Thread nD τ) ↦{fullShare} m _) ∗ (oM.view.loc (c : Thread nD τ) ↦{fullShare} m _))

/-- What it takes out of it: x as launched, the result at its expected contents. -/
def Y (c : Dev nD) : sProp 𝕄 :=
  iprop((xM.view.loc (c : Thread nD τ) ↦{fullShare} m _) ∗ (oM.view.loc (c : Thread nD τ) ↦{fullShare} G c))

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ GL' m G c)
      ⊢ |={Set.univ}=> iprop(X m G c ∗ emp) := by
  rw [Pipeline.unscopedRestP_none, unscopedRest0_eq]
  unfold GL' X
  iintro ⟨⟨Hx, Ho⟩, Hlev, Hcr, -, ⟨%K, Hg⟩, Hls⟩
  ihave Hc := (creds (F := F) c) $$ Hcr
  icases Hc with ⟨H1, HN⟩
  imodintro
  isplitl
  · iexists K
    isplitl [Hg]; · iexact Hg
    isplitl [H1]; · iexact H1
    isplitl [HN]; · iexact HN
    isplitl [Hlev]; · iexact Hlev
    isplitl [Hls]; · iexact Hls
    isplitl [Hx]; · iexact Hx
    iexact Ho
  · iempintro

theorem phi0_intro (c : Dev nD) :
    iprop(X m G c ∗ Pipeline.prefHeld Pipeline.Prefetch.none c (fun _ => fullShare.right) (fun k => k.elim0) ∗ Pipeline.scopedRest cfg0.spec c)
      ⊢ (dats m G 0 c).Φ 0 := by
  rw [show (dats m G 0 c).Φ 0 = iprop(∃ K, bodyPre m G K c) from rfl, scopedRest0_eq]
  unfold X bodyPre
  iintro ⟨⟨%K, Hg, Hcb, Hcr, Hlev, Hls, Hx, Ho⟩, -, Hsc⟩
  iexists K
  isplitl [Hg]; · iexact Hg
  isplitl [Hcb]; · iexact Hcb
  isplitl [Hcr]; · iexact Hcr
  isplitl [Hlev]; · iexact Hlev
  isplitl [Hls]; · iexact Hls
  isplitl [Hx]; · iexact Hx
  isplitl [Ho]; · iexact Ho
  iexact Hsc

theorem phi1_exit (c : Dev nD) :
    (dats m G 0 c).Φ (Fin.last cfg0.N) ⊢ iprop(Y m G c ∗ Pipeline.ownSems0 osem c ∗ Pipeline.scopedRest cfg0.spec c) := by
  rw [show (dats m G 0 c).Φ (Fin.last cfg0.N) = bodyPost m G c from rfl, scopedRest0_eq, ownSems0_eq]
  unfold bodyPost Y
  iintro ⟨Hx, Ho, Hsc, ⟨H0, H1, H2, H3, H4, H5⟩, ⟨S0, S1, S2, S3, S4, S5, S6, S7⟩, R0, R1, R2, R3, R4, R5, R6, R7⟩
  isplitl [Hx Ho]
  · isplitl [Hx] <;> iassumption
  isplitr [Hsc]
  · isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  · iexact Hsc

/-- No staging cell: the pipeline itself waits on nothing. -/
theorem waits (c : Dev nD) : (levAts L lv : sProp 𝕄) ⊢ Pipeline.cellsWaits cfgs (dats m G) () 0 c :=
  Pipeline.cellsWaits_intro cfgs (dats m G) () 0 c fun w s t => w.elim0

/-! ## The run -/

set_option maxRecDepth 8000 in
/-- On the mesh of eight devices, for any float values, from any memory with every semaphore at zero: every weakly fair
    execution of the program -- the devices pairing up along y, each signalling its partner's barrier cell and then
    sending it eight row chunks -- terminates, and every final state has each device's result at its expected contents
    and its x as launched; given the proof of one device's kernel body. -/
theorem run_main
    (hbody : ∀ (c : Dev nD) (K : Dev nD × Fin 17 → ℕ) (W : Waits sig Unit) (Kt : PUnit → sProp 𝕄),
      iprop(bodyPre m G K c ∗ owes (c : Thread nD τ) (O₀ c) W ∗ ((bodyPost m G c ∗ ∃ W', owes (c : Thread nD τ) 0 W') -∗ Kt ⟨⟩))
        ⊢ wp frame (wpE (defs₀ (F := F)) 𝒱₀ c none) Set.univ
            (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) Kt) :
    θ_run defs (onTc (τ := τ) (main (F := F))) ⟨m, fun _ => 0, ρ⟩ (fun r => ∀ c : Dev nD,
      r.2.mem ((c.tc : Thread nD τ).loc main_v1) = G c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m G) () cellOf_inj (0 : Fin 1)
    winFacts0.to₀ ownSemFacts (Pipeline.PreFacts.none _) EP defs₀ 𝒱₀ m ρ main
    (hmain := fun _ => rfl)
    (hbody := body_obligation m G hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m G)
    (G := GL m G) (G' := GL' m G) (u₀ := u₀)
    (hu₀ := by
      unfold u₀
      iintro Hu
      ihave H := (ownU_pair _ _) $$ Hu
      icases H with ⟨HP, HX⟩
      ihave H2 := (own_pair_emb EB _ _) $$ HX
      icases H2 with ⟨HR, -⟩
      imod (fund_ring m G) $$ HR with HG
      imodintro
      isplitl [HP] <;> iassumption)
    (hglob := glob m G)
    (hA := fun _ w => w.elim0) (hpf := fun _ k => k.elim0)
    (X := X m G) (Y := Y m G) (Z := fun _ => iprop(emp))
    (hX := start_intro m ρ G) (hin := phi0_intro m G) (hout := phi1_exit m G)
    (QY := fun c s => s.mem ((c.tc : Thread nD τ).loc main_v1) = G c
      ∧ s.mem ((c.tc : Thread nD τ).loc main_arg0) = m ((c.tc : Thread nD τ).loc main_arg0))
    (hY := fun c s' => by
      unfold Y
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.KernelIdeal.Xchg.run_main' depends on axioms: [propext, Classical.choice, Quot.sound] -/
#guard_msgs in #print axioms run_main

end Cert.KernelIdeal.Xchg

end
-- ==== Proof.Block.lean ====
/-
  The expected results, as blocks of one whole array.

  When each device's row block of x is its block of a whole array X cut along the rows by the mesh axis y, the expected
  result of a device is its block, cut along the columns by y, of X converted element by element: entry (8192 y' + r',
  1024 y(c) + j) of X lies on the device of c's pair whose y is y', at row r' of its block.
-/
import proofs.«900625_g7700000000000626_dist_a2a_v7x_xyz2x2x2_y_m8192_n1024_bf16_1_alg».proof.Proof.Value
import Idealize.ShloMosaic.Lib.Layout

noncomputable section

namespace Cert.KernelIdeal.Xchg

open Cert.KernelIdeal Cert.KernelIdeal.Gen

open Idealize.ShloMosaic
open Idealize.ShloMosaic.TcCoe
open Idealize.ShloMosaic.ValueIdx
open Idealize.SL Idealize.SL.Sem

variable {F : FTy → Type} [FloatOps F]

variable (m : (ℓ : Loc nD τ sig) → Buf (Elt F) ℓ)

/-- A device's block coordinate along the mesh axis y is its y. -/
theorem meshLin_y (d : Dev nD) : Layout.meshLin [2, 2, 2] d.val [1] = yOf d := by revert d; decide

theorem yOf_srcDev (c : Dev nD) (y' : ℕ) (hy' : y' < 2) : yOf (srcDev c y') = y' := by
  unfold srcDev
  split
  · next h => exact h
  · next h => rw [yOf_peer]; have := yOf_lt c; omega

/-- The expected result of device c is its block of the whole array converted. -/
theorem Gx_eq_block (X : (⟨2, ![16384, 2048]⟩ : Shape).Idx → Elt F .f32)
    (hm : ∀ c : Dev nD, m ((c.tc : Thread nD τ).loc main_arg0)
      = Layout.blockN ⟨2, ![8192, 2048]⟩ ⟨2, ![16384, 2048]⟩ (Layout.meshBlock [2, 2, 2] ![[1], []] c) X)
    (h : FTy.bits .bf16 < FTy.bits .f32) (c : Dev nD) :
    Gx m c = Layout.blockN ⟨2, ![16384, 1024]⟩ ⟨2, ![16384, 2048]⟩ (Layout.meshBlock [2, 2, 2] ![[], [1]] c) (truncf .bf16 X h) := by
  funext i
  have hi0 := idx2_lt0 (i : S16384x1024.Idx)
  have hy := yOf_lt c
  have hs := yOf_srcDev c ((i 0).val / 8192) (by omega)
  refine congrArg trunc1 ((congrFun (hm (srcDev c ((i 0).val / 8192))) (ix2 _ _)).trans ?_)
  refine congrArg X (Shape.idx_ext₂ ?_ ?_)
  · show Layout.meshLin [2, 2, 2] (srcDev c ((i 0).val / 8192)).val [1] * 8192 + (i 0).val % 8192 = 0 * 16384 + (i 0).val
    rw [meshLin_y, hs]; omega
  · show 0 * 2048 + (1024 * yOf c + (i 1).val) = Layout.meshLin [2, 2, 2] c.val [1] * 1024 + (i 1).val
    rw [meshLin_y]; omega

/-- info: 'Cert.KernelIdeal.Xchg.Gx_eq_block' depends on axioms: [propext, Classical.choice, Quot.sound] -/
#guard_msgs in #print axioms Gx_eq_block

end Cert.KernelIdeal.Xchg

end
-- ==== Proof.Main.lean ====
/-
  The run of the whole program at the expected results: the launch of the exchange, given the proof of one device's
  kernel body, where what the sent blocks land as and what the kept blocks leave are the expected results' rows.
-/
import proofs.«900625_g7700000000000626_dist_a2a_v7x_xyz2x2x2_y_m8192_n1024_bf16_1_alg».proof.Proof.Body
import proofs.«900625_g7700000000000626_dist_a2a_v7x_xyz2x2x2_y_m8192_n1024_bf16_1_alg».proof.Proof.Run
import proofs.«900625_g7700000000000626_dist_a2a_v7x_xyz2x2x2_y_m8192_n1024_bf16_1_alg».proof.Proof.Block

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- On the mesh, for any float values, from any memory with every semaphore at zero: every weakly fair execution of the
    program terminates, and every final state has each device's result at the expected one -- the conversion of the
    pair's two row blocks of x, column half by column half -- and its x as launched. -/
theorem kernel_run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1) = Gx m c
      ∧ r.2.mem ((c.tc : Thread nD τ).loc main_arg0) = m ((c.tc : Thread nD τ).loc main_arg0)) :=
  run_main m ρ (Gx m) (fun c K W Kt => sound_body m (Gx m) c K W Kt (land_send m c) (own_final m c))

/-- info: 'Cert.KernelIdeal.Xchg.kernel_run' depends on axioms: [propext, Classical.choice, Quot.sound] -/
#guard_msgs in #print axioms kernel_run

end Cert.KernelIdeal.Xchg

end
-- ==== Proof.Bits.Proto.lean ====
/-
  The all-to-all exchange along the mesh axis y, as a protocol over semaphore cells.

  Device c (linear id 4x + 2y + z) and its partner peer c (the device with the other y) each hold one row block of x.
  A device signals its partner's barrier cell once and waits for one unit on its own; it then sends, chunk by chunk,
  the column half its partner keeps into the partner's result, crediting the partner's receive cell k and its own send
  cell k, and copies the column half it keeps into its own result by local transfers.

  The cells, under the rounds discipline, one duty (named by the unit) in round 0 each:
  * the barrier cell of c: paid by peer c; it hands c the eight row chunks of peer c's result that c will write, and
    that peer c has reached round 0 of its eight receive cells;
  * send cell k of c: paid by c's own transfer k once its source is read; it hands back chunk k of the staging buffer;
  * receive cell k of c: paid by peer c's transfer k once it has landed; it hands c the rows it wrote, at the
    expected final contents of c's result.
-/
import proofs.«900625_g7700000000000626_dist_a2a_v7x_xyz2x2x2_y_m8192_n1024_bf16_1_alg».proof.Proof.Gen.Kernel
import proofs.«900625_g7700000000000626_dist_a2a_v7x_xyz2x2x2_y_m8192_n1024_bf16_1_alg».proof.Proof.Gen.Kernel.Skeleton
import proofs.«900625_g7700000000000626_dist_a2a_v7x_xyz2x2x2_y_m8192_n1024_bf16_1_alg».proof.Proof.Gen.Kernel.Launch
import Idealize.ShloMosaic.Lib.Pipeline.Launch
import Idealize.ShloMosaic.Lib.Pipeline.Kit
import Idealize.ShloMosaic.Lib.Transfers
import Idealize.ShloMosaic.Lib.Tactic

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the exchange's copy, the local transfers' counters -/

abbrev UB : Type := UR sig nD τ × Counters
abbrev UU : Type := UR sig nD τ × UB

local notation "𝕄" => MT nD τ sig Unit (Elt F) ℕ UU ℕ

abbrev EP : Emb (UR sig nD τ) (MT nD τ sig Unit (Elt F) ℕ UU ℕ) := embL
abbrev EB : Emb UB (MT nD τ sig Unit (Elt F) ℕ UU ℕ) := embR
abbrev ER : Emb (UR sig nD τ) (MT nD τ sig Unit (Elt F) ℕ UU ℕ) := (Emb.inl : Emb (UR sig nD τ) UB).trans embR

instance ER_landsIn : (ER (F := F)).LandsIn (upEmb : UEmb _ (MT nD τ sig Unit (Elt F) ℕ UU ℕ)) := by
  unfold ER embR; infer_instance

/-! ## The partner -/

/-- The device with the other coordinate on the axis y. -/
def peer (c : Dev nD) : Dev nD := ⟨(4 * (c.val / 4) + (c.val % 2) + 2) - 2 * ((c.val / 2) % 2), by revert c; decide⟩

/-- The coordinate of c on the axis y. -/
def yOf (c : Dev nD) : ℕ := (c.val / 2) % 2

theorem peer_peer (c : Dev nD) : peer (peer c) = c := by revert c; decide
theorem peer_ne (c : Dev nD) : peer c ≠ c := by revert c; decide
theorem yOf_lt (c : Dev nD) : yOf c < 2 := Nat.mod_lt _ (by decide)
theorem yOf_peer (c : Dev nD) : yOf (peer c) = 1 - yOf c := by revert c; decide

def swap : Dev nD ≃ Dev nD := ⟨peer, peer, peer_peer, peer_peer⟩

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)

/-! ## The memrefs and the cells -/

abbrev xM : Memref sig .tc .hbm S8192x2048 .f32 := Memref.whole main_arg0
abbrev oM : Memref sig .tc .hbm S16384x1024 .bf16 := Memref.whole main_v1
abbrev pfM : Memref sig .tc .vmem S2x1024x1024 .f32 := Memref.whole cc0_scratch0
abbrev kfM : Memref sig .tc .vmem S2x1024x1024 .f32 := Memref.whole cc0_scratch1
abbrev sgM : Memref sig .tc .vmem S8192x1024 .bf16 := Memref.whole cc0_scratch2
abbrev lsM : Memref sig .tc .vmem S2x1024x1024 .bf16 := Memref.whole cc0_scratch3

/-- Chunk k of the send staging buffer: its rows 1024 k … 1024 k + 1023. -/
abbrev stgL : Fin 8 → Memref sig .tc .vmem S1024x1024 .bf16
  | 0 => sgM.slice (Rect.unit (s := S8192x1024) ![0, 0] S1024x1024.size inb_S8192x1024_S1024x1024_0_0) (fun _ => rfl)
  | 1 => sgM.slice (Rect.unit (s := S8192x1024) ![1024, 0] S1024x1024.size inb_S8192x1024_S1024x1024_1024_0) (fun _ => rfl)
  | 2 => sgM.slice (Rect.unit (s := S8192x1024) ![2048, 0] S1024x1024.size inb_S8192x1024_S1024x1024_2048_0) (fun _ => rfl)
  | 3 => sgM.slice (Rect.unit (s := S8192x1024) ![3072, 0] S1024x1024.size inb_S8192x1024_S1024x1024_3072_0) (fun _ => rfl)
  | 4 => sgM.slice (Rect.unit (s := S8192x1024) ![4096, 0] S1024x1024.size inb_S8192x1024_S1024x1024_4096_0) (fun _ => rfl)
  | 5 => sgM.slice (Rect.unit (s := S8192x1024) ![5120, 0] S1024x1024.size inb_S8192x1024_S1024x1024_5120_0) (fun _ => rfl)
  | 6 => sgM.slice (Rect.unit (s := S8192x1024) ![6144, 0] S1024x1024.size inb_S8192x1024_S1024x1024_6144_0) (fun _ => rfl)
  | 7 => sgM.slice (Rect.unit (s := S8192x1024) ![7168, 0] S1024x1024.size inb_S8192x1024_S1024x1024_7168_0) (fun _ => rfl)

theorem stg_inb (k : Fin 8) : ∀ a, (![1024 * k.val, 0] : Fin 2 → Nat) a + S1024x1024.size a ≤ S8192x1024.size a := by
  revert k; decide

/-- The same chunk, with the chunk as a variable. -/
abbrev stgM (k : Fin 8) : Memref sig .tc .vmem S1024x1024 .bf16 :=
  sgM.slice (Rect.unit (s := S8192x1024) ![1024 * k.val, 0] S1024x1024.size (stg_inb k)) (fun _ => rfl)

theorem stgL_eq (k : Fin 8) : stgL k = stgM k := by fin_cases k <;> rfl

/-- The rows of a result that device c's chunk k lands in (on its partner, by the remote transfer; on c itself, by the
    local one): rows 8192 y(c) + 1024 k … of the result. -/
abbrev dstL (c : Dev nD) : Fin 8 → Memref sig .tc .hbm S1024x1024 .bf16
  | 0 => oM.slice (Rect.unit (s := S16384x1024) (k0_off3 c 0#32) S1024x1024.size (k0_off3_inb c 0)) (fun _ => rfl)
  | 1 => oM.slice (Rect.unit (s := S16384x1024) (k0_off3 c 1024#32) S1024x1024.size (k0_off3_inb c 1)) (fun _ => rfl)
  | 2 => oM.slice (Rect.unit (s := S16384x1024) (k0_off3 c 2048#32) S1024x1024.size (k0_off3_inb c 2)) (fun _ => rfl)
  | 3 => oM.slice (Rect.unit (s := S16384x1024) (k0_off3 c 3072#32) S1024x1024.size (k0_off3_inb c 3)) (fun _ => rfl)
  | 4 => oM.slice (Rect.unit (s := S16384x1024) (k0_off3 c 4096#32) S1024x1024.size (k0_off3_inb c 4)) (fun _ => rfl)
  | 5 => oM.slice (Rect.unit (s := S16384x1024) (k0_off3 c 5120#32) S1024x1024.size (k0_off3_inb c 5)) (fun _ => rfl)
  | 6 => oM.slice (Rect.unit (s := S16384x1024) (k0_off3 c 6144#32) S1024x1024.size (k0_off3_inb c 6)) (fun _ => rfl)
  | 7 => oM.slice (Rect.unit (s := S16384x1024) (k0_off3 c 7168#32) S1024x1024.size (k0_off3_inb c 7)) (fun _ => rfl)

/-- The same rows, with the chunk as a variable. -/
abbrev dstM (c : Dev nD) (k : Fin 8) : Memref sig .tc .hbm S1024x1024 .bf16 :=
  oM.slice (Rect.unit (s := S16384x1024) (k0_off3 c (BitVec.ofNat 32 (1024 * k.val))) S1024x1024.size (k0_off3_inb c k)) (fun _ => rfl)

theorem dstL_eq (c : Dev nD) (k : Fin 8) : dstL c k = dstM c k := by fin_cases k <;> rfl

/-- The runtime's barrier semaphore of collective id 0. -/
abbrev barS : Sem sig := (SemArray.scalar (sig.barrier 0 rfl) : Sems sig S_).sem
/-- Send semaphore k and receive semaphore k of the kernel's two arrays of eight. -/
abbrev sendS (k : Fin 8) : DmaSem sig := ⟨6 + k.val, by have := k.isLt; show 6 + k.val < 22; omega⟩
abbrev recvS (k : Fin 8) : DmaSem sig := ⟨14 + k.val, by have := k.isLt; show 14 + k.val < 22; omega⟩

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))

/-- The credit of one chunk's transfer. -/
abbrev N : ℕ := (stgM 0).view.dmaCredit
theorem N_pos : 0 < N := View.dmaCredit_pos _ (by decide)

end Cert.Kernel.Xchg

end
-- ==== Proof.Bits.Sched.lean ====
/-
  The schedule of the exchange's cells: which duties a cell has in round 0, how many units each pays, and what each
  hands the cell's owner.  The expected final contents of a device's result, `G c`, are a parameter here: the schedule
  only says that a landing hands over the rows it wrote at `G c`.
-/
import proofs.«900625_g7700000000000626_dist_a2a_v7x_xyz2x2x2_y_m8192_n1024_bf16_1_alg».proof.Proof.Bits.Proto

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A device's result buffer. -/
abbrev OutBuf (c : Dev nD) : Type := Buf (Elt F) (oM.view.loc (c : Thread nD τ))

variable (m : (ℓ : Loc nD τ sig) → Buf (Elt F) ℓ) (G : (c : Dev nD) → OutBuf (F := F) c)

/-! ## What the duties hand over -/

/-- The rows of device c's result that its partner's chunk k lands in, held at contents f. -/
abbrev rowsPts (c : Dev nD) (k : Fin 8) (f : OutBuf (F := F) c) : sProp 𝕄 :=
  oM.view.loc (c : Thread nD τ) ↦[(dstM (peer c) k).view.set]{fullShare} f

/-- Chunk k of device c's send staging buffer, at some contents. -/
abbrev stgPts (c : Dev nD) (k : Fin 8) : sProp 𝕄 :=
  iprop(∃ f, sgM.view.loc (c : Thread nD τ) ↦[(stgM k).view.set]{fullShare} f)

/-- The partner's signal hands c the eight row chunks of the partner's result that c writes, as launched. -/
def barPay (c : Dev nD) : sProp 𝕄 :=
  iprop(rowsPts (peer c) 0 (m _) ∗ rowsPts (peer c) 1 (m _) ∗ rowsPts (peer c) 2 (m _) ∗ rowsPts (peer c) 3 (m _)
      ∗ rowsPts (peer c) 4 (m _) ∗ rowsPts (peer c) 5 (m _) ∗ rowsPts (peer c) 6 (m _) ∗ rowsPts (peer c) 7 (m _))

def recvPay (c : Dev nD) (k : Fin 8) : sProp 𝕄 := rowsPts c k (G c)
def sendPay (c : Dev nD) (k : Fin 8) : sProp 𝕄 := stgPts c k

/-! ## The schedule -/

abbrev IsBar (g : GSem nD τ sig) : Prop := g.1.2 = .tc ∧ g.2 = .reg barS
/-- The semaphore is send semaphore k, resp. receive semaphore k. -/
abbrev sendIx (s : SemLoc sig) : Option (Fin 8) := match s with
  | .dma q => if h : 6 ≤ q.val ∧ q.val < 14 then some ⟨q.val - 6, by omega⟩ else none
  | _ => none
abbrev recvIx (s : SemLoc sig) : Option (Fin 8) := match s with
  | .dma q => if h : 14 ≤ q.val then some ⟨q.val - 14, by have := q.isLt; change q.val < 22 at this; omega⟩ else none
  | _ => none
abbrev IsXfer (g : GSem nD τ sig) : Prop := g.1.2 = .tc ∧ ((sendIx g.2).isSome ∨ (recvIx g.2).isSome)

/-- One round, round 0, one duty a cell: the barrier cell's of one unit, a send or receive cell's of a chunk's credit. -/
def xRd : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay m g.1.1
    else match recvIx g.2 with
      | some k => recvPay G g.1.1 k
      | none => match sendIx g.2 with
        | some k => sendPay g.1.1 k
        | none => iprop(emp)
  amount_pos g _ _ _ := by
    by_cases h : g.2 = .reg barS
    · rw [if_pos h]; exact Nat.one_pos
    · rw [if_neg h]; exact N_pos

instance xRd_payload_storable (g : GSem nD τ sig) (r : ℕ) (d : Unit) :
    BI.Storable (upEmb : UEmb _ 𝕄) ((xRd (F := F) m G).payload g r d) := by
  show BI.Storable upEmb (if g.2 = .reg barS then barPay m g.1.1
    else match recvIx g.2 with
      | some k => recvPay G g.1.1 k
      | none => match sendIx g.2 with
        | some k => sendPay g.1.1 k
        | none => iprop(emp))
  unfold barPay recvPay sendPay
  (repeat' split) <;> infer_instance

section Tables
variable (c : Dev nD) (k : Fin 8)

theorem send_ne_bar : (SemLoc.dma (sendS k) : SemLoc sig) ≠ .reg barS := fun h => by cases h
theorem recv_ne_bar : (SemLoc.dma (recvS k) : SemLoc sig) ≠ .reg barS := fun h => by cases h
theorem recvIx_recv : recvIx (SemLoc.dma (recvS k) : SemLoc sig) = some k := by revert k; decide
theorem recvIx_send : recvIx (SemLoc.dma (sendS k) : SemLoc sig) = none := by revert k; decide
theorem sendIx_send : sendIx (SemLoc.dma (sendS k) : SemLoc sig) = some k := by revert k; decide

omit [FloatOps F] in
theorem duties_bar : (xRd (F := F) m G).duties (barCell c) 0 = {()} := by dsimp only [xRd]; exact if_pos ⟨rfl, .inl ⟨rfl, rfl⟩⟩
omit [FloatOps F] in
theorem duties_send : (xRd (F := F) m G).duties (sendCell c k) 0 = {()} := by
  dsimp only [xRd]; exact if_pos ⟨rfl, .inr ⟨rfl, .inl (by rw [sendIx_send]; rfl)⟩⟩
omit [FloatOps F] in
theorem duties_recv : (xRd (F := F) m G).duties (recvCell c k) 0 = {()} := by
  dsimp only [xRd]; exact if_pos ⟨rfl, .inr ⟨rfl, .inr (by rw [recvIx_recv]; rfl)⟩⟩
omit [FloatOps F] in
theorem duties_later (g : GSem nD τ sig) : ∀ r, 1 ≤ r → (xRd (F := F) m G).duties g r = ∅ :=
  fun r hr => by dsimp only [xRd]; rw [if_neg fun h => by omega]

omit [FloatOps F] in
theorem amount_bar (d : Unit) : (xRd (F := F) m G).amount (barCell c) 0 d = 1 := by dsimp only [xRd]; exact if_pos rfl
omit [FloatOps F] in
theorem amount_send (d : Unit) : (xRd (F := F) m G).amount (sendCell c k) 0 d = N := by dsimp only [xRd]; exact if_neg (send_ne_bar k)
omit [FloatOps F] in
theorem amount_recv (d : Unit) : (xRd (F := F) m G).amount (recvCell c k) 0 d = N := by dsimp only [xRd]; exact if_neg (recv_ne_bar k)

omit [FloatOps F] in
theorem expect_bar : (xRd (F := F) m G).expect (barCell c) 0 = 1 := by
  unfold Schedule.expect Schedule.amountOf; rw [duties_bar, Finset.sum_singleton, amount_bar]
omit [FloatOps F] in
theorem expect_send : (xRd (F := F) m G).expect (sendCell c k) 0 = N := by
  unfold Schedule.expect Schedule.amountOf; rw [duties_send, Finset.sum_singleton, amount_send]
omit [FloatOps F] in
theorem expect_recv : (xRd (F := F) m G).expect (recvCell c k) 0 = N := by
  unfold Schedule.expect Schedule.amountOf; rw [duties_recv, Finset.sum_singleton, amount_recv]

omit [FloatOps F] in
theorem payload_bar (d : Unit) : (xRd (F := F) m G).payload (barCell c) 0 d = barPay m c := by dsimp only [xRd]; rw [if_pos rfl]
omit [FloatOps F] in
theorem payload_send (d : Unit) : (xRd (F := F) m G).payload (sendCell c k) 0 d = sendPay c k := by
  dsimp only [xRd]; rw [if_neg (send_ne_bar k), recvIx_send, sendIx_send]
omit [FloatOps F] in
theorem payload_recv (d : Unit) : (xRd (F := F) m G).payload (recvCell c k) 0 d = recvPay G c k := by
  dsimp only [xRd]; rw [if_neg (recv_ne_bar k), recvIx_recv]

end Tables

/-! ## Levels: barrier cells at 1, receive cells at 2, everything else (send cells, the local transfers' cells) at 0 -/

def L (g : GSem nD τ sig) : Finset Unit := if g.1.2 = .tc then {()} else ∅
def lv (g : GSem nD τ sig) (_ : Unit) : ℕ := if g.2 = .reg barS then 1 else if (recvIx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl

end Cert.Kernel.Xchg

end
-- ==== Proof.Bits.Geom.lean ====
/-
  Geometry of the windows the exchange moves: the two column halves of x that chunk k's two loads read are disjoint.
-/
import proofs.«900625_g7700000000000626_dist_a2a_v7x_xyz2x2x2_y_m8192_n1024_bf16_1_alg».proof.Proof.Bits.Proto
import Idealize.ShloMosaic.Rules.PointsTo

noncomputable section

namespace Cert.Kernel.Xchg

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- Unit rectangles of x whose column ranges are the two halves are disjoint. -/
theorem xwin_disjoint_of {off off' : Fin 2 → Nat} {inb inb'} (h : off 1 + 1024 ≤ off' 1 ∨ off' 1 + 1024 ≤ off 1) :
    Disjoint ((xM.slice (Rect.unit (s := S8192x2048) off S1024x1024.size inb) (fun _ => rfl)).view.set)
      ((xM.slice (Rect.unit (s := S8192x2048) off' S1024x1024.size inb') (fun _ => rfl)).view.set) := by
  have e1 : (xM.slice (Rect.unit (s := S8192x2048) off S1024x1024.size inb) (fun _ => rfl)).view.set
      = (Rect.unit (s := S8192x2048) off S1024x1024.size inb).set := View.set_slice_whole main_arg0 _
  have e2 : (xM.slice (Rect.unit (s := S8192x2048) off' S1024x1024.size inb') (fun _ => rfl)).view.set
      = (Rect.unit (s := S8192x2048) off' S1024x1024.size inb').set := View.set_slice_whole main_arg0 _
  rw [e1, e2]
  exact Rect.unit_disjoint 1 h

theorem xwin_disj_2_1 (c : Dev nD) :
    Disjoint ((xM.slice (Rect.unit (s := S8192x2048) (k0_off2 c) S1024x1024.size (k0_off2_inb c)) (fun _ => rfl)).view.set)
      ((xM.slice (Rect.unit (s := S8192x2048) (k0_off1 c) S1024x1024.size (k0_off1_inb c)) (fun _ => rfl)).view.set) :=
  xwin_disjoint_of (by rw [k0_off2_eq, k0_off1_eq]; show 1024 * ((c.val / 2) % 2) + 1024 ≤ 1024 - 1024 * ((c.val / 2) % 2) ∨ 1024 - 1024 * ((c.val / 2) % 2) + 1024 ≤ 1024 * ((c.val / 2) % 2); omega)
theorem xwin_disj_5_4 (c : Dev nD) :
    Disjoint ((xM.slice (Rect.unit (s := S8192x2048) (k0_off5 c) S1024x1024.size (k0_off5_inb c)) (fun _ => rfl)).view.set)
      ((xM.slice (Rect.unit (s := S8192x2048) (k0_off4 c) S1024x1024.size (k0_off4_inb c)) (fun _ => rfl)).view.set) :=
  xwin_disjoint_of (by rw [k0_off5_eq, k0_off4_eq]; show 1024 * ((c.val / 2) % 2) + 1024 ≤ 1024 - 1024 * ((c.val / 2) % 2) ∨ 1024 - 1024 * ((c.val / 2) % 2) + 1024 ≤ 1024 * ((c.val / 2) % 2); omega)
theorem xwin_disj_7_6 (c : Dev nD) :
    Disjoint ((xM.slice (Rect.unit (s := S8192x2048) (k0_off7 c) S1024x1024.size (k0_off7_inb c)) (fun _ => rfl)).view.set)
      ((xM.slice (Rect.unit (s := S8192x2048) (k0_off6 c) S1024x1024.size (k0_off6_inb c)) (fun _ => rfl)).view.set) :=
  xwin_disjoint_of (by rw [k0_off7_eq, k0_off6_eq]; show 1024 * ((c.val / 2) % 2) + 1024 ≤ 1024 - 1024 * ((c.val / 2) % 2) ∨ 1024 - 1024 * ((c.val / 2) % 2) + 1024 ≤ 1024 * ((c.val / 2) % 2); omega)
theorem xwin_disj_9_8 (c : Dev nD) :
    Disjoint ((xM.slice (Rect.unit (s := S8192x2048) (k0_off9 c) S1024x1024.size (k0_off9_inb c)) (fun _ => rfl)).view.set)
      ((xM.slice (Rect.unit (s := S8192x2048) (k0_off8 c) S1024x1024.size (k0_off8_inb c)) (fun _ => rfl)).view.set) :=
  xwin_disjoint_of (by rw [k0_off9_eq, k0_off8_eq]; show 1024 * ((c.val / 2) % 2) + 1024 ≤ 1024 - 1024 * ((c.val / 2) % 2) ∨ 1024 - 1024 * ((c.val / 2) % 2) + 1024 ≤ 1024 * ((c.val / 2) % 2); omega)
theorem xwin_disj_11_10 (c : Dev nD) :
    Disjoint ((xM.slice (Rect.unit (s := S8192x2048) (k0_off11 c) S1024x1024.size (k0_off11_inb c)) (fun _ => rfl)).view.set)
      ((xM.slice (Rect.unit (s := S8192x2048) (k0_off10 c) S1024x1024.size (k0_off10_inb c)) (fun _ => rfl)).view.set) :=
  xwin_disjoint_of (by rw [k0_off11_eq, k0_off10_eq]; show 1024 * ((c.val / 2) % 2) + 1024 ≤ 1024 - 1024 * ((c.val / 2) % 2) ∨ 1024 - 1024 * ((c.val / 2) % 2) + 1024 ≤ 1024 * ((c.val / 2) % 2); omega)
theorem xwin_disj_13_12 (c : Dev nD) :
    Disjoint ((xM.slice (Rect.unit (s := S8192x2048) (k0_off13 c) S1024x1024.size (k0_off13_inb c)) (fun _ => rfl)).view.set)
      ((xM.slice (Rect.unit (s := S8192x2048) (k0_off12 c) S1024x1024.size (k0_off12_inb c)) (fun _ => rfl)).view.set) :=
  xwin_disjoint_of (by rw [k0_off13_eq, k0_off12_eq]; show 1024 * ((c.val / 2) % 2) + 1024 ≤ 1024 - 1024 * ((c.val / 2) % 2) ∨ 1024 - 1024 * ((c.val / 2) % 2) + 1024 ≤ 1024 * ((c.val / 2) % 2); omega)
theorem xwin_disj_15_14 (c : Dev nD) :
    Disjoint ((xM.slice (Rect.unit (s := S8192x2048) (k0_off15 c) S1024x1024.size (k0_off15_inb c)) (fun _ => rfl)).view.set)
      ((xM.slice (Rect.unit (s := S8192x2048) (k0_off14 c) S1024x1024.size (k0_off14_inb c)) (fun _ => rfl)).view.set) :=
  xwin_disjoint_of (by rw [k0_off15_eq, k0_off14_eq]; show 1024 * ((c.val / 2) % 2) + 1024 ≤ 1024 - 1024 * ((c.val / 2) % 2) ∨ 1024 - 1024 * ((c.val / 2) % 2) + 1024 ≤ 1024 * ((c.val / 2) % 2); omega)
theorem xwin_disj_17_16 (c : Dev nD) :
    Disjoint ((xM.slice (Rect.unit (s := S8192x2048) (k0_off17 c) S1024x1024.size (k0_off17_inb c)) (fun _ => rfl)).view.set)
      ((xM.slice (Rect.unit (s := S8192x2048) (k0_off16 c) S1024x1024.size (k0_off16_inb c)) (fun _ => rfl)).view.set) :=
  xwin_disjoint_of (by rw [k0_off17_eq, k0_off16_eq]; show 1024 * ((c.val / 2) % 2) + 1024 ≤ 1024 - 1024 * ((c.val / 2) % 2) ∨ 1024 - 1024 * ((c.val / 2) % 2) + 1024 ≤ 1024 * ((c.val / 2) % 2); omega)

/-! ## The result's row chunks -/

/-- Chunk k of device c covers rows 8192 y(c) + 1024 k … + 1023 of a result. -/
theorem dst_set (c : Dev nD) (k : Fin 8) : (dstM c k).view.set
    = (Rect.unit (s := S16384x1024) (k0_off3 c (BitVec.ofNat 32 (1024 * k.val))) S1024x1024.size (k0_off3_inb c k)).set :=
  View.set_slice_whole main_v1 _

/-- Two chunks whose row ranges do not meet are disjoint. -/
theorem dst_disjoint (c c' : Dev nD) (k j : Fin 8)
    (h : 8192 * yOf c + 1024 * k.val + 1024 ≤ 8192 * yOf c' + 1024 * j.val ∨ 8192 * yOf c' + 1024 * j.val + 1024 ≤ 8192 * yOf c + 1024 * k.val) :
    Disjoint (dstM c k).view.set (dstM c' j).view.set := by
  rw [dst_set, dst_set]
  refine Rect.unit_disjoint 0 ?_
  rw [k0_off3_eq c k, k0_off3_eq c' j]
  exact h

/-- A device's own chunks are pairwise disjoint, and disjoint from every chunk its partner writes. -/
theorem dst_disjoint_own (c : Dev nD) (k j : Fin 8) (h : k ≠ j) : Disjoint (dstM c k).view.set (dstM c j).view.set :=
  dst_disjoint c c k j (by have : k.val ≠ j.val := fun e => h (Fin.ext e); omega)
theorem dst_disjoint_peer (c : Dev nD) (k j : Fin 8) : Disjoint (dstM c k).view.set (dstM (peer c) j).view.set :=
  dst_disjoint c (peer c) k j (by have := yOf_peer c; have := yOf_lt c; have := k.isLt; have := j.isLt; omega)

/-- The rows of device c's result that its partner writes. -/
def theirs (c : Dev nD) : Finset (oM.view.ty.Idx) := Finset.univ.biUnion fun j : Fin 8 => (dstM (peer c) j).view.set

theorem dst_disjoint_theirs (c : Dev nD) (k : Fin 8) : Disjoint (dstM c k).view.set (theirs c) :=
  (Finset.disjoint_biUnion_right _ _ _).mpr fun j _ => dst_disjoint_peer c k j

end Cert.Kernel.Xchg

end
-- ==== Proof.Bits.Inv.lean ====
/-
  What a device holds when its kernel starts and what it gives back when it ends: the statement of the body's proof.
-/
import proofs.«900625_g7700000000000626_dist_a2a_v7x_xyz2x2x2_y_m8192_n1024_bf16_1_alg».proof.Proof.Bits.Sched
import proofs.«900625_g7700000000000626_dist_a2a_v7x_xyz2x2x2_y_m8192_n1024_bf16_1_alg».proof.Proof.Bits.Geom

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (G : (c : Dev nD) → OutBuf (F := F) c)

abbrev 𝒱₀ : Variants := Variants.none

/-- Eight assertions, one a chunk. -/
abbrev sep8 (Φ : Fin 8 → sProp 𝕄) : sProp 𝕄 := iprop(Φ 0 ∗ Φ 1 ∗ Φ 2 ∗ Φ 3 ∗ Φ 4 ∗ Φ 5 ∗ Φ 6 ∗ Φ 7)

/-! ## The cells of one device, numbered: 0 the barrier cell, 1 + k send cell k, 9 + k receive cell k -/

abbrev csem (j : Fin 17) : SemLoc sig :=
  if h0 : j.val = 0 then .reg barS
  else if h : j.val ≤ 8 then .dma (sendS ⟨j.val - 1, by omega⟩) else .dma (recvS ⟨j.val - 9, by omega⟩)
abbrev kcell (cj : Dev nD × Fin 17) : GSem nD τ sig := ((cj.1 : Thread nD τ), csem cj.2)
abbrev sIx (k : Fin 8) : Fin 17 := ⟨k.val + 1, by omega⟩
abbrev rIx (k : Fin 8) : Fin 17 := ⟨k.val + 9, by omega⟩

/-! ## What a device owes at launch -/

/-- One chunk's credit to receive cell k of the partner. -/
abbrev tRecv (c : Dev nD) (k : Fin 8) : CellTallies nD τ sig Unit := tallyAt (recvCell (peer c) k) () N

/-- What is left to pay once chunks 0 … j - 1 are sent; `owed0 c` is all eight credits. -/
def owed7 (c : Dev nD) : CellTallies nD τ sig Unit := 0 + tRecv c 7
def owed6 (c : Dev nD) : CellTallies nD τ sig Unit := owed7 c + tRecv c 6
def owed5 (c : Dev nD) : CellTallies nD τ sig Unit := owed6 c + tRecv c 5
def owed4 (c : Dev nD) : CellTallies nD τ sig Unit := owed5 c + tRecv c 4
def owed3 (c : Dev nD) : CellTallies nD τ sig Unit := owed4 c + tRecv c 3
def owed2 (c : Dev nD) : CellTallies nD τ sig Unit := owed3 c + tRecv c 2
def owed1 (c : Dev nD) : CellTallies nD τ sig Unit := owed2 c + tRecv c 1
def owed0 (c : Dev nD) : CellTallies nD τ sig Unit := owed1 c + tRecv c 0

/-- At launch: the eight credits and the one unit to the partner's barrier cell. -/
def O₀ (c : Dev nD) : CellTallies nD τ sig Unit := owed0 c + tallyAt (barCell (peer c)) () 1

/-! ## The ghost state and the buffers -/

/-- The cells' invariants device c opens, at the names K: its own seventeen, its partner's barrier cell and its
    partner's eight receive cells. -/
def invs (K : Dev nD × Fin 17 → ℕ) (c : Dev nD) : sProp 𝕄 :=
  iprop(cellInv ER (xRd m G) (K (c, 0)) (barCell c) ∗ cellInv ER (xRd m G) (K (peer c, 0)) (barCell (peer c))
    ∗ sep8 (fun k => cellInv ER (xRd m G) (K (c, sIx k)) (sendCell c k))
    ∗ sep8 (fun k => cellInv ER (xRd m G) (K (c, rIx k)) (recvCell c k))
    ∗ sep8 (fun k => cellInv ER (xRd m G) (K (peer c, rIx k)) (recvCell (peer c) k)))

instance invs_persistent (K : Dev nD × Fin 17 → ℕ) (c : Dev nD) : BI.Persistent (invs m G K c) := by unfold invs; infer_instance

/-- Device c's ghost state at launch: the invariants; its positions at round 0 of its own cells; round 0 reached of
    every cell it pays; the tokens of the duties it pays: its partner's barrier duty, its partner's eight receive duties,
    its own eight send duties. -/
def ghost (K : Dev nD × Fin 17 → ℕ) (c : Dev nD) : sProp 𝕄 :=
  iprop(invs m G K c
    ∗ atPos ER (barCell c) 0 ∅ 0 ∗ sep8 (fun k => atPos ER (sendCell c k) 0 ∅ 0) ∗ sep8 (fun k => atPos ER (recvCell c k) 0 ∅ 0)
    ∗ reached ER (barCell (peer c)) 0 ∗ sep8 (fun k => reached ER (recvCell (peer c) k) 0) ∗ sep8 (fun k => reached ER (sendCell c k) 0)
    ∗ dutyTok ER (barCell (peer c)) 0 () ∗ sep8 (fun k => dutyTok ER (recvCell (peer c) k) 0 ()) ∗ sep8 (fun k => dutyTok ER (sendCell c k) 0 ()))

/-- The six semaphores of the local transfers (two for each of the two loads, two for the store), at zero. -/
abbrev localSems (c : Dev nD) : sProp 𝕄 :=
  iprop(semVal ((c : Thread nD τ), SemLoc.dma (0 : DmaSem sig)) 0 ∗ semVal ((c : Thread nD τ), SemLoc.dma (1 : DmaSem sig)) 0
    ∗ semVal ((c : Thread nD τ), SemLoc.dma (2 : DmaSem sig)) 0 ∗ semVal ((c : Thread nD τ), SemLoc.dma (3 : DmaSem sig)) 0
    ∗ semVal ((c : Thread nD τ), SemLoc.dma (4 : DmaSem sig)) 0 ∗ semVal ((c : Thread nD τ), SemLoc.dma (5 : DmaSem sig)) 0)

/-- The four scratch buffers, each whole at some contents. -/
abbrev scratches (c : Dev nD) : sProp 𝕄 :=
  iprop((∃ f, pfM.view.loc (c : Thread nD τ) ↦{fullShare} f) ∗ (∃ f, kfM.view.loc (c : Thread nD τ) ↦{fullShare} f)
    ∗ (∃ f, sgM.view.loc (c : Thread nD τ) ↦{fullShare} f) ∗ (∃ f, lsM.view.loc (c : Thread nD τ) ↦{fullShare} f))

/-- What the kernel on device c starts from, besides what it owes. -/
def bodyPre (K : Dev nD × Fin 17 → ℕ) (c : Dev nD) : sProp 𝕄 :=
  iprop(ghost m G K c ∗ cred (tallyAt (barCell c) () 1) ∗ sep8 (fun k => cred (tallyAt (recvCell c k) () N)) ∗ levAts L lv
    ∗ localSems c
    ∗ (xM.view.loc (c : Thread nD τ) ↦{fullShare} m _) ∗ (oM.view.loc (c : Thread nD τ) ↦{fullShare} m _)
    ∗ scratches c)

/-- What it ends with: x as it was, the result at its expected contents, the scratch buffers, and every one of its
    own twenty-two semaphores back at zero. -/
def bodyPost (c : Dev nD) : sProp 𝕄 :=
  iprop((xM.view.loc (c : Thread nD τ) ↦{fullShare} m _) ∗ (oM.view.loc (c : Thread nD τ) ↦{fullShare} G c)
    ∗ scratches c ∗ localSems c
    ∗ sep8 (fun k => semVal (sendCell c k) 0) ∗ sep8 (fun k => semVal (recvCell c k) 0))

end Cert.Kernel.Xchg

end
-- ==== Proof.Bits.OutSplit.lean ====
/-
  A device's result buffer, cut into the rows its partner writes (eight chunks) and the rest, and put back together.
-/
import proofs.«900625_g7700000000000626_dist_a2a_v7x_xyz2x2x2_y_m8192_n1024_bf16_1_alg».proof.Proof.Bits.Inv

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

omit [FloatOps F] in
theorem bigSep_fin8 (Φ : Fin 8 → sProp 𝕄) : bigSep Finset.univ Φ = sep8 Φ :=
  bigSep_univ_eq_bigSepL [0, 1, 2, 3, 4, 5, 6, 7] (by decide) (by decide) Φ

/-- The eight row chunks of device c's result that its partner writes, all at the contents f. -/
abbrev rows8 (c : Dev nD) (f : OutBuf (F := F) c) : sProp 𝕄 := sep8 (fun k => rowsPts c k f)

omit [FloatOps F] in
theorem theirs_pts (c : Dev nD) (f : OutBuf (F := F) c) :
    (oM.view.loc (c : Thread nD τ) ↦[theirs c]{fullShare} f : sProp 𝕄) = rows8 c f := by
  unfold theirs
  exact (pointsTo_biUnion (ℓ := oM.view.loc (c : Thread nD τ)) Finset.univ (fun j : Fin 8 => (dstM (peer c) j).view.set)
    (fun t _ t' _ h => dst_disjoint_own (peer c) t t' h)).trans (bigSep_fin8 _)

omit [FloatOps F] in
/-- Cutting the partner's rows out of the whole result. -/
theorem out_split (c : Dev nD) (f : OutBuf (F := F) c) :
    (oM.view.loc (c : Thread nD τ) ↦{fullShare} f : sProp 𝕄)
      ⊢ iprop((oM.view.loc (c : Thread nD τ) ↦[Finset.univ \ theirs c]{fullShare} f) ∗ rows8 c f) := by
  refine (pointsTo_split_subset (I := theirs c) (Finset.subset_univ _)).1.trans ?_
  rw [theirs_pts]
  exact sep_comm.1

omit [FloatOps F] in
/-- Putting them back. -/
theorem out_join (c : Dev nD) (f : OutBuf (F := F) c) :
    iprop((oM.view.loc (c : Thread nD τ) ↦[Finset.univ \ theirs c]{fullShare} f) ∗ rows8 c f)
      ⊢ (oM.view.loc (c : Thread nD τ) ↦{fullShare} f : sProp 𝕄) := by
  have h := (pointsTo_split_subset (nD := nD) (τ := τ) (sig := sig) (Ix := Unit) (Val := Elt F) (Name := ℕ) (U := UU) (Lvl := ℕ) (ℓ := oM.view.loc (c : Thread nD τ)) (q := fullShare) (f := f) (I := theirs c) (S := Finset.univ) (Finset.subset_univ _)).2
  rw [theirs_pts] at h
  exact sep_comm.1.trans h

end Cert.Kernel.Xchg

end
-- ==== Proof.Bits.Levels.lean ====
/-
  No wait of the exchange can deadlock: a device waits on its barrier cell (level 1) or on a local transfer's cell
  (level 0) only while what it still owes are chunk credits to its partner's receive cells (level 2).
-/
import proofs.«900625_g7700000000000626_dist_a2a_v7x_xyz2x2x2_y_m8192_n1024_bf16_1_alg».proof.Proof.Bits.Inv

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A tally in which only the partner's receive cells occur. -/
def OnlyRecv (c : Dev nD) (O : CellTallies nD τ sig Unit) : Prop := ∀ g u, 0 < O g u → ∃ k, g = recvCell (peer c) k

theorem onlyRecv_zero (c : Dev nD) : OnlyRecv c 0 := fun g u h => absurd h (Nat.lt_irrefl 0)
theorem onlyRecv_add {c : Dev nD} {O : CellTallies nD τ sig Unit} (h : OnlyRecv c O) (k : Fin 8) : OnlyRecv c (O + tRecv c k) :=
  fun g u hg => by
    rcases Pipeline.add_pos_cases hg with hg | hg
    · exact h g u hg
    · exact ⟨k, (Pipeline.tallyAt_pos hg).1⟩

theorem onlyRecv7 (c : Dev nD) : OnlyRecv c (owed7 c) := onlyRecv_add (onlyRecv_zero c) 7
theorem onlyRecv6 (c : Dev nD) : OnlyRecv c (owed6 c) := onlyRecv_add (onlyRecv7 c) 6
theorem onlyRecv5 (c : Dev nD) : OnlyRecv c (owed5 c) := onlyRecv_add (onlyRecv6 c) 5
theorem onlyRecv4 (c : Dev nD) : OnlyRecv c (owed4 c) := onlyRecv_add (onlyRecv5 c) 4
theorem onlyRecv3 (c : Dev nD) : OnlyRecv c (owed3 c) := onlyRecv_add (onlyRecv4 c) 3
theorem onlyRecv2 (c : Dev nD) : OnlyRecv c (owed2 c) := onlyRecv_add (onlyRecv3 c) 2
theorem onlyRecv1 (c : Dev nD) : OnlyRecv c (owed1 c) := onlyRecv_add (onlyRecv2 c) 1
theorem onlyRecv0 (c : Dev nD) : OnlyRecv c (owed0 c) := onlyRecv_add (onlyRecv1 c) 0

theorem lv_recv (c : Dev nD) (k : Fin 8) : lv (recvCell c k) () = 2 := by
  dsimp only [lv]; rw [if_neg (recv_ne_bar k), recvIx_recv]; rfl

omit [FloatOps F] in
/-- A wait on a cell below level 2 is allowed while only chunk credits are owed. -/
theorem mayWait_below (c : Dev nD) (sm : SemLoc sig) (hsm : lv ((c : Thread nD τ), sm) () < 2) {O : CellTallies nD τ sig Unit} (hO : OnlyRecv c O) :
    (levAts L lv : sProp 𝕄) ⊢ MayWait (c : Thread nD τ) sm () O :=
  Pipeline.mayWait_of_levAts (by rw [L_tc]; exact Finset.mem_singleton_self _) fun g i hg => by
    obtain ⟨k, rfl⟩ := hO g i hg
    refine ⟨by rw [L_tc]; exact Finset.mem_singleton_self _, ?_⟩
    cases i; rw [lv_recv]; exact hsm

theorem lv_bar (c : Dev nD) : lv (barCell c) () < 2 := by dsimp only [lv]; rw [if_pos rfl]; decide
theorem lv_local (c : Dev nD) (q : DmaSem sig) (hq : q.val < 14) : lv ((c : Thread nD τ), SemLoc.dma q) () < 2 := by
  dsimp only [lv]; rw [if_neg (fun h => by cases h)]
  have : recvIx (SemLoc.dma q : SemLoc sig) = none := by dsimp only [recvIx]; rw [dif_neg (by omega)]
  rw [this]; decide

end Cert.Kernel.Xchg

end
-- ==== Proof.Bits.Rules.lean ====
/-
  The remote copy of one chunk, stated over the exchange's cells: the sender pays its own send duty with the staging
  chunk (which the send cell hands back) and its partner's receive duty with the partner's rows rewritten — which are
  the rows of the partner's expected result, when the chunk carried is the right one.
-/
import proofs.«900625_g7700000000000626_dist_a2a_v7x_xyz2x2x2_y_m8192_n1024_bf16_1_alg».proof.Proof.Bits.OutSplit
import proofs.«900625_g7700000000000626_dist_a2a_v7x_xyz2x2x2_y_m8192_n1024_bf16_1_alg».proof.Proof.Bits.Levels

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (G : (c : Dev nD) → OutBuf (F := F) c)

/-! ## The staging buffer's chunks -/

theorem stg_set (k : Fin 8) : (stgM k).view.set
    = (Rect.unit (s := S8192x1024) ![1024 * k.val, 0] S1024x1024.size (stg_inb k)).set := View.set_slice_whole cc0_scratch2 _

theorem stg_disjoint (k j : Fin 8) (h : k ≠ j) : Disjoint (stgM k).view.set (stgM j).view.set := by
  rw [stg_set, stg_set]
  refine Rect.unit_disjoint 0 ?_
  show 1024 * k.val + 1024 ≤ 1024 * j.val ∨ 1024 * j.val + 1024 ≤ 1024 * k.val
  have : k.val ≠ j.val := fun e => h (Fin.ext e)
  omega

omit [FloatOps F] in
theorem payload_bar_peer (c : Dev nD) (d : Unit) : (xRd (F := F) m G).payload (barCell (peer c)) 0 d = rows8 c (m _) := by
  rw [payload_bar]
  have h : ∀ c' : Dev nD, peer c' = c → barPay m c' = rows8 c (m _) := fun c' h => by subst h; rfl
  exact h (peer c) (peer_peer c)

/-- The rows the partner's chunk k lands in, seen from the sender. -/
theorem dst_set_peer (c : Dev nD) (k : Fin 8) :
    ((dstM (peer (peer c)) k).view.set : Finset (oM.view.ty.Idx)) = (dstM c k).view.set := by rw [peer_peer]

omit [FloatOps F] in
/-- The partner's rows, as the barrier hands them over, are the rows the sender's chunk k lands in. -/
theorem rowsPts_peer (c : Dev nD) (k : Fin 8) (f : OutBuf (F := F) (peer c)) :
    (rowsPts (peer c) k f : sProp 𝕄) = (oM.view.loc (peer c : Thread nD τ) ↦[(dstM c k).view.set]{fullShare} f) := by
  unfold rowsPts; rw [dst_set_peer]

/-- The remote copy of chunk k from c to n = peer c. -/
theorem wp_send_chunk (c n : Dev nD) (hn : n = peer c) (k : Fin 8)
    {hsc : (dstM c k : Memref sig (Dev.tc n : Thread nD τ).2.kind .hbm S1024x1024 .bf16).view.ref.isScScratch = false}
    {hsrc : (stgM k).view.WordExact} {hdst : (dstM c k : Memref sig (Dev.tc n : Thread nD τ).2.kind .hbm S1024x1024 .bf16).view.WordExact}
    {hsem : DmaTarget.Typed .vmem (.dma (recvS k)) (.remote (Dev.tc n : Thread nD τ) (dstM c k) (.dma (sendS k)) hsc)}
    {α : Type} {Q : α → sProp 𝕄} {kont : PUnit → Prog (TpuEff nD τ sig (Elt F) Λ₀ .tc) α}
    (fs : Buf (Elt F) (sgM.view.loc (c : Thread nD τ))) (fd : OutBuf (F := F) (peer c))
    (W : Waits sig Unit) (O₁ O : CellTallies nD τ sig Unit) (hO : O₁ = O + tallyAt (recvCell (peer c) k) () N) (κ₁ κ₂ : ℕ)
    (hval : ∀ i ∈ (dstM c k).view.set, (dstM c k).view.write (Elt F) fd ((stgM k).view.read (Elt F) fs) Finset.univ i = G (peer c) i) :
    iprop(cellInv ER (xRd m G) κ₁ (sendCell c k) ∗ cellInv ER (xRd m G) κ₂ (recvCell (peer c) k)
        ∗ (sgM.view.loc (c : Thread nD τ) ↦[(stgM k).view.set]{fullShare} fs) ∗ (oM.view.loc (peer c : Thread nD τ) ↦[(dstM c k).view.set]{fullShare} fd)
        ∗ owes (c : Thread nD τ) O₁ W
        ∗ dutyTok ER (sendCell c k) 0 () ∗ reached ER (sendCell c k) 0
        ∗ dutyTok ER (recvCell (peer c) k) 0 () ∗ reached ER (recvCell (peer c) k) 0)
      ⊢ iprop(((cred (tallyAt (sendCell c k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (stgM k) (.remote (Dev.tc n : Thread nD τ) (dstM c k) (.dma (sendS k)) hsc) (.dma (recvS k)) hsrc hdst hsem) kont) Q) := by
  subst hn
  exact Rounds.wp_send_pointsTo 𝒱₀ ER (xRd m G) (c : Thread nD τ) none (c' := (peer c : Thread nD τ)) (src := stgM k) (dst := dstM c k) (q := fullShare)
    (sS := .dma (sendS k)) (sem := .dma (recvS k)) (hsc := hsc) (hsrc := hsrc) (hdst := hdst) (hsem := hsem) (k := kont) (Q := Q) (α := α) (κ₁ := κ₁) (κ₂ := κ₂)
    (r₁ := 0) (r₂ := 0) (d₁ := ()) (d₂ := ()) (fd := fd) (fs := fs)
    (by rw [duties_send]; exact Finset.mem_singleton_self _) (by rw [duties_recv]; exact Finset.mem_singleton_self _)
    () () N rfl (amount_send m G c k ()) (amount_recv m G (peer c) k ()) O hO (W := W)
    (by rw [payload_send]; unfold sendPay stgPts; iintro H; iexists fs; iexact H)
    (by
      rw [payload_recv]; unfold recvPay rowsPts
      rw [dst_set_peer, pointsTo_congr (f := G (peer c)) (fun i hi => (hval i hi).symm)])

end Cert.Kernel.Xchg

end
-- ==== Proof.Bits.Value.lean ====
/-
  What the exchange moves, element by element.

  Chunk k of device c is rows 1024 k … 1024 k + 1023 of its row block of x.  The column half its partner keeps is
  converted to the result's format and sent into rows 8192 y(c) + 1024 k … of the partner's result; the half it keeps
  itself is converted and copied into the same rows of its own result.  So row 8192 y' + r', column j of the result of
  a device c is the conversion of x's entry (r', 1024 y(c) + j) on the device of the pair {c, partner} whose y is y'.

  The contents the kernel's buffers hold along the way are read back here over arbitrary prior contents: what a slot
  of a scratch buffer holds after a transfer into it, what each of the kernel's conversions makes of it, what a chunk
  of the staging buffers holds after the store, and so what each remote and each local transfer carries.
-/
import proofs.«900625_g7700000000000626_dist_a2a_v7x_xyz2x2x2_y_m8192_n1024_bf16_1_alg».proof.Proof.Bits.Rules
import proofs.«900625_g7700000000000626_dist_a2a_v7x_xyz2x2x2_y_m8192_n1024_bf16_1_alg».proof.Proof.Gen.Kernel.Skeleton
import Idealize.ShloMosaic.Lib.Pipeline.Value
import Idealize.ShloMosaic.Lib.ValueIdx
import Idealize.ShloMosaic.Lib.Writes

noncomputable section

namespace Cert.Kernel.Xchg

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-! ## The conversion, the windows of x, the blocks moved and the expected result -/

/-- The conversion of one element to the result's format: what the kernel's vector conversion applies at every index. -/
def trunc1 (a : Elt F .f32) : Elt F .bf16 := FloatOps.truncf (F := F) .bf16 bitsLt_bf16_f32 a

theorem truncf_at {s : Shape} (v : FVec F s .f32) (h : FTy.bits .bf16 < FTy.bits .f32) (i : s.Idx) : truncf .bf16 v h i = trunc1 (v i) := rfl

/-- Entry (r, q) of device d's row block of x, as launched. -/
def xAt (d : Dev nD) (r : Fin 8192) (q : Fin 2048) : Elt F .f32 := m (xM.view.loc (d : Thread nD τ)) (ix2 r q)

omit [FloatOps F] in
theorem xAt_congr {d d' : Dev nD} {r r' : Fin 8192} {q q' : Fin 2048} (hd : d = d') (hr : r.val = r'.val) (hq : q.val = q'.val) :
    xAt m d r q = xAt m d' r' q' := by
  subst hd; rw [Fin.ext hr, Fin.ext hq]

theorem xsend_inb (c : Dev nD) (k : Fin 8) :
    ∀ a, (![1024 * k.val, 1024 - 1024 * yOf c] : Fin 2 → Nat) a + S1024x1024.size a ≤ S8192x2048.size a := by
  have := yOf_lt c; have := k.isLt
  exact Rect.inb₂ (by show 1024 * k.val + 1024 ≤ 8192; omega) (by show 1024 - 1024 * yOf c + 1024 ≤ 2048; omega)
theorem xkeep_inb (c : Dev nD) (k : Fin 8) :
    ∀ a, (![1024 * k.val, 1024 * yOf c] : Fin 2 → Nat) a + S1024x1024.size a ≤ S8192x2048.size a := by
  have := yOf_lt c; have := k.isLt
  exact Rect.inb₂ (by show 1024 * k.val + 1024 ≤ 8192; omega) (by show 1024 * yOf c + 1024 ≤ 2048; omega)

/-- The window of x chunk k sends: its rows, the column half the partner keeps. -/
abbrev xsendM (c : Dev nD) (k : Fin 8) : Memref sig .tc .hbm S1024x1024 .f32 :=
  xM.slice (Rect.unit (s := S8192x2048) ![1024 * k.val, 1024 - 1024 * yOf c] S1024x1024.size (xsend_inb c k)) (fun _ => rfl)
/-- The window of x chunk k keeps: its rows, the device's own column half. -/
abbrev xkeepM (c : Dev nD) (k : Fin 8) : Memref sig .tc .hbm S1024x1024 .f32 :=
  xM.slice (Rect.unit (s := S8192x2048) ![1024 * k.val, 1024 * yOf c] S1024x1024.size (xkeep_inb c k)) (fun _ => rfl)

theorem xwin_congr {off off' : Fin 2 → Nat} (h : off = off') {inb inb'} :
    xM.slice (Rect.unit (s := S8192x2048) off S1024x1024.size inb) (fun _ => rfl)
      = xM.slice (Rect.unit (s := S8192x2048) off' S1024x1024.size inb') (fun _ => rfl) := by
  subst h; rfl

/-! The program's sixteen windows are these. -/
theorem xwin_send0 (c : Dev nD) : xM.slice (Rect.unit (s := S8192x2048) (k0_off1 c) S1024x1024.size (k0_off1_inb c)) (fun _ => rfl) = xsendM c 0 :=
  xwin_congr ((k0_off1_eq c).trans rfl)
theorem xwin_keep0 (c : Dev nD) : xM.slice (Rect.unit (s := S8192x2048) (k0_off2 c) S1024x1024.size (k0_off2_inb c)) (fun _ => rfl) = xkeepM c 0 :=
  xwin_congr ((k0_off2_eq c).trans rfl)
theorem xwin_send1 (c : Dev nD) : xM.slice (Rect.unit (s := S8192x2048) (k0_off4 c) S1024x1024.size (k0_off4_inb c)) (fun _ => rfl) = xsendM c 1 :=
  xwin_congr ((k0_off4_eq c).trans rfl)
theorem xwin_keep1 (c : Dev nD) : xM.slice (Rect.unit (s := S8192x2048) (k0_off5 c) S1024x1024.size (k0_off5_inb c)) (fun _ => rfl) = xkeepM c 1 :=
  xwin_congr ((k0_off5_eq c).trans rfl)
theorem xwin_send2 (c : Dev nD) : xM.slice (Rect.unit (s := S8192x2048) (k0_off6 c) S1024x1024.size (k0_off6_inb c)) (fun _ => rfl) = xsendM c 2 :=
  xwin_congr ((k0_off6_eq c).trans rfl)
theorem xwin_keep2 (c : Dev nD) : xM.slice (Rect.unit (s := S8192x2048) (k0_off7 c) S1024x1024.size (k0_off7_inb c)) (fun _ => rfl) = xkeepM c 2 :=
  xwin_congr ((k0_off7_eq c).trans rfl)
theorem xwin_send3 (c : Dev nD) : xM.slice (Rect.unit (s := S8192x2048) (k0_off8 c) S1024x1024.size (k0_off8_inb c)) (fun _ => rfl) = xsendM c 3 :=
  xwin_congr ((k0_off8_eq c).trans rfl)
theorem xwin_keep3 (c : Dev nD) : xM.slice (Rect.unit (s := S8192x2048) (k0_off9 c) S1024x1024.size (k0_off9_inb c)) (fun _ => rfl) = xkeepM c 3 :=
  xwin_congr ((k0_off9_eq c).trans rfl)
theorem xwin_send4 (c : Dev nD) : xM.slice (Rect.unit (s := S8192x2048) (k0_off10 c) S1024x1024.size (k0_off10_inb c)) (fun _ => rfl) = xsendM c 4 :=
  xwin_congr ((k0_off10_eq c).trans rfl)
theorem xwin_keep4 (c : Dev nD) : xM.slice (Rect.unit (s := S8192x2048) (k0_off11 c) S1024x1024.size (k0_off11_inb c)) (fun _ => rfl) = xkeepM c 4 :=
  xwin_congr ((k0_off11_eq c).trans rfl)
theorem xwin_send5 (c : Dev nD) : xM.slice (Rect.unit (s := S8192x2048) (k0_off12 c) S1024x1024.size (k0_off12_inb c)) (fun _ => rfl) = xsendM c 5 :=
  xwin_congr ((k0_off12_eq c).trans rfl)
theorem xwin_keep5 (c : Dev nD) : xM.slice (Rect.unit (s := S8192x2048) (k0_off13 c) S1024x1024.size (k0_off13_inb c)) (fun _ => rfl) = xkeepM c 5 :=
  xwin_congr ((k0_off13_eq c).trans rfl)
theorem xwin_send6 (c : Dev nD) : xM.slice (Rect.unit (s := S8192x2048) (k0_off14 c) S1024x1024.size (k0_off14_inb c)) (fun _ => rfl) = xsendM c 6 :=
  xwin_congr ((k0_off14_eq c).trans rfl)
theorem xwin_keep6 (c : Dev nD) : xM.slice (Rect.unit (s := S8192x2048) (k0_off15 c) S1024x1024.size (k0_off15_inb c)) (fun _ => rfl) = xkeepM c 6 :=
  xwin_congr ((k0_off15_eq c).trans rfl)
theorem xwin_send7 (c : Dev nD) : xM.slice (Rect.unit (s := S8192x2048) (k0_off16 c) S1024x1024.size (k0_off16_inb c)) (fun _ => rfl) = xsendM c 7 :=
  xwin_congr ((k0_off16_eq c).trans rfl)
theorem xwin_keep7 (c : Dev nD) : xM.slice (Rect.unit (s := S8192x2048) (k0_off17 c) S1024x1024.size (k0_off17_inb c)) (fun _ => rfl) = xkeepM c 7 :=
  xwin_congr ((k0_off17_eq c).trans rfl)

omit [FloatOps F] in
/-- Read through them (an equation of memrefs does not rewrite under the type of the contents read): -/
theorem xread_congr {c : Dev nD} {off off' : Fin 2 → Nat} (h : off = off') {inb inb'} (fx : Buf (Elt F) (xM.view.loc (c : Thread nD τ))) :
    (xM.slice (Rect.unit (s := S8192x2048) off S1024x1024.size inb) (fun _ => rfl)).view.read (Elt F) fx
      = (xM.slice (Rect.unit (s := S8192x2048) off' S1024x1024.size inb') (fun _ => rfl)).view.read (Elt F) fx := by
  subst h; rfl
theorem xread_send0 (c : Dev nD) (fx : Buf (Elt F) (xM.view.loc (c : Thread nD τ))) :
    (xM.slice (Rect.unit (s := S8192x2048) (k0_off1 c) S1024x1024.size (k0_off1_inb c)) (fun _ => rfl)).view.read (Elt F) fx = (xsendM c 0).view.read (Elt F) fx :=
  xread_congr ((k0_off1_eq c).trans rfl) fx
theorem xread_keep0 (c : Dev nD) (fx : Buf (Elt F) (xM.view.loc (c : Thread nD τ))) :
    (xM.slice (Rect.unit (s := S8192x2048) (k0_off2 c) S1024x1024.size (k0_off2_inb c)) (fun _ => rfl)).view.read (Elt F) fx = (xkeepM c 0).view.read (Elt F) fx :=
  xread_congr ((k0_off2_eq c).trans rfl) fx
theorem xread_send1 (c : Dev nD) (fx : Buf (Elt F) (xM.view.loc (c : Thread nD τ))) :
    (xM.slice (Rect.unit (s := S8192x2048) (k0_off4 c) S1024x1024.size (k0_off4_inb c)) (fun _ => rfl)).view.read (Elt F) fx = (xsendM c 1).view.read (Elt F) fx :=
  xread_congr ((k0_off4_eq c).trans rfl) fx
theorem xread_keep1 (c : Dev nD) (fx : Buf (Elt F) (xM.view.loc (c : Thread nD τ))) :
    (xM.slice (Rect.unit (s := S8192x2048) (k0_off5 c) S1024x1024.size (k0_off5_inb c)) (fun _ => rfl)).view.read (Elt F) fx = (xkeepM c 1).view.read (Elt F) fx :=
  xread_congr ((k0_off5_eq c).trans rfl) fx
theorem xread_send2 (c : Dev nD) (fx : Buf (Elt F) (xM.view.loc (c : Thread nD τ))) :
    (xM.slice (Rect.unit (s := S8192x2048) (k0_off6 c) S1024x1024.size (k0_off6_inb c)) (fun _ => rfl)).view.read (Elt F) fx = (xsendM c 2).view.read (Elt F) fx :=
  xread_congr ((k0_off6_eq c).trans rfl) fx
theorem xread_keep2 (c : Dev nD) (fx : Buf (Elt F) (xM.view.loc (c : Thread nD τ))) :
    (xM.slice (Rect.unit (s := S8192x2048) (k0_off7 c) S1024x1024.size (k0_off7_inb c)) (fun _ => rfl)).view.read (Elt F) fx = (xkeepM c 2).view.read (Elt F) fx :=
  xread_congr ((k0_off7_eq c).trans rfl) fx
theorem xread_send3 (c : Dev nD) (fx : Buf (Elt F) (xM.view.loc (c : Thread nD τ))) :
    (xM.slice (Rect.unit (s := S8192x2048) (k0_off8 c) S1024x1024.size (k0_off8_inb c)) (fun _ => rfl)).view.read (Elt F) fx = (xsendM c 3).view.read (Elt F) fx :=
  xread_congr ((k0_off8_eq c).trans rfl) fx
theorem xread_keep3 (c : Dev nD) (fx : Buf (Elt F) (xM.view.loc (c : Thread nD τ))) :
    (xM.slice (Rect.unit (s := S8192x2048) (k0_off9 c) S1024x1024.size (k0_off9_inb c)) (fun _ => rfl)).view.read (Elt F) fx = (xkeepM c 3).view.read (Elt F) fx :=
  xread_congr ((k0_off9_eq c).trans rfl) fx
theorem xread_send4 (c : Dev nD) (fx : Buf (Elt F) (xM.view.loc (c : Thread nD τ))) :
    (xM.slice (Rect.unit (s := S8192x2048) (k0_off10 c) S1024x1024.size (k0_off10_inb c)) (fun _ => rfl)).view.read (Elt F) fx = (xsendM c 4).view.read (Elt F) fx :=
  xread_congr ((k0_off10_eq c).trans rfl) fx
theorem xread_keep4 (c : Dev nD) (fx : Buf (Elt F) (xM.view.loc (c : Thread nD τ))) :
    (xM.slice (Rect.unit (s := S8192x2048) (k0_off11 c) S1024x1024.size (k0_off11_inb c)) (fun _ => rfl)).view.read (Elt F) fx = (xkeepM c 4).view.read (Elt F) fx :=
  xread_congr ((k0_off11_eq c).trans rfl) fx
theorem xread_send5 (c : Dev nD) (fx : Buf (Elt F) (xM.view.loc (c : Thread nD τ))) :
    (xM.slice (Rect.unit (s := S8192x2048) (k0_off12 c) S1024x1024.size (k0_off12_inb c)) (fun _ => rfl)).view.read (Elt F) fx = (xsendM c 5).view.read (Elt F) fx :=
  xread_congr ((k0_off12_eq c).trans rfl) fx
theorem xread_keep5 (c : Dev nD) (fx : Buf (Elt F) (xM.view.loc (c : Thread nD τ))) :
    (xM.slice (Rect.unit (s := S8192x2048) (k0_off13 c) S1024x1024.size (k0_off13_inb c)) (fun _ => rfl)).view.read (Elt F) fx = (xkeepM c 5).view.read (Elt F) fx :=
  xread_congr ((k0_off13_eq c).trans rfl) fx
theorem xread_send6 (c : Dev nD) (fx : Buf (Elt F) (xM.view.loc (c : Thread nD τ))) :
    (xM.slice (Rect.unit (s := S8192x2048) (k0_off14 c) S1024x1024.size (k0_off14_inb c)) (fun _ => rfl)).view.read (Elt F) fx = (xsendM c 6).view.read (Elt F) fx :=
  xread_congr ((k0_off14_eq c).trans rfl) fx
theorem xread_keep6 (c : Dev nD) (fx : Buf (Elt F) (xM.view.loc (c : Thread nD τ))) :
    (xM.slice (Rect.unit (s := S8192x2048) (k0_off15 c) S1024x1024.size (k0_off15_inb c)) (fun _ => rfl)).view.read (Elt F) fx = (xkeepM c 6).view.read (Elt F) fx :=
  xread_congr ((k0_off15_eq c).trans rfl) fx
theorem xread_send7 (c : Dev nD) (fx : Buf (Elt F) (xM.view.loc (c : Thread nD τ))) :
    (xM.slice (Rect.unit (s := S8192x2048) (k0_off16 c) S1024x1024.size (k0_off16_inb c)) (fun _ => rfl)).view.read (Elt F) fx = (xsendM c 7).view.read (Elt F) fx :=
  xread_congr ((k0_off16_eq c).trans rfl) fx
theorem xread_keep7 (c : Dev nD) (fx : Buf (Elt F) (xM.view.loc (c : Thread nD τ))) :
    (xM.slice (Rect.unit (s := S8192x2048) (k0_off17 c) S1024x1024.size (k0_off17_inb c)) (fun _ => rfl)).view.read (Elt F) fx = (xkeepM c 7).view.read (Elt F) fx :=
  xread_congr ((k0_off17_eq c).trans rfl) fx

/-- The block chunk k sends, over x at contents fx; and the block it keeps. -/
def sendBlkOf (c : Dev nD) (fx : Buf (Elt F) (xM.view.loc (c : Thread nD τ))) (k : Fin 8) : S1024x1024.Idx → Elt F .bf16 :=
  fun j => trunc1 ((xsendM c k).view.read (Elt F) fx j)
def keepBlkOf (c : Dev nD) (fx : Buf (Elt F) (xM.view.loc (c : Thread nD τ))) (k : Fin 8) : S1024x1024.Idx → Elt F .bf16 :=
  fun j => trunc1 ((xkeepM c k).view.read (Elt F) fx j)

/-- The same over x as launched. -/
abbrev sendBlk (c : Dev nD) (k : Fin 8) : S1024x1024.Idx → Elt F .bf16 := sendBlkOf c (m (xM.view.loc (c : Thread nD τ))) k
abbrev keepBlk (c : Dev nD) (k : Fin 8) : S1024x1024.Idx → Elt F .bf16 := keepBlkOf c (m (xM.view.loc (c : Thread nD τ))) k

theorem sendBlk_apply (c : Dev nD) (k : Fin 8) (j : S1024x1024.Idx) :
    sendBlk m c k j = trunc1 (xAt m c ⟨1024 * k.val + (j 0).val, by have := k.isLt; have := idx2_lt0 j; omega⟩
      ⟨1024 - 1024 * yOf c + (j 1).val, by have := yOf_lt c; have := idx2_lt1 j; omega⟩) := by
  unfold sendBlk sendBlkOf xAt
  refine congrArg trunc1 ?_
  rw [View.read_apply]
  refine (cast_eq _ _).trans (congrArg (m (xM.view.loc (c : Thread nD τ))) ?_)
  funext a
  match a with
  | ⟨0, _⟩ => exact Fin.ext (by show 1024 * k.val + 1 * (j 0).val = 1024 * k.val + (j 0).val; omega)
  | ⟨1, _⟩ => exact Fin.ext (by show 1024 - 1024 * yOf c + 1 * (j 1).val = 1024 - 1024 * yOf c + (j 1).val; omega)

theorem keepBlk_apply (c : Dev nD) (k : Fin 8) (j : S1024x1024.Idx) :
    keepBlk m c k j = trunc1 (xAt m c ⟨1024 * k.val + (j 0).val, by have := k.isLt; have := idx2_lt0 j; omega⟩
      ⟨1024 * yOf c + (j 1).val, by have := yOf_lt c; have := idx2_lt1 j; omega⟩) := by
  unfold keepBlk keepBlkOf xAt
  refine congrArg trunc1 ?_
  rw [View.read_apply]
  refine (cast_eq _ _).trans (congrArg (m (xM.view.loc (c : Thread nD τ))) ?_)
  funext a
  match a with
  | ⟨0, _⟩ => exact Fin.ext (by show 1024 * k.val + 1 * (j 0).val = 1024 * k.val + (j 0).val; omega)
  | ⟨1, _⟩ => exact Fin.ext (by show 1024 * yOf c + 1 * (j 1).val = 1024 * yOf c + (j 1).val; omega)

/-- Of a device and its partner, the one whose y is y'. -/
def srcDev (c : Dev nD) (y' : ℕ) : Dev nD := if yOf c = y' then c else peer c

/-- The expected result of device c: row 8192 y' + r', column j holds the conversion of entry (r', 1024 y(c) + j) of x on
    the device of the pair whose y is y'. -/
def Gx (c : Dev nD) : OutBuf (F := F) c := fun (i : S16384x1024.Idx) =>
  trunc1 (xAt m (srcDev c ((i 0).val / 8192)) ⟨(i 0).val % 8192, Nat.mod_lt _ (by decide)⟩
    ⟨1024 * yOf c + (i 1).val, by have := yOf_lt c; have := idx2_lt1 i; omega⟩)

/-! ## Reading the scratch buffers back, over arbitrary prior contents -/

section ReadBack

variable {κ : Kind} {sp : Space} {s s' : Shape} {e : EltTy} {Val : EltTy → Type}

/-- A load at a slot's rectangle, after a transfer into the squeezed slot: the block transferred, re-indexed to the
    rectangle's shape. -/
theorem readAt_write_squeeze (M : Memref sig κ sp s e) (r : Rect s) (hr : ∀ a, r.stride a = 1) (hq : r.shape.Squeezes s')
    (f : M.view.ty.Contents Val) (blk : s'.Idx → Val e) (hc : s'.ShapeCasts r.shape) :
    M.view.readAt Val r.toLoadRect (((M.slice r hr).squeeze s' hq).view.write Val f blk Finset.univ) = shapeCast r.shape blk hc := by
  rw [View.readAt_rect]
  show (M.view.slice r).read Val (((M.view.slice r).reshape s' hq.numel_eq).write Val f blk Finset.univ) = _
  rw [View.write_reshape_univ, View.read_write_univ]
  funext j
  unfold shapeCast
  rw [Shape.reshapeEquiv_symm]

/-- A rectangle of a buffer, read after stores of which the last went through that rectangle: that store's payload. -/
theorem read_slice_writes_head (v : View sig κ sp s e) (r : Rect s) (g : v.ty.Contents Val) (w : r.shape.Idx → Val e)
    (P : List (View.Piece Val s e)) : (v.slice r).read Val (v.writes Val g (⟨r, w⟩ :: P)) = w :=
  View.read_write_univ _ _

/-- The same through the squeezed rectangle: the payload re-indexed. -/
theorem read_squeeze_writes_head (M : Memref sig κ sp s e) (r : Rect s) (hr : ∀ a, r.stride a = 1) (hq : r.shape.Squeezes s')
    (g : M.view.ty.Contents Val) (w : r.shape.Idx → Val e) (P : List (View.Piece Val s e)) (hc : r.shape.ShapeCasts s') :
    ((M.slice r hr).squeeze s' hq).view.read Val (M.view.writes Val g (⟨r, w⟩ :: P)) = shapeCast s' w hc := by
  rw [Memref.read_squeeze_slice M r hr hq hc, View.readAt_rect, View.writes_cons, View.read_write_univ]

/-- A load at one rectangle does not see a transfer into a squeezed rectangle disjoint from it. -/
theorem readAt_write_squeeze_other (M : Memref sig κ sp s e) (r r' : Rect s) (hr' : ∀ a, r'.stride a = 1) (hq' : r'.shape.Squeezes s')
    (hd : Disjoint r.set r'.set) (f : M.view.ty.Contents Val) (blk' : s'.Idx → Val e) :
    M.view.readAt Val r.toLoadRect (((M.slice r' hr').squeeze s' hq').view.write Val f blk' Finset.univ) = M.view.readAt Val r.toLoadRect f := by
  refine View.readAt_congr fun i hi => View.write_of_not_mem _ _ _ ?_
  rw [View.setOn_univ, show ((M.slice r' hr').squeeze s' hq').view.set = (M.view.slice r').set from View.set_reshape _ _, View.set_slice]
  intro hi'
  obtain ⟨a, ha, rfl⟩ := Finset.mem_map.mp hi
  obtain ⟨b, hb, hab⟩ := Finset.mem_map.mp hi'
  have hba := M.view.emb.injective hab
  subst hba
  exact Finset.disjoint_left.mp hd ha hb

end ReadBack

theorem slot_disjoint_01 : Disjoint (Rect.unit (s := S2x1024x1024) ![0, 0, 0] S1x1024x1024.size inb_S2x1024x1024_S1x1024x1024_0_0_0).set (Rect.unit (s := S2x1024x1024) ![1, 0, 0] S1x1024x1024.size inb_S2x1024x1024_S1x1024x1024_1_0_0).set :=
  Rect.unit_disjoint 0 (Or.inl (by decide))
theorem slot_disjoint_10 : Disjoint (Rect.unit (s := S2x1024x1024) ![1, 0, 0] S1x1024x1024.size inb_S2x1024x1024_S1x1024x1024_1_0_0).set (Rect.unit (s := S2x1024x1024) ![0, 0, 0] S1x1024x1024.size inb_S2x1024x1024_S1x1024x1024_0_0_0).set :=
  Rect.unit_disjoint 0 (Or.inr (by decide))

/-- Chunk k of the send staging buffer after stores of which the last was chunk k's: that store's payload. -/
theorem stg_read_head (k : Fin 8) (g : sgM.view.ty.Contents (Elt F)) (w : S1024x1024.Idx → Elt F .bf16)
    (P : List (View.Piece (Elt F) S8192x1024 .bf16)) :
    (stgM k).view.read (Elt F) (sgM.view.writes (Elt F) g (⟨Rect.unit (s := S8192x1024) ![1024 * k.val, 0] S1024x1024.size (stg_inb k), w⟩ :: P)) = w :=
  View.read_write_univ _ _

/-! ### What the kernel's conversions make of a block re-indexed to a slot's shape -/
theorem pay1_cast (blk : S1024x1024.Idx → Elt F .f32) (hc : S1024x1024.ShapeCasts S1x1024x1024) :
    k0_pay1 (shapeCast S1x1024x1024 blk hc) = fun j => trunc1 (blk j) := by
  show shapeCast S1024x1024 (truncf .bf16 (shapeCast S1024x1024 (shapeCast S1x1024x1024 blk hc) shapeCasts_S1x1024x1024_S1024x1024) bitsLt_bf16_f32) shapeCasts_S1024x1024_S1024x1024 = _
  rw [shapeCast_self, shapeCast_shapeCast]; rfl
theorem pay3_cast (blk : S1024x1024.Idx → Elt F .f32) (hc : S1024x1024.ShapeCasts S1x1024x1024) :
    k0_pay3 (shapeCast S1x1024x1024 blk hc) = fun j => trunc1 (blk j) := by
  show shapeCast S1024x1024 (truncf .bf16 (shapeCast S1024x1024 (shapeCast S1x1024x1024 blk hc) shapeCasts_S1x1024x1024_S1024x1024) bitsLt_bf16_f32) shapeCasts_S1024x1024_S1024x1024 = _
  rw [shapeCast_self, shapeCast_shapeCast]; rfl
theorem pay5_cast (blk : S1024x1024.Idx → Elt F .f32) (hc : S1024x1024.ShapeCasts S1x1024x1024) :
    k0_pay5 (shapeCast S1x1024x1024 blk hc) = fun j => trunc1 (blk j) := by
  show truncf .bf16 (shapeCast S1024x1024 (shapeCast S1x1024x1024 blk hc) shapeCasts_S1x1024x1024_S1024x1024) bitsLt_bf16_f32 = _
  rw [shapeCast_shapeCast]; rfl
theorem pay8_cast (blk : S1024x1024.Idx → Elt F .f32) (hc : S1024x1024.ShapeCasts S1x1024x1024) :
    k0_pay8 (shapeCast S1x1024x1024 blk hc) = fun j => trunc1 (blk j) := by
  show truncf .bf16 (shapeCast S1024x1024 (shapeCast S1x1024x1024 blk hc) shapeCasts_S1x1024x1024_S1024x1024) bitsLt_bf16_f32 = _
  rw [shapeCast_shapeCast]; rfl
theorem pay14_cast (blk : S1024x1024.Idx → Elt F .f32) (hc : S1024x1024.ShapeCasts S1x1024x1024) :
    k0_pay14 (shapeCast S1x1024x1024 blk hc) = fun j => trunc1 (blk j) := by
  show shapeCast S1024x1024 (truncf .bf16 (shapeCast S1024x1024 (shapeCast S1x1024x1024 blk hc) shapeCasts_S1x1024x1024_S1024x1024) bitsLt_bf16_f32) shapeCasts_S1024x1024_S1024x1024 = _
  rw [shapeCast_self, shapeCast_shapeCast]; rfl
theorem pay16_cast (blk : S1024x1024.Idx → Elt F .f32) (hc : S1024x1024.ShapeCasts S1x1024x1024) :
    k0_pay16 (shapeCast S1x1024x1024 blk hc) = fun j => trunc1 (blk j) := by
  show shapeCast S1024x1024 (truncf .bf16 (shapeCast S1024x1024 (shapeCast S1x1024x1024 blk hc) shapeCasts_S1x1024x1024_S1024x1024) bitsLt_bf16_f32) shapeCasts_S1024x1024_S1024x1024 = _
  rw [shapeCast_self, shapeCast_shapeCast]; rfl
theorem pay18_cast (blk : S1024x1024.Idx → Elt F .f32) (hc : S1024x1024.ShapeCasts S1x1024x1024) :
    k0_pay18 (shapeCast S1x1024x1024 blk hc) = fun j => trunc1 (blk j) := by
  show shapeCast S1024x1024 (truncf .bf16 (shapeCast S1024x1024 (shapeCast S1x1024x1024 blk hc) shapeCasts_S1x1024x1024_S1024x1024) bitsLt_bf16_f32) shapeCasts_S1024x1024_S1024x1024 = _
  rw [shapeCast_self, shapeCast_shapeCast]; rfl
theorem pay2_cast (blk : S1024x1024.Idx → Elt F .f32) (hc : S1024x1024.ShapeCasts S1x1024x1024) :
    k0_pay2 (shapeCast S1x1024x1024 blk hc) = shapeCast S1x1024x1024 (fun j => trunc1 (blk j)) shapeCasts_S1024x1024_S1x1024x1024 := by
  show shapeCast S1x1024x1024 (truncf .bf16 (shapeCast S1024x1024 (shapeCast S1x1024x1024 blk hc) shapeCasts_S1x1024x1024_S1024x1024) bitsLt_bf16_f32) shapeCasts_S1024x1024_S1x1024x1024 = _
  rw [shapeCast_shapeCast]; rfl
theorem pay4_cast (blk : S1024x1024.Idx → Elt F .f32) (hc : S1024x1024.ShapeCasts S1x1024x1024) :
    k0_pay4 (shapeCast S1x1024x1024 blk hc) = shapeCast S1x1024x1024 (fun j => trunc1 (blk j)) shapeCasts_S1024x1024_S1x1024x1024 := by
  show shapeCast S1x1024x1024 (truncf .bf16 (shapeCast S1024x1024 (shapeCast S1x1024x1024 blk hc) shapeCasts_S1x1024x1024_S1024x1024) bitsLt_bf16_f32) shapeCasts_S1024x1024_S1x1024x1024 = _
  rw [shapeCast_shapeCast]; rfl
theorem pay7_cast (blk : S1024x1024.Idx → Elt F .f32) (hc : S1024x1024.ShapeCasts S1x1024x1024) :
    k0_pay7 (shapeCast S1x1024x1024 blk hc) = shapeCast S1x1024x1024 (fun j => trunc1 (blk j)) shapeCasts_S1024x1024_S1x1024x1024 := by
  show shapeCast S1x1024x1024 (truncf .bf16 (shapeCast S1024x1024 (shapeCast S1x1024x1024 blk hc) shapeCasts_S1x1024x1024_S1024x1024) bitsLt_bf16_f32) shapeCasts_S1024x1024_S1x1024x1024 = _
  rw [shapeCast_shapeCast]; rfl
theorem pay10_cast (blk : S1024x1024.Idx → Elt F .f32) (hc : S1024x1024.ShapeCasts S1x1024x1024) :
    k0_pay10 (shapeCast S1x1024x1024 blk hc) = shapeCast S1x1024x1024 (fun j => trunc1 (blk j)) shapeCasts_S1024x1024_S1x1024x1024 := by
  show shapeCast S1x1024x1024 (truncf .bf16 (shapeCast S1024x1024 (shapeCast S1x1024x1024 blk hc) shapeCasts_S1x1024x1024_S1024x1024) bitsLt_bf16_f32) shapeCasts_S1024x1024_S1x1024x1024 = _
  rw [shapeCast_shapeCast]; rfl
theorem pay13_cast (blk : S1024x1024.Idx → Elt F .f32) (hc : S1024x1024.ShapeCasts S1x1024x1024) :
    k0_pay13 (shapeCast S1x1024x1024 blk hc) = shapeCast S1x1024x1024 (fun j => trunc1 (blk j)) shapeCasts_S1024x1024_S1x1024x1024 := by
  show shapeCast S1x1024x1024 (truncf .bf16 (shapeCast S1024x1024 (shapeCast S1x1024x1024 blk hc) shapeCasts_S1x1024x1024_S1024x1024) bitsLt_bf16_f32) shapeCasts_S1024x1024_S1x1024x1024 = _
  rw [shapeCast_shapeCast]; rfl
theorem pay15_cast (blk : S1024x1024.Idx → Elt F .f32) (hc : S1024x1024.ShapeCasts S1x1024x1024) :
    k0_pay15 (shapeCast S1x1024x1024 blk hc) = shapeCast S1x1024x1024 (fun j => trunc1 (blk j)) shapeCasts_S1024x1024_S1x1024x1024 := by
  show shapeCast S1x1024x1024 (truncf .bf16 (shapeCast S1024x1024 (shapeCast S1x1024x1024 blk hc) shapeCasts_S1x1024x1024_S1024x1024) bitsLt_bf16_f32) shapeCasts_S1024x1024_S1x1024x1024 = _
  rw [shapeCast_shapeCast]; rfl
theorem pay17_cast (blk : S1024x1024.Idx → Elt F .f32) (hc : S1024x1024.ShapeCasts S1x1024x1024) :
    k0_pay17 (shapeCast S1x1024x1024 blk hc) = shapeCast S1x1024x1024 (fun j => trunc1 (blk j)) shapeCasts_S1024x1024_S1x1024x1024 := by
  show shapeCast S1x1024x1024 (truncf .bf16 (shapeCast S1024x1024 (shapeCast S1x1024x1024 blk hc) shapeCasts_S1x1024x1024_S1024x1024) bitsLt_bf16_f32) shapeCasts_S1024x1024_S1x1024x1024 = _
  rw [shapeCast_shapeCast]; rfl
theorem pay19_cast (blk : S1024x1024.Idx → Elt F .f32) (hc : S1024x1024.ShapeCasts S1x1024x1024) :
    k0_pay19 (shapeCast S1x1024x1024 blk hc) = shapeCast S1x1024x1024 (fun j => trunc1 (blk j)) shapeCasts_S1024x1024_S1x1024x1024 := by
  show shapeCast S1x1024x1024 (truncf .bf16 (shapeCast S1024x1024 (shapeCast S1x1024x1024 blk hc) shapeCasts_S1x1024x1024_S1024x1024) bitsLt_bf16_f32) shapeCasts_S1024x1024_S1x1024x1024 = _
  rw [shapeCast_shapeCast]; rfl
theorem pay6_id (w : FVec F S1024x1024 .bf16) : k0_pay6 w = w := shapeCast_self w _
theorem pay9_id (w : FVec F S1024x1024 .bf16) : k0_pay9 w = w := shapeCast_self w _
theorem pay11_cast (blk : S1024x1024.Idx → Elt F .f32) (hc : S1024x1024.ShapeCasts S1x1024x1024) :
    k0_pay11 (shapeCast S1x1024x1024 blk hc) = blk := shapeCast_shapeCast blk hc _
theorem pay12_apply (w : FVec F S1024x1024 .f32) : k0_pay12 w = fun j => trunc1 (w j) := by
  show shapeCast S1024x1024 (truncf .bf16 w bitsLt_bf16_f32) shapeCasts_S1024x1024_S1024x1024 = _
  rw [shapeCast_self]; rfl

/-! ### What each transfer carries

  Chunk k's remote transfer carries chunk k of the send staging buffer as the store just before it left it; chunk k's
  local transfer into the result carries the slot of the keep staging buffer as the store just before it left it. Over
  arbitrary prior contents of the scratch buffers, and whatever the earlier stores were, these are the two blocks of x,
  converted. -/

theorem carry0 (c : Dev nD) (fx : Buf (Elt F) (xM.view.loc (c : Thread nD τ))) (f : pfM.view.ty.Contents (Elt F)) (g : sgM.view.ty.Contents (Elt F))
    (P : List (View.Piece (Elt F) S8192x1024 .bf16)) :
    (stgM 0).view.read (Elt F) (sgM.view.writes (Elt F) g
        (⟨Rect.unit (s := S8192x1024) ![0, 0] S1024x1024.size inb_S8192x1024_S1024x1024_0_0,
          k0_pay1 (pfM.view.readAt (Elt F) (Rect.unit (s := S2x1024x1024) ![0, 0, 0] S1x1024x1024.size inb_S2x1024x1024_S1x1024x1024_0_0_0).toLoadRect
            (View.write (Elt F) ((pfM.slice (Rect.unit (s := S2x1024x1024) ![0, 0, 0] S1x1024x1024.size inb_S2x1024x1024_S1x1024x1024_0_0_0) (fun _ => rfl)).squeeze S1024x1024 squeezes_S1x1024x1024_S1024x1024).view f
              (ReadAs.same.apply ((xM.slice (Rect.unit (s := S8192x2048) (k0_off1 c) S1024x1024.size (k0_off1_inb c)) (fun _ => rfl)).view.read (Elt F) fx)) Finset.univ))⟩ :: P))
      = sendBlkOf c fx 0 := by
  refine (View.read_write_univ _ _).trans ?_
  refine (congrArg k0_pay1 (readAt_write_squeeze pfM (Rect.unit (s := S2x1024x1024) ![0, 0, 0] S1x1024x1024.size inb_S2x1024x1024_S1x1024x1024_0_0_0) (fun _ => rfl) squeezes_S1x1024x1024_S1024x1024 f _ shapeCasts_S1024x1024_S1x1024x1024)).trans ?_
  refine (pay1_cast _ _).trans ?_
  exact funext fun j => congrArg trunc1 (congrFun (xread_send0 c fx) j)

theorem carry1 (c : Dev nD) (fx : Buf (Elt F) (xM.view.loc (c : Thread nD τ))) (f : pfM.view.ty.Contents (Elt F)) (g : sgM.view.ty.Contents (Elt F))
    (P : List (View.Piece (Elt F) S8192x1024 .bf16)) :
    (stgM 1).view.read (Elt F) (sgM.view.writes (Elt F) g
        (⟨Rect.unit (s := S8192x1024) ![1024, 0] S1024x1024.size inb_S8192x1024_S1024x1024_1024_0,
          k0_pay3 (pfM.view.readAt (Elt F) (Rect.unit (s := S2x1024x1024) ![1, 0, 0] S1x1024x1024.size inb_S2x1024x1024_S1x1024x1024_1_0_0).toLoadRect
            (View.write (Elt F) ((pfM.slice (Rect.unit (s := S2x1024x1024) ![1, 0, 0] S1x1024x1024.size inb_S2x1024x1024_S1x1024x1024_1_0_0) (fun _ => rfl)).squeeze S1024x1024 squeezes_S1x1024x1024_S1024x1024).view f
              (ReadAs.same.apply ((xM.slice (Rect.unit (s := S8192x2048) (k0_off4 c) S1024x1024.size (k0_off4_inb c)) (fun _ => rfl)).view.read (Elt F) fx)) Finset.univ))⟩ :: P))
      = sendBlkOf c fx 1 := by
  refine (View.read_write_univ _ _).trans ?_
  refine (congrArg k0_pay3 (readAt_write_squeeze pfM (Rect.unit (s := S2x1024x1024) ![1, 0, 0] S1x1024x1024.size inb_S2x1024x1024_S1x1024x1024_1_0_0) (fun _ => rfl) squeezes_S1x1024x1024_S1024x1024 f _ shapeCasts_S1024x1024_S1x1024x1024)).trans ?_
  refine (pay3_cast _ _).trans ?_
  exact funext fun j => congrArg trunc1 (congrFun (xread_send1 c fx) j)

theorem carry2 (c : Dev nD) (fx : Buf (Elt F) (xM.view.loc (c : Thread nD τ))) (f : pfM.view.ty.Contents (Elt F)) (g : sgM.view.ty.Contents (Elt F))
    (P : List (View.Piece (Elt F) S8192x1024 .bf16)) :
    (stgM 2).view.read (Elt F) (sgM.view.writes (Elt F) g
        (⟨Rect.unit (s := S8192x1024) ![2048, 0] S1024x1024.size inb_S8192x1024_S1024x1024_2048_0,
          k0_pay6 (k0_pay5 (pfM.view.readAt (Elt F) (Rect.unit (s := S2x1024x1024) ![0, 0, 0] S1x1024x1024.size inb_S2x1024x1024_S1x1024x1024_0_0_0).toLoadRect
            (View.write (Elt F) ((pfM.slice (Rect.unit (s := S2x1024x1024) ![0, 0, 0] S1x1024x1024.size inb_S2x1024x1024_S1x1024x1024_0_0_0) (fun _ => rfl)).squeeze S1024x1024 squeezes_S1x1024x1024_S1024x1024).view f
              (ReadAs.same.apply ((xM.slice (Rect.unit (s := S8192x2048) (k0_off6 c) S1024x1024.size (k0_off6_inb c)) (fun _ => rfl)).view.read (Elt F) fx)) Finset.univ)))⟩ :: P))
      = sendBlkOf c fx 2 := by
  refine (View.read_write_univ _ _).trans ?_
  refine (congrArg (fun v => k0_pay6 (k0_pay5 v)) (readAt_write_squeeze pfM (Rect.unit (s := S2x1024x1024) ![0, 0, 0] S1x1024x1024.size inb_S2x1024x1024_S1x1024x1024_0_0_0) (fun _ => rfl) squeezes_S1x1024x1024_S1024x1024 f _ shapeCasts_S1024x1024_S1x1024x1024)).trans ?_
  refine (pay6_id _).trans ?_
  refine (pay5_cast _ _).trans ?_
  exact funext fun j => congrArg trunc1 (congrFun (xread_send2 c fx) j)

theorem carry3 (c : Dev nD) (fx : Buf (Elt F) (xM.view.loc (c : Thread nD τ))) (f : pfM.view.ty.Contents (Elt F)) (g : sgM.view.ty.Contents (Elt F))
    (P : List (View.Piece (Elt F) S8192x1024 .bf16)) :
    (stgM 3).view.read (Elt F) (sgM.view.writes (Elt F) g
        (⟨Rect.unit (s := S8192x1024) ![3072, 0] S1024x1024.size inb_S8192x1024_S1024x1024_3072_0,
          k0_pay9 (k0_pay8 (pfM.view.readAt (Elt F) (Rect.unit (s := S2x1024x1024) ![1, 0, 0] S1x1024x1024.size inb_S2x1024x1024_S1x1024x1024_1_0_0).toLoadRect
            (View.write (Elt F) ((pfM.slice (Rect.unit (s := S2x1024x1024) ![1, 0, 0] S1x1024x1024.size inb_S2x1024x1024_S1x1024x1024_1_0_0) (fun _ => rfl)).squeeze S1024x1024 squeezes_S1x1024x1024_S1024x1024).view f
              (ReadAs.same.apply ((xM.slice (Rect.unit (s := S8192x2048) (k0_off8 c) S1024x1024.size (k0_off8_inb c)) (fun _ => rfl)).view.read (Elt F) fx)) Finset.univ)))⟩ :: P))
      = sendBlkOf c fx 3 := by
  refine (View.read_write_univ _ _).trans ?_
  refine (congrArg (fun v => k0_pay9 (k0_pay8 v)) (readAt_write_squeeze pfM (Rect.unit (s := S2x1024x1024) ![1, 0, 0] S1x1024x1024.size inb_S2x1024x1024_S1x1024x1024_1_0_0) (fun _ => rfl) squeezes_S1x1024x1024_S1024x1024 f _ shapeCasts_S1024x1024_S1x1024x1024)).trans ?_
  refine (pay9_id _).trans ?_
  refine (pay8_cast _ _).trans ?_
  exact funext fun j => congrArg trunc1 (congrFun (xread_send3 c fx) j)

theorem carry4 (c : Dev nD) (fx : Buf (Elt F) (xM.view.loc (c : Thread nD τ))) (f : pfM.view.ty.Contents (Elt F)) (g : sgM.view.ty.Contents (Elt F))
    (P : List (View.Piece (Elt F) S8192x1024 .bf16)) :
    (stgM 4).view.read (Elt F) (sgM.view.writes (Elt F) g
        (⟨Rect.unit (s := S8192x1024) ![4096, 0] S1024x1024.size inb_S8192x1024_S1024x1024_4096_0,
          k0_pay12 (k0_pay11 (pfM.view.readAt (Elt F) (Rect.unit (s := S2x1024x1024) ![0, 0, 0] S1x1024x1024.size inb_S2x1024x1024_S1x1024x1024_0_0_0).toLoadRect
            (View.write (Elt F) ((pfM.slice (Rect.unit (s := S2x1024x1024) ![0, 0, 0] S1x1024x1024.size inb_S2x1024x1024_S1x1024x1024_0_0_0) (fun _ => rfl)).squeeze S1024x1024 squeezes_S1x1024x1024_S1024x1024).view f
              (ReadAs.same.apply ((xM.slice (Rect.unit (s := S8192x2048) (k0_off10 c) S1024x1024.size (k0_off10_inb c)) (fun _ => rfl)).view.read (Elt F) fx)) Finset.univ)))⟩ :: P))
      = sendBlkOf c fx 4 := by
  refine (View.read_write_univ _ _).trans ?_
  refine (congrArg (fun v => k0_pay12 (k0_pay11 v)) (readAt_write_squeeze pfM (Rect.unit (s := S2x1024x1024) ![0, 0, 0] S1x1024x1024.size inb_S2x1024x1024_S1x1024x1024_0_0_0) (fun _ => rfl) squeezes_S1x1024x1024_S1024x1024 f _ shapeCasts_S1024x1024_S1x1024x1024)).trans ?_
  refine (congrArg k0_pay12 (pay11_cast _ _)).trans ?_
  refine (pay12_apply _).trans ?_
  exact funext fun j => congrArg trunc1 (congrFun (xread_send4 c fx) j)

theorem carry5 (c : Dev nD) (fx : Buf (Elt F) (xM.view.loc (c : Thread nD τ))) (f : pfM.view.ty.Contents (Elt F)) (g : sgM.view.ty.Contents (Elt F))
    (P : List (View.Piece (Elt F) S8192x1024 .bf16)) :
    (stgM 5).view.read (Elt F) (sgM.view.writes (Elt F) g
        (⟨Rect.unit (s := S8192x1024) ![5120, 0] S1024x1024.size inb_S8192x1024_S1024x1024_5120_0,
          k0_pay14 (pfM.view.readAt (Elt F) (Rect.unit (s := S2x1024x1024) ![1, 0, 0] S1x1024x1024.size inb_S2x1024x1024_S1x1024x1024_1_0_0).toLoadRect
            (View.write (Elt F) ((pfM.slice (Rect.unit (s := S2x1024x1024) ![1, 0, 0] S1x1024x1024.size inb_S2x1024x1024_S1x1024x1024_1_0_0) (fun _ => rfl)).squeeze S1024x1024 squeezes_S1x1024x1024_S1024x1024).view f
              (ReadAs.same.apply ((xM.slice (Rect.unit (s := S8192x2048) (k0_off12 c) S1024x1024.size (k0_off12_inb c)) (fun _ => rfl)).view.read (Elt F) fx)) Finset.univ))⟩ :: P))
      = sendBlkOf c fx 5 := by
  refine (View.read_write_univ _ _).trans ?_
  refine (congrArg k0_pay14 (readAt_write_squeeze pfM (Rect.unit (s := S2x1024x1024) ![1, 0, 0] S1x1024x1024.size inb_S2x1024x1024_S1x1024x1024_1_0_0) (fun _ => rfl) squeezes_S1x1024x1024_S1024x1024 f _ shapeCasts_S1024x1024_S1x1024x1024)).trans ?_
  refine (pay14_cast _ _).trans ?_
  exact funext fun j => congrArg trunc1 (congrFun (xread_send5 c fx) j)

theorem carry6 (c : Dev nD) (fx : Buf (Elt F) (xM.view.loc (c : Thread nD τ))) (f : pfM.view.ty.Contents (Elt F)) (g : sgM.view.ty.Contents (Elt F))
    (P : List (View.Piece (Elt F) S8192x1024 .bf16)) :
    (stgM 6).view.read (Elt F) (sgM.view.writes (Elt F) g
        (⟨Rect.unit (s := S8192x1024) ![6144, 0] S1024x1024.size inb_S8192x1024_S1024x1024_6144_0,
          k0_pay16 (pfM.view.readAt (Elt F) (Rect.unit (s := S2x1024x1024) ![0, 0, 0] S1x1024x1024.size inb_S2x1024x1024_S1x1024x1024_0_0_0).toLoadRect
            (View.write (Elt F) ((pfM.slice (Rect.unit (s := S2x1024x1024) ![0, 0, 0] S1x1024x1024.size inb_S2x1024x1024_S1x1024x1024_0_0_0) (fun _ => rfl)).squeeze S1024x1024 squeezes_S1x1024x1024_S1024x1024).view f
              (ReadAs.same.apply ((xM.slice (Rect.unit (s := S8192x2048) (k0_off14 c) S1024x1024.size (k0_off14_inb c)) (fun _ => rfl)).view.read (Elt F) fx)) Finset.univ))⟩ :: P))
      = sendBlkOf c fx 6 := by
  refine (View.read_write_univ _ _).trans ?_
  refine (congrArg k0_pay16 (readAt_write_squeeze pfM (Rect.unit (s := S2x1024x1024) ![0, 0, 0] S1x1024x1024.size inb_S2x1024x1024_S1x1024x1024_0_0_0) (fun _ => rfl) squeezes_S1x1024x1024_S1024x1024 f _ shapeCasts_S1024x1024_S1x1024x1024)).trans ?_
  refine (pay16_cast _ _).trans ?_
  exact funext fun j => congrArg trunc1 (congrFun (xread_send6 c fx) j)

theorem carry7 (c : Dev nD) (fx : Buf (Elt F) (xM.view.loc (c : Thread nD τ))) (f : pfM.view.ty.Contents (Elt F)) (g : sgM.view.ty.Contents (Elt F))
    (P : List (View.Piece (Elt F) S8192x1024 .bf16)) :
    (stgM 7).view.read (Elt F) (sgM.view.writes (Elt F) g
        (⟨Rect.unit (s := S8192x1024) ![7168, 0] S1024x1024.size inb_S8192x1024_S1024x1024_7168_0,
          k0_pay18 (pfM.view.readAt (Elt F) (Rect.unit (s := S2x1024x1024) ![1, 0, 0] S1x1024x1024.size inb_S2x1024x1024_S1x1024x1024_1_0_0).toLoadRect
            (View.write (Elt F) ((pfM.slice (Rect.unit (s := S2x1024x1024) ![1, 0, 0] S1x1024x1024.size inb_S2x1024x1024_S1x1024x1024_1_0_0) (fun _ => rfl)).squeeze S1024x1024 squeezes_S1x1024x1024_S1024x1024).view f
              (ReadAs.same.apply ((xM.slice (Rect.unit (s := S8192x2048) (k0_off16 c) S1024x1024.size (k0_off16_inb c)) (fun _ => rfl)).view.read (Elt F) fx)) Finset.univ))⟩ :: P))
      = sendBlkOf c fx 7 := by
  refine (View.read_write_univ _ _).trans ?_
  refine (congrArg k0_pay18 (readAt_write_squeeze pfM (Rect.unit (s := S2x1024x1024) ![1, 0, 0] S1x1024x1024.size inb_S2x1024x1024_S1x1024x1024_1_0_0) (fun _ => rfl) squeezes_S1x1024x1024_S1024x1024 f _ shapeCasts_S1024x1024_S1x1024x1024)).trans ?_
  refine (pay18_cast _ _).trans ?_
  exact funext fun j => congrArg trunc1 (congrFun (xread_send7 c fx) j)

theorem land0 (c : Dev nD) (fx : Buf (Elt F) (xM.view.loc (c : Thread nD τ))) (f : kfM.view.ty.Contents (Elt F)) (b' : S1024x1024.Idx → Elt F .f32)
    (g : lsM.view.ty.Contents (Elt F)) (P : List (View.Piece (Elt F) S2x1024x1024 .bf16)) :
    ReadAs.same.apply (((lsM.slice (Rect.unit (s := S2x1024x1024) ![0, 0, 0] S1x1024x1024.size inb_S2x1024x1024_S1x1024x1024_0_0_0) (fun _ => rfl)).squeeze S1024x1024 squeezes_S1x1024x1024_S1024x1024).view.read (Elt F)
        (lsM.view.writes (Elt F) g
          (⟨(Rect.unit (s := S2x1024x1024) ![0, 0, 0] S1x1024x1024.size inb_S2x1024x1024_S1x1024x1024_0_0_0),
            k0_pay2 (kfM.view.readAt (Elt F) (Rect.unit (s := S2x1024x1024) ![0, 0, 0] S1x1024x1024.size inb_S2x1024x1024_S1x1024x1024_0_0_0).toLoadRect
            (View.write (Elt F) ((kfM.slice (Rect.unit (s := S2x1024x1024) ![1, 0, 0] S1x1024x1024.size inb_S2x1024x1024_S1x1024x1024_1_0_0) (fun _ => rfl)).squeeze S1024x1024 squeezes_S1x1024x1024_S1024x1024).view
              (View.write (Elt F) ((kfM.slice (Rect.unit (s := S2x1024x1024) ![0, 0, 0] S1x1024x1024.size inb_S2x1024x1024_S1x1024x1024_0_0_0) (fun _ => rfl)).squeeze S1024x1024 squeezes_S1x1024x1024_S1024x1024).view f
                (ReadAs.same.apply ((xM.slice (Rect.unit (s := S8192x2048) (k0_off2 c) S1024x1024.size (k0_off2_inb c)) (fun _ => rfl)).view.read (Elt F) fx)) Finset.univ)
              b' Finset.univ))⟩ :: P)))
      = keepBlkOf c fx 0 := by
  refine (read_squeeze_writes_head lsM (Rect.unit (s := S2x1024x1024) ![0, 0, 0] S1x1024x1024.size inb_S2x1024x1024_S1x1024x1024_0_0_0) (fun _ => rfl) squeezes_S1x1024x1024_S1024x1024 g _ P shapeCasts_S1x1024x1024_S1024x1024).trans ?_
  refine (congrArg (fun w => shapeCast S1024x1024 w shapeCasts_S1x1024x1024_S1024x1024)
    ((congrArg k0_pay2 ((readAt_write_squeeze_other kfM (Rect.unit (s := S2x1024x1024) ![0, 0, 0] S1x1024x1024.size inb_S2x1024x1024_S1x1024x1024_0_0_0) (Rect.unit (s := S2x1024x1024) ![1, 0, 0] S1x1024x1024.size inb_S2x1024x1024_S1x1024x1024_1_0_0) (fun _ => rfl) squeezes_S1x1024x1024_S1024x1024 slot_disjoint_01 _ b').trans
        (readAt_write_squeeze kfM (Rect.unit (s := S2x1024x1024) ![0, 0, 0] S1x1024x1024.size inb_S2x1024x1024_S1x1024x1024_0_0_0) (fun _ => rfl) squeezes_S1x1024x1024_S1024x1024 f _ shapeCasts_S1024x1024_S1x1024x1024))).trans
      (pay2_cast _ _))).trans ?_
  refine (shapeCast_shapeCast _ _ _).trans ?_
  exact funext fun j => congrArg trunc1 (congrFun (xread_keep0 c fx) j)

theorem land1 (c : Dev nD) (fx : Buf (Elt F) (xM.view.loc (c : Thread nD τ))) (f : kfM.view.ty.Contents (Elt F)) (b' : S1024x1024.Idx → Elt F .f32)
    (g : lsM.view.ty.Contents (Elt F)) (P : List (View.Piece (Elt F) S2x1024x1024 .bf16)) :
    ReadAs.same.apply (((lsM.slice (Rect.unit (s := S2x1024x1024) ![1, 0, 0] S1x1024x1024.size inb_S2x1024x1024_S1x1024x1024_1_0_0) (fun _ => rfl)).squeeze S1024x1024 squeezes_S1x1024x1024_S1024x1024).view.read (Elt F)
        (lsM.view.writes (Elt F) g
          (⟨(Rect.unit (s := S2x1024x1024) ![1, 0, 0] S1x1024x1024.size inb_S2x1024x1024_S1x1024x1024_1_0_0),
            k0_pay4 (kfM.view.readAt (Elt F) (Rect.unit (s := S2x1024x1024) ![1, 0, 0] S1x1024x1024.size inb_S2x1024x1024_S1x1024x1024_1_0_0).toLoadRect
            (View.write (Elt F) ((kfM.slice (Rect.unit (s := S2x1024x1024) ![0, 0, 0] S1x1024x1024.size inb_S2x1024x1024_S1x1024x1024_0_0_0) (fun _ => rfl)).squeeze S1024x1024 squeezes_S1x1024x1024_S1024x1024).view
              (View.write (Elt F) ((kfM.slice (Rect.unit (s := S2x1024x1024) ![1, 0, 0] S1x1024x1024.size inb_S2x1024x1024_S1x1024x1024_1_0_0) (fun _ => rfl)).squeeze S1024x1024 squeezes_S1x1024x1024_S1024x1024).view f
                (ReadAs.same.apply ((xM.slice (Rect.unit (s := S8192x2048) (k0_off5 c) S1024x1024.size (k0_off5_inb c)) (fun _ => rfl)).view.read (Elt F) fx)) Finset.univ)
              b' Finset.univ))⟩ :: P)))
      = keepBlkOf c fx 1 := by
  refine (read_squeeze_writes_head lsM (Rect.unit (s := S2x1024x1024) ![1, 0, 0] S1x1024x1024.size inb_S2x1024x1024_S1x1024x1024_1_0_0) (fun _ => rfl) squeezes_S1x1024x1024_S1024x1024 g _ P shapeCasts_S1x1024x1024_S1024x1024).trans ?_
  refine (congrArg (fun w => shapeCast S1024x1024 w shapeCasts_S1x1024x1024_S1024x1024)
    ((congrArg k0_pay4 ((readAt_write_squeeze_other kfM (Rect.unit (s := S2x1024x1024) ![1, 0, 0] S1x1024x1024.size inb_S2x1024x1024_S1x1024x1024_1_0_0) (Rect.unit (s := S2x1024x1024) ![0, 0, 0] S1x1024x1024.size inb_S2x1024x1024_S1x1024x1024_0_0_0) (fun _ => rfl) squeezes_S1x1024x1024_S1024x1024 slot_disjoint_10 _ b').trans
        (readAt_write_squeeze kfM (Rect.unit (s := S2x1024x1024) ![1, 0, 0] S1x1024x1024.size inb_S2x1024x1024_S1x1024x1024_1_0_0) (fun _ => rfl) squeezes_S1x1024x1024_S1024x1024 f _ shapeCasts_S1024x1024_S1x1024x1024))).trans
      (pay4_cast _ _))).trans ?_
  refine (shapeCast_shapeCast _ _ _).trans ?_
  exact funext fun j => congrArg trunc1 (congrFun (xread_keep1 c fx) j)

theorem land2 (c : Dev nD) (fx : Buf (Elt F) (xM.view.loc (c : Thread nD τ))) (f : kfM.view.ty.Contents (Elt F)) (b' : S1024x1024.Idx → Elt F .f32)
    (g : lsM.view.ty.Contents (Elt F)) (P : List (View.Piece (Elt F) S2x1024x1024 .bf16)) :
    ReadAs.same.apply (((lsM.slice (Rect.unit (s := S2x1024x1024) ![0, 0, 0] S1x1024x1024.size inb_S2x1024x1024_S1x1024x1024_0_0_0) (fun _ => rfl)).squeeze S1024x1024 squeezes_S1x1024x1024_S1024x1024).view.read (Elt F)
        (lsM.view.writes (Elt F) g
          (⟨(Rect.unit (s := S2x1024x1024) ![0, 0, 0] S1x1024x1024.size inb_S2x1024x1024_S1x1024x1024_0_0_0),
            k0_pay7 (kfM.view.readAt (Elt F) (Rect.unit (s := S2x1024x1024) ![0, 0, 0] S1x1024x1024.size inb_S2x1024x1024_S1x1024x1024_0_0_0).toLoadRect
            (View.write (Elt F) ((kfM.slice (Rect.unit (s := S2x1024x1024) ![1, 0, 0] S1x1024x1024.size inb_S2x1024x1024_S1x1024x1024_1_0_0) (fun _ => rfl)).squeeze S1024x1024 squeezes_S1x1024x1024_S1024x1024).view
              (View.write (Elt F) ((kfM.slice (Rect.unit (s := S2x1024x1024) ![0, 0, 0] S1x1024x1024.size inb_S2x1024x1024_S1x1024x1024_0_0_0) (fun _ => rfl)).squeeze S1024x1024 squeezes_S1x1024x1024_S1024x1024).view f
                (ReadAs.same.apply ((xM.slice (Rect.unit (s := S8192x2048) (k0_off7 c) S1024x1024.size (k0_off7_inb c)) (fun _ => rfl)).view.read (Elt F) fx)) Finset.univ)
              b' Finset.univ))⟩ :: P)))
      = keepBlkOf c fx 2 := by
  refine (read_squeeze_writes_head lsM (Rect.unit (s := S2x1024x1024) ![0, 0, 0] S1x1024x1024.size inb_S2x1024x1024_S1x1024x1024_0_0_0) (fun _ => rfl) squeezes_S1x1024x1024_S1024x1024 g _ P shapeCasts_S1x1024x1024_S1024x1024).trans ?_
  refine (congrArg (fun w => shapeCast S1024x1024 w shapeCasts_S1x1024x1024_S1024x1024)
    ((congrArg k0_pay7 ((readAt_write_squeeze_other kfM (Rect.unit (s := S2x1024x1024) ![0, 0, 0] S1x1024x1024.size inb_S2x1024x1024_S1x1024x1024_0_0_0) (Rect.unit (s := S2x1024x1024) ![1, 0, 0] S1x1024x1024.size inb_S2x1024x1024_S1x1024x1024_1_0_0) (fun _ => rfl) squeezes_S1x1024x1024_S1024x1024 slot_disjoint_01 _ b').trans
        (readAt_write_squeeze kfM (Rect.unit (s := S2x1024x1024) ![0, 0, 0] S1x1024x1024.size inb_S2x1024x1024_S1x1024x1024_0_0_0) (fun _ => rfl) squeezes_S1x1024x1024_S1024x1024 f _ shapeCasts_S1024x1024_S1x1024x1024))).trans
      (pay7_cast _ _))).trans ?_
  refine (shapeCast_shapeCast _ _ _).trans ?_
  exact funext fun j => congrArg trunc1 (congrFun (xread_keep2 c fx) j)

theorem land3 (c : Dev nD) (fx : Buf (Elt F) (xM.view.loc (c : Thread nD τ))) (f : kfM.view.ty.Contents (Elt F)) (b' : S1024x1024.Idx → Elt F .f32)
    (g : lsM.view.ty.Contents (Elt F)) (P : List (View.Piece (Elt F) S2x1024x1024 .bf16)) :
    ReadAs.same.apply (((lsM.slice (Rect.unit (s := S2x1024x1024) ![1, 0, 0] S1x1024x1024.size inb_S2x1024x1024_S1x1024x1024_1_0_0) (fun _ => rfl)).squeeze S1024x1024 squeezes_S1x1024x1024_S1024x1024).view.read (Elt F)
        (lsM.view.writes (Elt F) g
          (⟨(Rect.unit (s := S2x1024x1024) ![1, 0, 0] S1x1024x1024.size inb_S2x1024x1024_S1x1024x1024_1_0_0),
            k0_pay10 (kfM.view.readAt (Elt F) (Rect.unit (s := S2x1024x1024) ![1, 0, 0] S1x1024x1024.size inb_S2x1024x1024_S1x1024x1024_1_0_0).toLoadRect
            (View.write (Elt F) ((kfM.slice (Rect.unit (s := S2x1024x1024) ![0, 0, 0] S1x1024x1024.size inb_S2x1024x1024_S1x1024x1024_0_0_0) (fun _ => rfl)).squeeze S1024x1024 squeezes_S1x1024x1024_S1024x1024).view
              (View.write (Elt F) ((kfM.slice (Rect.unit (s := S2x1024x1024) ![1, 0, 0] S1x1024x1024.size inb_S2x1024x1024_S1x1024x1024_1_0_0) (fun _ => rfl)).squeeze S1024x1024 squeezes_S1x1024x1024_S1024x1024).view f
                (ReadAs.same.apply ((xM.slice (Rect.unit (s := S8192x2048) (k0_off9 c) S1024x1024.size (k0_off9_inb c)) (fun _ => rfl)).view.read (Elt F) fx)) Finset.univ)
              b' Finset.univ))⟩ :: P)))
      = keepBlkOf c fx 3 := by
  refine (read_squeeze_writes_head lsM (Rect.unit (s := S2x1024x1024) ![1, 0, 0] S1x1024x1024.size inb_S2x1024x1024_S1x1024x1024_1_0_0) (fun _ => rfl) squeezes_S1x1024x1024_S1024x1024 g _ P shapeCasts_S1x1024x1024_S1024x1024).trans ?_
  refine (congrArg (fun w => shapeCast S1024x1024 w shapeCasts_S1x1024x1024_S1024x1024)
    ((congrArg k0_pay10 ((readAt_write_squeeze_other kfM (Rect.unit (s := S2x1024x1024) ![1, 0, 0] S1x1024x1024.size inb_S2x1024x1024_S1x1024x1024_1_0_0) (Rect.unit (s := S2x1024x1024) ![0, 0, 0] S1x1024x1024.size inb_S2x1024x1024_S1x1024x1024_0_0_0) (fun _ => rfl) squeezes_S1x1024x1024_S1024x1024 slot_disjoint_10 _ b').trans
        (readAt_write_squeeze kfM (Rect.unit (s := S2x1024x1024) ![1, 0, 0] S1x1024x1024.size inb_S2x1024x1024_S1x1024x1024_1_0_0) (fun _ => rfl) squeezes_S1x1024x1024_S1024x1024 f _ shapeCasts_S1024x1024_S1x1024x1024))).trans
      (pay10_cast _ _))).trans ?_
  refine (shapeCast_shapeCast _ _ _).trans ?_
  exact funext fun j => congrArg trunc1 (congrFun (xread_keep3 c fx) j)

theorem land4 (c : Dev nD) (fx : Buf (Elt F) (xM.view.loc (c : Thread nD τ))) (f : kfM.view.ty.Contents (Elt F)) (b' : S1024x1024.Idx → Elt F .f32)
    (g : lsM.view.ty.Contents (Elt F)) (P : List (View.Piece (Elt F) S2x1024x1024 .bf16)) :
    ReadAs.same.apply (((lsM.slice (Rect.unit (s := S2x1024x1024) ![0, 0, 0] S1x1024x1024.size inb_S2x1024x1024_S1x1024x1024_0_0_0) (fun _ => rfl)).squeeze S1024x1024 squeezes_S1x1024x1024_S1024x1024).view.read (Elt F)
        (lsM.view.writes (Elt F) g
          (⟨(Rect.unit (s := S2x1024x1024) ![0, 0, 0] S1x1024x1024.size inb_S2x1024x1024_S1x1024x1024_0_0_0),
            k0_pay13 (kfM.view.readAt (Elt F) (Rect.unit (s := S2x1024x1024) ![0, 0, 0] S1x1024x1024.size inb_S2x1024x1024_S1x1024x1024_0_0_0).toLoadRect
            (View.write (Elt F) ((kfM.slice (Rect.unit (s := S2x1024x1024) ![1, 0, 0] S1x1024x1024.size inb_S2x1024x1024_S1x1024x1024_1_0_0) (fun _ => rfl)).squeeze S1024x1024 squeezes_S1x1024x1024_S1024x1024).view
              (View.write (Elt F) ((kfM.slice (Rect.unit (s := S2x1024x1024) ![0, 0, 0] S1x1024x1024.size inb_S2x1024x1024_S1x1024x1024_0_0_0) (fun _ => rfl)).squeeze S1024x1024 squeezes_S1x1024x1024_S1024x1024).view f
                (ReadAs.same.apply ((xM.slice (Rect.unit (s := S8192x2048) (k0_off11 c) S1024x1024.size (k0_off11_inb c)) (fun _ => rfl)).view.read (Elt F) fx)) Finset.univ)
              b' Finset.univ))⟩ :: P)))
      = keepBlkOf c fx 4 := by
  refine (read_squeeze_writes_head lsM (Rect.unit (s := S2x1024x1024) ![0, 0, 0] S1x1024x1024.size inb_S2x1024x1024_S1x1024x1024_0_0_0) (fun _ => rfl) squeezes_S1x1024x1024_S1024x1024 g _ P shapeCasts_S1x1024x1024_S1024x1024).trans ?_
  refine (congrArg (fun w => shapeCast S1024x1024 w shapeCasts_S1x1024x1024_S1024x1024)
    ((congrArg k0_pay13 ((readAt_write_squeeze_other kfM (Rect.unit (s := S2x1024x1024) ![0, 0, 0] S1x1024x1024.size inb_S2x1024x1024_S1x1024x1024_0_0_0) (Rect.unit (s := S2x1024x1024) ![1, 0, 0] S1x1024x1024.size inb_S2x1024x1024_S1x1024x1024_1_0_0) (fun _ => rfl) squeezes_S1x1024x1024_S1024x1024 slot_disjoint_01 _ b').trans
        (readAt_write_squeeze kfM (Rect.unit (s := S2x1024x1024) ![0, 0, 0] S1x1024x1024.size inb_S2x1024x1024_S1x1024x1024_0_0_0) (fun _ => rfl) squeezes_S1x1024x1024_S1024x1024 f _ shapeCasts_S1024x1024_S1x1024x1024))).trans
      (pay13_cast _ _))).trans ?_
  refine (shapeCast_shapeCast _ _ _).trans ?_
  exact funext fun j => congrArg trunc1 (congrFun (xread_keep4 c fx) j)

theorem land5 (c : Dev nD) (fx : Buf (Elt F) (xM.view.loc (c : Thread nD τ))) (f : kfM.view.ty.Contents (Elt F)) (b' : S1024x1024.Idx → Elt F .f32)
    (g : lsM.view.ty.Contents (Elt F)) (P : List (View.Piece (Elt F) S2x1024x1024 .bf16)) :
    ReadAs.same.apply (((lsM.slice (Rect.unit (s := S2x1024x1024) ![1, 0, 0] S1x1024x1024.size inb_S2x1024x1024_S1x1024x1024_1_0_0) (fun _ => rfl)).squeeze S1024x1024 squeezes_S1x1024x1024_S1024x1024).view.read (Elt F)
        (lsM.view.writes (Elt F) g
          (⟨(Rect.unit (s := S2x1024x1024) ![1, 0, 0] S1x1024x1024.size inb_S2x1024x1024_S1x1024x1024_1_0_0),
            k0_pay15 (kfM.view.readAt (Elt F) (Rect.unit (s := S2x1024x1024) ![1, 0, 0] S1x1024x1024.size inb_S2x1024x1024_S1x1024x1024_1_0_0).toLoadRect
            (View.write (Elt F) ((kfM.slice (Rect.unit (s := S2x1024x1024) ![0, 0, 0] S1x1024x1024.size inb_S2x1024x1024_S1x1024x1024_0_0_0) (fun _ => rfl)).squeeze S1024x1024 squeezes_S1x1024x1024_S1024x1024).view
              (View.write (Elt F) ((kfM.slice (Rect.unit (s := S2x1024x1024) ![1, 0, 0] S1x1024x1024.size inb_S2x1024x1024_S1x1024x1024_1_0_0) (fun _ => rfl)).squeeze S1024x1024 squeezes_S1x1024x1024_S1024x1024).view f
                (ReadAs.same.apply ((xM.slice (Rect.unit (s := S8192x2048) (k0_off13 c) S1024x1024.size (k0_off13_inb c)) (fun _ => rfl)).view.read (Elt F) fx)) Finset.univ)
              b' Finset.univ))⟩ :: P)))
      = keepBlkOf c fx 5 := by
  refine (read_squeeze_writes_head lsM (Rect.unit (s := S2x1024x1024) ![1, 0, 0] S1x1024x1024.size inb_S2x1024x1024_S1x1024x1024_1_0_0) (fun _ => rfl) squeezes_S1x1024x1024_S1024x1024 g _ P shapeCasts_S1x1024x1024_S1024x1024).trans ?_
  refine (congrArg (fun w => shapeCast S1024x1024 w shapeCasts_S1x1024x1024_S1024x1024)
    ((congrArg k0_pay15 ((readAt_write_squeeze_other kfM (Rect.unit (s := S2x1024x1024) ![1, 0, 0] S1x1024x1024.size inb_S2x1024x1024_S1x1024x1024_1_0_0) (Rect.unit (s := S2x1024x1024) ![0, 0, 0] S1x1024x1024.size inb_S2x1024x1024_S1x1024x1024_0_0_0) (fun _ => rfl) squeezes_S1x1024x1024_S1024x1024 slot_disjoint_10 _ b').trans
        (readAt_write_squeeze kfM (Rect.unit (s := S2x1024x1024) ![1, 0, 0] S1x1024x1024.size inb_S2x1024x1024_S1x1024x1024_1_0_0) (fun _ => rfl) squeezes_S1x1024x1024_S1024x1024 f _ shapeCasts_S1024x1024_S1x1024x1024))).trans
      (pay15_cast _ _))).trans ?_
  refine (shapeCast_shapeCast _ _ _).trans ?_
  exact funext fun j => congrArg trunc1 (congrFun (xread_keep5 c fx) j)

theorem land6 (c : Dev nD) (fx : Buf (Elt F) (xM.view.loc (c : Thread nD τ))) (f : kfM.view.ty.Contents (Elt F)) (b' : S1024x1024.Idx → Elt F .f32)
    (g : lsM.view.ty.Contents (Elt F)) (P : List (View.Piece (Elt F) S2x1024x1024 .bf16)) :
    ReadAs.same.apply (((lsM.slice (Rect.unit (s := S2x1024x1024) ![0, 0, 0] S1x1024x1024.size inb_S2x1024x1024_S1x1024x1024_0_0_0) (fun _ => rfl)).squeeze S1024x1024 squeezes_S1x1024x1024_S1024x1024).view.read (Elt F)
        (lsM.view.writes (Elt F) g
          (⟨(Rect.unit (s := S2x1024x1024) ![0, 0, 0] S1x1024x1024.size inb_S2x1024x1024_S1x1024x1024_0_0_0),
            k0_pay17 (kfM.view.readAt (Elt F) (Rect.unit (s := S2x1024x1024) ![0, 0, 0] S1x1024x1024.size inb_S2x1024x1024_S1x1024x1024_0_0_0).toLoadRect
            (View.write (Elt F) ((kfM.slice (Rect.unit (s := S2x1024x1024) ![1, 0, 0] S1x1024x1024.size inb_S2x1024x1024_S1x1024x1024_1_0_0) (fun _ => rfl)).squeeze S1024x1024 squeezes_S1x1024x1024_S1024x1024).view
              (View.write (Elt F) ((kfM.slice (Rect.unit (s := S2x1024x1024) ![0, 0, 0] S1x1024x1024.size inb_S2x1024x1024_S1x1024x1024_0_0_0) (fun _ => rfl)).squeeze S1024x1024 squeezes_S1x1024x1024_S1024x1024).view f
                (ReadAs.same.apply ((xM.slice (Rect.unit (s := S8192x2048) (k0_off15 c) S1024x1024.size (k0_off15_inb c)) (fun _ => rfl)).view.read (Elt F) fx)) Finset.univ)
              b' Finset.univ))⟩ :: P)))
      = keepBlkOf c fx 6 := by
  refine (read_squeeze_writes_head lsM (Rect.unit (s := S2x1024x1024) ![0, 0, 0] S1x1024x1024.size inb_S2x1024x1024_S1x1024x1024_0_0_0) (fun _ => rfl) squeezes_S1x1024x1024_S1024x1024 g _ P shapeCasts_S1x1024x1024_S1024x1024).trans ?_
  refine (congrArg (fun w => shapeCast S1024x1024 w shapeCasts_S1x1024x1024_S1024x1024)
    ((congrArg k0_pay17 ((readAt_write_squeeze_other kfM (Rect.unit (s := S2x1024x1024) ![0, 0, 0] S1x1024x1024.size inb_S2x1024x1024_S1x1024x1024_0_0_0) (Rect.unit (s := S2x1024x1024) ![1, 0, 0] S1x1024x1024.size inb_S2x1024x1024_S1x1024x1024_1_0_0) (fun _ => rfl) squeezes_S1x1024x1024_S1024x1024 slot_disjoint_01 _ b').trans
        (readAt_write_squeeze kfM (Rect.unit (s := S2x1024x1024) ![0, 0, 0] S1x1024x1024.size inb_S2x1024x1024_S1x1024x1024_0_0_0) (fun _ => rfl) squeezes_S1x1024x1024_S1024x1024 f _ shapeCasts_S1024x1024_S1x1024x1024))).trans
      (pay17_cast _ _))).trans ?_
  refine (shapeCast_shapeCast _ _ _).trans ?_
  exact funext fun j => congrArg trunc1 (congrFun (xread_keep6 c fx) j)

theorem land7 (c : Dev nD) (fx : Buf (Elt F) (xM.view.loc (c : Thread nD τ))) (f : kfM.view.ty.Contents (Elt F))
    (g : lsM.view.ty.Contents (Elt F)) (P : List (View.Piece (Elt F) S2x1024x1024 .bf16)) :
    ReadAs.same.apply (((lsM.slice (Rect.unit (s := S2x1024x1024) ![1, 0, 0] S1x1024x1024.size inb_S2x1024x1024_S1x1024x1024_1_0_0) (fun _ => rfl)).squeeze S1024x1024 squeezes_S1x1024x1024_S1024x1024).view.read (Elt F)
        (lsM.view.writes (Elt F) g
          (⟨(Rect.unit (s := S2x1024x1024) ![1, 0, 0] S1x1024x1024.size inb_S2x1024x1024_S1x1024x1024_1_0_0),
            k0_pay19 (kfM.view.readAt (Elt F) (Rect.unit (s := S2x1024x1024) ![1, 0, 0] S1x1024x1024.size inb_S2x1024x1024_S1x1024x1024_1_0_0).toLoadRect
            (View.write (Elt F) ((kfM.slice (Rect.unit (s := S2x1024x1024) ![1, 0, 0] S1x1024x1024.size inb_S2x1024x1024_S1x1024x1024_1_0_0) (fun _ => rfl)).squeeze S1024x1024 squeezes_S1x1024x1024_S1024x1024).view f
                (ReadAs.same.apply ((xM.slice (Rect.unit (s := S8192x2048) (k0_off17 c) S1024x1024.size (k0_off17_inb c)) (fun _ => rfl)).view.read (Elt F) fx)) Finset.univ))⟩ :: P)))
      = keepBlkOf c fx 7 := by
  refine (read_squeeze_writes_head lsM (Rect.unit (s := S2x1024x1024) ![1, 0, 0] S1x1024x1024.size inb_S2x1024x1024_S1x1024x1024_1_0_0) (fun _ => rfl) squeezes_S1x1024x1024_S1024x1024 g _ P shapeCasts_S1x1024x1024_S1024x1024).trans ?_
  refine (congrArg (fun w => shapeCast S1024x1024 w shapeCasts_S1x1024x1024_S1024x1024)
    ((congrArg k0_pay19 ((readAt_write_squeeze kfM (Rect.unit (s := S2x1024x1024) ![1, 0, 0] S1x1024x1024.size inb_S2x1024x1024_S1x1024x1024_1_0_0) (fun _ => rfl) squeezes_S1x1024x1024_S1024x1024 f _ shapeCasts_S1024x1024_S1x1024x1024))).trans
      (pay19_cast _ _))).trans ?_
  refine (shapeCast_shapeCast _ _ _).trans ?_
  exact funext fun j => congrArg trunc1 (congrFun (xread_keep7 c fx) j)

/-! ## Where the blocks land -/

omit [FloatOps F] in
/-- The rows of chunk k of device c in a result. -/
theorem mem_dst_iff (c : Dev nD) (k : Fin 8) (i : S16384x1024.Idx) :
    i ∈ (dstM c k).view.set ↔ 8192 * yOf c + 1024 * k.val ≤ (i 0).val ∧ (i 0).val < 8192 * yOf c + 1024 * k.val + 1024 := by
  rw [dst_set, Rect.mem_set_unit, k0_off3_eq c k]
  constructor
  · intro h; have h0 := h 0; exact ⟨h0.1, h0.2⟩
  · intro h a
    match a with
    | ⟨0, _⟩ => exact ⟨h.1, h.2⟩
    | ⟨1, _⟩ => exact ⟨Nat.zero_le _, by have := idx2_lt1 i; show (i 1).val < 0 + 1024; omega⟩

omit [FloatOps F] in
theorem dst_emb_row (c : Dev nD) (k : Fin 8) (x : S1024x1024.Idx) :
    (((dstM c k).view.emb x : S16384x1024.Idx) 0).val = 8192 * yOf c + 1024 * k.val + (x 0).val := by
  show k0_off3 c (BitVec.ofNat 32 (1024 * k.val)) 0 + 1 * (x 0).val = _
  rw [k0_off3_eq c k]
  show 8192 * yOf c + 1024 * k.val + 1 * (x 0).val = _
  omega
omit [FloatOps F] in
theorem dst_emb_col (c : Dev nD) (k : Fin 8) (x : S1024x1024.Idx) :
    (((dstM c k).view.emb x : S16384x1024.Idx) 1).val = (x 1).val := by
  show k0_off3 c (BitVec.ofNat 32 (1024 * k.val)) 1 + 1 * (x 1).val = _
  rw [k0_off3_eq c k]
  show 0 + 1 * (x 1).val = _
  omega

/-- The expected result at an index, from the source device, row and column named any way. -/
theorem Gx_at (c : Dev nD) (i : S16384x1024.Idx) (d : Dev nD) (r : Fin 8192) (q : Fin 2048)
    (hd : srcDev c ((i 0).val / 8192) = d) (hr : (i 0).val % 8192 = r.val) (hq : 1024 * yOf c + (i 1).val = q.val) :
    Gx m c i = trunc1 (xAt m d r q) :=
  congrArg trunc1 (xAt_congr m hd hr hq)

/-- The block chunk k sends, landed in the partner's result over any contents, is the partner's expected result on the
    rows it lands in. -/
theorem land_send (c : Dev nD) (k : Fin 8) (fd : OutBuf (F := F) (peer c)) :
    ∀ i ∈ (dstM c k).view.set, (dstM c k).view.write (Elt F) fd (sendBlk m c k) Finset.univ i = Gx m (peer c) i := by
  intro i hi
  obtain ⟨x, -, rfl⟩ := Finset.mem_map.mp hi
  rw [View.write_emb_of_mem _ _ (Finset.mem_univ x)]
  refine (cast_eq _ _).trans ?_
  rw [sendBlk_apply]
  have hrow := dst_emb_row c k x
  have hcol := dst_emb_col c k x
  have hk := k.isLt
  have hx0 := idx2_lt0 x
  have hy := yOf_lt c
  have hyp := yOf_peer c
  refine (Gx_at m (peer c) _ c _ _ ?_ ?_ ?_).symm
  · unfold srcDev
    split
    · next h => exfalso; omega
    · exact peer_peer c
  · show ((((dstM c k).view.emb x : S16384x1024.Idx) 0).val) % 8192 = 1024 * k.val + (x 0).val
    omega
  · show 1024 * yOf (peer c) + (((dstM c k).view.emb x : S16384x1024.Idx) 1).val = 1024 - 1024 * yOf c + (x 1).val
    omega

/-- What device c's own chunk k leaves of its result: the kept block in chunk k's rows, the rest as it was. -/
abbrev ownW (c : Dev nD) (k : Fin 8) (f : OutBuf (F := F) c) : OutBuf (F := F) c :=
  (dstM c k).view.write (Elt F) f (keepBlk m c k) Finset.univ

theorem ownW_of_mem (c : Dev nD) (k : Fin 8) (f : OutBuf (F := F) c) {i : S16384x1024.Idx} (hi : i ∈ (dstM c k).view.set) :
    ownW m c k f i = Gx m c i := by
  obtain ⟨x, -, rfl⟩ := Finset.mem_map.mp hi
  show (dstM c k).view.write (Elt F) f (keepBlk m c k) Finset.univ ((dstM c k).view.emb x) = _
  rw [View.write_emb_of_mem _ _ (Finset.mem_univ x)]
  refine (cast_eq _ _).trans ?_
  rw [keepBlk_apply]
  have hrow := dst_emb_row c k x
  have hcol := dst_emb_col c k x
  have hk := k.isLt
  have hx0 := idx2_lt0 x
  have hy := yOf_lt c
  refine (Gx_at m c _ c _ _ ?_ ?_ ?_).symm
  · unfold srcDev
    split
    · rfl
    · next h => exfalso; apply h; omega
  · show ((((dstM c k).view.emb x : S16384x1024.Idx) 0).val) % 8192 = 1024 * k.val + (x 0).val
    omega
  · show 1024 * yOf c + (((dstM c k).view.emb x : S16384x1024.Idx) 1).val = 1024 * yOf c + (x 1).val
    omega

/-- Once an index holds its expected value, a later chunk's landing keeps it: on its own rows it lands that value, off
    them it changes nothing. -/
theorem ownW_keeps (c : Dev nD) (k : Fin 8) (f : OutBuf (F := F) c) {i : S16384x1024.Idx} (h : f i = Gx m c i) :
    ownW m c k f i = Gx m c i := by
  by_cases hi : i ∈ (dstM c k).view.set
  · exact ownW_of_mem m c k f hi
  · show (dstM c k).view.write (Elt F) f (keepBlk m c k) Finset.univ i = _
    rw [View.write_of_not_mem _ _ _ (by rwa [View.setOn_univ])]
    exact h

omit [FloatOps F] in
/-- The rows the partner does not write are the device's own eight chunks. -/
theorem own_cover (c : Dev nD) (i : S16384x1024.Idx) (hi : i ∈ Finset.univ \ theirs c) : ∃ k : Fin 8, i ∈ (dstM c k).view.set := by
  have hnot : i ∉ theirs c := (Finset.mem_sdiff.mp hi).2
  have h0 := idx2_lt0 i
  have hy := yOf_lt c
  have hyp := yOf_peer c
  by_cases hrow : (i 0).val / 8192 = yOf c
  · refine ⟨⟨((i 0).val % 8192) / 1024, by omega⟩, (mem_dst_iff c _ i).mpr ⟨?_, ?_⟩⟩
    · show 8192 * yOf c + 1024 * (((i 0).val % 8192) / 1024) ≤ (i 0).val; omega
    · show (i 0).val < 8192 * yOf c + 1024 * (((i 0).val % 8192) / 1024) + 1024; omega
  · exfalso; apply hnot
    unfold theirs
    refine Finset.mem_biUnion.mpr ⟨⟨((i 0).val % 8192) / 1024, by omega⟩, Finset.mem_univ _, (mem_dst_iff (peer c) _ i).mpr ⟨?_, ?_⟩⟩
    · show 8192 * yOf (peer c) + 1024 * (((i 0).val % 8192) / 1024) ≤ (i 0).val; omega
    · show (i 0).val < 8192 * yOf (peer c) + 1024 * (((i 0).val % 8192) / 1024) + 1024; omega

/-- After the eight local transfers, in order, over any contents: off the partner's rows the result is the expected one. -/
theorem own_final (c : Dev nD) (fo : OutBuf (F := F) c) :
    ∀ i ∈ Finset.univ \ theirs c, (ownW m c 7 (ownW m c 6 (ownW m c 5 (ownW m c 4 (ownW m c 3 (ownW m c 2 (ownW m c 1 (ownW m c 0 fo)))))))) i = Gx m c i := by
  intro i hi
  obtain ⟨k, hk⟩ := own_cover c i hi
  fin_cases k
  · exact ownW_keeps m c 7 _ (ownW_keeps m c 6 _ (ownW_keeps m c 5 _ (ownW_keeps m c 4 _ (ownW_keeps m c 3 _ (ownW_keeps m c 2 _ (ownW_keeps m c 1 _ (ownW_of_mem m c 0 _ hk)))))))
  · exact ownW_keeps m c 7 _ (ownW_keeps m c 6 _ (ownW_keeps m c 5 _ (ownW_keeps m c 4 _ (ownW_keeps m c 3 _ (ownW_keeps m c 2 _ (ownW_of_mem m c 1 _ hk))))))
  · exact ownW_keeps m c 7 _ (ownW_keeps m c 6 _ (ownW_keeps m c 5 _ (ownW_keeps m c 4 _ (ownW_keeps m c 3 _ (ownW_of_mem m c 2 _ hk)))))
  · exact ownW_keeps m c 7 _ (ownW_keeps m c 6 _ (ownW_keeps m c 5 _ (ownW_keeps m c 4 _ (ownW_of_mem m c 3 _ hk))))
  · exact ownW_keeps m c 7 _ (ownW_keeps m c 6 _ (ownW_keeps m c 5 _ (ownW_of_mem m c 4 _ hk)))
  · exact ownW_keeps m c 7 _ (ownW_keeps m c 6 _ (ownW_of_mem m c 5 _ hk))
  · exact ownW_keeps m c 7 _ (ownW_of_mem m c 6 _ hk)
  · exact ownW_of_mem m c 7 _ hk

/-- info: 'Cert.Kernel.Xchg.land_send' depends on axioms: [propext, Classical.choice, Quot.sound] -/
#guard_msgs in #print axioms land_send
/-- info: 'Cert.Kernel.Xchg.own_final' depends on axioms: [propext, Classical.choice, Quot.sound] -/
#guard_msgs in #print axioms own_final
/-- info: 'Cert.Kernel.Xchg.carry4' depends on axioms: [propext, Classical.choice, Quot.sound] -/
#guard_msgs in #print axioms carry4
/-- info: 'Cert.Kernel.Xchg.land0' depends on axioms: [propext, Classical.choice, Quot.sound] -/
#guard_msgs in #print axioms land0

end Cert.Kernel.Xchg

end
-- ==== Proof.Bits.Body.lean ====
/-
  The body of the exchange kernel, proved once at a symbolic device.
-/
import proofs.«900625_g7700000000000626_dist_a2a_v7x_xyz2x2x2_y_m8192_n1024_bf16_1_alg».proof.Proof.Bits.Value
import Idealize.ShloMosaic.Lib.Tactic

noncomputable section

namespace Cert.Kernel.Xchg

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (G : (c : Dev nD) → OutBuf (F := F) c)

attribute [local sl_rounds] duties_bar duties_send duties_recv amount_bar amount_send amount_recv expect_bar expect_send expect_recv
  payload_bar payload_send payload_recv
attribute [local sl_canon] dev1_eq dev2_eq dev3_eq dev4_eq dev5_eq dev6_eq dev7_eq dev8_eq dev9_eq

/-- One local copy's landing, read as the expected block written over the expected rest. -/
theorem ownW_congr (c : Dev nD) (k : Fin 8) {p p' : OutBuf (F := F) c} {b : S1024x1024.Idx → Elt F .bf16} (hp : p = p') (hb : b = keepBlk m c k) :
    (dstM c k).view.write (Elt F) p b Finset.univ = ownW m c k p' := by subst hp hb; rfl

set_option maxHeartbeats 4000000 in
set_option maxRecDepth 16384 in
/-- The kernel's body on device c, run once at a symbolic device: from what the launch deals it (`bodyPre`) and what it
    owes, through the signal to its partner, the wait on its own barrier cell, and for each chunk the two loads, the
    remote copy into the partner's rows and the local copy into its own, to the result at its expected contents with
    every semaphore back at zero.  The result's rows the partner writes leave with the signal and come back, written,
    with the receive cells' payloads; the expected contents G enter only through the two facts `hland` and `hown`. -/
theorem sound_body (c : Dev nD) (K : Dev nD × Fin 17 → ℕ) (W : Waits sig Unit) (Kt : PUnit → sProp 𝕄)
    (hland : ∀ (k : Fin 8) (fd : OutBuf (F := F) (peer c)), ∀ i ∈ (dstM c k).view.set, (dstM c k).view.write (Elt F) fd (sendBlk m c k) Finset.univ i = G (peer c) i)
    (hown : ∀ fo : OutBuf (F := F) c, ∀ i ∈ Finset.univ \ theirs c,
      ownW m c 7 (ownW m c 6 (ownW m c 5 (ownW m c 4 (ownW m c 3 (ownW m c 2 (ownW m c 1 (ownW m c 0 fo))))))) i = G c i) :
    iprop(bodyPre m G K c ∗ owes (c : Thread nD τ) (O₀ c) W ∗ ((bodyPost m G c ∗ ∃ W', owes (c : Thread nD τ) 0 W') -∗ Kt ⟨⟩))
      ⊢ wp frame (wpE (defs₀ (F := F)) 𝒱₀ c none) Set.univ
          (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) Kt := by
  unfold bodyPre ghost invs
  iintro ⟨⟨⟨⟨#HIb, #HIbp, ⟨#HIs0, #HIs1, #HIs2, #HIs3, #HIs4, #HIs5, #HIs6, #HIs7⟩, ⟨#HIr0, #HIr1, #HIr2, #HIr3, #HIr4, #HIr5, #HIr6, #HIr7⟩, ⟨#HIq0, #HIq1, #HIq2, #HIq3, #HIq4, #HIq5, #HIq6, #HIq7⟩⟩, Hab, ⟨Has0, Has1, Has2, Has3, Has4, Has5, Has6, Has7⟩, ⟨Har0, Har1, Har2, Har3, Har4, Har5, Har6, Har7⟩, #Hrbp, ⟨#Hrq0, #Hrq1, #Hrq2, #Hrq3, #Hrq4, #Hrq5, #Hrq6, #Hrq7⟩, ⟨#Hrs0, #Hrs1, #Hrs2, #Hrs3, #Hrs4, #Hrs5, #Hrs6, #Hrs7⟩, Htb, ⟨Htq0, Htq1, Htq2, Htq3, Htq4, Htq5, Htq6, Htq7⟩, ⟨Hts0, Hts1, Hts2, Hts3, Hts4, Hts5, Hts6, Hts7⟩⟩,
      Hcb, ⟨Hcr0, Hcr1, Hcr2, Hcr3, Hcr4, Hcr5, Hcr6, Hcr7⟩, #Hlev, ⟨Hs0, Hs1, Hs2, Hs3, Hs4, Hs5⟩, Hx, Ho, ⟨%f0, Hpf⟩, ⟨%f1, Hkf⟩, ⟨%f2, Hsg⟩, ⟨%f3, Hls⟩⟩, HO, Hk⟩
  have dx0 := xwin_disj_2_1 c
  have dx1 := xwin_disj_5_4 c
  have dx2 := xwin_disj_7_6 c
  have dx3 := xwin_disj_9_8 c
  have dx4 := xwin_disj_11_10 c
  have dx5 := xwin_disj_13_12 c
  have dx6 := xwin_disj_15_14 c
  have dx7 := xwin_disj_17_16 c
  have dt0 : Disjoint ((Memref.whole main_v1).slice (Rect.unit (s := S16384x1024) (k0_off3 c 0#32) S1024x1024.size (k0_off3_inb c 0)) (fun _ => rfl)).view.set (theirs c) := dst_disjoint_theirs c 0
  have dt1 : Disjoint ((Memref.whole main_v1).slice (Rect.unit (s := S16384x1024) (k0_off3 c 1024#32) S1024x1024.size (k0_off3_inb c 1)) (fun _ => rfl)).view.set (theirs c) := dst_disjoint_theirs c 1
  have dt2 : Disjoint ((Memref.whole main_v1).slice (Rect.unit (s := S16384x1024) (k0_off3 c 2048#32) S1024x1024.size (k0_off3_inb c 2)) (fun _ => rfl)).view.set (theirs c) := dst_disjoint_theirs c 2
  have dt3 : Disjoint ((Memref.whole main_v1).slice (Rect.unit (s := S16384x1024) (k0_off3 c 3072#32) S1024x1024.size (k0_off3_inb c 3)) (fun _ => rfl)).view.set (theirs c) := dst_disjoint_theirs c 3
  have dt4 : Disjoint ((Memref.whole main_v1).slice (Rect.unit (s := S16384x1024) (k0_off3 c 4096#32) S1024x1024.size (k0_off3_inb c 4)) (fun _ => rfl)).view.set (theirs c) := dst_disjoint_theirs c 4
  have dt5 : Disjoint ((Memref.whole main_v1).slice (Rect.unit (s := S16384x1024) (k0_off3 c 5120#32) S1024x1024.size (k0_off3_inb c 5)) (fun _ => rfl)).view.set (theirs c) := dst_disjoint_theirs c 5
  have dt6 : Disjoint ((Memref.whole main_v1).slice (Rect.unit (s := S16384x1024) (k0_off3 c 6144#32) S1024x1024.size (k0_off3_inb c 6)) (fun _ => rfl)).view.set (theirs c) := dst_disjoint_theirs c 6
  have dt7 : Disjoint ((Memref.whole main_v1).slice (Rect.unit (s := S16384x1024) (k0_off3 c 7168#32) S1024x1024.size (k0_off3_inb c 7)) (fun _ => rfl)).view.set (theirs c) := dst_disjoint_theirs c 7
  have do1_0 : Disjoint ((Memref.whole main_v1).slice (Rect.unit (s := S16384x1024) (k0_off3 c 1024#32) S1024x1024.size (k0_off3_inb c 1)) (fun _ => rfl)).view.set ((Memref.whole main_v1).slice (Rect.unit (s := S16384x1024) (k0_off3 c 0#32) S1024x1024.size (k0_off3_inb c 0)) (fun _ => rfl)).view.set := dst_disjoint_own c 1 0 (by decide)
  have do2_0 : Disjoint ((Memref.whole main_v1).slice (Rect.unit (s := S16384x1024) (k0_off3 c 2048#32) S1024x1024.size (k0_off3_inb c 2)) (fun _ => rfl)).view.set ((Memref.whole main_v1).slice (Rect.unit (s := S16384x1024) (k0_off3 c 0#32) S1024x1024.size (k0_off3_inb c 0)) (fun _ => rfl)).view.set := dst_disjoint_own c 2 0 (by decide)
  have do2_1 : Disjoint ((Memref.whole main_v1).slice (Rect.unit (s := S16384x1024) (k0_off3 c 2048#32) S1024x1024.size (k0_off3_inb c 2)) (fun _ => rfl)).view.set ((Memref.whole main_v1).slice (Rect.unit (s := S16384x1024) (k0_off3 c 1024#32) S1024x1024.size (k0_off3_inb c 1)) (fun _ => rfl)).view.set := dst_disjoint_own c 2 1 (by decide)
  have do3_0 : Disjoint ((Memref.whole main_v1).slice (Rect.unit (s := S16384x1024) (k0_off3 c 3072#32) S1024x1024.size (k0_off3_inb c 3)) (fun _ => rfl)).view.set ((Memref.whole main_v1).slice (Rect.unit (s := S16384x1024) (k0_off3 c 0#32) S1024x1024.size (k0_off3_inb c 0)) (fun _ => rfl)).view.set := dst_disjoint_own c 3 0 (by decide)
  have do3_1 : Disjoint ((Memref.whole main_v1).slice (Rect.unit (s := S16384x1024) (k0_off3 c 3072#32) S1024x1024.size (k0_off3_inb c 3)) (fun _ => rfl)).view.set ((Memref.whole main_v1).slice (Rect.unit (s := S16384x1024) (k0_off3 c 1024#32) S1024x1024.size (k0_off3_inb c 1)) (fun _ => rfl)).view.set := dst_disjoint_own c 3 1 (by decide)
  have do3_2 : Disjoint ((Memref.whole main_v1).slice (Rect.unit (s := S16384x1024) (k0_off3 c 3072#32) S1024x1024.size (k0_off3_inb c 3)) (fun _ => rfl)).view.set ((Memref.whole main_v1).slice (Rect.unit (s := S16384x1024) (k0_off3 c 2048#32) S1024x1024.size (k0_off3_inb c 2)) (fun _ => rfl)).view.set := dst_disjoint_own c 3 2 (by decide)
  have do4_0 : Disjoint ((Memref.whole main_v1).slice (Rect.unit (s := S16384x1024) (k0_off3 c 4096#32) S1024x1024.size (k0_off3_inb c 4)) (fun _ => rfl)).view.set ((Memref.whole main_v1).slice (Rect.unit (s := S16384x1024) (k0_off3 c 0#32) S1024x1024.size (k0_off3_inb c 0)) (fun _ => rfl)).view.set := dst_disjoint_own c 4 0 (by decide)
  have do4_1 : Disjoint ((Memref.whole main_v1).slice (Rect.unit (s := S16384x1024) (k0_off3 c 4096#32) S1024x1024.size (k0_off3_inb c 4)) (fun _ => rfl)).view.set ((Memref.whole main_v1).slice (Rect.unit (s := S16384x1024) (k0_off3 c 1024#32) S1024x1024.size (k0_off3_inb c 1)) (fun _ => rfl)).view.set := dst_disjoint_own c 4 1 (by decide)
  have do4_2 : Disjoint ((Memref.whole main_v1).slice (Rect.unit (s := S16384x1024) (k0_off3 c 4096#32) S1024x1024.size (k0_off3_inb c 4)) (fun _ => rfl)).view.set ((Memref.whole main_v1).slice (Rect.unit (s := S16384x1024) (k0_off3 c 2048#32) S1024x1024.size (k0_off3_inb c 2)) (fun _ => rfl)).view.set := dst_disjoint_own c 4 2 (by decide)
  have do4_3 : Disjoint ((Memref.whole main_v1).slice (Rect.unit (s := S16384x1024) (k0_off3 c 4096#32) S1024x1024.size (k0_off3_inb c 4)) (fun _ => rfl)).view.set ((Memref.whole main_v1).slice (Rect.unit (s := S16384x1024) (k0_off3 c 3072#32) S1024x1024.size (k0_off3_inb c 3)) (fun _ => rfl)).view.set := dst_disjoint_own c 4 3 (by decide)
  have do5_0 : Disjoint ((Memref.whole main_v1).slice (Rect.unit (s := S16384x1024) (k0_off3 c 5120#32) S1024x1024.size (k0_off3_inb c 5)) (fun _ => rfl)).view.set ((Memref.whole main_v1).slice (Rect.unit (s := S16384x1024) (k0_off3 c 0#32) S1024x1024.size (k0_off3_inb c 0)) (fun _ => rfl)).view.set := dst_disjoint_own c 5 0 (by decide)
  have do5_1 : Disjoint ((Memref.whole main_v1).slice (Rect.unit (s := S16384x1024) (k0_off3 c 5120#32) S1024x1024.size (k0_off3_inb c 5)) (fun _ => rfl)).view.set ((Memref.whole main_v1).slice (Rect.unit (s := S16384x1024) (k0_off3 c 1024#32) S1024x1024.size (k0_off3_inb c 1)) (fun _ => rfl)).view.set := dst_disjoint_own c 5 1 (by decide)
  have do5_2 : Disjoint ((Memref.whole main_v1).slice (Rect.unit (s := S16384x1024) (k0_off3 c 5120#32) S1024x1024.size (k0_off3_inb c 5)) (fun _ => rfl)).view.set ((Memref.whole main_v1).slice (Rect.unit (s := S16384x1024) (k0_off3 c 2048#32) S1024x1024.size (k0_off3_inb c 2)) (fun _ => rfl)).view.set := dst_disjoint_own c 5 2 (by decide)
  have do5_3 : Disjoint ((Memref.whole main_v1).slice (Rect.unit (s := S16384x1024) (k0_off3 c 5120#32) S1024x1024.size (k0_off3_inb c 5)) (fun _ => rfl)).view.set ((Memref.whole main_v1).slice (Rect.unit (s := S16384x1024) (k0_off3 c 3072#32) S1024x1024.size (k0_off3_inb c 3)) (fun _ => rfl)).view.set := dst_disjoint_own c 5 3 (by decide)
  have do5_4 : Disjoint ((Memref.whole main_v1).slice (Rect.unit (s := S16384x1024) (k0_off3 c 5120#32) S1024x1024.size (k0_off3_inb c 5)) (fun _ => rfl)).view.set ((Memref.whole main_v1).slice (Rect.unit (s := S16384x1024) (k0_off3 c 4096#32) S1024x1024.size (k0_off3_inb c 4)) (fun _ => rfl)).view.set := dst_disjoint_own c 5 4 (by decide)
  have do6_0 : Disjoint ((Memref.whole main_v1).slice (Rect.unit (s := S16384x1024) (k0_off3 c 6144#32) S1024x1024.size (k0_off3_inb c 6)) (fun _ => rfl)).view.set ((Memref.whole main_v1).slice (Rect.unit (s := S16384x1024) (k0_off3 c 0#32) S1024x1024.size (k0_off3_inb c 0)) (fun _ => rfl)).view.set := dst_disjoint_own c 6 0 (by decide)
  have do6_1 : Disjoint ((Memref.whole main_v1).slice (Rect.unit (s := S16384x1024) (k0_off3 c 6144#32) S1024x1024.size (k0_off3_inb c 6)) (fun _ => rfl)).view.set ((Memref.whole main_v1).slice (Rect.unit (s := S16384x1024) (k0_off3 c 1024#32) S1024x1024.size (k0_off3_inb c 1)) (fun _ => rfl)).view.set := dst_disjoint_own c 6 1 (by decide)
  have do6_2 : Disjoint ((Memref.whole main_v1).slice (Rect.unit (s := S16384x1024) (k0_off3 c 6144#32) S1024x1024.size (k0_off3_inb c 6)) (fun _ => rfl)).view.set ((Memref.whole main_v1).slice (Rect.unit (s := S16384x1024) (k0_off3 c 2048#32) S1024x1024.size (k0_off3_inb c 2)) (fun _ => rfl)).view.set := dst_disjoint_own c 6 2 (by decide)
  have do6_3 : Disjoint ((Memref.whole main_v1).slice (Rect.unit (s := S16384x1024) (k0_off3 c 6144#32) S1024x1024.size (k0_off3_inb c 6)) (fun _ => rfl)).view.set ((Memref.whole main_v1).slice (Rect.unit (s := S16384x1024) (k0_off3 c 3072#32) S1024x1024.size (k0_off3_inb c 3)) (fun _ => rfl)).view.set := dst_disjoint_own c 6 3 (by decide)
  have do6_4 : Disjoint ((Memref.whole main_v1).slice (Rect.unit (s := S16384x1024) (k0_off3 c 6144#32) S1024x1024.size (k0_off3_inb c 6)) (fun _ => rfl)).view.set ((Memref.whole main_v1).slice (Rect.unit (s := S16384x1024) (k0_off3 c 4096#32) S1024x1024.size (k0_off3_inb c 4)) (fun _ => rfl)).view.set := dst_disjoint_own c 6 4 (by decide)
  have do6_5 : Disjoint ((Memref.whole main_v1).slice (Rect.unit (s := S16384x1024) (k0_off3 c 6144#32) S1024x1024.size (k0_off3_inb c 6)) (fun _ => rfl)).view.set ((Memref.whole main_v1).slice (Rect.unit (s := S16384x1024) (k0_off3 c 5120#32) S1024x1024.size (k0_off3_inb c 5)) (fun _ => rfl)).view.set := dst_disjoint_own c 6 5 (by decide)
  have do7_0 : Disjoint ((Memref.whole main_v1).slice (Rect.unit (s := S16384x1024) (k0_off3 c 7168#32) S1024x1024.size (k0_off3_inb c 7)) (fun _ => rfl)).view.set ((Memref.whole main_v1).slice (Rect.unit (s := S16384x1024) (k0_off3 c 0#32) S1024x1024.size (k0_off3_inb c 0)) (fun _ => rfl)).view.set := dst_disjoint_own c 7 0 (by decide)
  have do7_1 : Disjoint ((Memref.whole main_v1).slice (Rect.unit (s := S16384x1024) (k0_off3 c 7168#32) S1024x1024.size (k0_off3_inb c 7)) (fun _ => rfl)).view.set ((Memref.whole main_v1).slice (Rect.unit (s := S16384x1024) (k0_off3 c 1024#32) S1024x1024.size (k0_off3_inb c 1)) (fun _ => rfl)).view.set := dst_disjoint_own c 7 1 (by decide)
  have do7_2 : Disjoint ((Memref.whole main_v1).slice (Rect.unit (s := S16384x1024) (k0_off3 c 7168#32) S1024x1024.size (k0_off3_inb c 7)) (fun _ => rfl)).view.set ((Memref.whole main_v1).slice (Rect.unit (s := S16384x1024) (k0_off3 c 2048#32) S1024x1024.size (k0_off3_inb c 2)) (fun _ => rfl)).view.set := dst_disjoint_own c 7 2 (by decide)
  have do7_3 : Disjoint ((Memref.whole main_v1).slice (Rect.unit (s := S16384x1024) (k0_off3 c 7168#32) S1024x1024.size (k0_off3_inb c 7)) (fun _ => rfl)).view.set ((Memref.whole main_v1).slice (Rect.unit (s := S16384x1024) (k0_off3 c 3072#32) S1024x1024.size (k0_off3_inb c 3)) (fun _ => rfl)).view.set := dst_disjoint_own c 7 3 (by decide)
  have do7_4 : Disjoint ((Memref.whole main_v1).slice (Rect.unit (s := S16384x1024) (k0_off3 c 7168#32) S1024x1024.size (k0_off3_inb c 7)) (fun _ => rfl)).view.set ((Memref.whole main_v1).slice (Rect.unit (s := S16384x1024) (k0_off3 c 4096#32) S1024x1024.size (k0_off3_inb c 4)) (fun _ => rfl)).view.set := dst_disjoint_own c 7 4 (by decide)
  have do7_5 : Disjoint ((Memref.whole main_v1).slice (Rect.unit (s := S16384x1024) (k0_off3 c 7168#32) S1024x1024.size (k0_off3_inb c 7)) (fun _ => rfl)).view.set ((Memref.whole main_v1).slice (Rect.unit (s := S16384x1024) (k0_off3 c 5120#32) S1024x1024.size (k0_off3_inb c 5)) (fun _ => rfl)).view.set := dst_disjoint_own c 7 5 (by decide)
  have do7_6 : Disjoint ((Memref.whole main_v1).slice (Rect.unit (s := S16384x1024) (k0_off3 c 7168#32) S1024x1024.size (k0_off3_inb c 7)) (fun _ => rfl)).view.set ((Memref.whole main_v1).slice (Rect.unit (s := S16384x1024) (k0_off3 c 6144#32) S1024x1024.size (k0_off3_inb c 6)) (fun _ => rfl)).view.set := dst_disjoint_own c 7 6 (by decide)
  have hmwb : (levAts L lv : sProp 𝕄) ⊢ MayWait (c : Thread nD τ) (.reg barS) () (owed0 c) := mayWait_below c _ (lv_bar c) (onlyRecv0 c)
  have hmw0_0 : (levAts L lv : sProp 𝕄) ⊢ MayWait (c : Thread nD τ) (.dma (0 : DmaSem sig)) () (owed0 c) := mayWait_below c _ (lv_local c _ (by decide)) (onlyRecv0 c)
  have hmw1_0 : (levAts L lv : sProp 𝕄) ⊢ MayWait (c : Thread nD τ) (.dma (1 : DmaSem sig)) () (owed0 c) := mayWait_below c _ (lv_local c _ (by decide)) (onlyRecv0 c)
  have hmw2_0 : (levAts L lv : sProp 𝕄) ⊢ MayWait (c : Thread nD τ) (.dma (2 : DmaSem sig)) () (owed0 c) := mayWait_below c _ (lv_local c _ (by decide)) (onlyRecv0 c)
  have hmw3_0 : (levAts L lv : sProp 𝕄) ⊢ MayWait (c : Thread nD τ) (.dma (3 : DmaSem sig)) () (owed0 c) := mayWait_below c _ (lv_local c _ (by decide)) (onlyRecv0 c)
  have hmw4_0 : (levAts L lv : sProp 𝕄) ⊢ MayWait (c : Thread nD τ) (.dma (4 : DmaSem sig)) () (owed0 c) := mayWait_below c _ (lv_local c _ (by decide)) (onlyRecv0 c)
  have hmw5_0 : (levAts L lv : sProp 𝕄) ⊢ MayWait (c : Thread nD τ) (.dma (5 : DmaSem sig)) () (owed0 c) := mayWait_below c _ (lv_local c _ (by decide)) (onlyRecv0 c)
  have hmw0_1 : (levAts L lv : sProp 𝕄) ⊢ MayWait (c : Thread nD τ) (.dma (0 : DmaSem sig)) () (owed1 c) := mayWait_below c _ (lv_local c _ (by decide)) (onlyRecv1 c)
  have hmw1_1 : (levAts L lv : sProp 𝕄) ⊢ MayWait (c : Thread nD τ) (.dma (1 : DmaSem sig)) () (owed1 c) := mayWait_below c _ (lv_local c _ (by decide)) (onlyRecv1 c)
  have hmw2_1 : (levAts L lv : sProp 𝕄) ⊢ MayWait (c : Thread nD τ) (.dma (2 : DmaSem sig)) () (owed1 c) := mayWait_below c _ (lv_local c _ (by decide)) (onlyRecv1 c)
  have hmw3_1 : (levAts L lv : sProp 𝕄) ⊢ MayWait (c : Thread nD τ) (.dma (3 : DmaSem sig)) () (owed1 c) := mayWait_below c _ (lv_local c _ (by decide)) (onlyRecv1 c)
  have hmw4_1 : (levAts L lv : sProp 𝕄) ⊢ MayWait (c : Thread nD τ) (.dma (4 : DmaSem sig)) () (owed1 c) := mayWait_below c _ (lv_local c _ (by decide)) (onlyRecv1 c)
  have hmw5_1 : (levAts L lv : sProp 𝕄) ⊢ MayWait (c : Thread nD τ) (.dma (5 : DmaSem sig)) () (owed1 c) := mayWait_below c _ (lv_local c _ (by decide)) (onlyRecv1 c)
  have hmw0_2 : (levAts L lv : sProp 𝕄) ⊢ MayWait (c : Thread nD τ) (.dma (0 : DmaSem sig)) () (owed2 c) := mayWait_below c _ (lv_local c _ (by decide)) (onlyRecv2 c)
  have hmw1_2 : (levAts L lv : sProp 𝕄) ⊢ MayWait (c : Thread nD τ) (.dma (1 : DmaSem sig)) () (owed2 c) := mayWait_below c _ (lv_local c _ (by decide)) (onlyRecv2 c)
  have hmw2_2 : (levAts L lv : sProp 𝕄) ⊢ MayWait (c : Thread nD τ) (.dma (2 : DmaSem sig)) () (owed2 c) := mayWait_below c _ (lv_local c _ (by decide)) (onlyRecv2 c)
  have hmw3_2 : (levAts L lv : sProp 𝕄) ⊢ MayWait (c : Thread nD τ) (.dma (3 : DmaSem sig)) () (owed2 c) := mayWait_below c _ (lv_local c _ (by decide)) (onlyRecv2 c)
  have hmw4_2 : (levAts L lv : sProp 𝕄) ⊢ MayWait (c : Thread nD τ) (.dma (4 : DmaSem sig)) () (owed2 c) := mayWait_below c _ (lv_local c _ (by decide)) (onlyRecv2 c)
  have hmw5_2 : (levAts L lv : sProp 𝕄) ⊢ MayWait (c : Thread nD τ) (.dma (5 : DmaSem sig)) () (owed2 c) := mayWait_below c _ (lv_local c _ (by decide)) (onlyRecv2 c)
  have hmw0_3 : (levAts L lv : sProp 𝕄) ⊢ MayWait (c : Thread nD τ) (.dma (0 : DmaSem sig)) () (owed3 c) := mayWait_below c _ (lv_local c _ (by decide)) (onlyRecv3 c)
  have hmw1_3 : (levAts L lv : sProp 𝕄) ⊢ MayWait (c : Thread nD τ) (.dma (1 : DmaSem sig)) () (owed3 c) := mayWait_below c _ (lv_local c _ (by decide)) (onlyRecv3 c)
  have hmw2_3 : (levAts L lv : sProp 𝕄) ⊢ MayWait (c : Thread nD τ) (.dma (2 : DmaSem sig)) () (owed3 c) := mayWait_below c _ (lv_local c _ (by decide)) (onlyRecv3 c)
  have hmw3_3 : (levAts L lv : sProp 𝕄) ⊢ MayWait (c : Thread nD τ) (.dma (3 : DmaSem sig)) () (owed3 c) := mayWait_below c _ (lv_local c _ (by decide)) (onlyRecv3 c)
  have hmw4_3 : (levAts L lv : sProp 𝕄) ⊢ MayWait (c : Thread nD τ) (.dma (4 : DmaSem sig)) () (owed3 c) := mayWait_below c _ (lv_local c _ (by decide)) (onlyRecv3 c)
  have hmw5_3 : (levAts L lv : sProp 𝕄) ⊢ MayWait (c : Thread nD τ) (.dma (5 : DmaSem sig)) () (owed3 c) := mayWait_below c _ (lv_local c _ (by decide)) (onlyRecv3 c)
  have hmw0_4 : (levAts L lv : sProp 𝕄) ⊢ MayWait (c : Thread nD τ) (.dma (0 : DmaSem sig)) () (owed4 c) := mayWait_below c _ (lv_local c _ (by decide)) (onlyRecv4 c)
  have hmw1_4 : (levAts L lv : sProp 𝕄) ⊢ MayWait (c : Thread nD τ) (.dma (1 : DmaSem sig)) () (owed4 c) := mayWait_below c _ (lv_local c _ (by decide)) (onlyRecv4 c)
  have hmw2_4 : (levAts L lv : sProp 𝕄) ⊢ MayWait (c : Thread nD τ) (.dma (2 : DmaSem sig)) () (owed4 c) := mayWait_below c _ (lv_local c _ (by decide)) (onlyRecv4 c)
  have hmw3_4 : (levAts L lv : sProp 𝕄) ⊢ MayWait (c : Thread nD τ) (.dma (3 : DmaSem sig)) () (owed4 c) := mayWait_below c _ (lv_local c _ (by decide)) (onlyRecv4 c)
  have hmw4_4 : (levAts L lv : sProp 𝕄) ⊢ MayWait (c : Thread nD τ) (.dma (4 : DmaSem sig)) () (owed4 c) := mayWait_below c _ (lv_local c _ (by decide)) (onlyRecv4 c)
  have hmw5_4 : (levAts L lv : sProp 𝕄) ⊢ MayWait (c : Thread nD τ) (.dma (5 : DmaSem sig)) () (owed4 c) := mayWait_below c _ (lv_local c _ (by decide)) (onlyRecv4 c)
  have hmw0_5 : (levAts L lv : sProp 𝕄) ⊢ MayWait (c : Thread nD τ) (.dma (0 : DmaSem sig)) () (owed5 c) := mayWait_below c _ (lv_local c _ (by decide)) (onlyRecv5 c)
  have hmw1_5 : (levAts L lv : sProp 𝕄) ⊢ MayWait (c : Thread nD τ) (.dma (1 : DmaSem sig)) () (owed5 c) := mayWait_below c _ (lv_local c _ (by decide)) (onlyRecv5 c)
  have hmw2_5 : (levAts L lv : sProp 𝕄) ⊢ MayWait (c : Thread nD τ) (.dma (2 : DmaSem sig)) () (owed5 c) := mayWait_below c _ (lv_local c _ (by decide)) (onlyRecv5 c)
  have hmw3_5 : (levAts L lv : sProp 𝕄) ⊢ MayWait (c : Thread nD τ) (.dma (3 : DmaSem sig)) () (owed5 c) := mayWait_below c _ (lv_local c _ (by decide)) (onlyRecv5 c)
  have hmw4_5 : (levAts L lv : sProp 𝕄) ⊢ MayWait (c : Thread nD τ) (.dma (4 : DmaSem sig)) () (owed5 c) := mayWait_below c _ (lv_local c _ (by decide)) (onlyRecv5 c)
  have hmw5_5 : (levAts L lv : sProp 𝕄) ⊢ MayWait (c : Thread nD τ) (.dma (5 : DmaSem sig)) () (owed5 c) := mayWait_below c _ (lv_local c _ (by decide)) (onlyRecv5 c)
  have hmw0_6 : (levAts L lv : sProp 𝕄) ⊢ MayWait (c : Thread nD τ) (.dma (0 : DmaSem sig)) () (owed6 c) := mayWait_below c _ (lv_local c _ (by decide)) (onlyRecv6 c)
  have hmw1_6 : (levAts L lv : sProp 𝕄) ⊢ MayWait (c : Thread nD τ) (.dma (1 : DmaSem sig)) () (owed6 c) := mayWait_below c _ (lv_local c _ (by decide)) (onlyRecv6 c)
  have hmw2_6 : (levAts L lv : sProp 𝕄) ⊢ MayWait (c : Thread nD τ) (.dma (2 : DmaSem sig)) () (owed6 c) := mayWait_below c _ (lv_local c _ (by decide)) (onlyRecv6 c)
  have hmw3_6 : (levAts L lv : sProp 𝕄) ⊢ MayWait (c : Thread nD τ) (.dma (3 : DmaSem sig)) () (owed6 c) := mayWait_below c _ (lv_local c _ (by decide)) (onlyRecv6 c)
  have hmw4_6 : (levAts L lv : sProp 𝕄) ⊢ MayWait (c : Thread nD τ) (.dma (4 : DmaSem sig)) () (owed6 c) := mayWait_below c _ (lv_local c _ (by decide)) (onlyRecv6 c)
  have hmw5_6 : (levAts L lv : sProp 𝕄) ⊢ MayWait (c : Thread nD τ) (.dma (5 : DmaSem sig)) () (owed6 c) := mayWait_below c _ (lv_local c _ (by decide)) (onlyRecv6 c)
  have hmw0_7 : (levAts L lv : sProp 𝕄) ⊢ MayWait (c : Thread nD τ) (.dma (0 : DmaSem sig)) () (owed7 c) := mayWait_below c _ (lv_local c _ (by decide)) (onlyRecv7 c)
  have hmw1_7 : (levAts L lv : sProp 𝕄) ⊢ MayWait (c : Thread nD τ) (.dma (1 : DmaSem sig)) () (owed7 c) := mayWait_below c _ (lv_local c _ (by decide)) (onlyRecv7 c)
  have hmw2_7 : (levAts L lv : sProp 𝕄) ⊢ MayWait (c : Thread nD τ) (.dma (2 : DmaSem sig)) () (owed7 c) := mayWait_below c _ (lv_local c _ (by decide)) (onlyRecv7 c)
  have hmw3_7 : (levAts L lv : sProp 𝕄) ⊢ MayWait (c : Thread nD τ) (.dma (3 : DmaSem sig)) () (owed7 c) := mayWait_below c _ (lv_local c _ (by decide)) (onlyRecv7 c)
  have hmw4_7 : (levAts L lv : sProp 𝕄) ⊢ MayWait (c : Thread nD τ) (.dma (4 : DmaSem sig)) () (owed7 c) := mayWait_below c _ (lv_local c _ (by decide)) (onlyRecv7 c)
  have hmw5_7 : (levAts L lv : sProp 𝕄) ⊢ MayWait (c : Thread nD τ) (.dma (5 : DmaSem sig)) () (owed7 c) := mayWait_below c _ (lv_local c _ (by decide)) (onlyRecv7 c)
  -- the rows the partner writes leave the result before the signal
  ihave Hsp := (out_split c _) $$ Ho
  icases Hsp with ⟨Ho, Hrows⟩
  set_option sl_exec.dmaWindow true in sl_exec
  unfold O₀
  iapply (Rounds.wp_signal 𝒱₀ ER (xRd m G) (c : Thread nD τ) none (dst := (peer c : Thread nD τ)) (κ := K (peer c, 0)) (d := ())
      (by rw [duties_bar]; exact Finset.mem_singleton_self _) ((amount_bar m G (peer c) ()).trans (by decide)) () (owed0 c) rfl) $$ [HO Htb Hrows]
  · isplitr; · iexact HIbp
    isplitl [HO]; · iexact HO
    isplitl [Htb]; · iexact Htb
    isplitl [Hrows]; · rw [payload_bar_peer]; iexact Hrows
    iexact Hrbp
  iintro HO
  set_option sl_exec.dmaWindow true in sl_exec
  unfold barPay
  icases Hab_pay1 with ⟨Hq0, Hq1, Hq2, Hq3, Hq4, Hq5, Hq6, Hq7⟩
  -- chunk 0: its rows of the staging buffer go to the transfer, the partner's rows 0 come back with receive cell 0
  ihave Hsp := (pointsTo_split_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![0, 0] S1024x1024.size inb_S8192x1024_S1024x1024_0_0) (fun _ => rfl)).view.set) (S := Finset.univ) (Finset.subset_univ _)).1 $$ Hsg
  icases Hsp with ⟨Hck0, Hsg⟩
  ihave Hq0 := (Entails.of_eq (rowsPts_peer c 0 _)) $$ Hq0
  iapply (wp_send_chunk m G c _ (dev2_eq c) 0 _ _ _ (owed0 c) (owed1 c) rfl (K (c, sIx 0)) (K (peer c, rIx 0)) ?hv0) $$ [Hck0 Hq0 HO Hts0 Htq0]
  swap
  · isplitr; · iexact HIs0
    isplitr; · iexact HIq0
    isplitl [Hck0]; · iexact Hck0
    isplitl [Hq0]; · iexact Hq0
    isplitl [HO]; · iexact HO
    isplitl [Hts0]; · iexact Hts0
    isplitr; · iexact Hrs0
    isplitl [Htq0]; · iexact Htq0
    iexact Hrq0
  · intro i hi
    exact (congrArg (fun b => View.write (Elt F) (dstM c 0).view _ b Finset.univ i) (carry0 c (m _) _ _ _)).trans (hland 0 _ i hi)
  iintro ⟨Hcs0, HO⟩
  set_option sl_exec.dmaWindow true in sl_exec
  -- chunk 1: its rows of the staging buffer go to the transfer, the partner's rows 1 come back with receive cell 1
  ihave Hsp := (pointsTo_split_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![1024, 0] S1024x1024.size inb_S8192x1024_S1024x1024_1024_0) (fun _ => rfl)).view.set) (S := (Finset.univ \ ((Memref.whole cc0_scratch2).slice (Rect.unit (s := S8192x1024) ![0, 0] S1024x1024.size inb_S8192x1024_S1024x1024_0_0) (fun _ => rfl)).view.set)) (Finset.subset_sdiff.mpr ⟨Finset.subset_univ _, stg_disjoint 1 0 (by decide)⟩)).1 $$ Hsg
  icases Hsp with ⟨Hck1, Hsg⟩
  ihave Hq1 := (Entails.of_eq (rowsPts_peer c 1 _)) $$ Hq1
  iapply (wp_send_chunk m G c _ (dev3_eq c) 1 _ _ _ (owed1 c) (owed2 c) rfl (K (c, sIx 1)) (K (peer c, rIx 1)) ?hv1) $$ [Hck1 Hq1 HO Hts1 Htq1]
  swap
  · isplitr; · iexact HIs1
    isplitr; · iexact HIq1
    isplitl [Hck1]; · iexact Hck1
    isplitl [Hq1]; · iexact Hq1
    isplitl [HO]; · iexact HO
    isplitl [Hts1]; · iexact Hts1
    isplitr; · iexact Hrs1
    isplitl [Htq1]; · iexact Htq1
    iexact Hrq1
  · intro i hi
    exact (congrArg (fun b => View.write (Elt F) (dstM c 1).view _ b Finset.univ i) (carry1 c (m _) _ _ _)).trans (hland 1 _ i hi)
  iintro ⟨Hcs1, HO⟩
  set_option sl_exec.dmaWindow true in sl_exec
  -- chunk 2: its rows of the staging buffer go to the transfer, the partner's rows 2 come back with receive cell 2
  ihave Hsp := (pointsTo_split_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![2048, 0] S1024x1024.size inb_S8192x1024_S1024x1024_2048_0) (fun _ => rfl)).view.set) (S := ((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set)) (Finset.subset_sdiff.mpr ⟨Finset.subset_sdiff.mpr ⟨Finset.subset_univ _, stg_disjoint 2 0 (by decide)⟩, stg_disjoint 2 1 (by decide)⟩)).1 $$ Hsg
  icases Hsp with ⟨Hck2, Hsg⟩
  ihave Hq2 := (Entails.of_eq (rowsPts_peer c 2 _)) $$ Hq2
  iapply (wp_send_chunk m G c _ (dev4_eq c) 2 _ _ _ (owed2 c) (owed3 c) rfl (K (c, sIx 2)) (K (peer c, rIx 2)) ?hv2) $$ [Hck2 Hq2 HO Hts2 Htq2]
  swap
  · isplitr; · iexact HIs2
    isplitr; · iexact HIq2
    isplitl [Hck2]; · iexact Hck2
    isplitl [Hq2]; · iexact Hq2
    isplitl [HO]; · iexact HO
    isplitl [Hts2]; · iexact Hts2
    isplitr; · iexact Hrs2
    isplitl [Htq2]; · iexact Htq2
    iexact Hrq2
  · intro i hi
    exact (congrArg (fun b => View.write (Elt F) (dstM c 2).view _ b Finset.univ i) (carry2 c (m _) _ _ _)).trans (hland 2 _ i hi)
  iintro ⟨Hcs2, HO⟩
  set_option sl_exec.dmaWindow true in sl_exec
  -- chunk 3: its rows of the staging buffer go to the transfer, the partner's rows 3 come back with receive cell 3
  ihave Hsp := (pointsTo_split_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![3072, 0] S1024x1024.size inb_S8192x1024_S1024x1024_3072_0) (fun _ => rfl)).view.set) (S := (((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set)) (Finset.subset_sdiff.mpr ⟨Finset.subset_sdiff.mpr ⟨Finset.subset_sdiff.mpr ⟨Finset.subset_univ _, stg_disjoint 3 0 (by decide)⟩, stg_disjoint 3 1 (by decide)⟩, stg_disjoint 3 2 (by decide)⟩)).1 $$ Hsg
  icases Hsp with ⟨Hck3, Hsg⟩
  ihave Hq3 := (Entails.of_eq (rowsPts_peer c 3 _)) $$ Hq3
  iapply (wp_send_chunk m G c _ (dev5_eq c) 3 _ _ _ (owed3 c) (owed4 c) rfl (K (c, sIx 3)) (K (peer c, rIx 3)) ?hv3) $$ [Hck3 Hq3 HO Hts3 Htq3]
  swap
  · isplitr; · iexact HIs3
    isplitr; · iexact HIq3
    isplitl [Hck3]; · iexact Hck3
    isplitl [Hq3]; · iexact Hq3
    isplitl [HO]; · iexact HO
    isplitl [Hts3]; · iexact Hts3
    isplitr; · iexact Hrs3
    isplitl [Htq3]; · iexact Htq3
    iexact Hrq3
  · intro i hi
    exact (congrArg (fun b => View.write (Elt F) (dstM c 3).view _ b Finset.univ i) (carry3 c (m _) _ _ _)).trans (hland 3 _ i hi)
  iintro ⟨Hcs3, HO⟩
  set_option sl_exec.dmaWindow true in sl_exec
  -- chunk 4: its rows of the staging buffer go to the transfer, the partner's rows 4 come back with receive cell 4
  ihave Hsp := (pointsTo_split_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![4096, 0] S1024x1024.size inb_S8192x1024_S1024x1024_4096_0) (fun _ => rfl)).view.set) (S := ((((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set) \ ((Memref.whole cc0_scratch2).slice (Rect.unit (s := S8192x1024) ![3072, 0] S1024x1024.size inb_S8192x1024_S1024x1024_3072_0) (fun _ => rfl)).view.set)) (Finset.subset_sdiff.mpr ⟨Finset.subset_sdiff.mpr ⟨Finset.subset_sdiff.mpr ⟨Finset.subset_sdiff.mpr ⟨Finset.subset_univ _, stg_disjoint 4 0 (by decide)⟩, stg_disjoint 4 1 (by decide)⟩, stg_disjoint 4 2 (by decide)⟩, stg_disjoint 4 3 (by decide)⟩)).1 $$ Hsg
  icases Hsp with ⟨Hck4, Hsg⟩
  ihave Hq4 := (Entails.of_eq (rowsPts_peer c 4 _)) $$ Hq4
  iapply (wp_send_chunk m G c _ (dev6_eq c) 4 _ _ _ (owed4 c) (owed5 c) rfl (K (c, sIx 4)) (K (peer c, rIx 4)) ?hv4) $$ [Hck4 Hq4 HO Hts4 Htq4]
  swap
  · isplitr; · iexact HIs4
    isplitr; · iexact HIq4
    isplitl [Hck4]; · iexact Hck4
    isplitl [Hq4]; · iexact Hq4
    isplitl [HO]; · iexact HO
    isplitl [Hts4]; · iexact Hts4
    isplitr; · iexact Hrs4
    isplitl [Htq4]; · iexact Htq4
    iexact Hrq4
  · intro i hi
    exact (congrArg (fun b => View.write (Elt F) (dstM c 4).view _ b Finset.univ i) (carry4 c (m _) _ _ _)).trans (hland 4 _ i hi)
  iintro ⟨Hcs4, HO⟩
  set_option sl_exec.dmaWindow true in sl_exec
  -- chunk 5: its rows of the staging buffer go to the transfer, the partner's rows 5 come back with receive cell 5
  ihave Hsp := (pointsTo_split_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![5120, 0] S1024x1024.size inb_S8192x1024_S1024x1024_5120_0) (fun _ => rfl)).view.set) (S := (((((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set) \ ((Memref.whole cc0_scratch2).slice (Rect.unit (s := S8192x1024) ![3072, 0] S1024x1024.size inb_S8192x1024_S1024x1024_3072_0) (fun _ => rfl)).view.set) \ ((Memref.whole cc0_scratch2).slice (Rect.unit (s := S8192x1024) ![4096, 0] S1024x1024.size inb_S8192x1024_S1024x1024_4096_0) (fun _ => rfl)).view.set)) (Finset.subset_sdiff.mpr ⟨Finset.subset_sdiff.mpr ⟨Finset.subset_sdiff.mpr ⟨Finset.subset_sdiff.mpr ⟨Finset.subset_sdiff.mpr ⟨Finset.subset_univ _, stg_disjoint 5 0 (by decide)⟩, stg_disjoint 5 1 (by decide)⟩, stg_disjoint 5 2 (by decide)⟩, stg_disjoint 5 3 (by decide)⟩, stg_disjoint 5 4 (by decide)⟩)).1 $$ Hsg
  icases Hsp with ⟨Hck5, Hsg⟩
  ihave Hq5 := (Entails.of_eq (rowsPts_peer c 5 _)) $$ Hq5
  iapply (wp_send_chunk m G c _ (dev7_eq c) 5 _ _ _ (owed5 c) (owed6 c) rfl (K (c, sIx 5)) (K (peer c, rIx 5)) ?hv5) $$ [Hck5 Hq5 HO Hts5 Htq5]
  swap
  · isplitr; · iexact HIs5
    isplitr; · iexact HIq5
    isplitl [Hck5]; · iexact Hck5
    isplitl [Hq5]; · iexact Hq5
    isplitl [HO]; · iexact HO
    isplitl [Hts5]; · iexact Hts5
    isplitr; · iexact Hrs5
    isplitl [Htq5]; · iexact Htq5
    iexact Hrq5
  · intro i hi
    exact (congrArg (fun b => View.write (Elt F) (dstM c 5).view _ b Finset.univ i) (carry5 c (m _) _ _ _)).trans (hland 5 _ i hi)
  iintro ⟨Hcs5, HO⟩
  set_option sl_exec.dmaWindow true in sl_exec
  -- chunk 6: its rows of the staging buffer go to the transfer, the partner's rows 6 come back with receive cell 6
  ihave Hsp := (pointsTo_split_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![6144, 0] S1024x1024.size inb_S8192x1024_S1024x1024_6144_0) (fun _ => rfl)).view.set) (S := ((((((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set) \ ((Memref.whole cc0_scratch2).slice (Rect.unit (s := S8192x1024) ![3072, 0] S1024x1024.size inb_S8192x1024_S1024x1024_3072_0) (fun _ => rfl)).view.set) \ ((Memref.whole cc0_scratch2).slice (Rect.unit (s := S8192x1024) ![4096, 0] S1024x1024.size inb_S8192x1024_S1024x1024_4096_0) (fun _ => rfl)).view.set) \ ((Memref.whole cc0_scratch2).slice (Rect.unit (s := S8192x1024) ![5120, 0] S1024x1024.size inb_S8192x1024_S1024x1024_5120_0) (fun _ => rfl)).view.set)) (Finset.subset_sdiff.mpr ⟨Finset.subset_sdiff.mpr ⟨Finset.subset_sdiff.mpr ⟨Finset.subset_sdiff.mpr ⟨Finset.subset_sdiff.mpr ⟨Finset.subset_sdiff.mpr ⟨Finset.subset_univ _, stg_disjoint 6 0 (by decide)⟩, stg_disjoint 6 1 (by decide)⟩, stg_disjoint 6 2 (by decide)⟩, stg_disjoint 6 3 (by decide)⟩, stg_disjoint 6 4 (by decide)⟩, stg_disjoint 6 5 (by decide)⟩)).1 $$ Hsg
  icases Hsp with ⟨Hck6, Hsg⟩
  ihave Hq6 := (Entails.of_eq (rowsPts_peer c 6 _)) $$ Hq6
  iapply (wp_send_chunk m G c _ (dev8_eq c) 6 _ _ _ (owed6 c) (owed7 c) rfl (K (c, sIx 6)) (K (peer c, rIx 6)) ?hv6) $$ [Hck6 Hq6 HO Hts6 Htq6]
  swap
  · isplitr; · iexact HIs6
    isplitr; · iexact HIq6
    isplitl [Hck6]; · iexact Hck6
    isplitl [Hq6]; · iexact Hq6
    isplitl [HO]; · iexact HO
    isplitl [Hts6]; · iexact Hts6
    isplitr; · iexact Hrs6
    isplitl [Htq6]; · iexact Htq6
    iexact Hrq6
  · intro i hi
    exact (congrArg (fun b => View.write (Elt F) (dstM c 6).view _ b Finset.univ i) (carry6 c (m _) _ _ _)).trans (hland 6 _ i hi)
  iintro ⟨Hcs6, HO⟩
  set_option sl_exec.dmaWindow true in sl_exec
  -- chunk 7: its rows of the staging buffer go to the transfer, the partner's rows 7 come back with receive cell 7
  ihave Hsp := (pointsTo_split_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![7168, 0] S1024x1024.size inb_S8192x1024_S1024x1024_7168_0) (fun _ => rfl)).view.set) (S := (((((((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set) \ ((Memref.whole cc0_scratch2).slice (Rect.unit (s := S8192x1024) ![3072, 0] S1024x1024.size inb_S8192x1024_S1024x1024_3072_0) (fun _ => rfl)).view.set) \ ((Memref.whole cc0_scratch2).slice (Rect.unit (s := S8192x1024) ![4096, 0] S1024x1024.size inb_S8192x1024_S1024x1024_4096_0) (fun _ => rfl)).view.set) \ ((Memref.whole cc0_scratch2).slice (Rect.unit (s := S8192x1024) ![5120, 0] S1024x1024.size inb_S8192x1024_S1024x1024_5120_0) (fun _ => rfl)).view.set) \ ((Memref.whole cc0_scratch2).slice (Rect.unit (s := S8192x1024) ![6144, 0] S1024x1024.size inb_S8192x1024_S1024x1024_6144_0) (fun _ => rfl)).view.set)) (Finset.subset_sdiff.mpr ⟨Finset.subset_sdiff.mpr ⟨Finset.subset_sdiff.mpr ⟨Finset.subset_sdiff.mpr ⟨Finset.subset_sdiff.mpr ⟨Finset.subset_sdiff.mpr ⟨Finset.subset_sdiff.mpr ⟨Finset.subset_univ _, stg_disjoint 7 0 (by decide)⟩, stg_disjoint 7 1 (by decide)⟩, stg_disjoint 7 2 (by decide)⟩, stg_disjoint 7 3 (by decide)⟩, stg_disjoint 7 4 (by decide)⟩, stg_disjoint 7 5 (by decide)⟩, stg_disjoint 7 6 (by decide)⟩)).1 $$ Hsg
  icases Hsp with ⟨Hck7, Hsg⟩
  ihave Hq7 := (Entails.of_eq (rowsPts_peer c 7 _)) $$ Hq7
  iapply (wp_send_chunk m G c _ (dev9_eq c) 7 _ _ _ (owed7 c) (0) rfl (K (c, sIx 7)) (K (peer c, rIx 7)) ?hv7) $$ [Hck7 Hq7 HO Hts7 Htq7]
  swap
  · isplitr; · iexact HIs7
    isplitr; · iexact HIq7
    isplitl [Hck7]; · iexact Hck7
    isplitl [Hq7]; · iexact Hq7
    isplitl [HO]; · iexact HO
    isplitl [Hts7]; · iexact Hts7
    isplitr; · iexact Hrs7
    isplitl [Htq7]; · iexact Htq7
    iexact Hrq7
  · intro i hi
    exact (congrArg (fun b => View.write (Elt F) (dstM c 7).view _ b Finset.univ i) (carry7 c (m _) _ _ _)).trans (hland 7 _ i hi)
  iintro ⟨Hcs7, HO⟩
  set_option sl_exec.dmaWindow true in sl_exec
  imod (Rounds.cell_close ER (xRd m G) (Set.mem_univ (K (c, sIx 0))) (fun h => h) (R := 0 + 1) (duties_later m G (sendCell c 0))) $$ [Has0] with Hzs0
  · isplitr; · iexact HIs0
    iexact Has0
  imod (Rounds.cell_close ER (xRd m G) (Set.mem_univ (K (c, rIx 0))) (fun h => h) (R := 0 + 1) (duties_later m G (recvCell c 0))) $$ [Har0] with Hzr0
  · isplitr; · iexact HIr0
    iexact Har0
  imod (Rounds.cell_close ER (xRd m G) (Set.mem_univ (K (c, sIx 1))) (fun h => h) (R := 0 + 1) (duties_later m G (sendCell c 1))) $$ [Has1] with Hzs1
  · isplitr; · iexact HIs1
    iexact Has1
  imod (Rounds.cell_close ER (xRd m G) (Set.mem_univ (K (c, rIx 1))) (fun h => h) (R := 0 + 1) (duties_later m G (recvCell c 1))) $$ [Har1] with Hzr1
  · isplitr; · iexact HIr1
    iexact Har1
  imod (Rounds.cell_close ER (xRd m G) (Set.mem_univ (K (c, sIx 2))) (fun h => h) (R := 0 + 1) (duties_later m G (sendCell c 2))) $$ [Has2] with Hzs2
  · isplitr; · iexact HIs2
    iexact Has2
  imod (Rounds.cell_close ER (xRd m G) (Set.mem_univ (K (c, rIx 2))) (fun h => h) (R := 0 + 1) (duties_later m G (recvCell c 2))) $$ [Har2] with Hzr2
  · isplitr; · iexact HIr2
    iexact Har2
  imod (Rounds.cell_close ER (xRd m G) (Set.mem_univ (K (c, sIx 3))) (fun h => h) (R := 0 + 1) (duties_later m G (sendCell c 3))) $$ [Has3] with Hzs3
  · isplitr; · iexact HIs3
    iexact Has3
  imod (Rounds.cell_close ER (xRd m G) (Set.mem_univ (K (c, rIx 3))) (fun h => h) (R := 0 + 1) (duties_later m G (recvCell c 3))) $$ [Har3] with Hzr3
  · isplitr; · iexact HIr3
    iexact Har3
  imod (Rounds.cell_close ER (xRd m G) (Set.mem_univ (K (c, sIx 4))) (fun h => h) (R := 0 + 1) (duties_later m G (sendCell c 4))) $$ [Has4] with Hzs4
  · isplitr; · iexact HIs4
    iexact Has4
  imod (Rounds.cell_close ER (xRd m G) (Set.mem_univ (K (c, rIx 4))) (fun h => h) (R := 0 + 1) (duties_later m G (recvCell c 4))) $$ [Har4] with Hzr4
  · isplitr; · iexact HIr4
    iexact Har4
  imod (Rounds.cell_close ER (xRd m G) (Set.mem_univ (K (c, sIx 5))) (fun h => h) (R := 0 + 1) (duties_later m G (sendCell c 5))) $$ [Has5] with Hzs5
  · isplitr; · iexact HIs5
    iexact Has5
  imod (Rounds.cell_close ER (xRd m G) (Set.mem_univ (K (c, rIx 5))) (fun h => h) (R := 0 + 1) (duties_later m G (recvCell c 5))) $$ [Har5] with Hzr5
  · isplitr; · iexact HIr5
    iexact Har5
  imod (Rounds.cell_close ER (xRd m G) (Set.mem_univ (K (c, sIx 6))) (fun h => h) (R := 0 + 1) (duties_later m G (sendCell c 6))) $$ [Has6] with Hzs6
  · isplitr; · iexact HIs6
    iexact Has6
  imod (Rounds.cell_close ER (xRd m G) (Set.mem_univ (K (c, rIx 6))) (fun h => h) (R := 0 + 1) (duties_later m G (recvCell c 6))) $$ [Har6] with Hzr6
  · isplitr; · iexact HIr6
    iexact Har6
  imod (Rounds.cell_close ER (xRd m G) (Set.mem_univ (K (c, sIx 7))) (fun h => h) (R := 0 + 1) (duties_later m G (sendCell c 7))) $$ [Has7] with Hzs7
  · isplitr; · iexact HIs7
    iexact Has7
  imod (Rounds.cell_close ER (xRd m G) (Set.mem_univ (K (c, rIx 7))) (fun h => h) (R := 0 + 1) (duties_later m G (recvCell c 7))) $$ [Har7] with Hzr7
  · isplitr; · iexact HIr7
    iexact Har7
  -- the staging buffer's chunks come back with the send cells' payloads and rejoin the rest
  unfold sendPay stgPts recvPay
  icases Has0_pay1 with ⟨%g0, Hck0⟩
  icases Has1_pay1 with ⟨%g1, Hck1⟩
  icases Has2_pay1 with ⟨%g2, Hck2⟩
  icases Has3_pay1 with ⟨%g3, Hck3⟩
  icases Has4_pay1 with ⟨%g4, Hck4⟩
  icases Has5_pay1 with ⟨%g5, Hck5⟩
  icases Has6_pay1 with ⟨%g6, Hck6⟩
  icases Has7_pay1 with ⟨%g7, Hck7⟩
  ihave Hsg := (pointsTo_join_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![7168, 0] S1024x1024.size inb_S8192x1024_S1024x1024_7168_0) (fun _ => rfl)).view.set) (S := (((((((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set) \ ((Memref.whole cc0_scratch2).slice (Rect.unit (s := S8192x1024) ![3072, 0] S1024x1024.size inb_S8192x1024_S1024x1024_3072_0) (fun _ => rfl)).view.set) \ ((Memref.whole cc0_scratch2).slice (Rect.unit (s := S8192x1024) ![4096, 0] S1024x1024.size inb_S8192x1024_S1024x1024_4096_0) (fun _ => rfl)).view.set) \ ((Memref.whole cc0_scratch2).slice (Rect.unit (s := S8192x1024) ![5120, 0] S1024x1024.size inb_S8192x1024_S1024x1024_5120_0) (fun _ => rfl)).view.set) \ ((Memref.whole cc0_scratch2).slice (Rect.unit (s := S8192x1024) ![6144, 0] S1024x1024.size inb_S8192x1024_S1024x1024_6144_0) (fun _ => rfl)).view.set)) (Finset.subset_sdiff.mpr ⟨Finset.subset_sdiff.mpr ⟨Finset.subset_sdiff.mpr ⟨Finset.subset_sdiff.mpr ⟨Finset.subset_sdiff.mpr ⟨Finset.subset_sdiff.mpr ⟨Finset.subset_sdiff.mpr ⟨Finset.subset_univ _, stg_disjoint 7 0 (by decide)⟩, stg_disjoint 7 1 (by decide)⟩, stg_disjoint 7 2 (by decide)⟩, stg_disjoint 7 3 (by decide)⟩, stg_disjoint 7 4 (by decide)⟩, stg_disjoint 7 5 (by decide)⟩, stg_disjoint 7 6 (by decide)⟩)) $$ [Hck7 Hsg]
  · isplitl [Hck7]; · iexact Hck7
    iexact Hsg
  ihave Hsg := (pointsTo_join_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![6144, 0] S1024x1024.size inb_S8192x1024_S1024x1024_6144_0) (fun _ => rfl)).view.set) (S := ((((((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set) \ ((Memref.whole cc0_scratch2).slice (Rect.unit (s := S8192x1024) ![3072, 0] S1024x1024.size inb_S8192x1024_S1024x1024_3072_0) (fun _ => rfl)).view.set) \ ((Memref.whole cc0_scratch2).slice (Rect.unit (s := S8192x1024) ![4096, 0] S1024x1024.size inb_S8192x1024_S1024x1024_4096_0) (fun _ => rfl)).view.set) \ ((Memref.whole cc0_scratch2).slice (Rect.unit (s := S8192x1024) ![5120, 0] S1024x1024.size inb_S8192x1024_S1024x1024_5120_0) (fun _ => rfl)).view.set)) (Finset.subset_sdiff.mpr ⟨Finset.subset_sdiff.mpr ⟨Finset.subset_sdiff.mpr ⟨Finset.subset_sdiff.mpr ⟨Finset.subset_sdiff.mpr ⟨Finset.subset_sdiff.mpr ⟨Finset.subset_univ _, stg_disjoint 6 0 (by decide)⟩, stg_disjoint 6 1 (by decide)⟩, stg_disjoint 6 2 (by decide)⟩, stg_disjoint 6 3 (by decide)⟩, stg_disjoint 6 4 (by decide)⟩, stg_disjoint 6 5 (by decide)⟩)) $$ [Hck6 Hsg]
  · isplitl [Hck6]; · iexact Hck6
    iexact Hsg
  ihave Hsg := (pointsTo_join_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![5120, 0] S1024x1024.size inb_S8192x1024_S1024x1024_5120_0) (fun _ => rfl)).view.set) (S := (((((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set) \ ((Memref.whole cc0_scratch2).slice (Rect.unit (s := S8192x1024) ![3072, 0] S1024x1024.size inb_S8192x1024_S1024x1024_3072_0) (fun _ => rfl)).view.set) \ ((Memref.whole cc0_scratch2).slice (Rect.unit (s := S8192x1024) ![4096, 0] S1024x1024.size inb_S8192x1024_S1024x1024_4096_0) (fun _ => rfl)).view.set)) (Finset.subset_sdiff.mpr ⟨Finset.subset_sdiff.mpr ⟨Finset.subset_sdiff.mpr ⟨Finset.subset_sdiff.mpr ⟨Finset.subset_sdiff.mpr ⟨Finset.subset_univ _, stg_disjoint 5 0 (by decide)⟩, stg_disjoint 5 1 (by decide)⟩, stg_disjoint 5 2 (by decide)⟩, stg_disjoint 5 3 (by decide)⟩, stg_disjoint 5 4 (by decide)⟩)) $$ [Hck5 Hsg]
  · isplitl [Hck5]; · iexact Hck5
    iexact Hsg
  ihave Hsg := (pointsTo_join_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![4096, 0] S1024x1024.size inb_S8192x1024_S1024x1024_4096_0) (fun _ => rfl)).view.set) (S := ((((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set) \ ((Memref.whole cc0_scratch2).slice (Rect.unit (s := S8192x1024) ![3072, 0] S1024x1024.size inb_S8192x1024_S1024x1024_3072_0) (fun _ => rfl)).view.set)) (Finset.subset_sdiff.mpr ⟨Finset.subset_sdiff.mpr ⟨Finset.subset_sdiff.mpr ⟨Finset.subset_sdiff.mpr ⟨Finset.subset_univ _, stg_disjoint 4 0 (by decide)⟩, stg_disjoint 4 1 (by decide)⟩, stg_disjoint 4 2 (by decide)⟩, stg_disjoint 4 3 (by decide)⟩)) $$ [Hck4 Hsg]
  · isplitl [Hck4]; · iexact Hck4
    iexact Hsg
  ihave Hsg := (pointsTo_join_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![3072, 0] S1024x1024.size inb_S8192x1024_S1024x1024_3072_0) (fun _ => rfl)).view.set) (S := (((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set) \ ((Memref.whole cc0_scratch2).slice (Rect.unit (s := S8192x1024) ![2048, 0] S1024x1024.size inb_S8192x1024_S1024x1024_2048_0) (fun _ => rfl)).view.set)) (Finset.subset_sdiff.mpr ⟨Finset.subset_sdiff.mpr ⟨Finset.subset_sdiff.mpr ⟨Finset.subset_univ _, stg_disjoint 3 0 (by decide)⟩, stg_disjoint 3 1 (by decide)⟩, stg_disjoint 3 2 (by decide)⟩)) $$ [Hck3 Hsg]
  · isplitl [Hck3]; · iexact Hck3
    iexact Hsg
  ihave Hsg := (pointsTo_join_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![2048, 0] S1024x1024.size inb_S8192x1024_S1024x1024_2048_0) (fun _ => rfl)).view.set) (S := ((Finset.univ \ ((Memref.whole cc0_scratch2).slice (Rect.unit (s := S8192x1024) ![0, 0] S1024x1024.size inb_S8192x1024_S1024x1024_0_0) (fun _ => rfl)).view.set) \ ((Memref.whole cc0_scratch2).slice (Rect.unit (s := S8192x1024) ![1024, 0] S1024x1024.size inb_S8192x1024_S1024x1024_1024_0) (fun _ => rfl)).view.set)) (Finset.subset_sdiff.mpr ⟨Finset.subset_sdiff.mpr ⟨Finset.subset_univ _, stg_disjoint 2 0 (by decide)⟩, stg_disjoint 2 1 (by decide)⟩)) $$ [Hck2 Hsg]
  · isplitl [Hck2]; · iexact Hck2
    iexact Hsg
  ihave Hsg := (pointsTo_join_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![1024, 0] S1024x1024.size inb_S8192x1024_S1024x1024_1024_0) (fun _ => rfl)).view.set) (S := (Finset.univ \ ((Memref.whole cc0_scratch2).slice (Rect.unit (s := S8192x1024) ![0, 0] S1024x1024.size inb_S8192x1024_S1024x1024_0_0) (fun _ => rfl)).view.set)) (Finset.subset_sdiff.mpr ⟨Finset.subset_univ _, stg_disjoint 1 0 (by decide)⟩)) $$ [Hck1 Hsg]
  · isplitl [Hck1]; · iexact Hck1
    iexact Hsg
  ihave Hsg := (pointsTo_join_subset (nD := nD) (τ := τ) (sig := sig) (Ix := Unit) (Val := Elt F) (Name := ℕ) (U := UU) (Lvl := ℕ) (ℓ := sgM.view.loc (c : Thread nD τ)) (q := fullShare) (I := ((Memref.whole cc0_scratch2).slice (Rect.unit (s := S8192x1024) ![0, 0] S1024x1024.size inb_S8192x1024_S1024x1024_0_0) (fun _ => rfl)).view.set) (S := Finset.univ) (Finset.subset_univ _)) $$ [Hck0 Hsg]
  · isplitl [Hck0]; · iexact Hck0
    iexact Hsg
  -- the device's own rows hold the eight blocks it kept; with the rows its partner wrote they are the whole result
  have hown' : ∀ i ∈ Finset.univ \ theirs c, sound_body.sl.Ho_w0 m c f1 f3 i = G c i := fun i hi =>
    (congrFun (show sound_body.sl.Ho_w0 m c f1 f3 = ownW m c 7 (ownW m c 6 (ownW m c 5 (ownW m c 4 (ownW m c 3 (ownW m c 2 (ownW m c 1 (ownW m c 0 (m _)))))))) from
      (ownW_congr m c 7 (ownW_congr m c 6 (ownW_congr m c 5 (ownW_congr m c 4 (ownW_congr m c 3 (ownW_congr m c 2 (ownW_congr m c 1 (ownW_congr m c 0 rfl (land0 c (m _) _ _ _ _)) (land1 c (m _) _ _ _ _)) (land2 c (m _) _ _ _ _)) (land3 c (m _) _ _ _ _)) (land4 c (m _) _ _ _ _)) (land5 c (m _) _ _ _ _)) (land6 c (m _) _ _ _ _)) (land7 c (m _) _ _ _))) i).trans (hown _ i hi)
  ihave Ho := (Entails.of_eq (pointsTo_congr hown')) $$ Ho
  ihave Ho := (out_join c (G c)) $$ [Ho Har0_pay1 Har1_pay1 Har2_pay1 Har3_pay1 Har4_pay1 Har5_pay1 Har6_pay1 Har7_pay1]
  · isplitl [Ho]; · iexact Ho
    isplitl [Har0_pay1]; · iexact Har0_pay1
    isplitl [Har1_pay1]; · iexact Har1_pay1
    isplitl [Har2_pay1]; · iexact Har2_pay1
    isplitl [Har3_pay1]; · iexact Har3_pay1
    isplitl [Har4_pay1]; · iexact Har4_pay1
    isplitl [Har5_pay1]; · iexact Har5_pay1
    isplitl [Har6_pay1]; · iexact Har6_pay1
    iexact Har7_pay1
  rw [wp_ret]; imodintro
  iapply Hk
  isplitr [HO]
  · unfold bodyPost scratches localSems
    isplitl [Hx]; · iexact Hx
    isplitl [Ho]; · iexact Ho
    isplitl [Hpf Hkf Hsg Hls]
    · isplitl [Hpf]; · iexists _; iexact Hpf
      isplitl [Hkf]; · iexists _; iexact Hkf
      isplitl [Hsg]; · iexists _; iexact Hsg
      iexists _; iexact Hls
    isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    isplitl [Hzs0 Hzs1 Hzs2 Hzs3 Hzs4 Hzs5 Hzs6 Hzs7]
    · isplitl [Hzs0]; · iexact Hzs0
      isplitl [Hzs1]; · iexact Hzs1
      isplitl [Hzs2]; · iexact Hzs2
      isplitl [Hzs3]; · iexact Hzs3
      isplitl [Hzs4]; · iexact Hzs4
      isplitl [Hzs5]; · iexact Hzs5
      isplitl [Hzs6]; · iexact Hzs6
      iexact Hzs7
    isplitl [Hzr0]; · iexact Hzr0
    isplitl [Hzr1]; · iexact Hzr1
    isplitl [Hzr2]; · iexact Hzr2
    isplitl [Hzr3]; · iexact Hzr3
    isplitl [Hzr4]; · iexact Hzr4
    isplitl [Hzr5]; · iexact Hzr5
    isplitl [Hzr6]; · iexact Hzr6
    iexact Hzr7
  · iexists _; iexact HO

/-- info: 'Cert.Kernel.Xchg.sound_body' depends on axioms: [propext, Classical.choice, Quot.sound] -/
#guard_msgs in #print axioms sound_body

end Cert.Kernel.Xchg

end
-- ==== Proof.Bits.Run.lean ====
/-
  The launch of the exchange: from the proof of one device's kernel body to the run of the whole program on the mesh.

  The program is one region with no staged window, so the pipeline's own part is empty: x and the result travel as the
  buffers no window stages, the four scratch buffers as the scoped buffers no window stages.  The exchange's cells are,
  per device, its barrier cell, its eight send cells and its eight receive cells; their ghost state is minted at launch,
  their invariants are allocated for all devices under one update, and the tokens of the duties a device's partner pays
  are handed across to the partner.
-/
import proofs.«900625_g7700000000000626_dist_a2a_v7x_xyz2x2x2_y_m8192_n1024_bf16_1_alg».proof.Proof.Bits.Inv
import proofs.«900625_g7700000000000626_dist_a2a_v7x_xyz2x2x2_y_m8192_n1024_bf16_1_alg».proof.Proof.Gen.Kernel.Launch
import proofs.«900625_g7700000000000626_dist_a2a_v7x_xyz2x2x2_y_m8192_n1024_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (G : (c : Dev nD) → OutBuf (F := F) c)

/-! ## The proof data of the region: no window, one point -/

/-- Before the point a device holds what its body starts from, at some names of the cells' invariants, and owes its
    launch dues; after it, what the body ends with, owing nothing. -/
def dats (_ : Fin 1) (c : Dev nD) : Dat τ (Elt F) Unit ℕ UU ℕ cfg0 c where
  A w := w.elim0
  after w _ := w.elim0
  Φ t := match t with
    | ⟨0, _⟩ => iprop(∃ K, bodyPre m G K c)
    | ⟨_ + 1, _⟩ => bodyPost m G c
  q _ := fullShare
  owed t := match t with
    | ⟨0, _⟩ => O₀ c
    | ⟨_ + 1, _⟩ => 0

omit [FloatOps F] in
/-- No window: the windows' share of any assertion is empty. -/
theorem bigSep_W0 (Φ : Fin cfg0.W → sProp 𝕄) : bigSep Finset.univ Φ = iprop(emp) := by
  rw [Finset.univ_eq_empty]; exact bigSep_empty

/-- The region's obligation on device c, from the proof of its body. -/
theorem body_obligation (hbody : ∀ (c : Dev nD) (K : Dev nD × Fin 17 → ℕ) (W : Waits sig Unit) (Kt : PUnit → sProp 𝕄),
      iprop(bodyPre m G K c ∗ owes (c : Thread nD τ) (O₀ c) W ∗ ((bodyPost m G c ∗ ∃ W', owes (c : Thread nD τ) 0 W') -∗ Kt ⟨⟩))
        ⊢ wp frame (wpE (defs₀ (F := F)) 𝒱₀ c none) Set.univ
            (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) Kt) (c : Dev nD) :
    BodyObligation (dats (F := F) m G 0 c) (defs₀ (F := F)) 𝒱₀ () Set.univ := fun t => by
  have ht := fin_N0 t
  subst ht
  rw [bigSep_W0, bigSep_W0]
  show iprop((∃ K, bodyPre m G K c) ∗ (dats m G 0 c).owesAt () t0_0.castSucc ∗ emp)
    ⊢ wp frame (wpE (defs₀ (F := F)) 𝒱₀ c none) Set.univ
      (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8)
      (fun _ => iprop(bodyPost m G c ∗ (dats m G 0 c).owesAt () t0_0.succ ∗ emp))
  unfold Dat.owesAt Pipeline.owesWithin
  rw [show (dats m G 0 c).owed t0_0.castSucc = O₀ c from rfl, show (dats m G 0 c).owed t0_0.succ = 0 from rfl]
  iintro ⟨⟨%K, Hpre⟩, ⟨%W, %hW, HO⟩, -⟩
  iapply (hbody c K W _)
  isplitl [Hpre]; · iexact Hpre
  isplitl [HO]; · iexact HO
  iintro ⟨Hpost, %W', HO'⟩
  isplitl [Hpost]; · iexact Hpost
  isplitl [HO']
  · iexists W'
    isplitr; · ipureintro; exact fun _ _ => Or.inl trivial
    iexact HO'
  · iempintro

/-! ## The exchange's cells at launch -/

/-- The kernel's own twenty-two semaphores: 0 … 5 the local transfers', 6 … 13 the send cells, 14 … 21 the receive cells. -/
abbrev osem : Fin 22 → SemLoc sig := fun j => .dma j

theorem ownSemFacts : Pipeline.OwnSemFacts cfg0.spec osem := by decide

theorem csem_injective : Function.Injective (csem : Fin 17 → SemLoc sig) := by decide

theorem kcell_injective : Function.Injective (kcell : Dev nD × Fin 17 → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_injective h2]

def ringCells : Finset (GSem nD τ sig) := Finset.univ.map ⟨kcell, kcell_injective⟩
def ringToks : Finset (GSem nD τ sig × ℕ × Unit) :=
  Finset.univ.map ⟨fun cj : Dev nD × Fin 17 => (kcell cj, 0, ()), fun _ _ h => kcell_injective (congrArg Prod.fst h)⟩

/-- The launch element: the pipeline's copy over no cell, the exchange's copy over its cells and their duties' tokens,
    the local transfers' counters untouched. -/
def u₀ : UU :=
  (initOf (Pipeline.cells cfgs cellOf_inj) (Pipeline.launchToks cfgs cellOf_inj), (initOf ringCells ringToks, 1))

/-- What the launch element deals device c: the round states, positions and reached-marks of its seventeen cells, and
    the tokens of their duties. -/
def GL (c : Dev nD) : sProp 𝕄 :=
  iprop((bigSep Finset.univ fun j : Fin 17 => roundState ER (xRd m G) (kcell (c, j)) 0)
    ∗ (bigSep Finset.univ fun j : Fin 17 => iprop(atPos ER (kcell (c, j)) 0 ∅ 0 ∗ reached ER (kcell (c, j)) 0))
    ∗ (bigSep Finset.univ fun j : Fin 17 => dutyTok ER (kcell (c, j)) 0 ()))

/-- What the global step makes of it: the ghost state the body starts from, and the local transfers' semaphores. -/
def GL' (c : Dev nD) : sProp 𝕄 := iprop((∃ K, ghost m G K c) ∗ localSems c)

omit [FloatOps F] in
theorem fund_ring : BI.own (ER (initOf ringCells ringToks)) ⊢ (|==> bigSep Finset.univ (GL m G) : sProp 𝕄) := by
  have hX (Φ : GSem nD τ sig → sProp 𝕄) : bigSep ringCells Φ = bigSep Finset.univ fun c : Dev nD => bigSep Finset.univ fun j : Fin 17 => Φ (kcell (c, j)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun j : Fin 17 => dutyTok ER (kcell (c, j)) 0 () := by
    unfold ringToks; rw [bigSep_map, bigSep_univ_prod]; rfl
  iintro HX
  imod (Rounds.fund ER (xRd m G) ringCells ringToks) $$ HX with ⟨Hst, Hr, Hat, Htok⟩
  imodintro
  ihave Hst' := (Entails.of_eq (hX fun g => roundState ER (xRd m G) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold GL; simp only [bigSep_sep']
  isplitl [Hst']; · iexact Hst'
  isplitl [Hat' Hr']
  · isplitl [Hat'] <;> iassumption
  iexact Htok'

/-! ### A device's seventeen cells, one by one -/

omit [FloatOps F] in
theorem bigSep_fin17 (Φ : Fin 17 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

omit [FloatOps F] in
/-- Anything held of each of a device's cells is held of its barrier cell, of its eight send cells and of its eight
    receive cells. -/
theorem cells17 (c : Dev nD) (Φ : GSem nD τ sig → sProp 𝕄) :
    (bigSep Finset.univ fun j : Fin 17 => Φ (kcell (c, j)))
      = iprop(Φ (barCell c) ∗ sep8 (fun k => Φ (sendCell c k)) ∗ sep8 (fun k => Φ (recvCell c k))) := by
  rw [bigSep_fin17]
  rw [show kcell (c, 0) = barCell c from rfl,
    show kcell (c, 1) = sendCell c 0 from rfl, show kcell (c, 2) = sendCell c 1 from rfl, show kcell (c, 3) = sendCell c 2 from rfl, show kcell (c, 4) = sendCell c 3 from rfl, show kcell (c, 5) = sendCell c 4 from rfl, show kcell (c, 6) = sendCell c 5 from rfl, show kcell (c, 7) = sendCell c 6 from rfl, show kcell (c, 8) = sendCell c 7 from rfl,
    show kcell (c, 9) = recvCell c 0 from rfl, show kcell (c, 10) = recvCell c 1 from rfl, show kcell (c, 11) = recvCell c 2 from rfl, show kcell (c, 12) = recvCell c 3 from rfl, show kcell (c, 13) = recvCell c 4 from rfl, show kcell (c, 14) = recvCell c 5 from rfl, show kcell (c, 15) = recvCell c 6 from rfl, show kcell (c, 16) = recvCell c 7 from rfl]
  refine BI.Entails.antisymm (show _ ⊢ (_ : sProp 𝕄) from ?_) (show _ ⊢ (_ : sProp 𝕄) from ?_)
  · iintro ⟨H0, H1, H2, H3, H4, H5, H6, H7, H8, H9, H10, H11, H12, H13, H14, H15, H16⟩
    isplitl [H0]; · iexact H0
    isplitl [H1 H2 H3 H4 H5 H6 H7 H8]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
  · iintro ⟨H0, ⟨H1, H2, H3, H4, H5, H6, H7, H8⟩, H9, H10, H11, H12, H13, H14, H15, H16⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

omit [FloatOps F] in
/-- The runtime's barrier semaphore is the core's one semaphore no region scopes. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma (0 : DmaSem sig)) 0
      ∗ semVal ((c : Thread nD τ), SemLoc.dma (1 : DmaSem sig)) 0
      ∗ semVal ((c : Thread nD τ), SemLoc.dma (2 : DmaSem sig)) 0
      ∗ semVal ((c : Thread nD τ), SemLoc.dma (3 : DmaSem sig)) 0
      ∗ semVal ((c : Thread nD τ), SemLoc.dma (4 : DmaSem sig)) 0
      ∗ semVal ((c : Thread nD τ), SemLoc.dma (5 : DmaSem sig)) 0
      ∗ semVal ((c : Thread nD τ), SemLoc.dma (6 : DmaSem sig)) 0
      ∗ semVal ((c : Thread nD τ), SemLoc.dma (7 : DmaSem sig)) 0
      ∗ semVal ((c : Thread nD τ), SemLoc.dma (8 : DmaSem sig)) 0
      ∗ semVal ((c : Thread nD τ), SemLoc.dma (9 : DmaSem sig)) 0
      ∗ semVal ((c : Thread nD τ), SemLoc.dma (10 : DmaSem sig)) 0
      ∗ semVal ((c : Thread nD τ), SemLoc.dma (11 : DmaSem sig)) 0
      ∗ semVal ((c : Thread nD τ), SemLoc.dma (12 : DmaSem sig)) 0
      ∗ semVal ((c : Thread nD τ), SemLoc.dma (13 : DmaSem sig)) 0
      ∗ semVal ((c : Thread nD τ), SemLoc.dma (14 : DmaSem sig)) 0
      ∗ semVal ((c : Thread nD τ), SemLoc.dma (15 : DmaSem sig)) 0
      ∗ semVal ((c : Thread nD τ), SemLoc.dma (16 : DmaSem sig)) 0
      ∗ semVal ((c : Thread nD τ), SemLoc.dma (17 : DmaSem sig)) 0
      ∗ semVal ((c : Thread nD τ), SemLoc.dma (18 : DmaSem sig)) 0
      ∗ semVal ((c : Thread nD τ), SemLoc.dma (19 : DmaSem sig)) 0
      ∗ semVal ((c : Thread nD τ), SemLoc.dma (20 : DmaSem sig)) 0
      ∗ semVal ((c : Thread nD τ), SemLoc.dma (21 : DmaSem sig)) 0) := by
  rw [Pipeline.ownSems0_eq_of_list c osem [0, 1, 2, 3, 4, 5, 6, 7, 8, 9, 10, 11, 12, 13, 14, 15, 16, 17, 18, 19, 20, 21] (by decide) (by decide)]; rfl

omit [FloatOps F] in
/-- A device's semaphores at zero: those of its seventeen cells, and the local transfers' six. -/
theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun j : Fin 17 => semVal (kcell (c, j)) 0) ∗ localSems c) : sProp 𝕄) := by
  rw [ownSems0_eq, unscopedSems0_eq, bigSep_fin17]
  iintro ⟨⟨H0, H1, H2, H3, H4, H5, H6, H7, H8, H9, H10, H11, H12, H13, H14, H15, H16, H17, H18, H19, H20, H21⟩, HB⟩
  isplitr [H0 H1 H2 H3 H4 H5]
  · isplitl [HB]; · iexact HB
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · isplitl [H0]; · iexact H0
    isplitl [H1]; · iexact H1
    isplitl [H2]; · iexact H2
    isplitl [H3]; · iexact H3
    isplitl [H4]; · iexact H4
    iexact H5

omit [FloatOps F] in
/-- On one device: the cells' invariants allocated from their counters at zero and their round states. -/
theorem core_alloc (c : Dev nD) :
    iprop(Pipeline.ownSems0 (Ix := Unit) (Name := ℕ) (U := UU) (Lvl := ℕ) (Val := Elt F) (τ := τ) osem c ∗ unscopedSems0 c ∗ GL m G c)
      ⊢ |={Set.univ}=> iprop((bigSep Finset.univ fun j : Fin 17 => iprop(∃ κ : ℕ, cellInv ER (xRd m G) κ (kcell (c, j))))
          ∗ (bigSep Finset.univ fun j : Fin 17 => iprop(atPos ER (kcell (c, j)) 0 ∅ 0 ∗ reached ER (kcell (c, j)) 0))
          ∗ (bigSep Finset.univ fun j : Fin 17 => dutyTok ER (kcell (c, j)) 0 ()) ∗ localSems c) := by
  unfold GL
  iintro ⟨Hos, Hus, Hst, Hat, Htok⟩
  ihave Hv := (sems0_split (F := F) c) $$ [Hos Hus]
  · isplitl [Hos] <;> iassumption
  icases Hv with ⟨Hv, Hls⟩
  imod (show iprop((bigSep Finset.univ fun j : Fin 17 => semVal (kcell (c, j)) 0) ∗ bigSep Finset.univ fun j : Fin 17 => roundState ER (xRd m G) (kcell (c, j)) 0)
      ⊢ (|={Set.univ}=> bigSep Finset.univ fun j : Fin 17 => iprop(∃ κ : ℕ, cellInv ER (xRd m G) κ (kcell (c, j))) : sProp 𝕄) from by
        rw [← bigSep_sep']
        exact (bigSep_mono fun j _ => (Rounds.body_intro ER (xRd m G) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hls

/-- Every cell's invariant at its name, and round 0 of every cell reached: what all devices share. -/
def records (K : Dev nD × Fin 17 → ℕ) : sProp 𝕄 :=
  iprop((bigSep Finset.univ fun cj : Dev nD × Fin 17 => cellInv ER (xRd m G) (K cj) (kcell cj))
    ∗ bigSep Finset.univ fun cj : Dev nD × Fin 17 => reached ER (kcell cj) 0)

instance records_persistent (K : Dev nD × Fin 17 → ℕ) : BI.Persistent (records m G K) := by unfold records; infer_instance

omit [FloatOps F] in
theorem inv_at (K : Dev nD × Fin 17 → ℕ) (cj : Dev nD × Fin 17) :
    (bigSep Finset.univ fun cj : Dev nD × Fin 17 => (cellInv ER (xRd m G) (K cj) (kcell cj) : sProp 𝕄)) ⊢ cellInv ER (xRd m G) (K cj) (kcell cj) :=
  bigSep_elim (Finset.mem_univ cj)
omit [FloatOps F] in
theorem reached_at (cj : Dev nD × Fin 17) :
    (bigSep Finset.univ fun cj : Dev nD × Fin 17 => (reached ER (kcell cj) 0 : sProp 𝕄)) ⊢ reached ER (kcell cj) 0 :=
  bigSep_elim (Finset.mem_univ cj)

/-- The tokens of a device's own cells, by kind. -/
def tokB (c : Dev nD) : sProp 𝕄 := dutyTok ER (barCell c) 0 ()
def tokS (c : Dev nD) : sProp 𝕄 := sep8 (fun k => dutyTok ER (sendCell c k) 0 ())
def tokR (c : Dev nD) : sProp 𝕄 := sep8 (fun k => dutyTok ER (recvCell c k) 0 ())

/-- The tokens of the duties a device PAYS: its partner's barrier duty, its partner's receive duties, its own send duties. -/
def payToks (c : Dev nD) : sProp 𝕄 := iprop(tokB (peer c) ∗ tokR (peer c) ∗ tokS c)

/-- What stays with one device: its positions, the tokens it pays with, the local transfers' semaphores. -/
def linear (c : Dev nD) : sProp 𝕄 :=
  iprop((bigSep Finset.univ fun j : Fin 17 => atPos ER (kcell (c, j)) 0 ∅ 0) ∗ payToks c ∗ localSems c)

omit [FloatOps F] in
theorem ghost_intro (K : Dev nD × Fin 17 → ℕ) (c : Dev nD) : iprop(records m G K ∗ linear c) ⊢ GL' m G c := by
  unfold records linear payToks tokB tokS tokR GL' ghost invs
  rw [cells17 c (fun g => (atPos ER g 0 ∅ 0 : sProp 𝕄))]
  iintro ⟨⟨#HI, #HR⟩, ⟨HaB, HaS, HaR⟩, ⟨HtB, HtR, HtS⟩, Hls⟩
  isplitr [Hls]
  · iexists K
    isplitr
    · isplitr; · iapply (inv_at m G K (c, 0)); iexact HI
      isplitr; · iapply (inv_at m G K (peer c, 0)); iexact HI
      isplitr
      · isplitr; · iapply (inv_at m G K (c, sIx 0)); iexact HI
        isplitr; · iapply (inv_at m G K (c, sIx 1)); iexact HI
        isplitr; · iapply (inv_at m G K (c, sIx 2)); iexact HI
        isplitr; · iapply (inv_at m G K (c, sIx 3)); iexact HI
        isplitr; · iapply (inv_at m G K (c, sIx 4)); iexact HI
        isplitr; · iapply (inv_at m G K (c, sIx 5)); iexact HI
        isplitr; · iapply (inv_at m G K (c, sIx 6)); iexact HI
        iapply (inv_at m G K (c, sIx 7)); iexact HI
      isplitr
      · isplitr; · iapply (inv_at m G K (c, rIx 0)); iexact HI
        isplitr; · iapply (inv_at m G K (c, rIx 1)); iexact HI
        isplitr; · iapply (inv_at m G K (c, rIx 2)); iexact HI
        isplitr; · iapply (inv_at m G K (c, rIx 3)); iexact HI
        isplitr; · iapply (inv_at m G K (c, rIx 4)); iexact HI
        isplitr; · iapply (inv_at m G K (c, rIx 5)); iexact HI
        isplitr; · iapply (inv_at m G K (c, rIx 6)); iexact HI
        iapply (inv_at m G K (c, rIx 7)); iexact HI
      · isplitr; · iapply (inv_at m G K (peer c, rIx 0)); iexact HI
        isplitr; · iapply (inv_at m G K (peer c, rIx 1)); iexact HI
        isplitr; · iapply (inv_at m G K (peer c, rIx 2)); iexact HI
        isplitr; · iapply (inv_at m G K (peer c, rIx 3)); iexact HI
        isplitr; · iapply (inv_at m G K (peer c, rIx 4)); iexact HI
        isplitr; · iapply (inv_at m G K (peer c, rIx 5)); iexact HI
        isplitr; · iapply (inv_at m G K (peer c, rIx 6)); iexact HI
        iapply (inv_at m G K (peer c, rIx 7)); iexact HI
    isplitl [HaB]; · iexact HaB
    isplitl [HaS]; · iexact HaS
    isplitl [HaR]; · iexact HaR
    isplitr; · iapply (reached_at (F := F) (peer c, 0)); iexact HR
    isplitr
    · isplitr; · iapply (reached_at (F := F) (peer c, rIx 0)); iexact HR
      isplitr; · iapply (reached_at (F := F) (peer c, rIx 1)); iexact HR
      isplitr; · iapply (reached_at (F := F) (peer c, rIx 2)); iexact HR
      isplitr; · iapply (reached_at (F := F) (peer c, rIx 3)); iexact HR
      isplitr; · iapply (reached_at (F := F) (peer c, rIx 4)); iexact HR
      isplitr; · iapply (reached_at (F := F) (peer c, rIx 5)); iexact HR
      isplitr; · iapply (reached_at (F := F) (peer c, rIx 6)); iexact HR
      iapply (reached_at (F := F) (peer c, rIx 7)); iexact HR
    isplitr
    · isplitr; · iapply (reached_at (F := F) (c, sIx 0)); iexact HR
      isplitr; · iapply (reached_at (F := F) (c, sIx 1)); iexact HR
      isplitr; · iapply (reached_at (F := F) (c, sIx 2)); iexact HR
      isplitr; · iapply (reached_at (F := F) (c, sIx 3)); iexact HR
      isplitr; · iapply (reached_at (F := F) (c, sIx 4)); iexact HR
      isplitr; · iapply (reached_at (F := F) (c, sIx 5)); iexact HR
      isplitr; · iapply (reached_at (F := F) (c, sIx 6)); iexact HR
      iapply (reached_at (F := F) (c, sIx 7)); iexact HR
    isplitl [HtB]; · iexact HtB
    isplitl [HtR]; · iexact HtR
    iexact HtS
  · iexact Hls

omit [FloatOps F] in
/-- The barrier token and the receive tokens change hands across each pair of partners; the send tokens stay. -/
theorem toks_around :
    (bigSep Finset.univ fun c : Dev nD => (bigSep Finset.univ fun j : Fin 17 => dutyTok ER (kcell (c, j)) 0 () : sProp 𝕄))
      ⊢ bigSep Finset.univ fun c : Dev nD => payToks c := by
  have e (c : Dev nD) : (bigSep Finset.univ fun j : Fin 17 => (dutyTok ER (kcell (c, j)) 0 () : sProp 𝕄)) = iprop(tokB c ∗ tokS c ∗ tokR c) :=
    cells17 c (fun g => (dutyTok ER g 0 () : sProp 𝕄))
  rw [bigSep_congr (s := Finset.univ) (fun (c : Dev nD) _ => e c)]
  unfold payToks
  rw [bigSep_sep', bigSep_sep', bigSep_sep', bigSep_sep',
    bigSep_univ_equiv swap (fun c : Dev nD => (tokB c : sProp 𝕄)), bigSep_univ_equiv swap (fun c : Dev nD => (tokR c : sProp 𝕄))]
  iintro ⟨HB, HS, HR⟩
  isplitl [HB]; · iexact HB
  isplitl [HR]; · iexact HR
  iexact HS

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- All devices' allocations regrouped: the invariants' names gathered into one function, the shared records made, the
    tokens handed to their payers, and each device given its ghost state. -/
theorem regroup :
    (bigSep Finset.univ fun c : Dev nD => iprop((bigSep Finset.univ fun j : Fin 17 => iprop(∃ κ : ℕ, cellInv ER (xRd m G) κ (kcell (c, j))))
          ∗ (bigSep Finset.univ fun j : Fin 17 => iprop(atPos ER (kcell (c, j)) 0 ∅ 0 ∗ reached ER (kcell (c, j)) 0))
          ∗ (bigSep Finset.univ fun j : Fin 17 => dutyTok ER (kcell (c, j)) 0 ()) ∗ localSems c) : sProp 𝕄)
      ⊢ bigSep Finset.univ (GL' m G) := by
  rw [bigSep_sep', bigSep_sep', bigSep_sep', ← bigSep_univ_prod (fun cj : Dev nD × Fin 17 => iprop(∃ κ : ℕ, cellInv ER (xRd m G) κ (kcell cj))),
    bigSep_congr (s := Finset.univ) (fun (c : Dev nD) _ => bigSep_sep' Finset.univ (fun j : Fin 17 => (atPos ER (kcell (c, j)) 0 ∅ 0 : sProp 𝕄)) (fun j => reached ER (kcell (c, j)) 0)),
    bigSep_sep', ← bigSep_univ_prod (fun cj : Dev nD × Fin 17 => (reached ER (kcell cj) 0 : sProp 𝕄))]
  iintro ⟨HI, ⟨Hat, #HR⟩, Htok, Hls⟩
  ihave HK := (BI.bigSep_exists_pi Finset.univ (fun (cj : Dev nD × Fin 17) (κ : ℕ) => (cellInv ER (xRd m G) κ (kcell cj) : sProp 𝕄))) $$ HI
  icases HK with ⟨%K, #HI⟩
  ihave Htk := (toks_around (F := F)) $$ Htok
  iapply (bigSep_with_persistent (R := records m G K) fun c _ => ghost_intro m G K c)
  isplitr
  · unfold records; isplitl; · iexact HI
    iexact HR
  · iapply ((Entails.of_eq (bigSep_sep' Finset.univ (fun c : Dev nD => bigSep Finset.univ fun j : Fin 17 => (atPos ER (kcell (c, j)) 0 ∅ 0 : sProp 𝕄))
        (fun c : Dev nD => iprop(payToks c ∗ localSems c))).symm).trans
      (bigSep_mono fun c _ => show _ ⊢ linear c from Entails.of_eq (by unfold linear; rfl)))
    isplitl [Hat]; · iexact Hat
    iapply (Entails.of_eq (bigSep_sep' Finset.univ (fun c : Dev nD => (payToks c : sProp 𝕄)) (fun c : Dev nD => localSems c)).symm)
    isplitl [Htk]; · iexact Htk
    iexact Hls

omit [FloatOps F] in
/-- The global step: every device's own semaphores and its barrier semaphore, with what the launch element dealt it. -/
theorem glob : (bigSep Finset.univ fun c => iprop(Pipeline.ownSems0 (Ix := Unit) (Name := ℕ) (U := UU) (Lvl := ℕ) (Val := Elt F) (τ := τ) osem c ∗ unscopedSems0 c ∗ GL m G c) : sProp 𝕄)
    ⊢ |={Set.univ}=> bigSep Finset.univ (GL' m G) :=
  ((bigSep_mono fun c _ => core_alloc m G c).trans (bigSep_fupd _ _)).trans (BI.fupd_mono (regroup m G))

/-! ### The launch credit -/

omit [FloatOps F] in
/-- What its partner owes a device's cells at launch comes to the device as credit: one unit on its barrier cell, one
    chunk's credit on each receive cell. -/
theorem creds (c : Dev nD) :
    (Pipeline.launchCred O₀ c : sProp 𝕄) ⊢ iprop(cred (tallyAt (barCell c) () 1) ∗ sep8 (fun k => cred (tallyAt (recvCell c k) () N))) := by
  have hb : (Pipeline.launchCred (fun d : Dev nD => tallyAt (barCell (peer d)) () 1) c : sProp 𝕄) ⊢ cred (tallyAt (barCell c) () 1) :=
    Pipeline.launchCred_tallyAt (SemLoc.reg barS) peer peer peer_peer peer_peer () 1 c
  have hr (k : Fin 8) : (Pipeline.launchCred (fun d : Dev nD => tRecv d k) c : sProp 𝕄) ⊢ cred (tallyAt (recvCell c k) () N) :=
    Pipeline.launchCred_tallyAt (SemLoc.dma (recvS k)) peer peer peer_peer peer_peer () N c
  show (Pipeline.launchCred (fun d => owed0 d + tallyAt (barCell (peer d)) () 1) c : sProp 𝕄) ⊢ _
  rw [Pipeline.launchCred_add]
  rw [show (owed0 : Dev nD → CellTallies nD τ sig Unit) = fun d => owed1 d + tRecv d 0 from rfl, Pipeline.launchCred_add]
  rw [show (owed1 : Dev nD → CellTallies nD τ sig Unit) = fun d => owed2 d + tRecv d 1 from rfl, Pipeline.launchCred_add]
  rw [show (owed2 : Dev nD → CellTallies nD τ sig Unit) = fun d => owed3 d + tRecv d 2 from rfl, Pipeline.launchCred_add]
  rw [show (owed3 : Dev nD → CellTallies nD τ sig Unit) = fun d => owed4 d + tRecv d 3 from rfl, Pipeline.launchCred_add]
  rw [show (owed4 : Dev nD → CellTallies nD τ sig Unit) = fun d => owed5 d + tRecv d 4 from rfl, Pipeline.launchCred_add]
  rw [show (owed5 : Dev nD → CellTallies nD τ sig Unit) = fun d => owed6 d + tRecv d 5 from rfl, Pipeline.launchCred_add]
  rw [show (owed6 : Dev nD → CellTallies nD τ sig Unit) = fun d => owed7 d + tRecv d 6 from rfl, Pipeline.launchCred_add]
  rw [show (owed7 : Dev nD → CellTallies nD τ sig Unit) = fun d => (fun _ : Dev nD => (0 : CellTallies nD τ sig Unit)) d + tRecv d 7 from rfl, Pipeline.launchCred_add]
  iintro ⟨⟨⟨⟨⟨⟨⟨⟨⟨-, H7⟩, H6⟩, H5⟩, H4⟩, H3⟩, H2⟩, H1⟩, H0⟩, HB⟩
  isplitl [HB]; · iapply (hb); iexact HB
  isplitl [H0]; · iapply (hr 0); iexact H0
  isplitl [H1]; · iapply (hr 1); iexact H1
  isplitl [H2]; · iapply (hr 2); iexact H2
  isplitl [H3]; · iapply (hr 3); iexact H3
  isplitl [H4]; · iapply (hr 4); iexact H4
  isplitl [H5]; · iapply (hr 5); iexact H5
  isplitl [H6]; · iapply (hr 6); iexact H6
  iapply (hr 7); iexact H7

/-! ### The theorem's side conditions -/

/-- What a device routes into the region: everything its body starts from but the scratch buffers. -/
def X (c : Dev nD) : sProp 𝕄 :=
  iprop(∃ K, ghost m G K c ∗ cred (tallyAt (barCell c) () 1) ∗ sep8 (fun k => cred (tallyAt (recvCell c k) () N)) ∗ levAts L lv
    ∗ localSems c
    ∗ (xM.view.loc (c : Thread nD τ) ↦{fullShare} m _) ∗ (oM.view.loc (c : Thread nD τ) ↦{fullShare} m _))

/-- What it takes out of it: x as launched, the result at its expected contents. -/
def Y (c : Dev nD) : sProp 𝕄 :=
  iprop((xM.view.loc (c : Thread nD τ) ↦{fullShare} m _) ∗ (oM.view.loc (c : Thread nD τ) ↦{fullShare} G c))

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ GL' m G c)
      ⊢ |={Set.univ}=> iprop(X m G c ∗ emp) := by
  rw [Pipeline.unscopedRestP_none, unscopedRest0_eq]
  unfold GL' X
  iintro ⟨⟨Hx, Ho⟩, Hlev, Hcr, -, ⟨%K, Hg⟩, Hls⟩
  ihave Hc := (creds (F := F) c) $$ Hcr
  icases Hc with ⟨H1, HN⟩
  imodintro
  isplitl
  · iexists K
    isplitl [Hg]; · iexact Hg
    isplitl [H1]; · iexact H1
    isplitl [HN]; · iexact HN
    isplitl [Hlev]; · iexact Hlev
    isplitl [Hls]; · iexact Hls
    isplitl [Hx]; · iexact Hx
    iexact Ho
  · iempintro

theorem phi0_intro (c : Dev nD) :
    iprop(X m G c ∗ Pipeline.prefHeld Pipeline.Prefetch.none c (fun _ => fullShare.right) (fun k => k.elim0) ∗ Pipeline.scopedRest cfg0.spec c)
      ⊢ (dats m G 0 c).Φ 0 := by
  rw [show (dats m G 0 c).Φ 0 = iprop(∃ K, bodyPre m G K c) from rfl, scopedRest0_eq]
  unfold X bodyPre
  iintro ⟨⟨%K, Hg, Hcb, Hcr, Hlev, Hls, Hx, Ho⟩, -, Hsc⟩
  iexists K
  isplitl [Hg]; · iexact Hg
  isplitl [Hcb]; · iexact Hcb
  isplitl [Hcr]; · iexact Hcr
  isplitl [Hlev]; · iexact Hlev
  isplitl [Hls]; · iexact Hls
  isplitl [Hx]; · iexact Hx
  isplitl [Ho]; · iexact Ho
  iexact Hsc

theorem phi1_exit (c : Dev nD) :
    (dats m G 0 c).Φ (Fin.last cfg0.N) ⊢ iprop(Y m G c ∗ Pipeline.ownSems0 osem c ∗ Pipeline.scopedRest cfg0.spec c) := by
  rw [show (dats m G 0 c).Φ (Fin.last cfg0.N) = bodyPost m G c from rfl, scopedRest0_eq, ownSems0_eq]
  unfold bodyPost Y
  iintro ⟨Hx, Ho, Hsc, ⟨H0, H1, H2, H3, H4, H5⟩, ⟨S0, S1, S2, S3, S4, S5, S6, S7⟩, R0, R1, R2, R3, R4, R5, R6, R7⟩
  isplitl [Hx Ho]
  · isplitl [Hx] <;> iassumption
  isplitr [Hsc]
  · isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  · iexact Hsc

/-- No staging cell: the pipeline itself waits on nothing. -/
theorem waits (c : Dev nD) : (levAts L lv : sProp 𝕄) ⊢ Pipeline.cellsWaits cfgs (dats m G) () 0 c :=
  Pipeline.cellsWaits_intro cfgs (dats m G) () 0 c fun w s t => w.elim0

/-! ## The run -/

set_option maxRecDepth 8000 in
/-- On the mesh of eight devices, for any float values, from any memory with every semaphore at zero: every weakly fair
    execution of the program -- the devices pairing up along y, each signalling its partner's barrier cell and then
    sending it eight row chunks -- terminates, and every final state has each device's result at its expected contents
    and its x as launched; given the proof of one device's kernel body. -/
theorem run_main
    (hbody : ∀ (c : Dev nD) (K : Dev nD × Fin 17 → ℕ) (W : Waits sig Unit) (Kt : PUnit → sProp 𝕄),
      iprop(bodyPre m G K c ∗ owes (c : Thread nD τ) (O₀ c) W ∗ ((bodyPost m G c ∗ ∃ W', owes (c : Thread nD τ) 0 W') -∗ Kt ⟨⟩))
        ⊢ wp frame (wpE (defs₀ (F := F)) 𝒱₀ c none) Set.univ
            (cc0_body (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) Kt) :
    θ_run defs (onTc (τ := τ) (main (F := F))) ⟨m, fun _ => 0, ρ⟩ (fun r => ∀ c : Dev nD,
      r.2.mem ((c.tc : Thread nD τ).loc main_v1) = G c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m G) () cellOf_inj (0 : Fin 1)
    winFacts0.to₀ ownSemFacts (Pipeline.PreFacts.none _) EP defs₀ 𝒱₀ m ρ main
    (hmain := fun _ => rfl)
    (hbody := body_obligation m G hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m G)
    (G := GL m G) (G' := GL' m G) (u₀ := u₀)
    (hu₀ := by
      unfold u₀
      iintro Hu
      ihave H := (ownU_pair _ _) $$ Hu
      icases H with ⟨HP, HX⟩
      ihave H2 := (own_pair_emb EB _ _) $$ HX
      icases H2 with ⟨HR, -⟩
      imod (fund_ring m G) $$ HR with HG
      imodintro
      isplitl [HP] <;> iassumption)
    (hglob := glob m G)
    (hA := fun _ w => w.elim0) (hpf := fun _ k => k.elim0)
    (X := X m G) (Y := Y m G) (Z := fun _ => iprop(emp))
    (hX := start_intro m ρ G) (hin := phi0_intro m G) (hout := phi1_exit m G)
    (QY := fun c s => s.mem ((c.tc : Thread nD τ).loc main_v1) = G c
      ∧ s.mem ((c.tc : Thread nD τ).loc main_arg0) = m ((c.tc : Thread nD τ).loc main_arg0))
    (hY := fun c s' => by
      unfold Y
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.Kernel.Xchg.run_main' depends on axioms: [propext, Classical.choice, Quot.sound] -/
#guard_msgs in #print axioms run_main

end Cert.Kernel.Xchg

end
-- ==== Proof.Bits.Block.lean ====
/-
  The expected results, as blocks of one whole array.

  When each device's row block of x is its block of a whole array X cut along the rows by the mesh axis y, the expected
  result of a device is its block, cut along the columns by y, of X converted element by element: entry (8192 y' + r',
  1024 y(c) + j) of X lies on the device of c's pair whose y is y', at row r' of its block.
-/
import proofs.«900625_g7700000000000626_dist_a2a_v7x_xyz2x2x2_y_m8192_n1024_bf16_1_alg».proof.Proof.Bits.Value
import Idealize.ShloMosaic.Lib.Layout

noncomputable section

namespace Cert.Kernel.Xchg

open Cert.Kernel Cert.Kernel.Gen

open Idealize.ShloMosaic
open Idealize.ShloMosaic.TcCoe
open Idealize.ShloMosaic.ValueIdx
open Idealize.SL Idealize.SL.Sem

variable {F : FTy → Type} [FloatOps F]

variable (m : (ℓ : Loc nD τ sig) → Buf (Elt F) ℓ)

/-- A device's block coordinate along the mesh axis y is its y. -/
theorem meshLin_y (d : Dev nD) : Layout.meshLin [2, 2, 2] d.val [1] = yOf d := by revert d; decide

theorem yOf_srcDev (c : Dev nD) (y' : ℕ) (hy' : y' < 2) : yOf (srcDev c y') = y' := by
  unfold srcDev
  split
  · next h => exact h
  · next h => rw [yOf_peer]; have := yOf_lt c; omega

/-- The expected result of device c is its block of the whole array converted. -/
theorem Gx_eq_block (X : (⟨2, ![16384, 2048]⟩ : Shape).Idx → Elt F .f32)
    (hm : ∀ c : Dev nD, m ((c.tc : Thread nD τ).loc main_arg0)
      = Layout.blockN ⟨2, ![8192, 2048]⟩ ⟨2, ![16384, 2048]⟩ (Layout.meshBlock [2, 2, 2] ![[1], []] c) X)
    (h : FTy.bits .bf16 < FTy.bits .f32) (c : Dev nD) :
    Gx m c = Layout.blockN ⟨2, ![16384, 1024]⟩ ⟨2, ![16384, 2048]⟩ (Layout.meshBlock [2, 2, 2] ![[], [1]] c) (truncf .bf16 X h) := by
  funext i
  have hi0 := idx2_lt0 (i : S16384x1024.Idx)
  have hy := yOf_lt c
  have hs := yOf_srcDev c ((i 0).val / 8192) (by omega)
  refine congrArg trunc1 ((congrFun (hm (srcDev c ((i 0).val / 8192))) (ix2 _ _)).trans ?_)
  refine congrArg X (Shape.idx_ext₂ ?_ ?_)
  · show Layout.meshLin [2, 2, 2] (srcDev c ((i 0).val / 8192)).val [1] * 8192 + (i 0).val % 8192 = 0 * 16384 + (i 0).val
    rw [meshLin_y, hs]; omega
  · show 0 * 2048 + (1024 * yOf c + (i 1).val) = Layout.meshLin [2, 2, 2] c.val [1] * 1024 + (i 1).val
    rw [meshLin_y]; omega

/-- info: 'Cert.Kernel.Xchg.Gx_eq_block' depends on axioms: [propext, Classical.choice, Quot.sound] -/
#guard_msgs in #print axioms Gx_eq_block

end Cert.Kernel.Xchg

end
-- ==== Proof.Bits.Main.lean ====
/-
  The run of the whole program at the expected results: the launch of the exchange, given the proof of one device's
  kernel body, where what the sent blocks land as and what the kept blocks leave are the expected results' rows.
-/
import proofs.«900625_g7700000000000626_dist_a2a_v7x_xyz2x2x2_y_m8192_n1024_bf16_1_alg».proof.Proof.Bits.Body
import proofs.«900625_g7700000000000626_dist_a2a_v7x_xyz2x2x2_y_m8192_n1024_bf16_1_alg».proof.Proof.Bits.Run
import proofs.«900625_g7700000000000626_dist_a2a_v7x_xyz2x2x2_y_m8192_n1024_bf16_1_alg».proof.Proof.Bits.Block

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- On the mesh, for any float values, from any memory with every semaphore at zero: every weakly fair execution of the
    program terminates, and every final state has each device's result at the expected one -- the conversion of the
    pair's two row blocks of x, column half by column half -- and its x as launched. -/
theorem kernel_run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1) = Gx m c
      ∧ r.2.mem ((c.tc : Thread nD τ).loc main_arg0) = m ((c.tc : Thread nD τ).loc main_arg0)) :=
  run_main m ρ (Gx m) (fun c K W Kt => sound_body m (Gx m) c K W Kt (land_send m c) (own_final m c))

/-- info: 'Cert.Kernel.Xchg.kernel_run' depends on axioms: [propext, Classical.choice, Quot.sound] -/
#guard_msgs in #print axioms kernel_run

end Cert.Kernel.Xchg

end
-- ==== Proof.lean ====
/-
  The claim.  The kernel, at the word level and at the ideal instance, is the exchange along the mesh axis y: both runs end
  with x unchanged and each device's result at the conversion of its pair's row blocks, column half by column half.
  The reference converts the whole array.  Cut along the columns by y, the reference's result is, device by device,
  what the kernel leaves; the idealization rewrote nothing, so it preserves the program trivially.
-/
import proofs.«900625_g7700000000000626_dist_a2a_v7x_xyz2x2x2_y_m8192_n1024_bf16_1_alg».proof.Defs
import proofs.«900625_g7700000000000626_dist_a2a_v7x_xyz2x2x2_y_m8192_n1024_bf16_1_alg».proof.Proof.Main
import proofs.«900625_g7700000000000626_dist_a2a_v7x_xyz2x2x2_y_m8192_n1024_bf16_1_alg».proof.Proof.Bits.Main
import proofs.«900625_g7700000000000626_dist_a2a_v7x_xyz2x2x2_y_m8192_n1024_bf16_1_alg».proof.Proof.Gen.Kernel
import proofs.«900625_g7700000000000626_dist_a2a_v7x_xyz2x2x2_y_m8192_n1024_bf16_1_alg».proof.Proof.Gen.KernelIdeal
import proofs.«900625_g7700000000000626_dist_a2a_v7x_xyz2x2x2_y_m8192_n1024_bf16_1_alg».proof.Proof.Gen.ReferenceIdeal
import proofs.«900625_g7700000000000626_dist_a2a_v7x_xyz2x2x2_y_m8192_n1024_bf16_1_alg».proof.Proof.Gen.ReferenceIdeal.Run
import proofs.«900625_g7700000000000626_dist_a2a_v7x_xyz2x2x2_y_m8192_n1024_bf16_1_alg».proof.Proof.Gen.Pre_finite_inputs_Kernel
import proofs.«900625_g7700000000000626_dist_a2a_v7x_xyz2x2x2_y_m8192_n1024_bf16_1_alg».proof.Proof.Gen.Pre_finite_inputs_ReferenceIdeal
import Idealize.ShloMosaic.Adequacy
import Idealize.ShloMosaic.Init

noncomputable section

namespace Cert.Proof

open Idealize.ShloMosaic Idealize.SL.Sem

/-- Both instances of the kernel run to the end with x unchanged: the exchange's run with the results dropped. -/
theorem frame_Kernel : Cert.frame_Kernel :=
  fun m g _ => (θ_run _ _ _).mono (fun _ h c => (h c).2) (Cert.Kernel.Xchg.kernel_run (F := Bits) m g)

theorem frame_KernelIdeal : Cert.frame_KernelIdeal :=
  fun m g _ => (θ_run _ _ _).mono (fun _ h c => (h c).2) (Cert.KernelIdeal.Xchg.kernel_run (F := Ideal) m g)

/-- The reference runs to the end with its argument unchanged: its run with the result dropped. -/
theorem frame_ReferenceIdeal : Cert.frame_ReferenceIdeal :=
  fun m g _ => (θ_run Cert.ReferenceIdeal.defs _ _).mono (fun _ h c => (h c).2) (Cert.ReferenceIdeal.Value.run (F := Ideal) m g)

/-- At the ideal instance, from row blocks of one whole array cut along y: the reference's result is that array
    converted, and each device's result is its block of it, cut along the columns by y. -/
theorem algebraic : Cert.algebraic_KernelIdeal_ReferenceIdeal := by
  intro m g m' g' _ hblk
  refine ⟨truncf .bf16 (show FVec Ideal Cert.ReferenceIdeal.S16384x2048 .f32 from
      m' (((0 : Dev Cert.ReferenceIdeal.nD).tc : Thread Cert.ReferenceIdeal.nD Cert.ReferenceIdeal.τ).loc Cert.ReferenceIdeal.main_arg0))
    Cert.ReferenceIdeal.Gen.bitsLt_bf16_f32, ?_, ?_⟩
  · exact (θ_run _ _ _).mono
      (fun _ h c => ⟨(h c).1.trans (Cert.KernelIdeal.Xchg.Gx_eq_block m _ hblk Cert.ReferenceIdeal.Gen.bitsLt_bf16_f32 c), (h c).2⟩)
      (Cert.KernelIdeal.Xchg.kernel_run (F := Ideal) m g)
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_Kernel, frame_KernelIdeal, frame_ReferenceIdeal, trivial, algebraic⟩

end Cert.Proof

end
